-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x4096x64 : Shape := ⟨4, ![4, 12, 4096, 64]⟩
abbrev S_ : Shape := ⟨0, ![]⟩

class Facts : Prop where
  bcast_S_S4x12x4096x64 : S_.BroadcastsInDim S4x12x4096x64 (![] : Fin 0 → Fin S4x12x4096x64.rank)
  reducesTo_S4x12x4096x64_S_d0_1_2_3 : S4x12x4096x64.ReducesTo [0, 1, 2, 3] S_
  h_S_ : 0 < S_.numel

variable [Facts]

def fn {F : FTy → Type} [FloatOps F] (main_arg0 : FVec F S4x12x4096x64 .f32) (main_arg1 : FVec F S4x12x4096x64 .f32) (main_arg2 : FVec F S4x12x4096x64 .f32) : IVec S_ 1 :=
  let main_v0 : FVec F S4x12x4096x64 .f32 := Host.absf main_arg0
  let main_cst : FVec F S_ .f32 := constant S_ .f32 0x7F800000#32
  let main_v1 : FVec F S4x12x4096x64 .f32 := broadcastInDim S4x12x4096x64 ![] bcast_S_S4x12x4096x64 main_cst
  let main_v2 : IVec S4x12x4096x64 1 := cmpf .olt main_v0 main_v1
  let main_c : IVec S_ 1 := constantI S_ 1 1#1
  let main_v3 : IVec S_ 1 := (fun x v => Host.reduce IntOp.andi x v reducesTo_S4x12x4096x64_S_d0_1_2_3 h_S_) main_v2 main_c
  let main_v4 : FVec F S4x12x4096x64 .f32 := Host.absf main_arg1
  let main_cst_0 : FVec F S_ .f32 := constant S_ .f32 0x7F800000#32
  let main_v5 : FVec F S4x12x4096x64 .f32 := broadcastInDim S4x12x4096x64 ![] bcast_S_S4x12x4096x64 main_cst_0
  let main_v6 : IVec S4x12x4096x64 1 := cmpf .olt main_v4 main_v5
  let main_c_1 : IVec S_ 1 := constantI S_ 1 1#1
  let main_v7 : IVec S_ 1 := (fun x v => Host.reduce IntOp.andi x v reducesTo_S4x12x4096x64_S_d0_1_2_3 h_S_) main_v6 main_c_1
  let main_v8 : IVec S_ 1 := andi main_v3 main_v7
  let main_v9 : FVec F S4x12x4096x64 .f32 := Host.absf main_arg2
  let main_cst_2 : FVec F S_ .f32 := constant S_ .f32 0x7F800000#32
  let main_v10 : FVec F S4x12x4096x64 .f32 := broadcastInDim S4x12x4096x64 ![] bcast_S_S4x12x4096x64 main_cst_2
  let main_v11 : IVec S4x12x4096x64 1 := cmpf .olt main_v9 main_v10
  let main_c_3 : IVec S_ 1 := constantI S_ 1 1#1
  let main_v12 : IVec S_ 1 := (fun x v => Host.reduce IntOp.andi x v reducesTo_S4x12x4096x64_S_d0_1_2_3 h_S_) main_v11 main_c_3
  let main_v13 : IVec S_ 1 := andi main_v8 main_v12
  main_v13
-- ==== Kernel.lean ====
abbrev S4x12x4096x64 : Shape := ⟨4, ![4, 12, 4096, 64]⟩
abbrev S4x12x64x64 : Shape := ⟨4, ![4, 12, 64, 64]⟩
abbrev S1x4x4096x64 : Shape := ⟨4, ![1, 4, 4096, 64]⟩
abbrev S1x4x64x64 : Shape := ⟨4, ![1, 4, 64, 64]⟩
abbrev S1x1x4096x64 : Shape := ⟨4, ![1, 1, 4096, 64]⟩
abbrev S4096x64 : Shape := ⟨2, ![4096, 64]⟩
abbrev S64x64x64 : Shape := ⟨3, ![64, 64, 64]⟩
abbrev S64x64 : Shape := ⟨2, ![64, 64]⟩
abbrev S64 : Shape := ⟨1, ![64]⟩
abbrev S64x1 : Shape := ⟨2, ![64, 1]⟩
abbrev S64x4096 : Shape := ⟨2, ![64, 4096]⟩
abbrev S1x1x64x64 : Shape := ⟨4, ![1, 1, 64, 64]⟩
abbrev S_ : Shape := ⟨0, ![]⟩
abbrev S4x12x64 : Shape := ⟨3, ![4, 12, 64]⟩
abbrev S4096 : Shape := ⟨1, ![4096]⟩
abbrev S4096x1 : Shape := ⟨2, ![4096, 1]⟩

abbrev nBuf : Space → Nat
  | .hbm => 180
  | .vmem => 22
  | .smem => 0
  | _ => 0

abbrev hbmTy0_0 (i : Nat) : BufTy := match i % 128 with
  | 0 => ⟨S4x12x4096x64, .f32⟩
  | 1 => ⟨S4x12x4096x64, .f32⟩
  | 2 => ⟨S4x12x4096x64, .f32⟩
  | 3 => ⟨S4x12x64x64, .f32⟩
  | 4 => ⟨S4x12x64x64, .f32⟩
  | 5 => ⟨S4x12x64x64, .f32⟩
  | 6 => ⟨S64x64, .i32⟩
  | 7 => ⟨S64x64, .i32⟩
  | 8 => ⟨S_, .i32⟩
  | 9 => ⟨S64x64, .i32⟩
  | 10 => ⟨S64x64, .i32⟩
  | 11 => ⟨S64x64, .i1⟩
  | 12 => ⟨S64x64, .f32⟩
  | 13 => ⟨S4x12x64x64, .f32⟩
  | 14 => ⟨S_, .f32⟩
  | 15 => ⟨S4x12x64, .f32⟩
  | 16 => ⟨S_, .f32⟩
  | 17 => ⟨S_, .f32⟩
  | 18 => ⟨S4x12x64x64, .f32⟩
  | 19 => ⟨S_, .f32⟩
  | 20 => ⟨S4x12x64, .f32⟩
  | 21 => ⟨S_, .f32⟩
  | 22 => ⟨S_, .f32⟩
  | 23 => ⟨S_, .f32⟩
  | 24 => ⟨S_, .f32⟩
  | 25 => ⟨S_, .f32⟩
  | 26 => ⟨S4x12x64x64, .f32⟩
  | 27 => ⟨S4x12x64x64, .f32⟩
  | 28 => ⟨S4x12x64x64, .f32⟩
  | 29 => ⟨S4x12x64x64, .f32⟩
  | 30 => ⟨S_, .f32⟩
  | 31 => ⟨S4x12x64x64, .f32⟩
  | 32 => ⟨S4x12x64x64, .f32⟩
  | 33 => ⟨S_, .f32⟩
  | 34 => ⟨S64x64, .f32⟩
  | 35 => ⟨S64x64, .f32⟩
  | 36 => ⟨S_, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S1x1x64x64, .f32⟩
  | 43 => ⟨S4x12x64x64, .f32⟩
  | 44 => ⟨S4x12x64x64, .f32⟩
  | 45 => ⟨S4x12x64x64, .f32⟩
  | 46 => ⟨S1x1x64x64, .f32⟩
  | 47 => ⟨S4x12x64x64, .f32⟩
  | 48 => ⟨S4x12x64x64, .f32⟩
  | 49 => ⟨S4x12x64x64, .f32⟩
  | 50 => ⟨S1x1x64x64, .f32⟩
  | 51 => ⟨S4x12x64x64, .f32⟩
  | 52 => ⟨S4x12x64x64, .f32⟩
  | 53 => ⟨S4x12x64x64, .f32⟩
  | 54 => ⟨S4x12x64x64, .f32⟩
  | 55 => ⟨S_, .f32⟩
  | 56 => ⟨S4x12x64x64, .f32⟩
  | 57 => ⟨S4x12x64x64, .f32⟩
  | 58 => ⟨S_, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S_, .f32⟩
  | 65 => ⟨S64x64, .f32⟩
  | 66 => ⟨S64x64, .f32⟩
  | 67 => ⟨S1x1x64x64, .f32⟩
  | 68 => ⟨S4x12x64x64, .f32⟩
  | 69 => ⟨S4x12x64x64, .f32⟩
  | 70 => ⟨S4x12x64x64, .f32⟩
  | 71 => ⟨S1x1x64x64, .f32⟩
  | 72 => ⟨S4x12x64x64, .f32⟩
  | 73 => ⟨S4x12x64x64, .f32⟩
  | 74 => ⟨S4x12x64x64, .f32⟩
  | 75 => ⟨S1x1x64x64, .f32⟩
  | 76 => ⟨S4x12x64x64, .f32⟩
  | 77 => ⟨S4x12x64x64, .f32⟩
  | 78 => ⟨S4x12x64x64, .f32⟩
  | 79 => ⟨S4x12x64x64, .f32⟩
  | 80 => ⟨S_, .f32⟩
  | 81 => ⟨S4x12x64x64, .f32⟩
  | 82 => ⟨S4x12x64x64, .f32⟩
  | 83 => ⟨S_, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S1x1x64x64, .f32⟩
  | 93 => ⟨S4x12x64x64, .f32⟩
  | 94 => ⟨S4x12x64x64, .f32⟩
  | 95 => ⟨S4x12x64x64, .f32⟩
  | 96 => ⟨S1x1x64x64, .f32⟩
  | 97 => ⟨S4x12x64x64, .f32⟩
  | 98 => ⟨S4x12x64x64, .f32⟩
  | 99 => ⟨S4x12x64x64, .f32⟩
  | 100 => ⟨S1x1x64x64, .f32⟩
  | 101 => ⟨S4x12x64x64, .f32⟩
  | 102 => ⟨S4x12x64x64, .f32⟩
  | 103 => ⟨S4x12x64x64, .f32⟩
  | 104 => ⟨S4x12x64x64, .f32⟩
  | 105 => ⟨S_, .f32⟩
  | 106 => ⟨S4x12x64x64, .f32⟩
  | 107 => ⟨S4x12x64x64, .f32⟩
  | 108 => ⟨S_, .f32⟩
  | 109 => ⟨S64x64, .f32⟩
  | 110 => ⟨S64x64, .f32⟩
  | 111 => ⟨S_, .f32⟩
  | 112 => ⟨S64x64, .f32⟩
  | 113 => ⟨S64x64, .f32⟩
  | 114 => ⟨S_, .f32⟩
  | 115 => ⟨S64x64, .f32⟩
  | 116 => ⟨S64x64, .f32⟩
  | 117 => ⟨S1x1x64x64, .f32⟩
  | 118 => ⟨S4x12x64x64, .f32⟩
  | 119 => ⟨S4x12x64x64, .f32⟩
  | 120 => ⟨S4x12x64x64, .f32⟩
  | 121 => ⟨S1x1x64x64, .f32⟩
  | 122 => ⟨S4x12x64x64, .f32⟩
  | 123 => ⟨S4x12x64x64, .f32⟩
  | 124 => ⟨S4x12x64x64, .f32⟩
  | 125 => ⟨S1x1x64x64, .f32⟩
  | 126 => ⟨S4x12x64x64, .f32⟩
  | 127 => ⟨S4x12x64x64, .f32⟩
  | _ => ⟨S4x12x4096x64, .f32⟩

abbrev hbmTy0_1 (i : Nat) : BufTy := match i % 128 with
  | 0 => ⟨S4x12x64x64, .f32⟩
  | 1 => ⟨S4x12x64x64, .f32⟩
  | 2 => ⟨S_, .f32⟩
  | 3 => ⟨S4x12x64x64, .f32⟩
  | 4 => ⟨S4x12x64x64, .f32⟩
  | 5 => ⟨S_, .f32⟩
  | 6 => ⟨S64x64, .f32⟩
  | 7 => ⟨S64x64, .f32⟩
  | 8 => ⟨S_, .f32⟩
  | 9 => ⟨S64x64, .f32⟩
  | 10 => ⟨S64x64, .f32⟩
  | 11 => ⟨S_, .f32⟩
  | 12 => ⟨S64x64, .f32⟩
  | 13 => ⟨S64x64, .f32⟩
  | 14 => ⟨S1x1x64x64, .f32⟩
  | 15 => ⟨S4x12x64x64, .f32⟩
  | 16 => ⟨S4x12x64x64, .f32⟩
  | 17 => ⟨S4x12x64x64, .f32⟩
  | 18 => ⟨S1x1x64x64, .f32⟩
  | 19 => ⟨S4x12x64x64, .f32⟩
  | 20 => ⟨S4x12x64x64, .f32⟩
  | 21 => ⟨S4x12x64x64, .f32⟩
  | 22 => ⟨S1x1x64x64, .f32⟩
  | 23 => ⟨S4x12x64x64, .f32⟩
  | 24 => ⟨S4x12x64x64, .f32⟩
  | 25 => ⟨S4x12x64x64, .f32⟩
  | 26 => ⟨S4x12x64x64, .f32⟩
  | 27 => ⟨S_, .f32⟩
  | 28 => ⟨S4x12x64x64, .f32⟩
  | 29 => ⟨S4x12x64x64, .f32⟩
  | 30 => ⟨S_, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S_, .f32⟩
  | 37 => ⟨S64x64, .f32⟩
  | 38 => ⟨S64x64, .f32⟩
  | 39 => ⟨S1x1x64x64, .f32⟩
  | 40 => ⟨S4x12x64x64, .f32⟩
  | 41 => ⟨S4x12x64x64, .f32⟩
  | 42 => ⟨S4x12x64x64, .f32⟩
  | 43 => ⟨S1x1x64x64, .f32⟩
  | 44 => ⟨S4x12x64x64, .f32⟩
  | 45 => ⟨S4x12x64x64, .f32⟩
  | 46 => ⟨S4x12x64x64, .f32⟩
  | 47 => ⟨S1x1x64x64, .f32⟩
  | 48 => ⟨S4x12x64x64, .f32⟩
  | 49 => ⟨S4x12x64x64, .f32⟩
  | 50 => ⟨S4x12x64x64, .f32⟩
  | 51 => ⟨S4x12x4096x64, .f32⟩
  | _ => ⟨S4x12x4096x64, .f32⟩

abbrev hbmTy (i : Nat) : BufTy := match i / 128 with
  | 0 => hbmTy0_0 i
  | 1 => hbmTy0_1 i
  | _ => ⟨S4x12x4096x64, .f32⟩

abbrev bufTy : (tb : Table) → Fin (tcTables nBuf tb) → BufTy
  | .hbm, ⟨i, _⟩ => hbmTy i
  | .local _ .vmem, ⟨0, _⟩ => ⟨S1x4x4096x64, .f32⟩
  | .local _ .vmem, ⟨1, _⟩ => ⟨S1x4x4096x64, .f32⟩
  | .local _ .vmem, ⟨2, _⟩ => ⟨S1x4x4096x64, .f32⟩
  | .local _ .vmem, ⟨3, _⟩ => ⟨S1x4x4096x64, .f32⟩
  | .local _ .vmem, ⟨4, _⟩ => ⟨S1x4x4096x64, .f32⟩
  | .local _ .vmem, ⟨5, _⟩ => ⟨S1x4x4096x64, .f32⟩
  | .local _ .vmem, ⟨6, _⟩ => ⟨S1x4x64x64, .f32⟩
  | .local _ .vmem, ⟨7, _⟩ => ⟨S1x4x64x64, .f32⟩
  | .local _ .vmem, ⟨8, _⟩ => ⟨S1x4x64x64, .f32⟩
  | .local _ .vmem, ⟨9, _⟩ => ⟨S1x4x64x64, .f32⟩
  | .local _ .vmem, ⟨10, _⟩ => ⟨S1x4x64x64, .f32⟩
  | .local _ .vmem, ⟨11, _⟩ => ⟨S1x4x64x64, .f32⟩
  | .local _ .vmem, ⟨12, _⟩ => ⟨S1x4x4096x64, .f32⟩
  | .local _ .vmem, ⟨13, _⟩ => ⟨S1x4x4096x64, .f32⟩
  | .local _ .vmem, ⟨14, _⟩ => ⟨S1x4x64x64, .f32⟩
  | .local _ .vmem, ⟨15, _⟩ => ⟨S1x4x64x64, .f32⟩
  | .local _ .vmem, ⟨16, _⟩ => ⟨S1x4x64x64, .f32⟩
  | .local _ .vmem, ⟨17, _⟩ => ⟨S1x4x64x64, .f32⟩
  | .local _ .vmem, ⟨18, _⟩ => ⟨S1x4x64x64, .f32⟩
  | .local _ .vmem, ⟨19, _⟩ => ⟨S1x4x64x64, .f32⟩
  | .local _ .vmem, ⟨20, _⟩ => ⟨S1x4x4096x64, .f32⟩
  | .local _ .vmem, ⟨21, _⟩ => ⟨S1x4x4096x64, .f32⟩
  | _, _ => ⟨S4x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_16 : Ref sig .tc := ⟨.hbm, 105, rfl⟩
abbrev main_v82 : Ref sig .tc := ⟨.hbm, 106, rfl⟩
abbrev main_v83 : Ref sig .tc := ⟨.hbm, 107, rfl⟩
abbrev main_cst_17 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_20 : Ref sig .tc := ⟨.hbm, 130, rfl⟩
abbrev main_v103 : Ref sig .tc := ⟨.hbm, 131, rfl⟩
abbrev main_v104 : Ref sig .tc := ⟨.hbm, 132, rfl⟩
abbrev main_cst_21 : Ref sig .tc := ⟨.hbm, 133, rfl⟩
abbrev main_v105 : Ref sig .tc := ⟨.hbm, 134, rfl⟩
abbrev main_v106 : Ref sig .tc := ⟨.hbm, 135, rfl⟩
abbrev main_cst_22 : Ref sig .tc := ⟨.hbm, 136, rfl⟩
abbrev main_v107 : Ref sig .tc := ⟨.hbm, 137, rfl⟩
abbrev main_v108 : Ref sig .tc := ⟨.hbm, 138, rfl⟩
abbrev main_cst_23 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_24 : Ref sig .tc := ⟨.hbm, 155, rfl⟩
abbrev main_v124 : Ref sig .tc := ⟨.hbm, 156, rfl⟩
abbrev main_v125 : Ref sig .tc := ⟨.hbm, 157, rfl⟩
abbrev main_cst_25 : Ref sig .tc := ⟨.hbm, 158, rfl⟩
abbrev main_v126 : Ref sig .tc := ⟨.hbm, 159, rfl⟩
abbrev main_v127 : Ref sig .tc := ⟨.hbm, 160, rfl⟩
abbrev main_cst_26 : Ref sig .tc := ⟨.hbm, 161, rfl⟩
abbrev main_v128 : Ref sig .tc := ⟨.hbm, 162, rfl⟩
abbrev main_v129 : Ref sig .tc := ⟨.hbm, 163, rfl⟩
abbrev main_cst_27 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![4, 3], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_off1 (k0_t1 : Fin k0_t1_loop.trips) : Fin 4 → Nat :=
  let c0 : Index := 0#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let v3 : Index := Scalar.indexCast v2
  let c0_3 : Index := 0#32
  let c0_4 : Index := 0#32
  ![0, v3.toNat, 0, 0]
def k0_off2 (k0_t1 : Fin k0_t1_loop.trips) : Fin 4 → Nat :=
  let c0_25 : Index := 0#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let v53 : Index := Scalar.indexCast v2
  let c0_26 : Index := 0#32
  let c0_27 : Index := 0#32
  ![0, v53.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 3], ![false, false]⟩

@[reducible] def k1_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k1_off1 (k1_t1 : Fin k1_t1_loop.trips) : Fin 4 → Nat :=
  let c0 : Index := 0#32
  let c0_i32_2 : BitVec 32 := 0#32
  let c0_i32 : BitVec 32 := 0#32
  let c1_i32 : BitVec 32 := 1#32
  let arg7 : BitVec 32 := Scf.iv c0_i32 c1_i32 k1_t1
  let c1_i32_1 : BitVec 32 := 1#32
  let v1 : BitVec 32 := Scalar.muli arg7 c1_i32_1
  let v2 : BitVec 32 := Scalar.addi c0_i32_2 v1
  let v3 : Index := Scalar.indexCast v2
  let c0_3 : Index := 0#32
  let c0_4 : Index := 0#32
  ![0, v3.toNat, 0, 0]
def k1_off2 (k1_t1 : Fin k1_t1_loop.trips) : Fin 4 → Nat :=
  let c0_5 : Index := 0#32
  let c0_i32_2 : BitVec 32 := 0#32
  let c0_i32 : BitVec 32 := 0#32
  let c1_i32 : BitVec 32 := 1#32
  let arg7 : BitVec 32 := Scf.iv c0_i32 c1_i32 k1_t1
  let c1_i32_1 : BitVec 32 := 1#32
  let v1 : BitVec 32 := Scalar.muli arg7 c1_i32_1
  let v2 : BitVec 32 := Scalar.addi c0_i32_2 v1
  let v9 : Index := Scalar.indexCast v2
  let c0_6 : Index := 0#32
  let c0_7 : Index := 0#32
  ![0, v9.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  h_S1x1x4096x64 : 0 < S1x1x4096x64.numel
  shapeCasts_S1x1x4096x64_S4096x64 : S1x1x4096x64.ShapeCasts S4096x64
  bitsLt_bf16_f32 : FTy.bits .bf16 < FTy.bits .f32
  shapeCasts_S4096x64_S64x64x64 : S4096x64.ShapeCasts S64x64x64
  reduces_S64x64x64_S64x64 : S64x64x64.Reduces [1] S64x64
  reduces_S64x64_S64 : S64x64.Reduces [1] S64
  shapeCasts_S64_S64x1 : S64.ShapeCasts S64x1
  broadcasts_S64x1_S64x64 : S64x1.Broadcasts S64x64
  reduces_S64x4096_S64 : S64x4096.Reduces [1] S64
  broadcasts_S64x1_S64x4096 : S64x1.Broadcasts S64x4096
  h_S1x1x64x64 : 0 < S1x1x64x64.numel
  shapeCasts_S1x1x64x64_S64x64 : S1x1x64x64.ShapeCasts S64x64
  shapeCasts_S64x64_S1x1x64x64 : S64x64.ShapeCasts S1x1x64x64
  bcast_S_S64x64 : S_.BroadcastsInDim S64x64 (![] : Fin 0 → Fin S64x64.rank)
  reducesTo_S4x12x64x64_S4x12x64_d2 : S4x12x64x64.ReducesTo [2] S4x12x64
  h_S_ : 0 < S_.numel
  reducesTo_S4x12x64_S_d0_1_2 : S4x12x64.ReducesTo [0, 1, 2] S_
  reducesTo_S4x12x64x64_S4x12x64_d3 : S4x12x64x64.ReducesTo [3] S4x12x64
  transposes_S4x12x64x64_S4x12x64x64_0_1_3_2 : S4x12x64x64.Transposes [0, 1, 3, 2] S4x12x64x64
  bcast_S_S4x12x64x64 : S_.BroadcastsInDim S4x12x64x64 (![] : Fin 0 → Fin S4x12x64x64.rank)
  bcast_S64x64_S1x1x64x64_2_3 : S64x64.BroadcastsInDim S1x1x64x64 (![2, 3] : Fin 2 → Fin S1x1x64x64.rank)
  bcast_S1x1x64x64_S4x12x64x64_0_1_2_3 : S1x1x64x64.BroadcastsInDim S4x12x64x64 (![0, 1, 2, 3] : Fin 4 → Fin S4x12x64x64.rank)
  reduces_S4096x64_S4096 : S4096x64.Reduces [1] S4096
  shapeCasts_S4096_S4096x1 : S4096.ShapeCasts S4096x1
  broadcasts_S4096x1_S4096x64 : S4096x1.Broadcasts S4096x64
  shapeCasts_S4096x64_S1x1x4096x64 : S4096x64.ShapeCasts S1x1x4096x64
  dot_S64x64_S64x64_S64x64_1_1_0_0_n_n_wf : DotDims.WF S64x64 S64x64 S64x64 [1] [1] [0] [0] [] []
  dot_S64x64_S4096x64_S64x4096_1_1_0_0_n_n_wf : DotDims.WF S64x64 S4096x64 S64x4096 [1] [1] [0] [0] [] []
  dot_S64x4096_S4096x64_S64x64_1_0_0_1_n_n_wf : DotDims.WF S64x4096 S4096x64 S64x64 [1] [0] [0] [1] [] []
  dot_S4x12x64x64_S4x12x64x64_S4x12x64x64_3_2_2_3_01_01_wf : DotDims.WF S4x12x64x64 S4x12x64x64 S4x12x64x64 [3] [2] [2] [3] [0, 1] [0, 1]
  dot_S64x64_S64x64_S64x64_1_0_0_1_n_n_wf : DotDims.WF S64x64 S64x64 S64x64 [1] [0] [0] [1] [] []
  dot_S4096x64_S64x64_S4096x64_1_1_0_0_n_n_wf : DotDims.WF S4096x64 S64x64 S4096x64 [1] [1] [0] [0] [] []
  dot_S4096x64_S64x64_S4096x64_1_0_0_1_n_n_wf : DotDims.WF S4096x64 S64x64 S4096x64 [1] [0] [0] [1] [] []
  hrank0 : 0 < grid0.rank
  k0_t1_ok : k0_t1_loop.OK
  k0_off1_inb : ∀ k0_t1 : Fin k0_t1_loop.trips, ∀ a, (k0_off1 k0_t1) a + S1x1x4096x64.size a ≤ S1x4x4096x64.size a
  k0_off2_inb : ∀ k0_t1 : Fin k0_t1_loop.trips, ∀ a, (k0_off2 k0_t1) a + S1x1x64x64.size a ≤ S1x4x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4096x64.size a ≤ S4x12x4096x64.size a
  hwx0_0 : ∀ i : grid0.Coords, EltTy.bits .f32 = 32 ∨ (Rect.block (s := S4x12x4096x64) S1x4x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4096x64.size a ≤ S4x12x4096x64.size a
  hwx0_1 : ∀ i : grid0.Coords, EltTy.bits .f32 = 32 ∨ (Rect.block (s := S4x12x4096x64) S1x4x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4096x64.size a ≤ S4x12x4096x64.size a
  hwx0_2 : ∀ i : grid0.Coords, EltTy.bits .f32 = 32 ∨ (Rect.block (s := S4x12x4096x64) S1x4x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x64x64.size a ≤ S4x12x64x64.size a
  hwx0_3 : ∀ i : grid0.Coords, EltTy.bits .f32 = 32 ∨ (Rect.block (s := S4x12x64x64) S1x4x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x64x64.size a ≤ S4x12x64x64.size a
  hwx0_4 : ∀ i : grid0.Coords, EltTy.bits .f32 = 32 ∨ (Rect.block (s := S4x12x64x64) S1x4x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x64x64.size a ≤ S4x12x64x64.size a
  hwx0_5 : ∀ i : grid0.Coords, EltTy.bits .f32 = 32 ∨ (Rect.block (s := S4x12x64x64) S1x4x64x64.size (cc0_transform_5 i) (hinb0_5 i)).WholeWords (EltTy.packing .f32)
  hrank1 : 0 < grid1.rank
  k1_t1_ok : k1_t1_loop.OK
  k1_off1_inb : ∀ k1_t1 : Fin k1_t1_loop.trips, ∀ a, (k1_off1 k1_t1) a + S1x1x4096x64.size a ≤ S1x4x4096x64.size a
  k1_off2_inb : ∀ k1_t1 : Fin k1_t1_loop.trips, ∀ a, (k1_off2 k1_t1) a + S1x1x64x64.size a ≤ S1x4x64x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x4096x64.size a ≤ S4x12x4096x64.size a
  hwx1_0 : ∀ i : grid1.Coords, EltTy.bits .f32 = 32 ∨ (Rect.block (s := S4x12x4096x64) S1x4x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x64x64.size a ≤ S4x12x64x64.size a
  hwx1_1 : ∀ i : grid1.Coords, EltTy.bits .f32 = 32 ∨ (Rect.block (s := S4x12x64x64) S1x4x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x64x64.size a ≤ S4x12x64x64.size a
  hwx1_2 : ∀ i : grid1.Coords, EltTy.bits .f32 = 32 ∨ (Rect.block (s := S4x12x64x64) S1x4x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4x64x64.size a ≤ S4x12x64x64.size a
  hwx1_3 : ∀ i : grid1.Coords, EltTy.bits .f32 = 32 ∨ (Rect.block (s := S4x12x64x64) S1x4x64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4x4096x64.size a ≤ S4x12x4096x64.size a
  hwx1_4 : ∀ i : grid1.Coords, EltTy.bits .f32 = 32 ∨ (Rect.block (s := S4x12x4096x64) S1x4x4096x64.size (cc1_transform_4 i) (hinb1_4 i)).WholeWords (EltTy.packing .f32)

variable [Facts₀]

def dot_S64x64_S64x64_S64x64_1_1_0_0_n_n : DotDims S64x64 S64x64 S64x64 where
  lhsContracting := [1]
  rhsContracting := [1]
  lhsNonContracting := [0]
  rhsNonContracting := [0]
  lhsBatch := []
  rhsBatch := []
  wf := dot_S64x64_S64x64_S64x64_1_1_0_0_n_n_wf
def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S4x12x64x64_S4x12x64x64_S4x12x64x64_3_2_2_3_01_01 : DotDims S4x12x64x64 S4x12x64x64 S4x12x64x64 where
  lhsContracting := [3]
  rhsContracting := [2]
  lhsNonContracting := [2]
  rhsNonContracting := [3]
  lhsBatch := [0, 1]
  rhsBatch := [0, 1]
  wf := dot_S4x12x64x64_S4x12x64x64_S4x12x64x64_3_2_2_3_01_01_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x4x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x4x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x4x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x4x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x4x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x4x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v143) S1x4x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S1x4x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v144) S1x4x4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x12x4096x64 : Shape := ⟨4, ![4, 12, 4096, 64]⟩
abbrev S_ : Shape := ⟨0, ![]⟩
abbrev S4x12x64x64x64 : Shape := ⟨5, ![4, 12, 64, 64, 64]⟩
abbrev S4x12x64x64 : Shape := ⟨4, ![4, 12, 64, 64]⟩
abbrev S4x12x4096 : Shape := ⟨3, ![4, 12, 4096]⟩
abbrev S4x12x4096x1 : Shape := ⟨4, ![4, 12, 4096, 1]⟩
abbrev S4x12x64 : Shape := ⟨3, ![4, 12, 64]⟩
abbrev S4x12x64x1 : Shape := ⟨4, ![4, 12, 64, 1]⟩
abbrev S4x12x64x4096 : Shape := ⟨4, ![4, 12, 64, 4096]⟩
abbrev S64x64 : Shape := ⟨2, ![64, 64]⟩
abbrev S1x1x64x64 : Shape := ⟨4, ![1, 1, 64, 64]⟩

abbrev nBuf : Space → Nat
  | .hbm => 242
  | .vmem => 0
  | .smem => 0
  | _ => 0

abbrev hbmTy0_0 (i : Nat) : BufTy := match i % 128 with
  | 0 => ⟨S4x12x4096x64, .f32⟩
  | 1 => ⟨S4x12x4096x64, .f32⟩
  | 2 => ⟨S4x12x4096x64, .f32⟩
  | 3 => ⟨S_, .f32⟩
  | 4 => ⟨S4x12x4096x64, .f32⟩
  | 5 => ⟨S4x12x4096x64, .f32⟩
  | 6 => ⟨S_, .f32⟩
  | 7 => ⟨S4x12x4096x64, .f32⟩
  | 8 => ⟨S4x12x4096x64, .f32⟩
  | 9 => ⟨S4x12x64x64x64, .f32⟩
  | 10 => ⟨S_, .f32⟩
  | 11 => ⟨S4x12x64x64, .f32⟩
  | 12 => ⟨S_, .f32⟩
  | 13 => ⟨S4x12x64x64, .f32⟩
  | 14 => ⟨S4x12x64x64, .f32⟩
  | 15 => ⟨S4x12x64x64x64, .f32⟩
  | 16 => ⟨S_, .f32⟩
  | 17 => ⟨S4x12x64x64, .f32⟩
  | 18 => ⟨S_, .f32⟩
  | 19 => ⟨S4x12x64x64, .f32⟩
  | 20 => ⟨S4x12x64x64, .f32⟩
  | 21 => ⟨S4x12x4096x64, .f32⟩
  | 22 => ⟨S_, .f32⟩
  | 23 => ⟨S4x12x4096, .f32⟩
  | 24 => ⟨S_, .f32⟩
  | 25 => ⟨S4x12x4096, .f32⟩
  | 26 => ⟨S4x12x4096, .f32⟩
  | 27 => ⟨S4x12x4096x1, .f32⟩
  | 28 => ⟨S4x12x4096x64, .f32⟩
  | 29 => ⟨S4x12x4096x64, .f32⟩
  | 30 => ⟨S4x12x4096x64, .f32⟩
  | 31 => ⟨S_, .f32⟩
  | 32 => ⟨S4x12x4096, .f32⟩
  | 33 => ⟨S4x12x4096x1, .f32⟩
  | 34 => ⟨S4x12x4096x64, .f32⟩
  | 35 => ⟨S4x12x4096x64, .f32⟩
  | 36 => ⟨S4x12x64x64, .f32⟩
  | 37 => ⟨S_, .f32⟩
  | 38 => ⟨S4x12x64, .f32⟩
  | 39 => ⟨S_, .f32⟩
  | 40 => ⟨S4x12x64, .f32⟩
  | 41 => ⟨S4x12x64, .f32⟩
  | 42 => ⟨S4x12x64x1, .f32⟩
  | 43 => ⟨S4x12x64x64, .f32⟩
  | 44 => ⟨S4x12x64x64, .f32⟩
  | 45 => ⟨S4x12x64x64, .f32⟩
  | 46 => ⟨S_, .f32⟩
  | 47 => ⟨S4x12x64, .f32⟩
  | 48 => ⟨S4x12x64x1, .f32⟩
  | 49 => ⟨S4x12x64x64, .f32⟩
  | 50 => ⟨S4x12x64x64, .f32⟩
  | 51 => ⟨S4x12x64x4096, .f32⟩
  | 52 => ⟨S_, .f32⟩
  | 53 => ⟨S4x12x64, .f32⟩
  | 54 => ⟨S_, .f32⟩
  | 55 => ⟨S4x12x64, .f32⟩
  | 56 => ⟨S4x12x64, .f32⟩
  | 57 => ⟨S4x12x64x1, .f32⟩
  | 58 => ⟨S4x12x64x4096, .f32⟩
  | 59 => ⟨S4x12x64x4096, .f32⟩
  | 60 => ⟨S4x12x64x4096, .f32⟩
  | 61 => ⟨S_, .f32⟩
  | 62 => ⟨S4x12x64, .f32⟩
  | 63 => ⟨S4x12x64x1, .f32⟩
  | 64 => ⟨S4x12x64x4096, .f32⟩
  | 65 => ⟨S4x12x64x4096, .f32⟩
  | 66 => ⟨S64x64, .i32⟩
  | 67 => ⟨S64x64, .i32⟩
  | 68 => ⟨S_, .i32⟩
  | 69 => ⟨S64x64, .i32⟩
  | 70 => ⟨S64x64, .i32⟩
  | 71 => ⟨S64x64, .i1⟩
  | 72 => ⟨S64x64, .f32⟩
  | 73 => ⟨S4x12x64x64, .f32⟩
  | 74 => ⟨S_, .f32⟩
  | 75 => ⟨S4x12x64, .f32⟩
  | 76 => ⟨S_, .f32⟩
  | 77 => ⟨S_, .f32⟩
  | 78 => ⟨S4x12x64x64, .f32⟩
  | 79 => ⟨S_, .f32⟩
  | 80 => ⟨S4x12x64, .f32⟩
  | 81 => ⟨S_, .f32⟩
  | 82 => ⟨S_, .f32⟩
  | 83 => ⟨S_, .f32⟩
  | 84 => ⟨S_, .f32⟩
  | 85 => ⟨S_, .f32⟩
  | 86 => ⟨S4x12x64x64, .f32⟩
  | 87 => ⟨S4x12x64x64, .f32⟩
  | 88 => ⟨S4x12x64x64, .f32⟩
  | 89 => ⟨S4x12x64x64, .f32⟩
  | 90 => ⟨S_, .f32⟩
  | 91 => ⟨S4x12x64x64, .f32⟩
  | 92 => ⟨S4x12x64x64, .f32⟩
  | 93 => ⟨S_, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S1x1x64x64, .f32⟩
  | 103 => ⟨S4x12x64x64, .f32⟩
  | 104 => ⟨S4x12x64x64, .f32⟩
  | 105 => ⟨S4x12x64x64, .f32⟩
  | 106 => ⟨S1x1x64x64, .f32⟩
  | 107 => ⟨S4x12x64x64, .f32⟩
  | 108 => ⟨S4x12x64x64, .f32⟩
  | 109 => ⟨S4x12x64x64, .f32⟩
  | 110 => ⟨S1x1x64x64, .f32⟩
  | 111 => ⟨S4x12x64x64, .f32⟩
  | 112 => ⟨S4x12x64x64, .f32⟩
  | 113 => ⟨S4x12x64x64, .f32⟩
  | 114 => ⟨S4x12x64x64, .f32⟩
  | 115 => ⟨S_, .f32⟩
  | 116 => ⟨S4x12x64x64, .f32⟩
  | 117 => ⟨S4x12x64x64, .f32⟩
  | 118 => ⟨S_, .f32⟩
  | 119 => ⟨S64x64, .f32⟩
  | 120 => ⟨S64x64, .f32⟩
  | 121 => ⟨S_, .f32⟩
  | 122 => ⟨S64x64, .f32⟩
  | 123 => ⟨S64x64, .f32⟩
  | 124 => ⟨S_, .f32⟩
  | 125 => ⟨S64x64, .f32⟩
  | 126 => ⟨S64x64, .f32⟩
  | 127 => ⟨S1x1x64x64, .f32⟩
  | _ => ⟨S4x12x4096x64, .f32⟩

abbrev hbmTy0_1 (i : Nat) : BufTy := match i % 128 with
  | 0 => ⟨S4x12x64x64, .f32⟩
  | 1 => ⟨S4x12x64x64, .f32⟩
  | 2 => ⟨S4x12x64x64, .f32⟩
  | 3 => ⟨S1x1x64x64, .f32⟩
  | 4 => ⟨S4x12x64x64, .f32⟩
  | 5 => ⟨S4x12x64x64, .f32⟩
  | 6 => ⟨S4x12x64x64, .f32⟩
  | 7 => ⟨S1x1x64x64, .f32⟩
  | 8 => ⟨S4x12x64x64, .f32⟩
  | 9 => ⟨S4x12x64x64, .f32⟩
  | 10 => ⟨S4x12x64x64, .f32⟩
  | 11 => ⟨S4x12x64x64, .f32⟩
  | 12 => ⟨S_, .f32⟩
  | 13 => ⟨S4x12x64x64, .f32⟩
  | 14 => ⟨S4x12x64x64, .f32⟩
  | 15 => ⟨S_, .f32⟩
  | 16 => ⟨S64x64, .f32⟩
  | 17 => ⟨S64x64, .f32⟩
  | 18 => ⟨S_, .f32⟩
  | 19 => ⟨S64x64, .f32⟩
  | 20 => ⟨S64x64, .f32⟩
  | 21 => ⟨S_, .f32⟩
  | 22 => ⟨S64x64, .f32⟩
  | 23 => ⟨S64x64, .f32⟩
  | 24 => ⟨S1x1x64x64, .f32⟩
  | 25 => ⟨S4x12x64x64, .f32⟩
  | 26 => ⟨S4x12x64x64, .f32⟩
  | 27 => ⟨S4x12x64x64, .f32⟩
  | 28 => ⟨S1x1x64x64, .f32⟩
  | 29 => ⟨S4x12x64x64, .f32⟩
  | 30 => ⟨S4x12x64x64, .f32⟩
  | 31 => ⟨S4x12x64x64, .f32⟩
  | 32 => ⟨S1x1x64x64, .f32⟩
  | 33 => ⟨S4x12x64x64, .f32⟩
  | 34 => ⟨S4x12x64x64, .f32⟩
  | 35 => ⟨S4x12x64x64, .f32⟩
  | 36 => ⟨S4x12x64x64, .f32⟩
  | 37 => ⟨S_, .f32⟩
  | 38 => ⟨S4x12x64x64, .f32⟩
  | 39 => ⟨S4x12x64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S1x1x64x64, .f32⟩
  | 50 => ⟨S4x12x64x64, .f32⟩
  | 51 => ⟨S4x12x64x64, .f32⟩
  | 52 => ⟨S4x12x64x64, .f32⟩
  | 53 => ⟨S1x1x64x64, .f32⟩
  | 54 => ⟨S4x12x64x64, .f32⟩
  | 55 => ⟨S4x12x64x64, .f32⟩
  | 56 => ⟨S4x12x64x64, .f32⟩
  | 57 => ⟨S1x1x64x64, .f32⟩
  | 58 => ⟨S4x12x64x64, .f32⟩
  | 59 => ⟨S4x12x64x64, .f32⟩
  | 60 => ⟨S4x12x64x64, .f32⟩
  | 61 => ⟨S4x12x64x64, .f32⟩
  | 62 => ⟨S_, .f32⟩
  | 63 => ⟨S4x12x64x64, .f32⟩
  | 64 => ⟨S4x12x64x64, .f32⟩
  | 65 => ⟨S_, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S_, .f32⟩
  | 72 => ⟨S64x64, .f32⟩
  | 73 => ⟨S64x64, .f32⟩
  | 74 => ⟨S1x1x64x64, .f32⟩
  | 75 => ⟨S4x12x64x64, .f32⟩
  | 76 => ⟨S4x12x64x64, .f32⟩
  | 77 => ⟨S4x12x64x64, .f32⟩
  | 78 => ⟨S1x1x64x64, .f32⟩
  | 79 => ⟨S4x12x64x64, .f32⟩
  | 80 => ⟨S4x12x64x64, .f32⟩
  | 81 => ⟨S4x12x64x64, .f32⟩
  | 82 => ⟨S1x1x64x64, .f32⟩
  | 83 => ⟨S4x12x64x64, .f32⟩
  | 84 => ⟨S4x12x64x64, .f32⟩
  | 85 => ⟨S4x12x64x64, .f32⟩
  | 86 => ⟨S4x12x64x64, .f32⟩
  | 87 => ⟨S_, .f32⟩
  | 88 => ⟨S4x12x64x64, .f32⟩
  | 89 => ⟨S4x12x64x64, .f32⟩
  | 90 => ⟨S_, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S1x1x64x64, .f32⟩
  | 100 => ⟨S4x12x64x64, .f32⟩
  | 101 => ⟨S4x12x64x64, .f32⟩
  | 102 => ⟨S4x12x64x64, .f32⟩
  | 103 => ⟨S1x1x64x64, .f32⟩
  | 104 => ⟨S4x12x64x64, .f32⟩
  | 105 => ⟨S4x12x64x64, .f32⟩
  | 106 => ⟨S4x12x64x64, .f32⟩
  | 107 => ⟨S1x1x64x64, .f32⟩
  | 108 => ⟨S4x12x64x64, .f32⟩
  | 109 => ⟨S4x12x64x64, .f32⟩
  | 110 => ⟨S4x12x64x64, .f32⟩
  | 111 => ⟨S4x12x4096x64, .f32⟩
  | 112 => ⟨S4x12x64x64, .f32⟩
  | 113 => ⟨S4x12x4096x64, .f32⟩
  | _ => ⟨S4x12x4096x64, .f32⟩

abbrev hbmTy (i : Nat) : BufTy := match i / 128 with
  | 0 => hbmTy0_0 i
  | 1 => hbmTy0_1 i
  | _ => ⟨S4x12x4096x64, .f32⟩

abbrev bufTy : (tb : Table) → Fin (tcTables nBuf tb) → BufTy
  | .hbm, ⟨i, _⟩ => hbmTy i
  | _, _ => ⟨S4x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_cst_17 : Ref sig .tc := ⟨.hbm, 81, rfl⟩
abbrev main_v59 : Ref sig .tc := ⟨.hbm, 82, rfl⟩
abbrev main_v60 : Ref sig .tc := ⟨.hbm, 83, rfl⟩
abbrev main_cst_18 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_cst_20 : Ref sig .tc := ⟨.hbm, 93, rfl⟩
abbrev main_v68 : Ref sig .tc := ⟨.hbm, 94, rfl⟩
abbrev main_v69 : Ref sig .tc := ⟨.hbm, 95, rfl⟩
abbrev main_cst_21 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_23 : Ref sig .tc := ⟨.hbm, 115, rfl⟩
abbrev main_v87 : Ref sig .tc := ⟨.hbm, 116, rfl⟩
abbrev main_v88 : Ref sig .tc := ⟨.hbm, 117, rfl⟩
abbrev main_cst_24 : Ref sig .tc := ⟨.hbm, 118, rfl⟩
abbrev main_v89 : Ref sig .tc := ⟨.hbm, 119, rfl⟩
abbrev main_v90 : Ref sig .tc := ⟨.hbm, 120, rfl⟩
abbrev main_cst_25 : Ref sig .tc := ⟨.hbm, 121, rfl⟩
abbrev main_v91 : Ref sig .tc := ⟨.hbm, 122, rfl⟩
abbrev main_v92 : Ref sig .tc := ⟨.hbm, 123, rfl⟩
abbrev main_cst_26 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_27 : Ref sig .tc := ⟨.hbm, 140, rfl⟩
abbrev main_v108 : Ref sig .tc := ⟨.hbm, 141, rfl⟩
abbrev main_v109 : Ref sig .tc := ⟨.hbm, 142, rfl⟩
abbrev main_cst_28 : Ref sig .tc := ⟨.hbm, 143, rfl⟩
abbrev main_v110 : Ref sig .tc := ⟨.hbm, 144, rfl⟩
abbrev main_v111 : Ref sig .tc := ⟨.hbm, 145, rfl⟩
abbrev main_cst_29 : Ref sig .tc := ⟨.hbm, 146, rfl⟩
abbrev main_v112 : Ref sig .tc := ⟨.hbm, 147, rfl⟩
abbrev main_v113 : Ref sig .tc := ⟨.hbm, 148, rfl⟩
abbrev main_cst_30 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_31 : Ref sig .tc := ⟨.hbm, 165, rfl⟩
abbrev main_v129 : Ref sig .tc := ⟨.hbm, 166, rfl⟩
abbrev main_v130 : Ref sig .tc := ⟨.hbm, 167, rfl⟩
abbrev main_cst_32 : Ref sig .tc := ⟨.hbm, 168, rfl⟩
abbrev main_v131 : Ref sig .tc := ⟨.hbm, 169, rfl⟩
abbrev main_v132 : Ref sig .tc := ⟨.hbm, 170, rfl⟩
abbrev main_cst_33 : Ref sig .tc := ⟨.hbm, 171, rfl⟩
abbrev main_v133 : Ref sig .tc := ⟨.hbm, 172, rfl⟩
abbrev main_v134 : Ref sig .tc := ⟨.hbm, 173, rfl⟩
abbrev main_cst_34 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_35 : Ref sig .tc := ⟨.hbm, 190, rfl⟩
abbrev main_v150 : Ref sig .tc := ⟨.hbm, 191, rfl⟩
abbrev main_v151 : Ref sig .tc := ⟨.hbm, 192, rfl⟩
abbrev main_cst_36 : Ref sig .tc := ⟨.hbm, 193, rfl⟩
abbrev main_v152 : Ref sig .tc := ⟨.hbm, 194, rfl⟩
abbrev main_v153 : Ref sig .tc := ⟨.hbm, 195, rfl⟩
abbrev main_cst_37 : Ref sig .tc := ⟨.hbm, 196, rfl⟩
abbrev main_v154 : Ref sig .tc := ⟨.hbm, 197, rfl⟩
abbrev main_v155 : Ref sig .tc := ⟨.hbm, 198, rfl⟩
abbrev main_cst_38 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_39 : Ref sig .tc := ⟨.hbm, 215, rfl⟩
abbrev main_v171 : Ref sig .tc := ⟨.hbm, 216, rfl⟩
abbrev main_v172 : Ref sig .tc := ⟨.hbm, 217, rfl⟩
abbrev main_cst_40 : Ref sig .tc := ⟨.hbm, 218, rfl⟩
abbrev main_v173 : Ref sig .tc := ⟨.hbm, 219, rfl⟩
abbrev main_v174 : Ref sig .tc := ⟨.hbm, 220, rfl⟩
abbrev main_cst_41 : Ref sig .tc := ⟨.hbm, 221, rfl⟩
abbrev main_v175 : Ref sig .tc := ⟨.hbm, 222, rfl⟩
abbrev main_v176 : Ref sig .tc := ⟨.hbm, 223, rfl⟩
abbrev main_cst_42 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩

abbrev nD : Nat := 1
abbrev τ : Topo := Topo.v7x

variable {F : FTy → Type} [FloatOps F]

class Facts₀ : Prop where
  bcast_S_S4x12x4096x64 : S_.BroadcastsInDim S4x12x4096x64 (![] : Fin 0 → Fin S4x12x4096x64.rank)
  shapeCasts_S4x12x4096x64_S4x12x64x64x64 : S4x12x4096x64.ShapeCasts S4x12x64x64x64
  reducesTo_S4x12x64x64x64_S4x12x64x64_d3 : S4x12x64x64x64.ReducesTo [3] S4x12x64x64
  h_S_ : 0 < S_.numel
  bcast_S_S4x12x64x64 : S_.BroadcastsInDim S4x12x64x64 (![] : Fin 0 → Fin S4x12x64x64.rank)
  reducesTo_S4x12x4096x64_S4x12x4096_d3 : S4x12x4096x64.ReducesTo [3] S4x12x4096
  bcast_S_S4x12x4096 : S_.BroadcastsInDim S4x12x4096 (![] : Fin 0 → Fin S4x12x4096.rank)
  bcast_S4x12x4096_S4x12x4096x1_0_1_2 : S4x12x4096.BroadcastsInDim S4x12x4096x1 (![0, 1, 2] : Fin 3 → Fin S4x12x4096x1.rank)
  bcast_S4x12x4096x1_S4x12x4096x64_0_1_2_3 : S4x12x4096x1.BroadcastsInDim S4x12x4096x64 (![0, 1, 2, 3] : Fin 4 → Fin S4x12x4096x64.rank)
  reducesTo_S4x12x64x64_S4x12x64_d3 : S4x12x64x64.ReducesTo [3] S4x12x64
  bcast_S_S4x12x64 : S_.BroadcastsInDim S4x12x64 (![] : Fin 0 → Fin S4x12x64.rank)
  bcast_S4x12x64_S4x12x64x1_0_1_2 : S4x12x64.BroadcastsInDim S4x12x64x1 (![0, 1, 2] : Fin 3 → Fin S4x12x64x1.rank)
  bcast_S4x12x64x1_S4x12x64x64_0_1_2_3 : S4x12x64x1.BroadcastsInDim S4x12x64x64 (![0, 1, 2, 3] : Fin 4 → Fin S4x12x64x64.rank)
  reducesTo_S4x12x64x4096_S4x12x64_d3 : S4x12x64x4096.ReducesTo [3] S4x12x64
  bcast_S4x12x64x1_S4x12x64x4096_0_1_2_3 : S4x12x64x1.BroadcastsInDim S4x12x64x4096 (![0, 1, 2, 3] : Fin 4 → Fin S4x12x64x4096.rank)
  bcast_S_S64x64 : S_.BroadcastsInDim S64x64 (![] : Fin 0 → Fin S64x64.rank)
  reducesTo_S4x12x64x64_S4x12x64_d2 : S4x12x64x64.ReducesTo [2] S4x12x64
  reducesTo_S4x12x64_S_d0_1_2 : S4x12x64.ReducesTo [0, 1, 2] S_
  transposes_S4x12x64x64_S4x12x64x64_0_1_3_2 : S4x12x64x64.Transposes [0, 1, 3, 2] S4x12x64x64
  bcast_S64x64_S1x1x64x64_2_3 : S64x64.BroadcastsInDim S1x1x64x64 (![2, 3] : Fin 2 → Fin S1x1x64x64.rank)
  bcast_S1x1x64x64_S4x12x64x64_0_1_2_3 : S1x1x64x64.BroadcastsInDim S4x12x64x64 (![0, 1, 2, 3] : Fin 4 → Fin S4x12x64x64.rank)
  dot_S4x12x4096x64_S4x12x64x64_S4x12x4096x64_3_3_2_2_01_01_wf : DotDims.WF S4x12x4096x64 S4x12x64x64 S4x12x4096x64 [3] [3] [2] [2] [0, 1] [0, 1]
  dot_S4x12x64x64_S4x12x64x64_S4x12x64x64_3_3_2_2_01_01_wf : DotDims.WF S4x12x64x64 S4x12x64x64 S4x12x64x64 [3] [3] [2] [2] [0, 1] [0, 1]
  dot_S4x12x64x64_S4x12x4096x64_S4x12x64x4096_3_3_2_2_01_01_wf : DotDims.WF S4x12x64x64 S4x12x4096x64 S4x12x64x4096 [3] [3] [2] [2] [0, 1] [0, 1]
  dot_S4x12x64x64_S4x12x64x64_S4x12x64x64_3_2_2_3_01_01_wf : DotDims.WF S4x12x64x64 S4x12x64x64 S4x12x64x64 [3] [2] [2] [3] [0, 1] [0, 1]
  dot_S4x12x4096x64_S4x12x64x64_S4x12x4096x64_3_2_2_3_01_01_wf : DotDims.WF S4x12x4096x64 S4x12x64x64 S4x12x4096x64 [3] [2] [2] [3] [0, 1] [0, 1]
  dot_S4x12x64x4096_S4x12x4096x64_S4x12x64x64_3_2_2_3_01_01_wf : DotDims.WF S4x12x64x4096 S4x12x4096x64 S4x12x64x64 [3] [2] [2] [3] [0, 1] [0, 1]

variable [Facts₀]

def dot_S4x12x4096x64_S4x12x64x64_S4x12x4096x64_3_3_2_2_01_01 : DotDims S4x12x4096x64 S4x12x64x64 S4x12x4096x64 where
  lhsContracting := [3]
  rhsContracting := [3]
  lhsNonContracting := [2]
  rhsNonContracting := [2]
  lhsBatch := [0, 1]
  rhsBatch := [0, 1]
  wf := dot_S4x12x4096x64_S4x12x64x64_S4x12x4096x64_3_3_2_2_01_01_wf
def dot_S4x12x64x64_S4x12x64x64_S4x12x64x64_3_3_2_2_01_01 : DotDims S4x12x64x64 S4x12x64x64 S4x12x64x64 where
  lhsContracting := [3]
  rhsContracting := [3]
  lhsNonContracting := [2]
  rhsNonContracting := [2]
  lhsBatch := [0, 1]
  rhsBatch := [0, 1]
  wf := dot_S4x12x64x64_S4x12x64x64_S4x12x64x64_3_3_2_2_01_01_wf
def dot_S4x12x64x64_S4x12x4096x64_S4x12x64x4096_3_3_2_2_01_01 : DotDims S4x12x64x64 S4x12x4096x64 S4x12x64x4096 where
  lhsContracting := [3]
  rhsContracting := [3]
  lhsNonContracting := [2]
  rhsNonContracting := [2]
  lhsBatch := [0, 1]
  rhsBatch := [0, 1]
  wf := dot_S4x12x64x64_S4x12x4096x64_S4x12x64x4096_3_3_2_2_01_01_wf
def dot_S4x12x64x64_S4x12x64x64_S4x12x64x64_3_2_2_3_01_01 : DotDims S4x12x64x64 S4x12x64x64 S4x12x64x64 where
  lhsContracting := [3]
  rhsContracting := [2]
  lhsNonContracting := [2]
  rhsNonContracting := [3]
  lhsBatch := [0, 1]
  rhsBatch := [0, 1]
  wf := dot_S4x12x64x64_S4x12x64x64_S4x12x64x64_3_2_2_3_01_01_wf
def dot_S4x12x4096x64_S4x12x64x64_S4x12x4096x64_3_2_2_3_01_01 : DotDims S4x12x4096x64 S4x12x64x64 S4x12x4096x64 where
  lhsContracting := [3]
  rhsContracting := [2]
  lhsNonContracting := [2]
  rhsNonContracting := [3]
  lhsBatch := [0, 1]
  rhsBatch := [0, 1]
  wf := dot_S4x12x4096x64_S4x12x64x64_S4x12x4096x64_3_2_2_3_01_01_wf
def dot_S4x12x64x4096_S4x12x4096x64_S4x12x64x64_3_2_2_3_01_01 : DotDims S4x12x64x4096 S4x12x4096x64 S4x12x64x64 where
  lhsContracting := [3]
  rhsContracting := [2]
  lhsNonContracting := [2]
  rhsNonContracting := [3]
  lhsBatch := [0, 1]
  rhsBatch := [0, 1]
  wf := dot_S4x12x64x4096_S4x12x4096x64_S4x12x64x64_3_2_2_3_01_01_wf

class Facts : Prop extends Facts₀ where

variable [Facts]
-- ==== Proof.KBlocks.lean ====
/-
  Heads of the kernel's arrays as the blocks one trip of a kernel body loads, and each region's output arrays as
  whole-array functions of the arrays the region reads: entry (b, h, r, c) of an output is the body's stored value
  for head (b, h) -- a pure function of head (b, h) of each input array -- at (r, c).
-/
import proofs.«411036_j71038759076379_3_alg».proof.Proof.Gen.KernelIdeal.Skeleton
import Idealize.ShloMosaic.Lib.ValueIdx

noncomputable section

namespace Cert.KernelIdeal.Val

open Cert.KernelIdeal Cert.KernelIdeal.Gen Idealize.ShloMosaic

variable {F : FTy → Type} [FloatOps F]

/-- Head (b, h) of a [4,12,4096,64] array, as a [1,1,4096,64] block. -/
def blkT (X : Vec F S4x12x4096x64 .f32) (b : Fin 4) (h : Fin 12) : Vec F S1x1x4096x64 .f32 :=
  fun y => X (ValueIdx.ix4 b h (y 2) (y 3))

/-- Head (b, h) of a [4,12,64,64] array, as a [1,1,64,64] block. -/
def blkS (X : Vec F S4x12x64x64 .f32) (b : Fin 4) (h : Fin 12) : Vec F S1x1x64x64 .f32 :=
  fun y => X (ValueIdx.ix4 b h (y 2) (y 3))

/-- Stage 1's first output: the pooled scaled keys of every head. -/
def G0kl (K : Vec F S4x12x4096x64 .f32) : Vec F S4x12x64x64 .f32 :=
  fun i => k0_pay1 (k0_pay8 (blkT K (i 0) (i 1))) (ValueIdx.ix4 0 0 (i 2) (i 3))

/-- Stage 1's second output: the small softmax matrix of every head. -/
def G0k2 (Q K : Vec F S4x12x4096x64 .f32) : Vec F S4x12x64x64 .f32 :=
  fun i => k0_pay2 (k0_pay9 (blkT Q (i 0) (i 1)) (blkT K (i 0) (i 1))) (ValueIdx.ix4 0 0 (i 2) (i 3))

/-- Stage 1's third output: the wide softmax matrix times the values, for every head. -/
def G0c (Q K V : Vec F S4x12x4096x64 .f32) : Vec F S4x12x64x64 .f32 :=
  fun i => k0_pay3 (k0_pay5 (blkT V (i 0) (i 1))) (k0_pay6 (blkT K (i 0) (i 1))) (k0_pay10 (blkT Q (i 0) (i 1)))
    (ValueIdx.ix4 0 0 (i 2) (i 3))

/-- Stage 2's output, from the queries, the pooled keys, the approximate inverse and stage 1's third output. -/
def G1 (Q : Vec F S4x12x4096x64 .f32) (KL AI CM : Vec F S4x12x64x64 .f32) : Vec F S4x12x4096x64 .f32 :=
  fun i => k1_pay1 (k1_pay2 (blkT Q (i 0) (i 1)) (blkS KL (i 0) (i 1)) (blkS AI (i 0) (i 1)) (blkS CM (i 0) (i 1)))
    (ValueIdx.ix4 0 0 (i 2) (i 3))

end Cert.KernelIdeal.Val

end
-- ==== Proof.NSDef.lean ====
/-
  The Newton-Schulz iteration for an approximate inverse, as both programs run it on the whole [4,12,64,64]
  array x of small softmax matrices.

  The start is  v0 = s . x^T  with the one global scale  s = 1 / (a . b),  a the largest column sum and b the
  largest row sum of |x| over ALL batches and heads.  One step sends v to
      (1/4 v) . (13 I - p . (15 I - p . (7 I - p))),   p = x . v,
  all products batched over the two leading axes.  The result is six steps from v0.

  The operations are written with the shapes and dimension records of the kernel's printed program; the
  reference's records have the same fields.
-/
import proofs.«411036_j71038759076379_3_alg».proof.Proof.Gen.KernelIdeal

noncomputable section

namespace Cert.Nys

open Idealize.ShloMosaic Cert.KernelIdeal Cert.KernelIdeal.Gen

variable {F : FTy → Type} [FloatOps F]

/-- The [64 x 64] identity matrix as both programs build it: 1 where the row index equals the column index. -/
def eye : FVec F S64x64 .f32 :=
  uitofp .f32 (cmpi .eq (addi (iotaInDim S64x64 32 0) (broadcastInDim S64x64 ![] bcast_S_S64x64 (constantI S_ 32 0#32))) (iotaInDim S64x64 32 1))

/-- The constant with word `w` times the matrix `I`, repeated over every batch and head. -/
def cI (w : BitVec 32) (I : FVec F S64x64 .f32) : FVec F S4x12x64x64 .f32 :=
  broadcastInDim S4x12x64x64 ![0, 1, 2, 3] bcast_S1x1x64x64_S4x12x64x64_0_1_2_3
    (broadcastInDim S1x1x64x64 ![2, 3] bcast_S64x64_S1x1x64x64_2_3
      (mulf (broadcastInDim S64x64 ![] bcast_S_S64x64 (constant S_ .f32 w)) I))

/-- The batched matrix product both programs use in the iteration. -/
def bmm (l r : FVec F S4x12x64x64 .f32) : FVec F S4x12x64x64 .f32 :=
  Host.dotGeneral dot_S4x12x64x64_S4x12x64x64_S4x12x64x64_3_2_2_3_01_01 none l r

/-- The global scale times the transposed array: the iteration's start. -/
def nsInit (x : FVec F S4x12x64x64 .f32) : FVec F S4x12x64x64 .f32 :=
  mulf (broadcastInDim S4x12x64x64 ![] bcast_S_S4x12x64x64
      (Host.divf (constant S_ .f32 0x3F800000#32)
        (mulf
          (Host.reduce FloatOps.maximumf (Host.reduceAdd (Host.absf x) (constant S_ .f32 0x00000000#32) reducesTo_S4x12x64x64_S4x12x64_d2 h_S_) (constant S_ .f32 0xFF800000#32) reducesTo_S4x12x64_S_d0_1_2 h_S_)
          (Host.reduce FloatOps.maximumf (Host.reduceAdd (Host.absf x) (constant S_ .f32 0x00000000#32) reducesTo_S4x12x64x64_S4x12x64_d3 h_S_) (constant S_ .f32 0xFF800000#32) reducesTo_S4x12x64_S_d0_1_2 h_S_))))
    (transpose S4x12x64x64 [0, 1, 3, 2] x transposes_S4x12x64x64_S4x12x64x64_0_1_3_2)

/-- The step's polynomial, from the product `p = x . v` already formed. -/
def nsPoly (I : FVec F S64x64 .f32) (p v : FVec F S4x12x64x64 .f32) : FVec F S4x12x64x64 .f32 :=
  bmm (mulf (broadcastInDim S4x12x64x64 ![] bcast_S_S4x12x64x64 (constant S_ .f32 0x3E800000#32)) v)
    (subf (cI 0x41500000#32 I) (bmm p (subf (cI 0x41700000#32 I) (bmm p (subf (cI 0x40E00000#32 I) p)))))

/-- One step. -/
def nsStep (x : FVec F S4x12x64x64 .f32) (I : FVec F S64x64 .f32) (v : FVec F S4x12x64x64 .f32) : FVec F S4x12x64x64 .f32 :=
  nsPoly I (bmm x v) v

/-- Six steps from the start. -/
def NS (x : FVec F S4x12x64x64 .f32) : FVec F S4x12x64x64 .f32 :=
  nsStep x eye (nsStep x eye (nsStep x eye (nsStep x eye (nsStep x eye (nsStep x eye (nsInit x))))))

end Cert.Nys

end
-- ==== Proof.KHost.lean ====
/-
  The kernel's host stretch between its two regions is the Newton-Schulz iteration on stage 1's second output,
  and it leaves the queries, the pooled keys and stage 1's third output as it found them.

  The stretch is read as eight lists in a row: the identity matrix, the iteration's start, and six steps. Each
  list is a function of what the buffers held before it: the first leaves the identity matrix, the second the
  global scale times the transposed argument, and a step sends the previous iterate v to
  (1/4 v) . (13 I - p . (15 I - p . (7 I - p))) with p = x . v. No list after the first writes the identity
  matrix and none writes the argument, so the six steps compose to the iteration on the argument.
-/
import proofs.«411036_j71038759076379_3_alg».proof.Proof.Gen.KernelIdeal.Launch
import proofs.«411036_j71038759076379_3_alg».proof.Proof.NSDef
import Idealize.ShloMosaic.Lib.StableHlo.Run
import Idealize.ShloMosaic.Lib.Pipeline.Frame

set_option maxRecDepth 16384

noncomputable section

namespace Cert.KernelIdeal.Val

open Cert.KernelIdeal Cert.KernelIdeal.Gen Cert.Nys Idealize.ShloMosaic Idealize.ShloMosaic.TcCoe Idealize.ShloMosaic.StableHlo Idealize.SL.Sem

variable {F : FTy → Type} [FloatOps F]
/-! ## The stretch as eight lists -/

/-- The first seven operations: they build the [64 x 64] identity matrix. -/
def lEye : List (HloOp τ sig (Elt F)) :=
  [ StableHlo.nullary main_v1 (iotaInDim S64x64 32 0),
    StableHlo.nullary main_v2 (iotaInDim S64x64 32 1),
    StableHlo.nullary main_c (constantI S_ 32 0#32),
    StableHlo.unary main_c main_v3 (broadcastInDim S64x64 ![] bcast_S_S64x64 : (⟨S_, .i32⟩ : BufTy).Contents (Elt F) → (⟨S64x64, .i32⟩ : BufTy).Contents (Elt F)),
    StableHlo.binary main_v1 main_v3 main_v4 (addi : (⟨S64x64, .i32⟩ : BufTy).Contents (Elt F) → (⟨S64x64, .i32⟩ : BufTy).Contents (Elt F) → (⟨S64x64, .i32⟩ : BufTy).Contents (Elt F)),
    StableHlo.binary main_v4 main_v2 main_v5 (cmpi .eq : (⟨S64x64, .i32⟩ : BufTy).Contents (Elt F) → (⟨S64x64, .i32⟩ : BufTy).Contents (Elt F) → (⟨S64x64, .i1⟩ : BufTy).Contents (Elt F)),
    StableHlo.unary main_v5 main_v6 (uitofp .f32 : (⟨S64x64, .i1⟩ : BufTy).Contents (Elt F) → (⟨S64x64, .f32⟩ : BufTy).Contents (Elt F)) ]

/-- The next sixteen: the largest column sum and the largest row sum of |x|, the reciprocal of their product, and that scale times the transposed array. -/
def lInit : List (HloOp τ sig (Elt F)) :=
  [ StableHlo.unary main_v0_1 main_v7 (Host.absf : (⟨S4x12x64x64, .f32⟩ : BufTy).Contents (Elt F) → (⟨S4x12x64x64, .f32⟩ : BufTy).Contents (Elt F)),
    StableHlo.nullary main_cst (constant S_ .f32 0x00000000#32),
    StableHlo.binary main_v7 main_cst main_v8 ((fun x v => Host.reduceAdd x v reducesTo_S4x12x64x64_S4x12x64_d2 h_S_) : (⟨S4x12x64x64, .f32⟩ : BufTy).Contents (Elt F) → (⟨S_, .f32⟩ : BufTy).Contents (Elt F) → (⟨S4x12x64, .f32⟩ : BufTy).Contents (Elt F)),
    StableHlo.nullary main_cst_0 (constant S_ .f32 0xFF800000#32),
    StableHlo.binary main_v8 main_cst_0 main_v9 ((fun x v => Host.reduce FloatOps.maximumf x v reducesTo_S4x12x64_S_d0_1_2 h_S_) : (⟨S4x12x64, .f32⟩ : BufTy).Contents (Elt F) → (⟨S_, .f32⟩ : BufTy).Contents (Elt F) → (⟨S_, .f32⟩ : BufTy).Contents (Elt F)),
    StableHlo.unary main_v0_1 main_v10 (Host.absf : (⟨S4x12x64x64, .f32⟩ : BufTy).Contents (Elt F) → (⟨S4x12x64x64, .f32⟩ : BufTy).Contents (Elt F)),
    StableHlo.nullary main_cst_1 (constant S_ .f32 0x00000000#32),
    StableHlo.binary main_v10 main_cst_1 main_v11 ((fun x v => Host.reduceAdd x v reducesTo_S4x12x64x64_S4x12x64_d3 h_S_) : (⟨S4x12x64x64, .f32⟩ : BufTy).Contents (Elt F) → (⟨S_, .f32⟩ : BufTy).Contents (Elt F) → (⟨S4x12x64, .f32⟩ : BufTy).Contents (Elt F)),
    StableHlo.nullary main_cst_2 (constant S_ .f32 0xFF800000#32),
    StableHlo.binary main_v11 main_cst_2 main_v12 ((fun x v => Host.reduce FloatOps.maximumf x v reducesTo_S4x12x64_S_d0_1_2 h_S_) : (⟨S4x12x64, .f32⟩ : BufTy).Contents (Elt F) → (⟨S_, .f32⟩ : BufTy).Contents (Elt F) → (⟨S_, .f32⟩ : BufTy).Contents (Elt F)),
    StableHlo.binary main_v9 main_v12 main_v13 (mulf : (⟨S_, .f32⟩ : BufTy).Contents (Elt F) → (⟨S_, .f32⟩ : BufTy).Contents (Elt F) → (⟨S_, .f32⟩ : BufTy).Contents (Elt F)),
    StableHlo.nullary main_cst_3 (constant S_ .f32 0x3F800000#32),
    StableHlo.binary main_cst_3 main_v13 main_v14 (Host.divf : (⟨S_, .f32⟩ : BufTy).Contents (Elt F) → (⟨S_, .f32⟩ : BufTy).Contents (Elt F) → (⟨S_, .f32⟩ : BufTy).Contents (Elt F)),
    StableHlo.unary main_v0_1 main_v15 ((transpose S4x12x64x64 [0, 1, 3, 2] · transposes_S4x12x64x64_S4x12x64x64_0_1_3_2) : (⟨S4x12x64x64, .f32⟩ : BufTy).Contents (Elt F) → (⟨S4x12x64x64, .f32⟩ : BufTy).Contents (Elt F)),
    StableHlo.unary main_v14 main_v16 (broadcastInDim S4x12x64x64 ![] bcast_S_S4x12x64x64 : (⟨S_, .f32⟩ : BufTy).Contents (Elt F) → (⟨S4x12x64x64, .f32⟩ : BufTy).Contents (Elt F)),
    StableHlo.binary main_v16 main_v15 main_v17 (mulf : (⟨S4x12x64x64, .f32⟩ : BufTy).Contents (Elt F) → (⟨S4x12x64x64, .f32⟩ : BufTy).Contents (Elt F) → (⟨S4x12x64x64, .f32⟩ : BufTy).Contents (Elt F)) ]

/-- Step 1 of the iteration. -/
def lS1 : List (HloOp τ sig (Elt F)) :=
  [ StableHlo.binary main_v0_1 main_v17 main_v18 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_4 (constant S_ .f32 0x3E800000#32),
    StableHlo.unary main_cst_4 main_v19 (broadcastInDim S4x12x64x64 ![] bcast_S_S4x12x64x64 : (⟨S_, .f32⟩ : BufTy).Contents (Elt F) → (⟨S4x12x64x64, .f32⟩ : BufTy).Contents (Elt F)),
    StableHlo.binary main_v19 main_v17 main_v20 (mulf : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_5 (constant S_ .f32 0x41500000#32),
    StableHlo.unary main_cst_5 main_v21 (broadcastInDim S64x64 ![] bcast_S_S64x64 : (⟨S_, .f32⟩ : BufTy).Contents (Elt F) → (⟨S64x64, .f32⟩ : BufTy).Contents (Elt F)),
    StableHlo.binary main_v21 main_v6 main_v22 (mulf : (⟨S64x64, .f32⟩ : BufTy).Contents (Elt F) → (⟨S64x64, .f32⟩ : BufTy).Contents (Elt F) → (⟨S64x64, .f32⟩ : BufTy).Contents (Elt F)),
    StableHlo.nullary main_cst_6 (constant S_ .f32 0x41700000#32),
    StableHlo.unary main_cst_6 main_v23 (broadcastInDim S64x64 ![] bcast_S_S64x64 : (⟨S_, .f32⟩ : BufTy).Contents (Elt F) → (⟨S64x64, .f32⟩ : BufTy).Contents (Elt F)),
    StableHlo.binary main_v23 main_v6 main_v24 (mulf : (⟨S64x64, .f32⟩ : BufTy).Contents (Elt F) → (⟨S64x64, .f32⟩ : BufTy).Contents (Elt F) → (⟨S64x64, .f32⟩ : BufTy).Contents (Elt F)),
    StableHlo.nullary main_cst_7 (constant S_ .f32 0x40E00000#32),
    StableHlo.unary main_cst_7 main_v25 (broadcastInDim S64x64 ![] bcast_S_S64x64 : (⟨S_, .f32⟩ : BufTy).Contents (Elt F) → (⟨S64x64, .f32⟩ : BufTy).Contents (Elt F)),
    StableHlo.binary main_v25 main_v6 main_v26 (mulf : (⟨S64x64, .f32⟩ : BufTy).Contents (Elt F) → (⟨S64x64, .f32⟩ : BufTy).Contents (Elt F) → (⟨S64x64, .f32⟩ : BufTy).Contents (Elt F)),
    StableHlo.unary main_v26 main_v27 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v27 main_v28 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v28 main_v18 main_v29 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v18 main_v29 main_v30 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v24 main_v31 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v31 main_v32 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v32 main_v30 main_v33 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v18 main_v33 main_v34 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v22 main_v35 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v35 main_v36 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v36 main_v34 main_v37 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v20 main_v37 main_v38 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)) ]

/-- Step 2 of the iteration. -/
def lS2 : List (HloOp τ sig (Elt F)) :=
  [ StableHlo.binary main_v0_1 main_v38 main_v39 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_8 (constant S_ .f32 0x3E800000#32),
    StableHlo.unary main_cst_8 main_v40 (broadcastInDim S4x12x64x64 ![] bcast_S_S4x12x64x64 : (⟨S_, .f32⟩ : BufTy).Contents (Elt F) → (⟨S4x12x64x64, .f32⟩ : BufTy).Contents (Elt F)),
    StableHlo.binary main_v40 main_v38 main_v41 (mulf : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_9 (constant S_ .f32 0x41500000#32),
    StableHlo.unary main_cst_9 main_v42 (broadcastInDim S64x64 ![] bcast_S_S64x64 : (⟨S_, .f32⟩ : BufTy).Contents (Elt F) → (⟨S64x64, .f32⟩ : BufTy).Contents (Elt F)),
    StableHlo.binary main_v42 main_v6 main_v43 (mulf : (⟨S64x64, .f32⟩ : BufTy).Contents (Elt F) → (⟨S64x64, .f32⟩ : BufTy).Contents (Elt F) → (⟨S64x64, .f32⟩ : BufTy).Contents (Elt F)),
    StableHlo.nullary main_cst_10 (constant S_ .f32 0x41700000#32),
    StableHlo.unary main_cst_10 main_v44 (broadcastInDim S64x64 ![] bcast_S_S64x64 : (⟨S_, .f32⟩ : BufTy).Contents (Elt F) → (⟨S64x64, .f32⟩ : BufTy).Contents (Elt F)),
    StableHlo.binary main_v44 main_v6 main_v45 (mulf : (⟨S64x64, .f32⟩ : BufTy).Contents (Elt F) → (⟨S64x64, .f32⟩ : BufTy).Contents (Elt F) → (⟨S64x64, .f32⟩ : BufTy).Contents (Elt F)),
    StableHlo.nullary main_cst_11 (constant S_ .f32 0x40E00000#32),
    StableHlo.unary main_cst_11 main_v46 (broadcastInDim S64x64 ![] bcast_S_S64x64 : (⟨S_, .f32⟩ : BufTy).Contents (Elt F) → (⟨S64x64, .f32⟩ : BufTy).Contents (Elt F)),
    StableHlo.binary main_v46 main_v6 main_v47 (mulf : (⟨S64x64, .f32⟩ : BufTy).Contents (Elt F) → (⟨S64x64, .f32⟩ : BufTy).Contents (Elt F) → (⟨S64x64, .f32⟩ : BufTy).Contents (Elt F)),
    StableHlo.unary main_v47 main_v48 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v48 main_v49 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v49 main_v39 main_v50 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v39 main_v50 main_v51 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v45 main_v52 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v52 main_v53 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v53 main_v51 main_v54 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v39 main_v54 main_v55 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v43 main_v56 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v56 main_v57 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v57 main_v55 main_v58 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v41 main_v58 main_v59 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)) ]

/-- Step 3 of the iteration. -/
def lS3 : List (HloOp τ sig (Elt F)) :=
  [ StableHlo.binary main_v0_1 main_v59 main_v60 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_12 (constant S_ .f32 0x3E800000#32),
    StableHlo.unary main_cst_12 main_v61 (broadcastInDim S4x12x64x64 ![] bcast_S_S4x12x64x64 : (⟨S_, .f32⟩ : BufTy).Contents (Elt F) → (⟨S4x12x64x64, .f32⟩ : BufTy).Contents (Elt F)),
    StableHlo.binary main_v61 main_v59 main_v62 (mulf : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_13 (constant S_ .f32 0x41500000#32),
    StableHlo.unary main_cst_13 main_v63 (broadcastInDim S64x64 ![] bcast_S_S64x64 : (⟨S_, .f32⟩ : BufTy).Contents (Elt F) → (⟨S64x64, .f32⟩ : BufTy).Contents (Elt F)),
    StableHlo.binary main_v63 main_v6 main_v64 (mulf : (⟨S64x64, .f32⟩ : BufTy).Contents (Elt F) → (⟨S64x64, .f32⟩ : BufTy).Contents (Elt F) → (⟨S64x64, .f32⟩ : BufTy).Contents (Elt F)),
    StableHlo.nullary main_cst_14 (constant S_ .f32 0x41700000#32),
    StableHlo.unary main_cst_14 main_v65 (broadcastInDim S64x64 ![] bcast_S_S64x64 : (⟨S_, .f32⟩ : BufTy).Contents (Elt F) → (⟨S64x64, .f32⟩ : BufTy).Contents (Elt F)),
    StableHlo.binary main_v65 main_v6 main_v66 (mulf : (⟨S64x64, .f32⟩ : BufTy).Contents (Elt F) → (⟨S64x64, .f32⟩ : BufTy).Contents (Elt F) → (⟨S64x64, .f32⟩ : BufTy).Contents (Elt F)),
    StableHlo.nullary main_cst_15 (constant S_ .f32 0x40E00000#32),
    StableHlo.unary main_cst_15 main_v67 (broadcastInDim S64x64 ![] bcast_S_S64x64 : (⟨S_, .f32⟩ : BufTy).Contents (Elt F) → (⟨S64x64, .f32⟩ : BufTy).Contents (Elt F)),
    StableHlo.binary main_v67 main_v6 main_v68 (mulf : (⟨S64x64, .f32⟩ : BufTy).Contents (Elt F) → (⟨S64x64, .f32⟩ : BufTy).Contents (Elt F) → (⟨S64x64, .f32⟩ : BufTy).Contents (Elt F)),
    StableHlo.unary main_v68 main_v69 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v69 main_v70 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v70 main_v60 main_v71 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v60 main_v71 main_v72 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v66 main_v73 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v73 main_v74 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v74 main_v72 main_v75 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v60 main_v75 main_v76 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v64 main_v77 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v77 main_v78 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v78 main_v76 main_v79 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v62 main_v79 main_v80 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)) ]

/-- Step 4 of the iteration. -/
def lS4 : List (HloOp τ sig (Elt F)) :=
  [ StableHlo.binary main_v0_1 main_v80 main_v81 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_16 (constant S_ .f32 0x3E800000#32),
    StableHlo.unary main_cst_16 main_v82 (broadcastInDim S4x12x64x64 ![] bcast_S_S4x12x64x64 : (⟨S_, .f32⟩ : BufTy).Contents (Elt F) → (⟨S4x12x64x64, .f32⟩ : BufTy).Contents (Elt F)),
    StableHlo.binary main_v82 main_v80 main_v83 (mulf : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_17 (constant S_ .f32 0x41500000#32),
    StableHlo.unary main_cst_17 main_v84 (broadcastInDim S64x64 ![] bcast_S_S64x64 : (⟨S_, .f32⟩ : BufTy).Contents (Elt F) → (⟨S64x64, .f32⟩ : BufTy).Contents (Elt F)),
    StableHlo.binary main_v84 main_v6 main_v85 (mulf : (⟨S64x64, .f32⟩ : BufTy).Contents (Elt F) → (⟨S64x64, .f32⟩ : BufTy).Contents (Elt F) → (⟨S64x64, .f32⟩ : BufTy).Contents (Elt F)),
    StableHlo.nullary main_cst_18 (constant S_ .f32 0x41700000#32),
    StableHlo.unary main_cst_18 main_v86 (broadcastInDim S64x64 ![] bcast_S_S64x64 : (⟨S_, .f32⟩ : BufTy).Contents (Elt F) → (⟨S64x64, .f32⟩ : BufTy).Contents (Elt F)),
    StableHlo.binary main_v86 main_v6 main_v87 (mulf : (⟨S64x64, .f32⟩ : BufTy).Contents (Elt F) → (⟨S64x64, .f32⟩ : BufTy).Contents (Elt F) → (⟨S64x64, .f32⟩ : BufTy).Contents (Elt F)),
    StableHlo.nullary main_cst_19 (constant S_ .f32 0x40E00000#32),
    StableHlo.unary main_cst_19 main_v88 (broadcastInDim S64x64 ![] bcast_S_S64x64 : (⟨S_, .f32⟩ : BufTy).Contents (Elt F) → (⟨S64x64, .f32⟩ : BufTy).Contents (Elt F)),
    StableHlo.binary main_v88 main_v6 main_v89 (mulf : (⟨S64x64, .f32⟩ : BufTy).Contents (Elt F) → (⟨S64x64, .f32⟩ : BufTy).Contents (Elt F) → (⟨S64x64, .f32⟩ : BufTy).Contents (Elt F)),
    StableHlo.unary main_v89 main_v90 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v90 main_v91 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v91 main_v81 main_v92 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v81 main_v92 main_v93 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v87 main_v94 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v94 main_v95 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v95 main_v93 main_v96 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v81 main_v96 main_v97 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v85 main_v98 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v98 main_v99 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v99 main_v97 main_v100 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v83 main_v100 main_v101 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)) ]

/-- Step 5 of the iteration. -/
def lS5 : List (HloOp τ sig (Elt F)) :=
  [ StableHlo.binary main_v0_1 main_v101 main_v102 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_20 (constant S_ .f32 0x3E800000#32),
    StableHlo.unary main_cst_20 main_v103 (broadcastInDim S4x12x64x64 ![] bcast_S_S4x12x64x64 : (⟨S_, .f32⟩ : BufTy).Contents (Elt F) → (⟨S4x12x64x64, .f32⟩ : BufTy).Contents (Elt F)),
    StableHlo.binary main_v103 main_v101 main_v104 (mulf : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_21 (constant S_ .f32 0x41500000#32),
    StableHlo.unary main_cst_21 main_v105 (broadcastInDim S64x64 ![] bcast_S_S64x64 : (⟨S_, .f32⟩ : BufTy).Contents (Elt F) → (⟨S64x64, .f32⟩ : BufTy).Contents (Elt F)),
    StableHlo.binary main_v105 main_v6 main_v106 (mulf : (⟨S64x64, .f32⟩ : BufTy).Contents (Elt F) → (⟨S64x64, .f32⟩ : BufTy).Contents (Elt F) → (⟨S64x64, .f32⟩ : BufTy).Contents (Elt F)),
    StableHlo.nullary main_cst_22 (constant S_ .f32 0x41700000#32),
    StableHlo.unary main_cst_22 main_v107 (broadcastInDim S64x64 ![] bcast_S_S64x64 : (⟨S_, .f32⟩ : BufTy).Contents (Elt F) → (⟨S64x64, .f32⟩ : BufTy).Contents (Elt F)),
    StableHlo.binary main_v107 main_v6 main_v108 (mulf : (⟨S64x64, .f32⟩ : BufTy).Contents (Elt F) → (⟨S64x64, .f32⟩ : BufTy).Contents (Elt F) → (⟨S64x64, .f32⟩ : BufTy).Contents (Elt F)),
    StableHlo.nullary main_cst_23 (constant S_ .f32 0x40E00000#32),
    StableHlo.unary main_cst_23 main_v109 (broadcastInDim S64x64 ![] bcast_S_S64x64 : (⟨S_, .f32⟩ : BufTy).Contents (Elt F) → (⟨S64x64, .f32⟩ : BufTy).Contents (Elt F)),
    StableHlo.binary main_v109 main_v6 main_v110 (mulf : (⟨S64x64, .f32⟩ : BufTy).Contents (Elt F) → (⟨S64x64, .f32⟩ : BufTy).Contents (Elt F) → (⟨S64x64, .f32⟩ : BufTy).Contents (Elt F)),
    StableHlo.unary main_v110 main_v111 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v111 main_v112 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v112 main_v102 main_v113 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v102 main_v113 main_v114 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v108 main_v115 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v115 main_v116 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v116 main_v114 main_v117 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v102 main_v117 main_v118 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v106 main_v119 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v119 main_v120 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v120 main_v118 main_v121 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v104 main_v121 main_v122 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)) ]

/-- Step 6 of the iteration. -/
def lS6 : List (HloOp τ sig (Elt F)) :=
  [ StableHlo.binary main_v0_1 main_v122 main_v123 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_24 (constant S_ .f32 0x3E800000#32),
    StableHlo.unary main_cst_24 main_v124 (broadcastInDim S4x12x64x64 ![] bcast_S_S4x12x64x64 : (⟨S_, .f32⟩ : BufTy).Contents (Elt F) → (⟨S4x12x64x64, .f32⟩ : BufTy).Contents (Elt F)),
    StableHlo.binary main_v124 main_v122 main_v125 (mulf : (⟨S4x12x64x64, .f32⟩ : BufTy).Contents (Elt F) → (⟨S4x12x64x64, .f32⟩ : BufTy).Contents (Elt F) → (⟨S4x12x64x64, .f32⟩ : BufTy).Contents (Elt F)),
    StableHlo.nullary main_cst_25 (constant S_ .f32 0x41500000#32),
    StableHlo.unary main_cst_25 main_v126 (broadcastInDim S64x64 ![] bcast_S_S64x64 : (⟨S_, .f32⟩ : BufTy).Contents (Elt F) → (⟨S64x64, .f32⟩ : BufTy).Contents (Elt F)),
    StableHlo.binary main_v126 main_v6 main_v127 (mulf : (⟨S64x64, .f32⟩ : BufTy).Contents (Elt F) → (⟨S64x64, .f32⟩ : BufTy).Contents (Elt F) → (⟨S64x64, .f32⟩ : BufTy).Contents (Elt F)),
    StableHlo.nullary main_cst_26 (constant S_ .f32 0x41700000#32),
    StableHlo.unary main_cst_26 main_v128 (broadcastInDim S64x64 ![] bcast_S_S64x64 : (⟨S_, .f32⟩ : BufTy).Contents (Elt F) → (⟨S64x64, .f32⟩ : BufTy).Contents (Elt F)),
    StableHlo.binary main_v128 main_v6 main_v129 (mulf : (⟨S64x64, .f32⟩ : BufTy).Contents (Elt F) → (⟨S64x64, .f32⟩ : BufTy).Contents (Elt F) → (⟨S64x64, .f32⟩ : BufTy).Contents (Elt F)),
    StableHlo.nullary main_cst_27 (constant S_ .f32 0x40E00000#32),
    StableHlo.unary main_cst_27 main_v130 (broadcastInDim S64x64 ![] bcast_S_S64x64 : (⟨S_, .f32⟩ : BufTy).Contents (Elt F) → (⟨S64x64, .f32⟩ : BufTy).Contents (Elt F)),
    StableHlo.binary main_v130 main_v6 main_v131 (mulf : (⟨S64x64, .f32⟩ : BufTy).Contents (Elt F) → (⟨S64x64, .f32⟩ : BufTy).Contents (Elt F) → (⟨S64x64, .f32⟩ : BufTy).Contents (Elt F)),
    StableHlo.unary main_v131 main_v132 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v132 main_v133 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v133 main_v123 main_v134 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v123 main_v134 main_v135 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v129 main_v136 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v136 main_v137 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v137 main_v135 main_v138 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v123 main_v138 main_v139 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)),
    StableHlo.unary main_v127 main_v140 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v140 main_v141 (broadcastInDim S4x12x64x64 ![0, 1, 2, 3] bcast_S1x1x64x64_S4x12x64x64_0_1_2_3 : (⟨S1x1x64x64, .f32⟩ : BufTy).Contents (Elt F) → (⟨S4x12x64x64, .f32⟩ : BufTy).Contents (Elt F)),
    StableHlo.binary main_v141 main_v139 main_v142 (subf : (⟨S4x12x64x64, .f32⟩ : BufTy).Contents (Elt F) → (⟨S4x12x64x64, .f32⟩ : BufTy).Contents (Elt F) → (⟨S4x12x64x64, .f32⟩ : BufTy).Contents (Elt F)),
    StableHlo.binary main_v125 main_v142 main_v143 ((fun l r => Host.dotGeneral dot_S4x12x64x64_S4x12x64x64_S4x12x64x64_3_2_2_3_01_01 none l r) : (⟨S4x12x64x64, .f32⟩ : BufTy).Contents (Elt F) → (⟨S4x12x64x64, .f32⟩ : BufTy).Contents (Elt F) → (⟨S4x12x64x64, .f32⟩ : BufTy).Contents (Elt F)) ]

/-- The stretch is these eight lists in a row. -/
theorem hostOps1_split : (hostOps1 : List (HloOp τ sig (Elt F))) = lEye ++ (lInit ++ (lS1 ++ (lS2 ++ (lS3 ++ (lS4 ++ (lS5 ++ lS6)))))) := rfl

/-! ## What each list leaves -/

/-- The first list leaves the identity matrix in `main_v6`. -/
theorem lEye_eye (W : Valuation τ sig (Elt F)) :
    StableHlo.after lEye W (Proc.devRef .tc main_v6) = eye := by
  simp only [lEye]
  after_results_simp
  rfl

/-- No list writes the iteration's argument. -/
theorem lEye_x (W : Valuation τ sig (Elt F)) :
    StableHlo.after lEye W (Proc.devRef .tc main_v0_1) = W (Proc.devRef .tc main_v0_1) :=
  StableHlo.after_of_forall_not_mem (b := Proc.devRef .tc main_v0_1) _ _ (List.forall_iff_forall_mem.mp (by
    simp only [lEye, List.Forall, StableHlo.nullary_writes, StableHlo.unary_writes, StableHlo.binary_writes, Finset.mem_singleton]
    repeat' apply And.intro
    all_goals exact StableHlo.devRef_ne_of_ne (by decide)))

/-- The second list leaves the iteration's start in `main_v17`. -/
theorem lInit_init (W : Valuation τ sig (Elt F)) :
    StableHlo.after lInit W (Proc.devRef .tc main_v17) = nsInit (W (Proc.devRef .tc main_v0_1)) := by
  simp only [lInit]
  after_results_simp
  rfl

theorem lInit_x (W : Valuation τ sig (Elt F)) :
    StableHlo.after lInit W (Proc.devRef .tc main_v0_1) = W (Proc.devRef .tc main_v0_1) :=
  StableHlo.after_of_forall_not_mem (b := Proc.devRef .tc main_v0_1) _ _ (List.forall_iff_forall_mem.mp (by
    simp only [lInit, List.Forall, StableHlo.nullary_writes, StableHlo.unary_writes, StableHlo.binary_writes, Finset.mem_singleton]
    repeat' apply And.intro
    all_goals exact StableHlo.devRef_ne_of_ne (by decide)))

/-- After the first list none writes the identity matrix. -/
theorem lInit_I (W : Valuation τ sig (Elt F)) :
    StableHlo.after lInit W (Proc.devRef .tc main_v6) = W (Proc.devRef .tc main_v6) :=
  StableHlo.after_of_forall_not_mem (b := Proc.devRef .tc main_v6) _ _ (List.forall_iff_forall_mem.mp (by
    simp only [lInit, List.Forall, StableHlo.nullary_writes, StableHlo.unary_writes, StableHlo.binary_writes, Finset.mem_singleton]
    repeat' apply And.intro
    all_goals exact StableHlo.devRef_ne_of_ne (by decide)))

/-- Step 1: from the argument, the identity matrix and the previous iterate, the next iterate. -/
theorem lS1_step (W : Valuation τ sig (Elt F)) :
    StableHlo.after lS1 W (Proc.devRef .tc main_v38) = nsStep (W (Proc.devRef .tc main_v0_1)) (W (Proc.devRef .tc main_v6)) (W (Proc.devRef .tc main_v17)) := by
  simp only [lS1]
  after_results_simp
  rfl

theorem lS1_x (W : Valuation τ sig (Elt F)) :
    StableHlo.after lS1 W (Proc.devRef .tc main_v0_1) = W (Proc.devRef .tc main_v0_1) :=
  StableHlo.after_of_forall_not_mem (b := Proc.devRef .tc main_v0_1) _ _ (List.forall_iff_forall_mem.mp (by
    simp only [lS1, List.Forall, StableHlo.nullary_writes, StableHlo.unary_writes, StableHlo.binary_writes, Finset.mem_singleton]
    repeat' apply And.intro
    all_goals exact StableHlo.devRef_ne_of_ne (by decide)))

theorem lS1_I (W : Valuation τ sig (Elt F)) :
    StableHlo.after lS1 W (Proc.devRef .tc main_v6) = W (Proc.devRef .tc main_v6) :=
  StableHlo.after_of_forall_not_mem (b := Proc.devRef .tc main_v6) _ _ (List.forall_iff_forall_mem.mp (by
    simp only [lS1, List.Forall, StableHlo.nullary_writes, StableHlo.unary_writes, StableHlo.binary_writes, Finset.mem_singleton]
    repeat' apply And.intro
    all_goals exact StableHlo.devRef_ne_of_ne (by decide)))

/-- Step 2: from the argument, the identity matrix and the previous iterate, the next iterate. -/
theorem lS2_step (W : Valuation τ sig (Elt F)) :
    StableHlo.after lS2 W (Proc.devRef .tc main_v59) = nsStep (W (Proc.devRef .tc main_v0_1)) (W (Proc.devRef .tc main_v6)) (W (Proc.devRef .tc main_v38)) := by
  simp only [lS2]
  after_results_simp
  rfl

theorem lS2_x (W : Valuation τ sig (Elt F)) :
    StableHlo.after lS2 W (Proc.devRef .tc main_v0_1) = W (Proc.devRef .tc main_v0_1) :=
  StableHlo.after_of_forall_not_mem (b := Proc.devRef .tc main_v0_1) _ _ (List.forall_iff_forall_mem.mp (by
    simp only [lS2, List.Forall, StableHlo.nullary_writes, StableHlo.unary_writes, StableHlo.binary_writes, Finset.mem_singleton]
    repeat' apply And.intro
    all_goals exact StableHlo.devRef_ne_of_ne (by decide)))

theorem lS2_I (W : Valuation τ sig (Elt F)) :
    StableHlo.after lS2 W (Proc.devRef .tc main_v6) = W (Proc.devRef .tc main_v6) :=
  StableHlo.after_of_forall_not_mem (b := Proc.devRef .tc main_v6) _ _ (List.forall_iff_forall_mem.mp (by
    simp only [lS2, List.Forall, StableHlo.nullary_writes, StableHlo.unary_writes, StableHlo.binary_writes, Finset.mem_singleton]
    repeat' apply And.intro
    all_goals exact StableHlo.devRef_ne_of_ne (by decide)))

/-- Step 3: from the argument, the identity matrix and the previous iterate, the next iterate. -/
theorem lS3_step (W : Valuation τ sig (Elt F)) :
    StableHlo.after lS3 W (Proc.devRef .tc main_v80) = nsStep (W (Proc.devRef .tc main_v0_1)) (W (Proc.devRef .tc main_v6)) (W (Proc.devRef .tc main_v59)) := by
  simp only [lS3]
  after_results_simp
  rfl

theorem lS3_x (W : Valuation τ sig (Elt F)) :
    StableHlo.after lS3 W (Proc.devRef .tc main_v0_1) = W (Proc.devRef .tc main_v0_1) :=
  StableHlo.after_of_forall_not_mem (b := Proc.devRef .tc main_v0_1) _ _ (List.forall_iff_forall_mem.mp (by
    simp only [lS3, List.Forall, StableHlo.nullary_writes, StableHlo.unary_writes, StableHlo.binary_writes, Finset.mem_singleton]
    repeat' apply And.intro
    all_goals exact StableHlo.devRef_ne_of_ne (by decide)))

theorem lS3_I (W : Valuation τ sig (Elt F)) :
    StableHlo.after lS3 W (Proc.devRef .tc main_v6) = W (Proc.devRef .tc main_v6) :=
  StableHlo.after_of_forall_not_mem (b := Proc.devRef .tc main_v6) _ _ (List.forall_iff_forall_mem.mp (by
    simp only [lS3, List.Forall, StableHlo.nullary_writes, StableHlo.unary_writes, StableHlo.binary_writes, Finset.mem_singleton]
    repeat' apply And.intro
    all_goals exact StableHlo.devRef_ne_of_ne (by decide)))

/-- Step 4: from the argument, the identity matrix and the previous iterate, the next iterate. -/
theorem lS4_step (W : Valuation τ sig (Elt F)) :
    StableHlo.after lS4 W (Proc.devRef .tc main_v101) = nsStep (W (Proc.devRef .tc main_v0_1)) (W (Proc.devRef .tc main_v6)) (W (Proc.devRef .tc main_v80)) := by
  simp only [lS4]
  after_results_simp
  rfl

theorem lS4_x (W : Valuation τ sig (Elt F)) :
    StableHlo.after lS4 W (Proc.devRef .tc main_v0_1) = W (Proc.devRef .tc main_v0_1) :=
  StableHlo.after_of_forall_not_mem (b := Proc.devRef .tc main_v0_1) _ _ (List.forall_iff_forall_mem.mp (by
    simp only [lS4, List.Forall, StableHlo.nullary_writes, StableHlo.unary_writes, StableHlo.binary_writes, Finset.mem_singleton]
    repeat' apply And.intro
    all_goals exact StableHlo.devRef_ne_of_ne (by decide)))

theorem lS4_I (W : Valuation τ sig (Elt F)) :
    StableHlo.after lS4 W (Proc.devRef .tc main_v6) = W (Proc.devRef .tc main_v6) :=
  StableHlo.after_of_forall_not_mem (b := Proc.devRef .tc main_v6) _ _ (List.forall_iff_forall_mem.mp (by
    simp only [lS4, List.Forall, StableHlo.nullary_writes, StableHlo.unary_writes, StableHlo.binary_writes, Finset.mem_singleton]
    repeat' apply And.intro
    all_goals exact StableHlo.devRef_ne_of_ne (by decide)))

/-- Step 5: from the argument, the identity matrix and the previous iterate, the next iterate. -/
theorem lS5_step (W : Valuation τ sig (Elt F)) :
    StableHlo.after lS5 W (Proc.devRef .tc main_v122) = nsStep (W (Proc.devRef .tc main_v0_1)) (W (Proc.devRef .tc main_v6)) (W (Proc.devRef .tc main_v101)) := by
  simp only [lS5]
  after_results_simp
  rfl

theorem lS5_x (W : Valuation τ sig (Elt F)) :
    StableHlo.after lS5 W (Proc.devRef .tc main_v0_1) = W (Proc.devRef .tc main_v0_1) :=
  StableHlo.after_of_forall_not_mem (b := Proc.devRef .tc main_v0_1) _ _ (List.forall_iff_forall_mem.mp (by
    simp only [lS5, List.Forall, StableHlo.nullary_writes, StableHlo.unary_writes, StableHlo.binary_writes, Finset.mem_singleton]
    repeat' apply And.intro
    all_goals exact StableHlo.devRef_ne_of_ne (by decide)))

theorem lS5_I (W : Valuation τ sig (Elt F)) :
    StableHlo.after lS5 W (Proc.devRef .tc main_v6) = W (Proc.devRef .tc main_v6) :=
  StableHlo.after_of_forall_not_mem (b := Proc.devRef .tc main_v6) _ _ (List.forall_iff_forall_mem.mp (by
    simp only [lS5, List.Forall, StableHlo.nullary_writes, StableHlo.unary_writes, StableHlo.binary_writes, Finset.mem_singleton]
    repeat' apply And.intro
    all_goals exact StableHlo.devRef_ne_of_ne (by decide)))

/-- Step 6: from the argument, the identity matrix and the previous iterate, the next iterate. -/
theorem lS6_step (W : Valuation τ sig (Elt F)) :
    StableHlo.after lS6 W (Proc.devRef .tc main_v143) = nsStep (W (Proc.devRef .tc main_v0_1)) (W (Proc.devRef .tc main_v6)) (W (Proc.devRef .tc main_v122)) := by
  simp only [lS6]
  after_results_simp
  rfl

theorem lS6_x (W : Valuation τ sig (Elt F)) :
    StableHlo.after lS6 W (Proc.devRef .tc main_v0_1) = W (Proc.devRef .tc main_v0_1) :=
  StableHlo.after_of_forall_not_mem (b := Proc.devRef .tc main_v0_1) _ _ (List.forall_iff_forall_mem.mp (by
    simp only [lS6, List.Forall, StableHlo.nullary_writes, StableHlo.unary_writes, StableHlo.binary_writes, Finset.mem_singleton]
    repeat' apply And.intro
    all_goals exact StableHlo.devRef_ne_of_ne (by decide)))

theorem lS6_I (W : Valuation τ sig (Elt F)) :
    StableHlo.after lS6 W (Proc.devRef .tc main_v6) = W (Proc.devRef .tc main_v6) :=
  StableHlo.after_of_forall_not_mem (b := Proc.devRef .tc main_v6) _ _ (List.forall_iff_forall_mem.mp (by
    simp only [lS6, List.Forall, StableHlo.nullary_writes, StableHlo.unary_writes, StableHlo.binary_writes, Finset.mem_singleton]
    repeat' apply And.intro
    all_goals exact StableHlo.devRef_ne_of_ne (by decide)))

/-! ## The stretch -/

/-- The stretch's last result, the approximate inverse, is the iteration run on `main_v0_1`'s contents. -/
theorem after_hostOps1_ainv (W : Valuation τ sig (Elt F)) :
    StableHlo.after hostOps1 W (Proc.devRef .tc main_v143) = NS (W (Proc.devRef .tc main_v0_1)) := by
  rw [hostOps1_split]
  simp only [StableHlo.after_append]
  rw [lS6_step, lS5_x, lS5_I, lS5_step, lS4_x, lS4_I, lS4_step, lS3_x, lS3_I, lS3_step, lS2_x, lS2_I, lS2_step, lS1_x, lS1_I, lS1_step, lInit_x, lInit_I, lInit_init, lEye_x, lEye_eye]
  rfl

/-- The stretch writes none of the arrays region 2 reads besides its own result. -/
theorem after_hostOps1_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    delta hostOps1
    simp only [List.Forall, StableHlo.nullary_writes, StableHlo.unary_writes, StableHlo.binary_writes, Finset.mem_singleton]
    repeat' apply And.intro
    all_goals exact StableHlo.devRef_ne_of_ne (by decide)))

theorem after_hostOps1_v0_0 (W : Valuation τ sig (Elt F)) :
    StableHlo.after hostOps1 W (Proc.devRef .tc main_v0_0) = W (Proc.devRef .tc main_v0_0) :=
  StableHlo.after_of_forall_not_mem (b := Proc.devRef .tc main_v0_0) _ _ (List.forall_iff_forall_mem.mp (by
    delta hostOps1
    simp only [List.Forall, StableHlo.nullary_writes, StableHlo.unary_writes, StableHlo.binary_writes, Finset.mem_singleton]
    repeat' apply And.intro
    all_goals exact StableHlo.devRef_ne_of_ne (by decide)))

theorem after_hostOps1_v0_2 (W : Valuation τ sig (Elt F)) :
    StableHlo.after hostOps1 W (Proc.devRef .tc main_v0_2) = W (Proc.devRef .tc main_v0_2) :=
  StableHlo.after_of_forall_not_mem (b := Proc.devRef .tc main_v0_2) _ _ (List.forall_iff_forall_mem.mp (by
    delta hostOps1
    simp only [List.Forall, StableHlo.nullary_writes, StableHlo.unary_writes, StableHlo.binary_writes, Finset.mem_singleton]
    repeat' apply And.intro
    all_goals exact StableHlo.devRef_ne_of_ne (by decide)))

end Cert.KernelIdeal.Val

end
-- ==== Proof.KReg0.lean ====
/-
  Stage 1 (the first kernel region) as a value: after its twelve grid points the three output arrays hold, at
  (b, h, r, c), the body's stored values for head (b, h). A grid point (b, g) runs four trips, trip k for head
  h = 4 g + k; the trip stores one [1,1,64,64] piece per output at head offset k, and the four pieces tile the
  point's [1,4,64,64] block; the twelve blocks tile the array.
-/
import proofs.«411036_j71038759076379_3_alg».proof.Proof.Gen.KernelIdeal.Frame
import proofs.«411036_j71038759076379_3_alg».proof.Proof.KBlocks
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-! ## One trip's stored values, and the block they tile -/

/-- The three loaded [1,1,4096,64] blocks of a trip go to one stored [1,1,64,64] block. -/
abbrev r0_Pay (F : FTy → Type) [FloatOps F] : Type :=
  Vec F S1x1x4096x64 .f32 → Vec F S1x1x4096x64 .f32 → Vec F S1x1x4096x64 .f32 → Vec F S1x1x64x64 .f32

/-- The stored value of the first output: the pooled scaled keys. -/
def r0_P3 : r0_Pay F := fun _ v9 _ => k0_pay1 (k0_pay8 v9)
/-- The stored value of the second output: the small softmax matrix. -/
def r0_P4 : r0_Pay F := fun v4 v9 _ => k0_pay2 (k0_pay9 v4 v9)
/-- The stored value of the third output: the wide softmax matrix times the values. -/
def r0_P5 : r0_Pay F := fun v4 v9 v14 => k0_pay3 (k0_pay5 v14) (k0_pay6 v9) (k0_pay10 v4)

/-- Head `k` of a [1,4,4096,64] block, as a [1,1,4096,64] block. -/
def r0_hdB (x : Vec F S1x4x4096x64 .f32) (k : Fin 4) : Vec F S1x1x4096x64 .f32 :=
  fun z => x (ValueIdx.ix4 0 k (z 2) (z 3))

/-- The [1,4,64,64] block whose head `k` is the stored value of head `k` of the three input blocks. -/
def r0_tile (P : r0_Pay F) (x0 x1 x2 : Vec F S1x4x4096x64 .f32) : Vec F S1x4x64x64 .f32 :=
  fun y => P (r0_hdB x0 (y 1)) (r0_hdB x1 (y 1)) (r0_hdB x2 (y 1)) (ValueIdx.ix4 0 0 (y 2) (y 3))

/-- Trip `k`'s store: at head offset `k` of the output block, the stored value of the loads at head offset `k` of
    the input blocks. -/
def r0_piece (P : r0_Pay F) (k : Fin k0_t1_loop.trips) (x0 x1 x2 : Vec F S1x4x4096x64 .f32) :
    View.Piece (Elt F) S1x4x64x64 .f32 :=
  ⟨Rect.unit (k0_off2 k) S1x1x64x64.size (k0_off2_inb k),
    P (View.ld x0 (Rect.unit (k0_off1 k) S1x1x4096x64.size (k0_off1_inb k)))
      (View.ld x1 (Rect.unit (k0_off1 k) S1x1x4096x64.size (k0_off1_inb k)))
      (View.ld x2 (Rect.unit (k0_off1 k) S1x1x4096x64.size (k0_off1_inb k)))⟩

/-- One trip's three stores are `r0_piece`s at the trip's head offset. -/
theorem r0_trip_pieces (c : Dev nD) (i : grid0.Coords) (arg2 : Memref sig .tc .vmem S1x4x4096x64 .f32) (harg2 : arg2.IsWhole) (arg3 : Memref sig .tc .vmem S1x4x4096x64 .f32) (harg3 : arg3.IsWhole) (arg4 : Memref sig .tc .vmem S1x4x4096x64 .f32) (harg4 : arg4.IsWhole) (arg5 : Memref sig .tc .vmem S1x4x64x64 .f32) (harg5 : arg5.IsWhole) (arg6 : Memref sig .tc .vmem S1x4x64x64 .f32) (harg6 : arg6.IsWhole) (arg7 : Memref sig .tc .vmem S1x4x64x64 .f32) (harg7 : arg7.IsWhole) (x0 : Vec F S1x4x4096x64 .f32) (x1 : Vec F S1x4x4096x64 .f32) (x2 : Vec F S1x4x4096x64 .f32) (k : Fin k0_t1_loop.trips) :
    tripL_k0_t1 (F := F) Variants.none c none i arg2 harg2 arg3 harg3 arg4 harg4 arg5 harg5 arg6 harg6 arg7 harg7 (harg2.unread x0) (harg3.unread x1) (harg4.unread x2) k
      = ([r0_piece r0_P3 k x0 x1 x2], [r0_piece r0_P4 k x0 x1 x2], [r0_piece r0_P5 k x0 x1 x2]) := by
  unfold tripL_k0_t1 trip_k0_t1
  dsimp only
  sl_unfold_run_names
  simp only [View.readAt_eq_ld, harg2.read_unread, harg3.read_unread, harg4.read_unread]
  rfl

/-- Every store of the trips before `n` is some trip's `r0_piece`, output by output. -/
theorem r0_pb_pieces (c : Dev nD) (i : grid0.Coords) (arg2 : Memref sig .tc .vmem S1x4x4096x64 .f32) (harg2 : arg2.IsWhole) (arg3 : Memref sig .tc .vmem S1x4x4096x64 .f32) (harg3 : arg3.IsWhole) (arg4 : Memref sig .tc .vmem S1x4x4096x64 .f32) (harg4 : arg4.IsWhole) (arg5 : Memref sig .tc .vmem S1x4x64x64 .f32) (harg5 : arg5.IsWhole) (arg6 : Memref sig .tc .vmem S1x4x64x64 .f32) (harg6 : arg6.IsWhole) (arg7 : Memref sig .tc .vmem S1x4x64x64 .f32) (harg7 : arg7.IsWhole) (x0 : Vec F S1x4x4096x64 .f32) (x1 : Vec F S1x4x4096x64 .f32) (x2 : Vec F S1x4x4096x64 .f32) : ∀ n : ℕ, n ≤ k0_t1_loop.trips →
    (∀ p ∈ (pb_k0_t1 (F := F) Variants.none c none i arg2 harg2 arg3 harg3 arg4 harg4 arg5 harg5 arg6 harg6 arg7 harg7 (harg2.unread x0) (harg3.unread x1) (harg4.unread x2) n).1, ∃ k, p = r0_piece r0_P3 k x0 x1 x2)
    ∧ (∀ p ∈ (pb_k0_t1 (F := F) Variants.none c none i arg2 harg2 arg3 harg3 arg4 harg4 arg5 harg5 arg6 harg6 arg7 harg7 (harg2.unread x0) (harg3.unread x1) (harg4.unread x2) n).2.1, ∃ k, p = r0_piece r0_P4 k x0 x1 x2)
    ∧ (∀ p ∈ (pb_k0_t1 (F := F) Variants.none c none i arg2 harg2 arg3 harg3 arg4 harg4 arg5 harg5 arg6 harg6 arg7 harg7 (harg2.unread x0) (harg3.unread x1) (harg4.unread x2) n).2.2, ∃ k, p = r0_piece r0_P5 k x0 x1 x2)
  | 0, _ => ⟨fun p hp => absurd hp List.not_mem_nil, fun p hp => absurd hp List.not_mem_nil,
      fun p hp => absurd hp List.not_mem_nil⟩
  | n + 1, hn => by
    obtain ⟨h3, h4, h5⟩ := r0_pb_pieces c i arg2 harg2 arg3 harg3 arg4 harg4 arg5 harg5 arg6 harg6 arg7 harg7 x0 x1 x2 n (Nat.le_of_succ_le hn)
    have e : (pb_k0_t1 (F := F) Variants.none c none i arg2 harg2 arg3 harg3 arg4 harg4 arg5 harg5 arg6 harg6 arg7 harg7 (harg2.unread x0) (harg3.unread x1) (harg4.unread x2) (n + 1)) = _ :=
      pb_k0_t1_succ (F := F) Variants.none c none i arg2 harg2 arg3 harg3 arg4 harg4 arg5 harg5 arg6 harg6 arg7 harg7 (harg2.unread x0) (harg3.unread x1) (harg4.unread x2) ⟨n, hn⟩
    rw [r0_trip_pieces] at e
    rw [e]
    refine ⟨fun p hp => ?_, fun p hp => ?_, fun p hp => ?_⟩
    · rcases List.mem_append.mp hp with h | h
      · exact ⟨⟨n, hn⟩, List.mem_singleton.mp h⟩
      · exact h3 p h
    · rcases List.mem_append.mp hp with h | h
      · exact ⟨⟨n, hn⟩, List.mem_singleton.mp h⟩
      · exact h4 p h
    · rcases List.mem_append.mp hp with h | h
      · exact ⟨⟨n, hn⟩, List.mem_singleton.mp h⟩
      · exact h5 p h

/-- The run's three lists of stores are the lists of all the trips. -/
theorem r0_run_lists (c : Dev nD) (i : grid0.Coords) (arg2 : Memref sig .tc .vmem S1x4x4096x64 .f32) (harg2 : arg2.IsWhole) (arg3 : Memref sig .tc .vmem S1x4x4096x64 .f32) (harg3 : arg3.IsWhole) (arg4 : Memref sig .tc .vmem S1x4x4096x64 .f32) (harg4 : arg4.IsWhole) (arg5 : Memref sig .tc .vmem S1x4x64x64 .f32) (harg5 : arg5.IsWhole) (arg6 : Memref sig .tc .vmem S1x4x64x64 .f32) (harg6 : arg6.IsWhole) (arg7 : Memref sig .tc .vmem S1x4x64x64 .f32) (harg7 : arg7.IsWhole) (x0 : Vec F S1x4x4096x64 .f32) (x1 : Vec F S1x4x4096x64 .f32) (x2 : Vec F S1x4x4096x64 .f32) :
    (kernelRun0_A c i arg2 harg2 arg3 harg3 arg4 harg4 arg5 harg5 arg6 harg6 arg7 harg7 x0 x1 x2).1 = (pb_k0_t1 (F := F) Variants.none c none i arg2 harg2 arg3 harg3 arg4 harg4 arg5 harg5 arg6 harg6 arg7 harg7 (harg2.unread x0) (harg3.unread x1) (harg4.unread x2) k0_t1_loop.trips).1
    ∧ (kernelRun0_A c i arg2 harg2 arg3 harg3 arg4 harg4 arg5 harg5 arg6 harg6 arg7 harg7 x0 x1 x2).2.1 = (pb_k0_t1 (F := F) Variants.none c none i arg2 harg2 arg3 harg3 arg4 harg4 arg5 harg5 arg6 harg6 arg7 harg7 (harg2.unread x0) (harg3.unread x1) (harg4.unread x2) k0_t1_loop.trips).2.1
    ∧ (kernelRun0_A c i arg2 harg2 arg3 harg3 arg4 harg4 arg5 harg5 arg6 harg6 arg7 harg7 x0 x1 x2).2.2.1 = (pb_k0_t1 (F := F) Variants.none c none i arg2 harg2 arg3 harg3 arg4 harg4 arg5 harg5 arg6 harg6 arg7 harg7 (harg2.unread x0) (harg3.unread x1) (harg4.unread x2) k0_t1_loop.trips).2.2 := by
  unfold kernelRun0_A
  exact ⟨rfl, rfl, rfl⟩

/-- A trip's load rectangle reads head `k` of an input block. -/
theorem r0_ld_head (k : Fin k0_t1_loop.trips) (h : Fin 4) (hk : h.val = k.val) (x : Vec F S1x4x4096x64 .f32) :
    View.ld x (Rect.unit (k0_off1 k) S1x1x4096x64.size (k0_off1_inb k)) = r0_hdB x h := by
  have o := k0_off1_eq k
  have q0 : k0_off1 k 0 = 0 := congrFun o 0
  have q1 : k0_off1 k 1 = k.val := congrFun o 1
  have q2 : k0_off1 k 2 = 0 := congrFun o 2
  have q3 : k0_off1 k 3 = 0 := congrFun o 3
  funext z
  show x ((Rect.unit (s := S1x4x4096x64) (k0_off1 k) S1x1x4096x64.size (k0_off1_inb k)).idx z) = x (ValueIdx.ix4 0 h (z 2) (z 3))
  congr 1
  funext a; apply Fin.ext
  have z0 : (z 0).val < 1 := (z 0).isLt
  have z1 : (z 1).val < 1 := (z 1).isLt
  match a with
  | ⟨0, _⟩ => show k0_off1 k 0 + 1 * (z 0).val = 0; omega
  | ⟨1, _⟩ => show k0_off1 k 1 + 1 * (z 1).val = h.val; omega
  | ⟨2, _⟩ => show k0_off1 k 2 + 1 * (z 2).val = (z 2).val; omega
  | ⟨3, _⟩ => show k0_off1 k 3 + 1 * (z 3).val = (z 3).val; omega

/-- A trip's store agrees with the tiled block: at its own index `x` it holds the value of `r0_tile` at the block index
    its rectangle gives `x`. -/
theorem r0_piece_tile (P : r0_Pay F) (k : Fin k0_t1_loop.trips) (x0 x1 x2 : Vec F S1x4x4096x64 .f32)
    (x : (r0_piece P k x0 x1 x2).1.shape.Idx) :
    (r0_piece P k x0 x1 x2).2 x = r0_tile P x0 x1 x2 ((r0_piece P k x0 x1 x2).1.emb x) := by
  have o := k0_off2_eq k
  have q0 : k0_off2 k 0 = 0 := congrFun o 0
  have q1 : k0_off2 k 1 = k.val := congrFun o 1
  have q2 : k0_off2 k 2 = 0 := congrFun o 2
  have q3 : k0_off2 k 3 = 0 := congrFun o 3
  have x0' : (x 0).val < 1 := (x 0).isLt
  have x1' : (x 1).val < 1 := (x 1).isLt
  have hh : (((r0_piece P k x0 x1 x2).1.emb x) 1).val = k.val := by
    show k0_off2 k 1 + 1 * (x 1).val = k.val; omega
  have hx : x = ValueIdx.ix4 0 0 (((r0_piece P k x0 x1 x2).1.emb x) 2) (((r0_piece P k x0 x1 x2).1.emb x) 3) := by
    funext a; apply Fin.ext
    match a with
    | ⟨0, _⟩ => show (x 0).val = 0; omega
    | ⟨1, _⟩ => show (x 1).val = 0; omega
    | ⟨2, _⟩ => show (x 2).val = k0_off2 k 2 + 1 * (x 2).val; omega
    | ⟨3, _⟩ => show (x 3).val = k0_off2 k 3 + 1 * (x 3).val; omega
  show P (View.ld x0 (Rect.unit (k0_off1 k) S1x1x4096x64.size (k0_off1_inb k)))
      (View.ld x1 (Rect.unit (k0_off1 k) S1x1x4096x64.size (k0_off1_inb k)))
      (View.ld x2 (Rect.unit (k0_off1 k) S1x1x4096x64.size (k0_off1_inb k))) x
    = P (r0_hdB x0 (((r0_piece P k x0 x1 x2).1.emb x) 1)) (r0_hdB x1 (((r0_piece P k x0 x1 x2).1.emb x) 1))
        (r0_hdB x2 (((r0_piece P k x0 x1 x2).1.emb x) 1))
        (ValueIdx.ix4 0 0 (((r0_piece P k x0 x1 x2).1.emb x) 2) (((r0_piece P k x0 x1 x2).1.emb x) 3))
  rw [r0_ld_head k _ hh x0, r0_ld_head k _ hh x1, r0_ld_head k _ hh x2]
  exact congrArg _ hx

/-- What the run leaves in output 3's staging buffer is the tiled block of its stored value. -/
theorem r0_out3_eq (c : Dev nD) (i : grid0.Coords) (arg2 : Memref sig .tc .vmem S1x4x4096x64 .f32) (harg2 : arg2.IsWhole) (arg3 : Memref sig .tc .vmem S1x4x4096x64 .f32) (harg3 : arg3.IsWhole) (arg4 : Memref sig .tc .vmem S1x4x4096x64 .f32) (harg4 : arg4.IsWhole) (arg5 : Memref sig .tc .vmem S1x4x64x64 .f32) (harg5 : arg5.IsWhole) (arg6 : Memref sig .tc .vmem S1x4x64x64 .f32) (harg6 : arg6.IsWhole) (arg7 : Memref sig .tc .vmem S1x4x64x64 .f32) (harg7 : arg7.IsWhole) (x0 : Vec F S1x4x4096x64 .f32) (x1 : Vec F S1x4x4096x64 .f32) (x2 : Vec F S1x4x4096x64 .f32) :
    out0_A_3 c i arg2 harg2 arg3 harg3 arg4 harg4 arg5 harg5 arg6 harg6 arg7 harg7 x0 x1 x2 = r0_tile r0_P3 x0 x1 x2 := by
  unfold out0_A_3
  rw [View.read_writes_eq_canon _ _ _ (cover0_A_3 c i arg2 harg2 arg3 harg3 arg4 harg4 arg5 harg5 arg6 harg6 arg7 harg7 x0 x1 x2)]
  funext y
  refine View.canon_apply_of_pieces (r0_tile r0_P3 x0 x1 x2) _ (fun p hp x => ?_) y (cover0_A_3 c i arg2 harg2 arg3 harg3 arg4 harg4 arg5 harg5 arg6 harg6 arg7 harg7 x0 x1 x2 y)
  rw [(r0_run_lists c i arg2 harg2 arg3 harg3 arg4 harg4 arg5 harg5 arg6 harg6 arg7 harg7 x0 x1 x2).1] at hp
  obtain ⟨k, rfl⟩ := (r0_pb_pieces c i arg2 harg2 arg3 harg3 arg4 harg4 arg5 harg5 arg6 harg6 arg7 harg7 x0 x1 x2 _ (Nat.le_refl _)).1 p hp
  exact r0_piece_tile r0_P3 k x0 x1 x2 x

/-- What the run leaves in output 4's staging buffer is the tiled block of its stored value. -/
theorem r0_out4_eq (c : Dev nD) (i : grid0.Coords) (arg2 : Memref sig .tc .vmem S1x4x4096x64 .f32) (harg2 : arg2.IsWhole) (arg3 : Memref sig .tc .vmem S1x4x4096x64 .f32) (harg3 : arg3.IsWhole) (arg4 : Memref sig .tc .vmem S1x4x4096x64 .f32) (harg4 : arg4.IsWhole) (arg5 : Memref sig .tc .vmem S1x4x64x64 .f32) (harg5 : arg5.IsWhole) (arg6 : Memref sig .tc .vmem S1x4x64x64 .f32) (harg6 : arg6.IsWhole) (arg7 : Memref sig .tc .vmem S1x4x64x64 .f32) (harg7 : arg7.IsWhole) (x0 : Vec F S1x4x4096x64 .f32) (x1 : Vec F S1x4x4096x64 .f32) (x2 : Vec F S1x4x4096x64 .f32) :
    out0_A_4 c i arg2 harg2 arg3 harg3 arg4 harg4 arg5 harg5 arg6 harg6 arg7 harg7 x0 x1 x2 = r0_tile r0_P4 x0 x1 x2 := by
  unfold out0_A_4
  rw [View.read_writes_eq_canon _ _ _ (cover0_A_4 c i arg2 harg2 arg3 harg3 arg4 harg4 arg5 harg5 arg6 harg6 arg7 harg7 x0 x1 x2)]
  funext y
  refine View.canon_apply_of_pieces (r0_tile r0_P4 x0 x1 x2) _ (fun p hp x => ?_) y (cover0_A_4 c i arg2 harg2 arg3 harg3 arg4 harg4 arg5 harg5 arg6 harg6 arg7 harg7 x0 x1 x2 y)
  rw [(r0_run_lists c i arg2 harg2 arg3 harg3 arg4 harg4 arg5 harg5 arg6 harg6 arg7 harg7 x0 x1 x2).2.1] at hp
  obtain ⟨k, rfl⟩ := (r0_pb_pieces c i arg2 harg2 arg3 harg3 arg4 harg4 arg5 harg5 arg6 harg6 arg7 harg7 x0 x1 x2 _ (Nat.le_refl _)).2.1 p hp
  exact r0_piece_tile r0_P4 k x0 x1 x2 x

/-- What the run leaves in output 5's staging buffer is the tiled block of its stored value. -/
theorem r0_out5_eq (c : Dev nD) (i : grid0.Coords) (arg2 : Memref sig .tc .vmem S1x4x4096x64 .f32) (harg2 : arg2.IsWhole) (arg3 : Memref sig .tc .vmem S1x4x4096x64 .f32) (harg3 : arg3.IsWhole) (arg4 : Memref sig .tc .vmem S1x4x4096x64 .f32) (harg4 : arg4.IsWhole) (arg5 : Memref sig .tc .vmem S1x4x64x64 .f32) (harg5 : arg5.IsWhole) (arg6 : Memref sig .tc .vmem S1x4x64x64 .f32) (harg6 : arg6.IsWhole) (arg7 : Memref sig .tc .vmem S1x4x64x64 .f32) (harg7 : arg7.IsWhole) (x0 : Vec F S1x4x4096x64 .f32) (x1 : Vec F S1x4x4096x64 .f32) (x2 : Vec F S1x4x4096x64 .f32) :
    out0_A_5 c i arg2 harg2 arg3 harg3 arg4 harg4 arg5 harg5 arg6 harg6 arg7 harg7 x0 x1 x2 = r0_tile r0_P5 x0 x1 x2 := by
  unfold out0_A_5
  rw [View.read_writes_eq_canon _ _ _ (cover0_A_5 c i arg2 harg2 arg3 harg3 arg4 harg4 arg5 harg5 arg6 harg6 arg7 harg7 x0 x1 x2)]
  funext y
  refine View.canon_apply_of_pieces (r0_tile r0_P5 x0 x1 x2) _ (fun p hp x => ?_) y (cover0_A_5 c i arg2 harg2 arg3 harg3 arg4 harg4 arg5 harg5 arg6 harg6 arg7 harg7 x0 x1 x2 y)
  rw [(r0_run_lists c i arg2 harg2 arg3 harg3 arg4 harg4 arg5 harg5 arg6 harg6 arg7 harg7 x0 x1 x2).2.2] at hp
  obtain ⟨k, rfl⟩ := (r0_pb_pieces c i arg2 harg2 arg3 harg3 arg4 harg4 arg5 harg5 arg6 harg6 arg7 harg7 x0 x1 x2 _ (Nat.le_refl _)).2.2 p hp
  exact r0_piece_tile r0_P5 k x0 x1 x2 x

/-! ## From the blocks to the arrays -/

/-- The [4,12,64,64] array whose head (b, h) is the stored value of head (b, h) of the three input arrays. -/
def r0_arrOf (P : r0_Pay F) (A0 A1 A2 : Vec F S4x12x4096x64 .f32) : Vec F S4x12x64x64 .f32 :=
  fun i => P (blkT A0 (i 0) (i 1)) (blkT A1 (i 0) (i 1)) (blkT A2 (i 0) (i 1)) (ValueIdx.ix4 0 0 (i 2) (i 3))

/-- An input block sits in its array at block index (a0, a1, 0, 0): a block's coordinate is index × size + the
    coordinate inside the block. -/
def r0_SitsAt (x : Vec F S1x4x4096x64 .f32) (A : Vec F S4x12x4096x64 .f32) (a0 a1 : ℕ) : Prop :=
  ∀ (z : S1x4x4096x64.Idx) (i' : S4x12x4096x64.Idx), (i' 0).val = a0 * 1 + 1 * (z 0).val →
    (i' 1).val = a1 * 4 + 1 * (z 1).val → (i' 2).val = 0 * 4096 + 1 * (z 2).val → (i' 3).val = 0 * 64 + 1 * (z 3).val →
    x z = A i'

/-- Head `k` of a block at block index (a0, a1, 0, 0) is head (a0, 4 a1 + k) of the array. -/
theorem r0_hdB_eq_blkT (A : Vec F S4x12x4096x64 .f32) (x : Vec F S1x4x4096x64 .f32) (a0 a1 : ℕ) (hx : r0_SitsAt x A a0 a1)
    (k : Fin 4) (b : Fin 4) (h : Fin 12) (hb : b.val = a0) (hh : h.val = a1 * 4 + k.val) :
    r0_hdB x k = blkT A b h := by
  funext z
  refine hx (ValueIdx.ix4 0 k (z 2) (z 3)) (ValueIdx.ix4 b h (z 2) (z 3)) ?_ ?_ ?_ ?_
  · show b.val = a0 * 1 + 1 * 0; omega
  · show h.val = a1 * 4 + 1 * k.val; omega
  · show (z 2).val = 0 * 4096 + 1 * (z 2).val; omega
  · show (z 3).val = 0 * 64 + 1 * (z 3).val; omega

/-- The tiled block of blocks at block index (a0, a1, 0, 0) is the block of `r0_arrOf` at that block index. -/
theorem r0_tile_eq_arr (P : r0_Pay F) (A0 A1 A2 : Vec F S4x12x4096x64 .f32) (x0 x1 x2 : Vec F S1x4x4096x64 .f32) (a0 a1 : ℕ)
    (h0 : r0_SitsAt x0 A0 a0 a1) (h1 : r0_SitsAt x1 A1 a0 a1) (h2 : r0_SitsAt x2 A2 a0 a1)
    (j : S1x4x64x64.Idx) (i : S4x12x64x64.Idx) (hi0 : (i 0).val = a0 * 1 + 1 * (j 0).val)
    (hi1 : (i 1).val = a1 * 4 + 1 * (j 1).val) (hi2 : (i 2).val = 0 * 64 + 1 * (j 2).val)
    (hi3 : (i 3).val = 0 * 64 + 1 * (j 3).val) :
    r0_tile P x0 x1 x2 j = r0_arrOf P A0 A1 A2 i := by
  have j0 : (j 0).val < 1 := (j 0).isLt
  have hb : (i 0).val = a0 := by omega
  have hh : (i 1).val = a1 * 4 + (j 1).val := by omega
  have hx : ValueIdx.ix4 (0 : Fin 1) (0 : Fin 1) (j 2) (j 3) = ValueIdx.ix4 (0 : Fin 1) (0 : Fin 1) (i 2) (i 3) := by
    funext a; apply Fin.ext
    match a with
    | ⟨0, _⟩ => rfl
    | ⟨1, _⟩ => rfl
    | ⟨2, _⟩ => show (j 2).val = (i 2).val; omega
    | ⟨3, _⟩ => show (j 3).val = (i 3).val; omega
  show P (r0_hdB x0 (j 1)) (r0_hdB x1 (j 1)) (r0_hdB x2 (j 1)) (ValueIdx.ix4 0 0 (j 2) (j 3))
    = P (blkT A0 (i 0) (i 1)) (blkT A1 (i 0) (i 1)) (blkT A2 (i 0) (i 1)) (ValueIdx.ix4 0 0 (i 2) (i 3))
  rw [r0_hdB_eq_blkT A0 x0 a0 a1 h0 (j 1) (i 0) (i 1) hb hh, r0_hdB_eq_blkT A1 x1 a0 a1 h1 (j 1) (i 0) (i 1) hb hh,
    r0_hdB_eq_blkT A2 x2 a0 a1 h2 (j 1) (i 0) (i 1) hb hh]
  exact congrArg _ hx

/-- The index maps over the grid: every window's block index is (b, g, 0, 0) at the point of
    coordinates (b, g), the same for the six windows, with b below 4 and g below 3. -/
theorem r0_idx_facts : ∀ t : Fin cfg0.N,
    (win0_0.index t = win0_3.index t ∧ win0_1.index t = win0_3.index t ∧ win0_2.index t = win0_3.index t
      ∧ win0_4.index t = win0_3.index t ∧ win0_5.index t = win0_3.index t)
    ∧ win0_3.index t (0 : Fin 4) ≤ 3 ∧ win0_3.index t (1 : Fin 4) ≤ 2
    ∧ win0_3.index t (2 : Fin 4) = 0 ∧ win0_3.index t (3 : Fin 4) = 0 :=
  (by decide +kernel : ∀ t : Fin grid0.N, _)

/-- Every block index (b, g, 0, 0) is some point's. -/
theorem r0_idx_onto : ∀ (q0 : Fin 4) (q1 : Fin 3), ∃ t : Fin cfg0.N, win0_3.index t = ![q0.val, q1.val, 0, 0] :=
  (by decide +kernel : ∀ (q0 : Fin 4) (q1 : Fin 3), ∃ t : Fin grid0.N, win0_3.index t = ![q0.val, q1.val, 0, 0])

/-- The input blocks at a point, at their literal type. -/
abbrev r0_xb0 (c : Dev nD) (t : Fin cfg0.N) : Vec F S1x4x4096x64 .f32 := iblk0 V c 0 t
abbrev r0_xb1 (c : Dev nD) (t : Fin cfg0.N) : Vec F S1x4x4096x64 .f32 := iblk0 V c 1 t
abbrev r0_xb2 (c : Dev nD) (t : Fin cfg0.N) : Vec F S1x4x4096x64 .f32 := iblk0 V c 2 t
/-- The input arrays as the region finds them, at their literal type. -/
abbrev r0_ar0 (c : Dev nD) : Vec F S4x12x4096x64 .f32 := V c main_arg0
abbrev r0_ar1 (c : Dev nD) : Vec F S4x12x4096x64 .f32 := V c main_arg1
abbrev r0_ar2 (c : Dev nD) : Vec F S4x12x4096x64 .f32 := V c main_arg2

/-- Each input block at point `t` sits in its array at the output's block index. -/
theorem r0_sits0 (c : Dev nD) (t : Fin cfg0.N) :
    r0_SitsAt (r0_xb0 V c t) (r0_ar0 V c) (win0_3.index t (0 : Fin 4)) (win0_3.index t (1 : Fin 4)) := by
  obtain ⟨⟨e0, e1, e2, e4, e5⟩, b0, b1, z2, z3⟩ := r0_idx_facts t
  intro z i' h0 h1 h2 h3
  show V c main_arg0 (((cfg0.win 0).blk t).view.emb z) = V c main_arg0 i'
  congr 1
  funext a; apply Fin.ext
  match a with
  | ⟨0, _⟩ => show win0_0.index t (0 : Fin 4) * 1 + 1 * (z 0).val = (i' 0).val; rw [e0]; omega
  | ⟨1, _⟩ => show win0_0.index t (1 : Fin 4) * 4 + 1 * (z 1).val = (i' 1).val; rw [e0]; omega
  | ⟨2, _⟩ => show win0_0.index t (2 : Fin 4) * 4096 + 1 * (z 2).val = (i' 2).val; rw [e0, z2]; omega
  | ⟨3, _⟩ => show win0_0.index t (3 : Fin 4) * 64 + 1 * (z 3).val = (i' 3).val; rw [e0, z3]; omega

theorem r0_sits1 (c : Dev nD) (t : Fin cfg0.N) :
    r0_SitsAt (r0_xb1 V c t) (r0_ar1 V c) (win0_3.index t (0 : Fin 4)) (win0_3.index t (1 : Fin 4)) := by
  obtain ⟨⟨e0, e1, e2, e4, e5⟩, b0, b1, z2, z3⟩ := r0_idx_facts t
  intro z i' h0 h1 h2 h3
  show V c main_arg1 (((cfg0.win 1).blk t).view.emb z) = V c main_arg1 i'
  congr 1
  funext a; apply Fin.ext
  match a with
  | ⟨0, _⟩ => show win0_1.index t (0 : Fin 4) * 1 + 1 * (z 0).val = (i' 0).val; rw [e1]; omega
  | ⟨1, _⟩ => show win0_1.index t (1 : Fin 4) * 4 + 1 * (z 1).val = (i' 1).val; rw [e1]; omega
  | ⟨2, _⟩ => show win0_1.index t (2 : Fin 4) * 4096 + 1 * (z 2).val = (i' 2).val; rw [e1, z2]; omega
  | ⟨3, _⟩ => show win0_1.index t (3 : Fin 4) * 64 + 1 * (z 3).val = (i' 3).val; rw [e1, z3]; omega

theorem r0_sits2 (c : Dev nD) (t : Fin cfg0.N) :
    r0_SitsAt (r0_xb2 V c t) (r0_ar2 V c) (win0_3.index t (0 : Fin 4)) (win0_3.index t (1 : Fin 4)) := by
  obtain ⟨⟨e0, e1, e2, e4, e5⟩, b0, b1, z2, z3⟩ := r0_idx_facts t
  intro z i' h0 h1 h2 h3
  show V c main_arg2 (((cfg0.win 2).blk t).view.emb z) = V c main_arg2 i'
  congr 1
  funext a; apply Fin.ext
  match a with
  | ⟨0, _⟩ => show win0_2.index t (0 : Fin 4) * 1 + 1 * (z 0).val = (i' 0).val; rw [e2]; omega
  | ⟨1, _⟩ => show win0_2.index t (1 : Fin 4) * 4 + 1 * (z 1).val = (i' 1).val; rw [e2]; omega
  | ⟨2, _⟩ => show win0_2.index t (2 : Fin 4) * 4096 + 1 * (z 2).val = (i' 2).val; rw [e2, z2]; omega
  | ⟨3, _⟩ => show win0_2.index t (3 : Fin 4) * 64 + 1 * (z 3).val = (i' 3).val; rw [e2, z3]; omega

/-- What point `t` writes back to output 3's array is block `t` of the array of stored values. -/
theorem r0_flushed3_eq (c : Dev nD) (t : Fin cfg0.N) :
    (dat0 V c).flushed 3 t
      = ((cfg0.win 3).blk t).view.read (Elt F) (r0_arrOf r0_P3 (r0_ar0 V c) (r0_ar1 V c) (r0_ar2 V c)) := by
  show (cfg0.win 3).cut (grid0.coords t) ((dat0 V c).after 3 t) = _
  rw [after0_3]
  unfold outsAt0
  dsimp only
  rw [r0_out3_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t)]
  obtain ⟨⟨e0, e1, e2, e4, e5⟩, b0, b1, z2, z3⟩ := r0_idx_facts t
  funext j
  show r0_tile r0_P3 (r0_xb0 V c t) (r0_xb1 V c t) (r0_xb2 V c t) j
    = r0_arrOf r0_P3 (r0_ar0 V c) (r0_ar1 V c) (r0_ar2 V c) (((cfg0.win 3).blk t).view.emb j)
  refine r0_tile_eq_arr r0_P3 (r0_ar0 V c) (r0_ar1 V c) (r0_ar2 V c) (r0_xb0 V c t) (r0_xb1 V c t) (r0_xb2 V c t)
    (win0_3.index t (0 : Fin 4)) (win0_3.index t (1 : Fin 4)) (r0_sits0 V c t) (r0_sits1 V c t) (r0_sits2 V c t) j
    (((cfg0.win 3).blk t).view.emb j) ?_ ?_ ?_ ?_
  · rfl
  · rfl
  · show win0_3.index t (2 : Fin 4) * 64 + 1 * (j 2).val = _; rw [z2]
  · show win0_3.index t (3 : Fin 4) * 64 + 1 * (j 3).val = _; rw [z3]

/-- An index of output 3's array is in point `t`'s block iff each coordinate is in the block's range on its axis. -/
theorem r0_mem_blk3 (t : Fin cfg0.N) (i : S4x12x64x64.Idx) :
    i ∈ ((cfg0.win 3).blk t).view.set ↔ ∀ a : Fin 4, win0_3.index t a * S1x4x64x64.size a ≤ (i a).val
      ∧ (i a).val < win0_3.index t a * S1x4x64x64.size a + S1x4x64x64.size a := by
  show i ∈ ((View.whole main_v0_0).slice (win0_3.rect t)).set ↔ _
  rw [View.set_slice_whole, Rect.mem_set_unit]
  exact Iff.rfl

/-- Every index (b, h, r, c) of output 3's array lies in the block of the point whose block index is (b, h / 4, 0, 0). -/
theorem r0_cover3 (i : S4x12x64x64.Idx) :
    ∃ t : Fin cfg0.N, (cfg0.win 3).flush t = true ∧ i ∈ ((cfg0.win 3).blk t).view.set := by
  have hi0 : (i 0).val < 4 := (i 0).isLt
  have hi1 : (i 1).val < 12 := (i 1).isLt
  have hi2 : (i 2).val < 64 := (i 2).isLt
  have hi3 : (i 3).val < 64 := (i 3).isLt
  obtain ⟨t, ht⟩ := r0_idx_onto ⟨(i 0).val, hi0⟩ ⟨(i 1).val / 4, by omega⟩
  obtain ⟨⟨e0, e1, e2, e4, e5⟩, b0, b1, z2, z3⟩ := r0_idx_facts t
  have q0 : win0_3.index t (0 : Fin 4) = (i 0).val := congrFun ht 0
  have q1 : win0_3.index t (1 : Fin 4) = (i 1).val / 4 := congrFun ht 1
  refine ⟨t, flush0_3 t, ?_⟩
  rw [r0_mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 4 ≤ (i 1).val ∧ (i 1).val < win0_3.index t (1 : Fin 4) * 4 + 4; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- Output 3's array after the twelve points: the array of stored values. -/
theorem r0_final3 (c : Dev nD) :
    (dat0 V c).arrAt 3 cfg0.N = r0_arrOf r0_P3 (r0_ar0 V c) (r0_ar1 V c) (r0_ar2 V c) :=
  (dat0 V c).arrAt_eq_of_cover 3 (r0_arrOf r0_P3 (r0_ar0 V c) (r0_ar1 V c) (r0_ar2 V c)) (fun t _ => r0_flushed3_eq V c t) r0_cover3

/-- What point `t` writes back to output 4's array is block `t` of the array of stored values. -/
theorem r0_flushed4_eq (c : Dev nD) (t : Fin cfg0.N) :
    (dat0 V c).flushed 4 t
      = ((cfg0.win 4).blk t).view.read (Elt F) (r0_arrOf r0_P4 (r0_ar0 V c) (r0_ar1 V c) (r0_ar2 V c)) := by
  show (cfg0.win 4).cut (grid0.coords t) ((dat0 V c).after 4 t) = _
  rw [after0_4]
  unfold outsAt0
  dsimp only
  rw [r0_out4_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t)]
  obtain ⟨⟨e0, e1, e2, e4, e5⟩, b0, b1, z2, z3⟩ := r0_idx_facts t
  funext j
  show r0_tile r0_P4 (r0_xb0 V c t) (r0_xb1 V c t) (r0_xb2 V c t) j
    = r0_arrOf r0_P4 (r0_ar0 V c) (r0_ar1 V c) (r0_ar2 V c) (((cfg0.win 4).blk t).view.emb j)
  refine r0_tile_eq_arr r0_P4 (r0_ar0 V c) (r0_ar1 V c) (r0_ar2 V c) (r0_xb0 V c t) (r0_xb1 V c t) (r0_xb2 V c t)
    (win0_3.index t (0 : Fin 4)) (win0_3.index t (1 : Fin 4)) (r0_sits0 V c t) (r0_sits1 V c t) (r0_sits2 V c t) j
    (((cfg0.win 4).blk t).view.emb j) ?_ ?_ ?_ ?_
  · show win0_4.index t (0 : Fin 4) * 1 + 1 * (j 0).val = _; rw [e4]
  · show win0_4.index t (1 : Fin 4) * 4 + 1 * (j 1).val = _; rw [e4]
  · show win0_4.index t (2 : Fin 4) * 64 + 1 * (j 2).val = _; rw [e4, z2]
  · show win0_4.index t (3 : Fin 4) * 64 + 1 * (j 3).val = _; rw [e4, z3]

/-- An index of output 4's array is in point `t`'s block iff each coordinate is in the block's range on its axis. -/
theorem r0_mem_blk4 (t : Fin cfg0.N) (i : S4x12x64x64.Idx) :
    i ∈ ((cfg0.win 4).blk t).view.set ↔ ∀ a : Fin 4, win0_4.index t a * S1x4x64x64.size a ≤ (i a).val
      ∧ (i a).val < win0_4.index t a * S1x4x64x64.size a + S1x4x64x64.size a := by
  show i ∈ ((View.whole main_v0_1).slice (win0_4.rect t)).set ↔ _
  rw [View.set_slice_whole, Rect.mem_set_unit]
  exact Iff.rfl

/-- Every index (b, h, r, c) of output 4's array lies in the block of the point whose block index is (b, h / 4, 0, 0). -/
theorem r0_cover4 (i : S4x12x64x64.Idx) :
    ∃ t : Fin cfg0.N, (cfg0.win 4).flush t = true ∧ i ∈ ((cfg0.win 4).blk t).view.set := by
  have hi0 : (i 0).val < 4 := (i 0).isLt
  have hi1 : (i 1).val < 12 := (i 1).isLt
  have hi2 : (i 2).val < 64 := (i 2).isLt
  have hi3 : (i 3).val < 64 := (i 3).isLt
  obtain ⟨t, ht⟩ := r0_idx_onto ⟨(i 0).val, hi0⟩ ⟨(i 1).val / 4, by omega⟩
  obtain ⟨⟨e0, e1, e2, e4, e5⟩, b0, b1, z2, z3⟩ := r0_idx_facts t
  have q0 : win0_3.index t (0 : Fin 4) = (i 0).val := congrFun ht 0
  have q1 : win0_3.index t (1 : Fin 4) = (i 1).val / 4 := congrFun ht 1
  refine ⟨t, flush0_4 t, ?_⟩
  rw [r0_mem_blk4]
  intro a
  match a with
  | ⟨0, _⟩ => show win0_4.index t (0 : Fin 4) * 1 ≤ (i 0).val ∧ (i 0).val < win0_4.index t (0 : Fin 4) * 1 + 1; rw [e4]; omega
  | ⟨1, _⟩ => show win0_4.index t (1 : Fin 4) * 4 ≤ (i 1).val ∧ (i 1).val < win0_4.index t (1 : Fin 4) * 4 + 4; rw [e4]; omega
  | ⟨2, _⟩ => show win0_4.index t (2 : Fin 4) * 64 ≤ (i 2).val ∧ (i 2).val < win0_4.index t (2 : Fin 4) * 64 + 64; rw [e4]; omega
  | ⟨3, _⟩ => show win0_4.index t (3 : Fin 4) * 64 ≤ (i 3).val ∧ (i 3).val < win0_4.index t (3 : Fin 4) * 64 + 64; rw [e4]; omega

/-- Output 4's array after the twelve points: the array of stored values. -/
theorem r0_final4 (c : Dev nD) :
    (dat0 V c).arrAt 4 cfg0.N = r0_arrOf r0_P4 (r0_ar0 V c) (r0_ar1 V c) (r0_ar2 V c) :=
  (dat0 V c).arrAt_eq_of_cover 4 (r0_arrOf r0_P4 (r0_ar0 V c) (r0_ar1 V c) (r0_ar2 V c)) (fun t _ => r0_flushed4_eq V c t) r0_cover4

/-- What point `t` writes back to output 5's array is block `t` of the array of stored values. -/
theorem r0_flushed5_eq (c : Dev nD) (t : Fin cfg0.N) :
    (dat0 V c).flushed 5 t
      = ((cfg0.win 5).blk t).view.read (Elt F) (r0_arrOf r0_P5 (r0_ar0 V c) (r0_ar1 V c) (r0_ar2 V c)) := by
  show (cfg0.win 5).cut (grid0.coords t) ((dat0 V c).after 5 t) = _
  rw [after0_5]
  unfold outsAt0
  dsimp only
  rw [r0_out5_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t)]
  obtain ⟨⟨e0, e1, e2, e4, e5⟩, b0, b1, z2, z3⟩ := r0_idx_facts t
  funext j
  show r0_tile r0_P5 (r0_xb0 V c t) (r0_xb1 V c t) (r0_xb2 V c t) j
    = r0_arrOf r0_P5 (r0_ar0 V c) (r0_ar1 V c) (r0_ar2 V c) (((cfg0.win 5).blk t).view.emb j)
  refine r0_tile_eq_arr r0_P5 (r0_ar0 V c) (r0_ar1 V c) (r0_ar2 V c) (r0_xb0 V c t) (r0_xb1 V c t) (r0_xb2 V c t)
    (win0_3.index t (0 : Fin 4)) (win0_3.index t (1 : Fin 4)) (r0_sits0 V c t) (r0_sits1 V c t) (r0_sits2 V c t) j
    (((cfg0.win 5).blk t).view.emb j) ?_ ?_ ?_ ?_
  · show win0_5.index t (0 : Fin 4) * 1 + 1 * (j 0).val = _; rw [e5]
  · show win0_5.index t (1 : Fin 4) * 4 + 1 * (j 1).val = _; rw [e5]
  · show win0_5.index t (2 : Fin 4) * 64 + 1 * (j 2).val = _; rw [e5, z2]
  · show win0_5.index t (3 : Fin 4) * 64 + 1 * (j 3).val = _; rw [e5, z3]

/-- An index of output 5's array is in point `t`'s block iff each coordinate is in the block's range on its axis. -/
theorem r0_mem_blk5 (t : Fin cfg0.N) (i : S4x12x64x64.Idx) :
    i ∈ ((cfg0.win 5).blk t).view.set ↔ ∀ a : Fin 4, win0_5.index t a * S1x4x64x64.size a ≤ (i a).val
      ∧ (i a).val < win0_5.index t a * S1x4x64x64.size a + S1x4x64x64.size a := by
  show i ∈ ((View.whole main_v0_2).slice (win0_5.rect t)).set ↔ _
  rw [View.set_slice_whole, Rect.mem_set_unit]
  exact Iff.rfl

/-- Every index (b, h, r, c) of output 5's array lies in the block of the point whose block index is (b, h / 4, 0, 0). -/
theorem r0_cover5 (i : S4x12x64x64.Idx) :
    ∃ t : Fin cfg0.N, (cfg0.win 5).flush t = true ∧ i ∈ ((cfg0.win 5).blk t).view.set := by
  have hi0 : (i 0).val < 4 := (i 0).isLt
  have hi1 : (i 1).val < 12 := (i 1).isLt
  have hi2 : (i 2).val < 64 := (i 2).isLt
  have hi3 : (i 3).val < 64 := (i 3).isLt
  obtain ⟨t, ht⟩ := r0_idx_onto ⟨(i 0).val, hi0⟩ ⟨(i 1).val / 4, by omega⟩
  obtain ⟨⟨e0, e1, e2, e4, e5⟩, b0, b1, z2, z3⟩ := r0_idx_facts t
  have q0 : win0_3.index t (0 : Fin 4) = (i 0).val := congrFun ht 0
  have q1 : win0_3.index t (1 : Fin 4) = (i 1).val / 4 := congrFun ht 1
  refine ⟨t, flush0_5 t, ?_⟩
  rw [r0_mem_blk5]
  intro a
  match a with
  | ⟨0, _⟩ => show win0_5.index t (0 : Fin 4) * 1 ≤ (i 0).val ∧ (i 0).val < win0_5.index t (0 : Fin 4) * 1 + 1; rw [e5]; omega
  | ⟨1, _⟩ => show win0_5.index t (1 : Fin 4) * 4 ≤ (i 1).val ∧ (i 1).val < win0_5.index t (1 : Fin 4) * 4 + 4; rw [e5]; omega
  | ⟨2, _⟩ => show win0_5.index t (2 : Fin 4) * 64 ≤ (i 2).val ∧ (i 2).val < win0_5.index t (2 : Fin 4) * 64 + 64; rw [e5]; omega
  | ⟨3, _⟩ => show win0_5.index t (3 : Fin 4) * 64 ≤ (i 3).val ∧ (i 3).val < win0_5.index t (3 : Fin 4) * 64 + 64; rw [e5]; omega

/-- Output 5's array after the twelve points: the array of stored values. -/
theorem r0_final5 (c : Dev nD) :
    (dat0 V c).arrAt 5 cfg0.N = r0_arrOf r0_P5 (r0_ar0 V c) (r0_ar1 V c) (r0_ar2 V c) :=
  (dat0 V c).arrAt_eq_of_cover 5 (r0_arrOf r0_P5 (r0_ar0 V c) (r0_ar1 V c) (r0_ar2 V c)) (fun t _ => r0_flushed5_eq V c t) r0_cover5

/-! ## Stage 1's three output arrays -/

theorem arrAt0_3 (c : Dev nD) : (dat0 V c).arrAt 3 cfg0.N = G0kl (V c main_arg1) := r0_final3 V c

theorem arrAt0_4 (c : Dev nD) : (dat0 V c).arrAt 4 cfg0.N = G0k2 (V c main_arg0) (V c main_arg1) := r0_final4 V c

theorem arrAt0_5 (c : Dev nD) : (dat0 V c).arrAt 5 cfg0.N = G0c (V c main_arg0) (V c main_arg1) (V c main_arg2) := r0_final5 V c

end Cert.KernelIdeal.Val

end
-- ==== Proof.KReg1.lean ====
/-
  Stage 2 (the second kernel region) as a value: after its twelve grid points the output array holds, at
  (b, h, s, d), the body's stored value for head (b, h). A grid point (b, g) runs four trips, trip k for head
  h = 4 g + k; the trip stores one [1,1,4096,64] piece at head offset k, the four pieces tile the point's
  [1,4,4096,64] block, and the twelve blocks tile the array.
-/
import proofs.«411036_j71038759076379_3_alg».proof.Proof.Gen.KernelIdeal.Frame
import proofs.«411036_j71038759076379_3_alg».proof.Proof.KBlocks
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-! ## One grid point's block -/

/-- Head `k` of a [1,4,4096,64] block, as the [1,1,4096,64] block one trip loads. -/
def r1_hdT (x : Vec F S1x4x4096x64 .f32) (k : Fin 4) : Vec F S1x1x4096x64 .f32 :=
  fun z => x (ValueIdx.ix4 0 k (z 2) (z 3))

/-- Head `k` of a [1,4,64,64] block, as the [1,1,64,64] block one trip loads. -/
def r1_hdS (x : Vec F S1x4x64x64 .f32) (k : Fin 4) : Vec F S1x1x64x64 .f32 :=
  fun z => x (ValueIdx.ix4 0 k (z 2) (z 3))

/-- What a grid point leaves in its output block, as one function of its four input blocks: entry (0, k, s, d) is
    the body's stored value for head `k` of the blocks, at (0, 0, s, d). -/
def r1_Gb (x0 : Vec F S1x4x4096x64 .f32) (x1 x2 x3 : Vec F S1x4x64x64 .f32) : Vec F S1x4x4096x64 .f32 :=
  fun y => k1_pay1 (k1_pay2 (r1_hdT x0 (y 1)) (r1_hdS x1 (y 1)) (r1_hdS x2 (y 1)) (r1_hdS x3 (y 1))) (ValueIdx.ix4 0 0 (y 2) (y 3))

/-- A load of the [1,1,4096,64] rectangle at head offset `k` reads head `k`. -/
theorem r1_ld_hdT (x : Vec F S1x4x4096x64 .f32) (k : Fin 4) (off : Fin 4 → ℕ) (hoff : off = ![0, k.val, 0, 0])
    (inb : ∀ a, off a + S1x1x4096x64.size a ≤ S1x4x4096x64.size a) :
    View.ld x (Rect.unit (s := S1x4x4096x64) off S1x1x4096x64.size inb) = r1_hdT x k := by
  subst hoff
  funext z
  have h0 : (z 0).val < 1 := (z 0).isLt
  have h1 : (z 1).val < 1 := (z 1).isLt
  refine congrArg x (funext fun a => Fin.ext ?_)
  match a with
  | ⟨0, _⟩ => show 0 + 1 * (z 0).val = 0; omega
  | ⟨1, _⟩ => show k.val + 1 * (z 1).val = k.val; omega
  | ⟨2, _⟩ => show 0 + 1 * (z 2).val = (z 2).val; omega
  | ⟨3, _⟩ => show 0 + 1 * (z 3).val = (z 3).val; omega

/-- A load of the [1,1,64,64] rectangle at head offset `k` reads head `k`. -/
theorem r1_ld_hdS (x : Vec F S1x4x64x64 .f32) (k : Fin 4) (off : Fin 4 → ℕ) (hoff : off = ![0, k.val, 0, 0])
    (inb : ∀ a, off a + S1x1x64x64.size a ≤ S1x4x64x64.size a) :
    View.ld x (Rect.unit (s := S1x4x64x64) off S1x1x64x64.size inb) = r1_hdS x k := by
  subst hoff
  funext z
  have h0 : (z 0).val < 1 := (z 0).isLt
  have h1 : (z 1).val < 1 := (z 1).isLt
  refine congrArg x (funext fun a => Fin.ext ?_)
  match a with
  | ⟨0, _⟩ => show 0 + 1 * (z 0).val = 0; omega
  | ⟨1, _⟩ => show k.val + 1 * (z 1).val = k.val; omega
  | ⟨2, _⟩ => show 0 + 1 * (z 2).val = (z 2).val; omega
  | ⟨3, _⟩ => show 0 + 1 * (z 3).val = (z 3).val; omega

/-- Trip `k`'s one piece: a store, at head offset `k`, of the body's value of head `k` of the four input blocks. -/
theorem r1_trip_eq (c : Dev nD) (i : grid1.Coords) (arg2 : Memref sig .tc .vmem S1x4x4096x64 .f32) (harg2 : arg2.IsWhole) (arg3 : Memref sig .tc .vmem S1x4x64x64 .f32) (harg3 : arg3.IsWhole) (arg4 : Memref sig .tc .vmem S1x4x64x64 .f32) (harg4 : arg4.IsWhole) (arg5 : Memref sig .tc .vmem S1x4x64x64 .f32) (harg5 : arg5.IsWhole) (arg6 : Memref sig .tc .vmem S1x4x4096x64 .f32) (harg6 : arg6.IsWhole)
    (x0 : Vec F S1x4x4096x64 .f32) (x1 : Vec F S1x4x64x64 .f32) (x2 : Vec F S1x4x64x64 .f32) (x3 : Vec F S1x4x64x64 .f32) (k : Fin k1_t1_loop.trips) (hk : k.val < 4) :
    tripL_k1_t1 (F := F) Variants.none c none i arg2 harg2 arg3 harg3 arg4 harg4 arg5 harg5 arg6 harg6
        (harg2.unread x0) (harg3.unread x1) (harg4.unread x2) (harg5.unread x3) k
      = [⟨Rect.unit (s := S1x4x4096x64) (k1_off1 k) S1x1x4096x64.size (k1_off1_inb k),
          k1_pay1 (k1_pay2 (r1_hdT x0 ⟨k.val, hk⟩) (r1_hdS x1 ⟨k.val, hk⟩) (r1_hdS x2 ⟨k.val, hk⟩) (r1_hdS x3 ⟨k.val, hk⟩))⟩] := by
  unfold tripL_k1_t1 trip_k1_t1
  dsimp only
  sl_unfold_run_names
  simp only [View.readAt_eq_ld, harg2.read_unread, harg3.read_unread, harg4.read_unread, harg5.read_unread]
  rw [r1_ld_hdT x0 ⟨k.val, hk⟩ (k1_off1 k) (k1_off1_eq k), r1_ld_hdS x1 ⟨k.val, hk⟩ (k1_off2 k) (k1_off2_eq k),
    r1_ld_hdS x2 ⟨k.val, hk⟩ (k1_off2 k) (k1_off2_eq k), r1_ld_hdS x3 ⟨k.val, hk⟩ (k1_off2 k) (k1_off2_eq k)]

/-- So trip `k`'s piece is the block of `r1_Gb` its rectangle names. -/
theorem r1_trip_pieces (c : Dev nD) (i : grid1.Coords) (arg2 : Memref sig .tc .vmem S1x4x4096x64 .f32) (harg2 : arg2.IsWhole) (arg3 : Memref sig .tc .vmem S1x4x64x64 .f32) (harg3 : arg3.IsWhole) (arg4 : Memref sig .tc .vmem S1x4x64x64 .f32) (harg4 : arg4.IsWhole) (arg5 : Memref sig .tc .vmem S1x4x64x64 .f32) (harg5 : arg5.IsWhole) (arg6 : Memref sig .tc .vmem S1x4x4096x64 .f32) (harg6 : arg6.IsWhole)
    (x0 : Vec F S1x4x4096x64 .f32) (x1 : Vec F S1x4x64x64 .f32) (x2 : Vec F S1x4x64x64 .f32) (x3 : Vec F S1x4x64x64 .f32) (k : Fin k1_t1_loop.trips) :
    ∀ p ∈ tripL_k1_t1 (F := F) Variants.none c none i arg2 harg2 arg3 harg3 arg4 harg4 arg5 harg5 arg6 harg6
        (harg2.unread x0) (harg3.unread x1) (harg4.unread x2) (harg5.unread x3) k,
      ∀ x : p.1.shape.Idx, p.2 x = r1_Gb x0 x1 x2 x3 (p.1.emb x) := by
  have hk : k.val < 4 := Nat.lt_of_lt_of_le k.isLt k1_t1_abs.2.1
  rw [r1_trip_eq c i arg2 harg2 arg3 harg3 arg4 harg4 arg5 harg5 arg6 harg6 x0 x1 x2 x3 k hk]
  intro p hp
  obtain rfl := List.mem_singleton.mp hp
  intro x
  show k1_pay1 (k1_pay2 (r1_hdT x0 ⟨k.val, hk⟩) (r1_hdS x1 ⟨k.val, hk⟩) (r1_hdS x2 ⟨k.val, hk⟩) (r1_hdS x3 ⟨k.val, hk⟩)) x
    = r1_Gb x0 x1 x2 x3 ((Rect.unit (s := S1x4x4096x64) (k1_off1 k) S1x1x4096x64.size (k1_off1_inb k)).emb x)
  have h0 : (x 0).val < 1 := (x 0).isLt
  have h1 : (x 1).val < 1 := (x 1).isLt
  have o0 : k1_off1 k 0 = 0 := congrFun (k1_off1_eq k) 0
  have o1 : k1_off1 k 1 = k.val := congrFun (k1_off1_eq k) 1
  have o2 : k1_off1 k 2 = 0 := congrFun (k1_off1_eq k) 2
  have o3 : k1_off1 k 3 = 0 := congrFun (k1_off1_eq k) 3
  have e1 : (Rect.unit (s := S1x4x4096x64) (k1_off1 k) S1x1x4096x64.size (k1_off1_inb k)).emb x
      = ValueIdx.ix4 (0 : Fin 1) (⟨k.val, hk⟩ : Fin 4) (x 2) (x 3) := by
    funext a; apply Fin.ext
    match a with
    | ⟨0, _⟩ => show k1_off1 k 0 + 1 * (x 0).val = 0; omega
    | ⟨1, _⟩ => show k1_off1 k 1 + 1 * (x 1).val = k.val; omega
    | ⟨2, _⟩ => show k1_off1 k 2 + 1 * (x 2).val = (x 2).val; omega
    | ⟨3, _⟩ => show k1_off1 k 3 + 1 * (x 3).val = (x 3).val; omega
  have e2 : x = ValueIdx.ix4 (0 : Fin 1) (0 : Fin 1) (x 2) (x 3) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  rw [e1]
  exact congrArg (k1_pay1 (k1_pay2 (r1_hdT x0 ⟨k.val, hk⟩) (r1_hdS x1 ⟨k.val, hk⟩) (r1_hdS x2 ⟨k.val, hk⟩) (r1_hdS x3 ⟨k.val, hk⟩))) e2

/-- The pieces of the trips before `n` are blocks of `r1_Gb`, by induction over the trips. -/
theorem r1_pb_pieces (c : Dev nD) (i : grid1.Coords) (arg2 : Memref sig .tc .vmem S1x4x4096x64 .f32) (harg2 : arg2.IsWhole) (arg3 : Memref sig .tc .vmem S1x4x64x64 .f32) (harg3 : arg3.IsWhole) (arg4 : Memref sig .tc .vmem S1x4x64x64 .f32) (harg4 : arg4.IsWhole) (arg5 : Memref sig .tc .vmem S1x4x64x64 .f32) (harg5 : arg5.IsWhole) (arg6 : Memref sig .tc .vmem S1x4x4096x64 .f32) (harg6 : arg6.IsWhole)
    (x0 : Vec F S1x4x4096x64 .f32) (x1 : Vec F S1x4x64x64 .f32) (x2 : Vec F S1x4x64x64 .f32) (x3 : Vec F S1x4x64x64 .f32) :
    ∀ n : ℕ, n ≤ k1_t1_loop.trips →
      ∀ p ∈ pb_k1_t1 (F := F) Variants.none c none i arg2 harg2 arg3 harg3 arg4 harg4 arg5 harg5 arg6 harg6
          (harg2.unread x0) (harg3.unread x1) (harg4.unread x2) (harg5.unread x3) n,
        ∀ x : p.1.shape.Idx, p.2 x = r1_Gb x0 x1 x2 x3 (p.1.emb x)
  | 0, _ => fun p hp => absurd hp List.not_mem_nil
  | n + 1, h => fun p hp => by
    have e : pb_k1_t1 (F := F) Variants.none c none i arg2 harg2 arg3 harg3 arg4 harg4 arg5 harg5 arg6 harg6
          (harg2.unread x0) (harg3.unread x1) (harg4.unread x2) (harg5.unread x3) (n + 1)
        = tripL_k1_t1 (F := F) Variants.none c none i arg2 harg2 arg3 harg3 arg4 harg4 arg5 harg5 arg6 harg6
            (harg2.unread x0) (harg3.unread x1) (harg4.unread x2) (harg5.unread x3) ⟨n, h⟩
          ++ pb_k1_t1 (F := F) Variants.none c none i arg2 harg2 arg3 harg3 arg4 harg4 arg5 harg5 arg6 harg6
            (harg2.unread x0) (harg3.unread x1) (harg4.unread x2) (harg5.unread x3) n :=
      pb_k1_t1_succ (F := F) Variants.none c none i arg2 harg2 arg3 harg3 arg4 harg4 arg5 harg5 arg6 harg6
        (harg2.unread x0) (harg3.unread x1) (harg4.unread x2) (harg5.unread x3) ⟨n, h⟩
    rw [e] at hp
    rcases List.mem_append.mp hp with h1 | h2
    · exact r1_trip_pieces c i arg2 harg2 arg3 harg3 arg4 harg4 arg5 harg5 arg6 harg6 x0 x1 x2 x3 ⟨n, h⟩ p h1
    · exact r1_pb_pieces c i arg2 harg2 arg3 harg3 arg4 harg4 arg5 harg5 arg6 harg6 x0 x1 x2 x3 n (Nat.le_of_lt h) p h2

/-- What a grid point's run leaves in its output block is `r1_Gb` of its input blocks: the four pieces, each a block
    of `r1_Gb`, cover the block. -/
theorem r1_out_eq (c : Dev nD) (i : grid1.Coords) (arg2 : Memref sig .tc .vmem S1x4x4096x64 .f32) (harg2 : arg2.IsWhole) (arg3 : Memref sig .tc .vmem S1x4x64x64 .f32) (harg3 : arg3.IsWhole) (arg4 : Memref sig .tc .vmem S1x4x64x64 .f32) (harg4 : arg4.IsWhole) (arg5 : Memref sig .tc .vmem S1x4x64x64 .f32) (harg5 : arg5.IsWhole) (arg6 : Memref sig .tc .vmem S1x4x4096x64 .f32) (harg6 : arg6.IsWhole)
    (x0 : Vec F S1x4x4096x64 .f32) (x1 : Vec F S1x4x64x64 .f32) (x2 : Vec F S1x4x64x64 .f32) (x3 : Vec F S1x4x64x64 .f32) :
    out1_A_4 c i arg2 harg2 arg3 harg3 arg4 harg4 arg5 harg5 arg6 harg6 x0 x1 x2 x3 = r1_Gb x0 x1 x2 x3 := by
  unfold out1_A_4
  rw [View.read_writes_eq_canon _ _ _ (cover1_A_4 c i arg2 harg2 arg3 harg3 arg4 harg4 arg5 harg5 arg6 harg6 x0 x1 x2 x3)]
  funext y
  refine View.canon_apply_of_pieces (r1_Gb x0 x1 x2 x3) _ ?_ y (cover1_A_4 c i arg2 harg2 arg3 harg3 arg4 harg4 arg5 harg5 arg6 harg6 x0 x1 x2 x3 y)
  have hL : (kernelRun1_A c i arg2 harg2 arg3 harg3 arg4 harg4 arg5 harg5 arg6 harg6 x0 x1 x2 x3).1
      = pb_k1_t1 (F := F) Variants.none c none i arg2 harg2 arg3 harg3 arg4 harg4 arg5 harg5 arg6 harg6
          (harg2.unread x0) (harg3.unread x1) (harg4.unread x2) (harg5.unread x3) k1_t1_loop.trips := by
    unfold kernelRun1_A
    rfl
  rw [hL]
  exact r1_pb_pieces c i arg2 harg2 arg3 harg3 arg4 harg4 arg5 harg5 arg6 harg6 x0 x1 x2 x3 k1_t1_loop.trips (Nat.le_refl _)

/-! ## From the grid points' blocks to the array -/

/-- The index maps, decided once over the twelve grid points: every input window sits at the output window's block
    index on the two leading axes, every window at block index zero on the two trailing ones, and the output's
    leading block indices stay in their ranges. -/
theorem r1_idx_facts : ∀ t : Fin cfg1.N,
    (win1_0.index t (0 : Fin 4) = win1_4.index t (0 : Fin 4) ∧ win1_0.index t (1 : Fin 4) = win1_4.index t (1 : Fin 4)
      ∧ win1_0.index t (2 : Fin 4) = 0 ∧ win1_0.index t (3 : Fin 4) = 0)
    ∧ (win1_1.index t (0 : Fin 4) = win1_4.index t (0 : Fin 4) ∧ win1_1.index t (1 : Fin 4) = win1_4.index t (1 : Fin 4)
      ∧ win1_1.index t (2 : Fin 4) = 0 ∧ win1_1.index t (3 : Fin 4) = 0)
    ∧ (win1_2.index t (0 : Fin 4) = win1_4.index t (0 : Fin 4) ∧ win1_2.index t (1 : Fin 4) = win1_4.index t (1 : Fin 4)
      ∧ win1_2.index t (2 : Fin 4) = 0 ∧ win1_2.index t (3 : Fin 4) = 0)
    ∧ (win1_3.index t (0 : Fin 4) = win1_4.index t (0 : Fin 4) ∧ win1_3.index t (1 : Fin 4) = win1_4.index t (1 : Fin 4)
      ∧ win1_3.index t (2 : Fin 4) = 0 ∧ win1_3.index t (3 : Fin 4) = 0)
    ∧ (win1_4.index t (0 : Fin 4) ≤ 3 ∧ win1_4.index t (1 : Fin 4) ≤ 2
      ∧ win1_4.index t (2 : Fin 4) = 0 ∧ win1_4.index t (3 : Fin 4) = 0) :=
  (by decide +kernel : ∀ t : Fin grid1.N, _)

/-- Every (batch, head group) pair is some grid point's output block index. -/
theorem r1_idx_onto : ∀ (q0 : Fin 4) (q1 : Fin 3), ∃ t : Fin cfg1.N, win1_4.index t = ![q0.val, q1.val, 0, 0] :=
  (by decide +kernel : ∀ (q0 : Fin 4) (q1 : Fin 3), ∃ t : Fin grid1.N, win1_4.index t = ![q0.val, q1.val, 0, 0])

/-- The block of `r1_Gb` at local index `j` is `G1` at array index `i`, once head `j 1` of each input block is head
    (`i 0`, `i 1`) of its array and the two trailing coordinates agree. -/
theorem r1_Gb_eq_G1 (Q : Vec F S4x12x4096x64 .f32) (KL AI CM : Vec F S4x12x64x64 .f32)
    (x0 : Vec F S1x4x4096x64 .f32) (x1 x2 x3 : Vec F S1x4x64x64 .f32) (j : S1x4x4096x64.Idx) (i : S4x12x4096x64.Idx)
    (h0 : r1_hdT x0 (j 1) = blkT Q (i 0) (i 1)) (h1 : r1_hdS x1 (j 1) = blkS KL (i 0) (i 1))
    (h2 : r1_hdS x2 (j 1) = blkS AI (i 0) (i 1)) (h3 : r1_hdS x3 (j 1) = blkS CM (i 0) (i 1))
    (h23 : (ValueIdx.ix4 0 0 (j 2) (j 3) : S1x1x4096x64.Idx) = ValueIdx.ix4 0 0 (i 2) (i 3)) :
    r1_Gb x0 x1 x2 x3 j = G1 Q KL AI CM i := by
  unfold r1_Gb G1
  rw [h0, h1, h2, h3, h23]
  rfl

/-- WHAT POINT `t` WRITES BACK is block `t` of `G1` of the arrays the region reads. -/
theorem r1_flushed_eq (c : Dev nD) (t : Fin cfg1.N) :
    (dat1 V c).flushed 4 t
      = ((cfg1.win 4).blk t).view.read (Elt F) (G1 (V c main_arg0) (V c main_v0_0) (V c main_v143) (V c main_v0_2)) := by
  show (cfg1.win 4).cut (grid1.coords t) ((dat1 V c).after 4 t) = _
  rw [after1_4]
  unfold outsAt1
  rw [r1_out_eq c (grid1.coords t) (ms1_0 t) (hs1_0 t) (ms1_1 t) (hs1_1 t) (ms1_2 t) (hs1_2 t) (ms1_3 t) (hs1_3 t)
    (ms1_4 t) (hs1_4 t) (iblk1 V c 0 t) (iblk1 V c 1 t) (iblk1 V c 2 t) (iblk1 V c 3 t)]
  obtain ⟨⟨a0, a1, a2, a3⟩, ⟨b0, b1, b2, b3⟩, ⟨c0, c1, c2, c3⟩, ⟨d0, d1, d2, d3⟩, ⟨e0, e1, e2, e3⟩⟩ := r1_idx_facts t
  funext j
  show r1_Gb (iblk1 V c 0 t) (iblk1 V c 1 t) (iblk1 V c 2 t) (iblk1 V c 3 t) j
    = G1 (V c main_arg0) (V c main_v0_0) (V c main_v143) (V c main_v0_2) (((cfg1.win 4).blk t).view.emb j)
  have hj0 : (j 0).val < 1 := (j 0).isLt
  refine r1_Gb_eq_G1 (V c main_arg0) (V c main_v0_0) (V c main_v143) (V c main_v0_2)
    (iblk1 V c 0 t) (iblk1 V c 1 t) (iblk1 V c 2 t) (iblk1 V c 3 t) j (((cfg1.win 4).blk t).view.emb j) ?_ ?_ ?_ ?_ ?_
  · funext z
    show V c main_arg0 (((cfg1.win 0).blk t).view.emb (ValueIdx.ix4 0 (j 1) (z 2) (z 3)))
      = V c main_arg0 (ValueIdx.ix4 ((((cfg1.win 4).blk t).view.emb j) 0) ((((cfg1.win 4).blk t).view.emb j) 1) (z 2) (z 3))
    refine congrArg (V c main_arg0) (funext fun a => Fin.ext ?_)
    match a with
    | ⟨0, _⟩ => show win1_0.index t (0 : Fin 4) * 1 + 1 * 0 = win1_4.index t (0 : Fin 4) * 1 + 1 * (j 0).val; omega
    | ⟨1, _⟩ => show win1_0.index t (1 : Fin 4) * 4 + 1 * (j 1).val = win1_4.index t (1 : Fin 4) * 4 + 1 * (j 1).val; omega
    | ⟨2, _⟩ => show win1_0.index t (2 : Fin 4) * 4096 + 1 * (z 2).val = (z 2).val; omega
    | ⟨3, _⟩ => show win1_0.index t (3 : Fin 4) * 64 + 1 * (z 3).val = (z 3).val; omega
  · funext z
    show V c main_v0_0 (((cfg1.win 1).blk t).view.emb (ValueIdx.ix4 0 (j 1) (z 2) (z 3)))
      = V c main_v0_0 (ValueIdx.ix4 ((((cfg1.win 4).blk t).view.emb j) 0) ((((cfg1.win 4).blk t).view.emb j) 1) (z 2) (z 3))
    refine congrArg (V c main_v0_0) (funext fun a => Fin.ext ?_)
    match a with
    | ⟨0, _⟩ => show win1_1.index t (0 : Fin 4) * 1 + 1 * 0 = win1_4.index t (0 : Fin 4) * 1 + 1 * (j 0).val; omega
    | ⟨1, _⟩ => show win1_1.index t (1 : Fin 4) * 4 + 1 * (j 1).val = win1_4.index t (1 : Fin 4) * 4 + 1 * (j 1).val; omega
    | ⟨2, _⟩ => show win1_1.index t (2 : Fin 4) * 64 + 1 * (z 2).val = (z 2).val; omega
    | ⟨3, _⟩ => show win1_1.index t (3 : Fin 4) * 64 + 1 * (z 3).val = (z 3).val; omega
  · funext z
    show V c main_v143 (((cfg1.win 2).blk t).view.emb (ValueIdx.ix4 0 (j 1) (z 2) (z 3)))
      = V c main_v143 (ValueIdx.ix4 ((((cfg1.win 4).blk t).view.emb j) 0) ((((cfg1.win 4).blk t).view.emb j) 1) (z 2) (z 3))
    refine congrArg (V c main_v143) (funext fun a => Fin.ext ?_)
    match a with
    | ⟨0, _⟩ => show win1_2.index t (0 : Fin 4) * 1 + 1 * 0 = win1_4.index t (0 : Fin 4) * 1 + 1 * (j 0).val; omega
    | ⟨1, _⟩ => show win1_2.index t (1 : Fin 4) * 4 + 1 * (j 1).val = win1_4.index t (1 : Fin 4) * 4 + 1 * (j 1).val; omega
    | ⟨2, _⟩ => show win1_2.index t (2 : Fin 4) * 64 + 1 * (z 2).val = (z 2).val; omega
    | ⟨3, _⟩ => show win1_2.index t (3 : Fin 4) * 64 + 1 * (z 3).val = (z 3).val; omega
  · funext z
    show V c main_v0_2 (((cfg1.win 3).blk t).view.emb (ValueIdx.ix4 0 (j 1) (z 2) (z 3)))
      = V c main_v0_2 (ValueIdx.ix4 ((((cfg1.win 4).blk t).view.emb j) 0) ((((cfg1.win 4).blk t).view.emb j) 1) (z 2) (z 3))
    refine congrArg (V c main_v0_2) (funext fun a => Fin.ext ?_)
    match a with
    | ⟨0, _⟩ => show win1_3.index t (0 : Fin 4) * 1 + 1 * 0 = win1_4.index t (0 : Fin 4) * 1 + 1 * (j 0).val; omega
    | ⟨1, _⟩ => show win1_3.index t (1 : Fin 4) * 4 + 1 * (j 1).val = win1_4.index t (1 : Fin 4) * 4 + 1 * (j 1).val; omega
    | ⟨2, _⟩ => show win1_3.index t (2 : Fin 4) * 64 + 1 * (z 2).val = (z 2).val; omega
    | ⟨3, _⟩ => show win1_3.index t (3 : Fin 4) * 64 + 1 * (z 3).val = (z 3).val; omega
  · funext a
    match a with
    | ⟨0, _⟩ => rfl
    | ⟨1, _⟩ => rfl
    | ⟨2, _⟩ => exact Fin.ext (by show (j 2).val = win1_4.index t (2 : Fin 4) * 4096 + 1 * (j 2).val; omega)
    | ⟨3, _⟩ => exact Fin.ext (by show (j 3).val = win1_4.index t (3 : Fin 4) * 64 + 1 * (j 3).val; omega)

/-- An index of the array is in point `t`'s output block iff each coordinate is in the block's range on its axis. -/
theorem r1_mem_blk (t : Fin cfg1.N) (i : S4x12x4096x64.Idx) :
    i ∈ ((cfg1.win 4).blk t).view.set ↔ ∀ a : Fin 4, win1_4.index t a * S1x4x4096x64.size a ≤ (i a).val
      ∧ (i a).val < win1_4.index t a * S1x4x4096x64.size a + S1x4x4096x64.size a := by
  show i ∈ ((View.whole main_v144).slice (win1_4.rect t)).set ↔ _
  rw [View.set_slice_whole, Rect.mem_set_unit]
  exact Iff.rfl

/-- The twelve output blocks tile the array: index (b, h, s, d) lies in the block of the point whose block index is
    (b, h / 4, 0, 0). -/
theorem r1_cover (i : S4x12x4096x64.Idx) :
    ∃ t : Fin cfg1.N, (cfg1.win 4).flush t = true ∧ i ∈ ((cfg1.win 4).blk t).view.set := by
  have hi0 : (i 0).val < 4 := (i 0).isLt
  have hi1 : (i 1).val < 12 := (i 1).isLt
  have hi2 : (i 2).val < 4096 := (i 2).isLt
  have hi3 : (i 3).val < 64 := (i 3).isLt
  obtain ⟨t, ht⟩ := r1_idx_onto ⟨(i 0).val, hi0⟩ ⟨(i 1).val / 4, by omega⟩
  have q0 : win1_4.index t (0 : Fin 4) = (i 0).val := congrFun ht 0
  have q1 : win1_4.index t (1 : Fin 4) = (i 1).val / 4 := congrFun ht 1
  have q2 : win1_4.index t (2 : Fin 4) = 0 := congrFun ht 2
  have q3 : win1_4.index t (3 : Fin 4) = 0 := congrFun ht 3
  refine ⟨t, flush1_4 t, ?_⟩
  rw [r1_mem_blk]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 4 ≤ (i 1).val ∧ (i 1).val < win1_4.index t (1 : Fin 4) * 4 + 4; omega
  | ⟨2, _⟩ => show win1_4.index t (2 : Fin 4) * 4096 ≤ (i 2).val ∧ (i 2).val < win1_4.index t (2 : Fin 4) * 4096 + 4096; omega
  | ⟨3, _⟩ => show win1_4.index t (3 : Fin 4) * 64 ≤ (i 3).val ∧ (i 3).val < win1_4.index t (3 : Fin 4) * 64 + 64; omega

/-- THE ARRAY after the region's twelve points: `G1` of the arrays the region reads. -/
theorem arrAt1_4 (c : Dev nD) :
    (dat1 V c).arrAt 4 cfg1.N = G1 (V c main_arg0) (V c main_v0_0) (V c main_v143) (V c main_v0_2) :=
  (dat1 V c).arrAt_eq_of_cover 4 (G1 (V c main_arg0) (V c main_v0_0) (V c main_v143) (V c main_v0_2))
    (fun t _ => r1_flushed_eq V c t) (fun i => r1_cover i)

end Cert.KernelIdeal.Val

end
-- ==== Proof.Spec.lean ====
/-
  The mathematics of the landmark (Nystrom) attention that both programs compute, head by head, on the
  extended reals.

  For one (batch, head) pair let q, k, v be the [4096 x 64] slices of the three inputs. Both programs
    * scale q and k by the same float word (the f32 nearest 64^(-1/4); it is the SAME word on both sides and is
      never evaluated);
    * pool 64 consecutive rows: the landmark row j is the mean of rows 64 j ... 64 j + 63;
    * form three row-softmax matrices: K1 = softmax(q' kland^T) [4096 x 64], K2 = softmax(qland kland^T) [64 x 64],
      K3 = softmax(qland k'^T) [64 x 4096];
    * run a Newton-Schulz iteration on the WHOLE [4,12,64,64] array of K2's to get an approximate inverse ainv
      (its scale is a global maximum over all heads);
    * return K1 . ainv . (K3 . v).
  The kernel groups the last product as K1 . (ainv . C) and the reference as (K1 . ainv) . C, with C = K3 . v.

  A row softmax is written here exactly as both programs spell it: with the row maximum taken from the
  float word of minus infinity, a second maximum against that word, exponentials of the shifted entries and a
  division by their sum.
-/
import Idealize.ShloMosaic.PureOps.Ideal
import Idealize.ShloMosaic.Lib.ValueIdx
import Mathlib.Algebra.BigOperators.Fin

noncomputable section

namespace Cert.Nys

open Idealize.ShloMosaic

/-- The scaling word (the f32 nearest 64^(-1/4)). -/
def sW : EReal := Ideal.ofBits .f32 0x3EB504F3#32
/-- The word 2^(-6), the factor of the pooling mean. -/
def w64 : EReal := Ideal.ofBits .f32 0x3C800000#32
/-- The word of minus infinity, where both programs start a row maximum. -/
def wNegInf : EReal := Ideal.ofBits .f32 0xFF800000#32

/-- One head's [4096 x 64] matrix, and the small [64 x 64] and wide [64 x 4096] ones. -/
abbrev Tall := Fin 4096 → Fin 64 → EReal
abbrev Sq := Fin 64 → Fin 64 → EReal
abbrev Wide := Fin 64 → Fin 4096 → EReal

/-- Row `64 j + t` of the tall matrix: row `t` of segment `j`. -/
def seg (j t : Fin 64) : Fin 4096 := ⟨64 * j.val + t.val, by have := j.isLt; have := t.isLt; omega⟩

/-- The scaled matrix. -/
def scl (x : Tall) : Tall := fun s d => x s d * sW

/-- The landmark pooling: the sum of a segment's 64 rows times 2^(-6). -/
def land (x : Tall) : Sq := fun j d => (∑ t : Fin 64, x (seg j t) d) * w64

/-- A row's maximum as both programs take it. -/
def rmax {n : ℕ} (x : Fin n → EReal) : EReal := max wNegInf ((Finset.univ : Finset (Fin n)).fold max wNegInf x)

/-- The row softmax, entry `j`. -/
def smax {n : ℕ} (x : Fin n → EReal) (j : Fin n) : EReal :=
  Ideal.div (Ideal.exp (x j - rmax x)) (∑ j' : Fin n, Ideal.exp (x j' - rmax x))

/-- softmax(q' kland^T), from the scaled-and-pooled k given as a matrix `kl`. -/
def K1 (q : Tall) (kl : Sq) : Tall := fun s m => smax (fun m' => ∑ d : Fin 64, scl q s d * kl m' d) m

/-- softmax(qland kland^T). -/
def K2 (q k : Tall) : Sq := fun i j => smax (fun j' => ∑ d : Fin 64, land (scl q) i d * land (scl k) j' d) j

/-- softmax(qland k'^T). -/
def K3 (q k : Tall) : Wide := fun i s => smax (fun s' => ∑ d : Fin 64, land (scl q) i d * scl k s' d) s

/-- C = K3 . v. -/
def Cm (q k v : Tall) : Sq := fun i d => ∑ s : Fin 4096, K3 q k i s * v s d

/-- The kernel's grouping: K1 . (ainv . C). -/
def XK (q : Tall) (kl ai cm : Sq) : Tall := fun s d => ∑ m : Fin 64, K1 q kl s m * (∑ n : Fin 64, ai m n * cm n d)

/-- The reference's grouping: (K1 . ainv) . C. -/
def XR (q : Tall) (kl ai cm : Sq) : Tall := fun s d => ∑ n : Fin 64, (∑ m : Fin 64, K1 q kl s m * ai m n) * cm n d

/-! ## Heads of the [4,12,...] arrays -/

abbrev A4 : Shape := ⟨4, ![4, 12, 4096, 64]⟩
abbrev L4 : Shape := ⟨4, ![4, 12, 64, 64]⟩

/-- Head (b, h) of a [4,12,4096,64] array. -/
def hd (X : A4.Idx → EReal) (b : Fin 4) (h : Fin 12) : Tall := fun s d => X (ValueIdx.ix4 b h s d)
/-- Head (b, h) of a [4,12,64,64] array. -/
def hdL (X : L4.Idx → EReal) (b : Fin 4) (h : Fin 12) : Sq := fun i j => X (ValueIdx.ix4 b h i j)

/-- The [4,12,64,64] array of all heads' K2. -/
def K2arr (Q K : A4.Idx → EReal) : L4.Idx → EReal := fun i => K2 (hd Q (i 0) (i 1)) (hd K (i 0) (i 1)) (i 2) (i 3)
/-- The pooled scaled keys of all heads. -/
def KLarr (K : A4.Idx → EReal) : L4.Idx → EReal := fun i => land (scl (hd K (i 0) (i 1))) (i 2) (i 3)
/-- All heads' C. -/
def Carr (Q K V : A4.Idx → EReal) : L4.Idx → EReal :=
  fun i => Cm (hd Q (i 0) (i 1)) (hd K (i 0) (i 1)) (hd V (i 0) (i 1)) (i 2) (i 3)

/-- The result in the kernel's grouping, from any approximate inverse array `ai`. -/
def outK (Q K V : A4.Idx → EReal) (ai : L4.Idx → EReal) : A4.Idx → EReal :=
  fun i => XK (hd Q (i 0) (i 1)) (hdL (KLarr K) (i 0) (i 1)) (hdL ai (i 0) (i 1)) (hdL (Carr Q K V) (i 0) (i 1)) (i 2) (i 3)

/-- The result in the reference's grouping. -/
def outR (Q K V : A4.Idx → EReal) (ai : L4.Idx → EReal) : A4.Idx → EReal :=
  fun i => XR (hd Q (i 0) (i 1)) (hdL (KLarr K) (i 0) (i 1)) (hdL ai (i 0) (i 1)) (hdL (Carr Q K V) (i 0) (i 1)) (i 2) (i 3)

end Cert.Nys

end
-- ==== Proof.KPayDefs.lean ====
/-
  A loaded [1,1,n,64] block read as one head's matrix.
-/
import proofs.«411036_j71038759076379_3_alg».proof.Proof.Gen.KernelIdeal.Skeleton
import proofs.«411036_j71038759076379_3_alg».proof.Proof.Spec
import Idealize.ShloMosaic.Lib.ValueIdx

noncomputable section

namespace Cert.KernelIdeal.Pay

open Cert.KernelIdeal Cert.Nys Idealize.ShloMosaic

/-- A [1,1,4096,64] block as a tall matrix. -/
def tallOf (v : Vec Ideal S1x1x4096x64 .f32) : Tall := fun s d => v (ValueIdx.ix4 0 0 s d)
/-- A [1,1,64,64] block as a square matrix. -/
def sqOf (v : Vec Ideal S1x1x64x64 .f32) : Sq := fun i j => v (ValueIdx.ix4 0 0 i j)

end Cert.KernelIdeal.Pay

end
-- ==== Proof.KPay0.lean ====
/-
  Stage 1's stored values, on the extended reals, are the specification's matrices of the loaded head: the pooled
  scaled keys, the small softmax matrix, and the wide softmax matrix times the values.

  Each layout step is read at an index given by coordinates (a block with two leading unit axes against its matrix, the
  tall matrix against its 64 segments of 64 rows, a vector spread over the rows of a matrix); the pooling is a sum over
  a segment's rows times 2^(-6); each of the three contractions into a zero accumulator is a sum over its one
  contracted coordinate; the row softmax is, entry by entry, the specification's; a change of format is the identity.
-/
import proofs.«411036_j71038759076379_3_alg».proof.Proof.Gen.KernelIdeal.Skeleton
import proofs.«411036_j71038759076379_3_alg».proof.Proof.Spec
import proofs.«411036_j71038759076379_3_alg».proof.Proof.KPayDefs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pay

open Cert.KernelIdeal Cert.KernelIdeal.Gen Cert.Nys Idealize.ShloMosaic Idealize.ShloMosaic.ValueIdx

section Layout
variable {α : Type}

/-- A matrix cast to a block with two leading unit axes reads the matrix at the trailing coordinates. -/
theorem p0_cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- A block with two leading unit axes cast to a matrix reads the block at (0, 0, i, j). -/
theorem p0_cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The tall matrix cut into 64 segments of 64 rows: entry (j, t, d) is row 64 j + t, column d. -/
theorem p0_cast_segments (x : S4096x64.Idx → α) (h : S4096x64.ShapeCasts S64x64x64) (j t d : Fin 64) :
    shapeCast S64x64x64 x h (ix3 j t d) = x (ix2 (seg j t) d) :=
  shapeCast_apply x h _ _ (by
    rw [Shape.rowMajor_val_three, Shape.rowMajor_val_two]
    show (64 * j.val + t.val) * 64 + d.val = (j.val * 64 + t.val) * 64 + d.val
    omega)

/-- A vector cast to a column reads the vector at the row coordinate. -/
theorem p0_cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (i, j), the column at i. -/
theorem p0_bcast_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- The scaled block: entry (s, d) is the loaded entry times the scaling word. -/
theorem p0_scaled_apply (v : Vec Ideal S1x1x4096x64 .f32) (s : Fin 4096) (d : Fin 64) :
    k0_pay4 (F := Ideal) v (ix2 s d) = scl (tallOf v) s d := by
  unfold k0_pay4
  refine (mulf_apply _ _ _).trans ?_
  refine congrArg₂ (· * ·) (p0_cast_11ab_ab v _ s d) rfl

/-- The segment sum: a sum over the middle axis of the [64, 64, 64] block, read at (j, d). -/
theorem p0_segsum_apply (x : FVec Ideal S64x64x64 .f32) (h : S64x64x64.Reduces [1] S64x64) (hφ : FKind.Formats .f32)
    (hacc : (0x00000000#32 : BitVec 32) = FKind.add.neutral .f32 hφ) (j d : Fin 64) :
    multiReduction .add [1] S64x64 x 0x00000000#32 h hφ hacc (ix2 j d) = ∑ t : Fin 64, x (ix3 j t d) := by
  refine (Ideal.multiReduction_add_single x 0x00000000#32 h hφ hacc (ix2 j d)).trans ?_
  refine Finset.sum_congr rfl fun t _ => congrArg x ?_
  funext c
  match c with
  | ⟨0, _⟩ => rfl
  | ⟨1, _⟩ => rfl
  | ⟨2, _⟩ => rfl

/-- The pooled scaled block: entry (j, d) is the landmark mean of the scaled loaded head. -/
theorem p0_pooled8_apply (v : Vec Ideal S1x1x4096x64 .f32) (j d : Fin 64) :
    k0_pay8 (F := Ideal) v (ix2 j d) = land (scl (tallOf v)) j d := by
  unfold k0_pay8
  refine (mulf_apply _ _ _).trans ?_
  refine congrArg₂ (· * ·) ?_ rfl
  refine (p0_segsum_apply _ _ _ _ j d).trans ?_
  refine Finset.sum_congr rfl fun t _ => ?_
  exact (p0_cast_segments _ _ j t d).trans (p0_scaled_apply v (seg j t) d)

theorem pay_kl (v9 : Vec Ideal S1x1x4096x64 .f32) (j d : Fin 64) :
    k0_pay1 (k0_pay8 (F := Ideal) v9) (ix4 0 0 j d) = land (scl (tallOf v9)) j d := by
  unfold k0_pay1
  exact (p0_cast_ab_11ab _ _ 0 0 j d).trans (p0_pooled8_apply v9 j d)

/-- The pooled scaled queries: the same pooling, on the other loaded head. -/
theorem p0_pooled7_apply (v : Vec Ideal S1x1x4096x64 .f32) (j d : Fin 64) :
    k0_pay7 (F := Ideal) v (ix2 j d) = land (scl (tallOf v)) j d := by
  unfold k0_pay7
  refine (mulf_apply _ _ _).trans ?_
  refine congrArg₂ (· * ·) ?_ rfl
  refine (p0_segsum_apply _ _ _ _ j d).trans ?_
  refine Finset.sum_congr rfl fun t _ => ?_
  refine (p0_cast_segments _ _ j t d).trans ?_
  refine (mulf_apply _ _ _).trans ?_
  exact congrArg₂ (· * ·) (p0_cast_11ab_ab v _ (seg j t) d) rfl

/-! ## The three contractions -/

section Dots

/-- Square times square-transposed: the left operand's row is the output row. -/
theorem p0_lhs_sq_0 (i : S64x64.Idx) (q : dot_S64x64_S64x64_S64x64_1_1_0_0_n_n.contr.Idx) :
    (dot_S64x64_S64x64_S64x64_1_1_0_0_n_n.lhsIdx i q 0).val = (i 0).val := by
  unfold DotDims.lhsIdx
  rw [dif_neg (show ¬(0 : Fin S64x64.rank) ∈ dot_S64x64_S64x64_S64x64_1_1_0_0_n_n.lhsBatch by decide),
    dif_pos (show (0 : Fin S64x64.rank) ∈ dot_S64x64_S64x64_S64x64_1_1_0_0_n_n.lhsNonContracting by decide)]
  rfl
/-- … its column the contraction coordinate. -/
theorem p0_lhs_sq_1 (i : S64x64.Idx) (q : dot_S64x64_S64x64_S64x64_1_1_0_0_n_n.contr.Idx) :
    (dot_S64x64_S64x64_S64x64_1_1_0_0_n_n.lhsIdx i q 1).val = (q ⟨0, by decide⟩).val :=
  dot_S64x64_S64x64_S64x64_1_1_0_0_n_n.lhsIdx_val_of_single rfl i q
/-- The right operand's row is the output column. -/
theorem p0_rhs_sq_0 (i : S64x64.Idx) (q : dot_S64x64_S64x64_S64x64_1_1_0_0_n_n.contr.Idx) :
    (dot_S64x64_S64x64_S64x64_1_1_0_0_n_n.rhsIdx i q 0).val = (i 1).val := by
  unfold DotDims.rhsIdx
  rw [dif_neg (show ¬(0 : Fin S64x64.rank) ∈ dot_S64x64_S64x64_S64x64_1_1_0_0_n_n.rhsBatch by decide),
    dif_pos (show (0 : Fin S64x64.rank) ∈ dot_S64x64_S64x64_S64x64_1_1_0_0_n_n.rhsNonContracting by decide)]
  rfl
/-- … its column the contraction coordinate. -/
theorem p0_rhs_sq_1 (i : S64x64.Idx) (q : dot_S64x64_S64x64_S64x64_1_1_0_0_n_n.contr.Idx) :
    (dot_S64x64_S64x64_S64x64_1_1_0_0_n_n.rhsIdx i q 1).val = (q ⟨0, by decide⟩).val :=
  dot_S64x64_S64x64_S64x64_1_1_0_0_n_n.rhsIdx_val_of_single rfl i q

/-- A · Bᵀ of two square matrices into the zero accumulator, entry (i, j): the sum over d of A(i,d) B(j,d). -/
theorem p0_mm_sq {φ₁ φ₂ : FTy} (prec : Option ContractPrecision) (A : FVec Ideal S64x64 φ₁) (B : FVec Ideal S64x64 φ₂)
    (i j : Fin 64) :
    matmul dot_S64x64_S64x64_S64x64_1_1_0_0_n_n prec A B (constant (F := Ideal) S64x64 .f32 0x00000000#32) (ix2 i j)
      = ∑ d : Fin 64, A (ix2 i d) * B (ix2 j d) := by
  refine (Ideal.matmul_constant_zero_apply dot_S64x64_S64x64_S64x64_1_1_0_0_n_n prec A B (ix2 i j)).trans ?_
  rw [← Equiv.sum_comp (contrEquiv1 dot_S64x64_S64x64_S64x64_1_1_0_0_n_n 64 rfl rfl).symm]
  refine Finset.sum_congr rfl fun k _ => ?_
  have hk := contrEquiv1_symm_val dot_S64x64_S64x64_S64x64_1_1_0_0_n_n 64 rfl rfl k
  have el : dot_S64x64_S64x64_S64x64_1_1_0_0_n_n.lhsIdx (ix2 i j)
      ((contrEquiv1 dot_S64x64_S64x64_S64x64_1_1_0_0_n_n 64 rfl rfl).symm k) = ix2 i k := funext fun a => Fin.ext (by
    match a with
    | ⟨0, _⟩ => exact p0_lhs_sq_0 _ _
    | ⟨1, _⟩ => exact (p0_lhs_sq_1 _ _).trans hk)
  have er : dot_S64x64_S64x64_S64x64_1_1_0_0_n_n.rhsIdx (ix2 i j)
      ((contrEquiv1 dot_S64x64_S64x64_S64x64_1_1_0_0_n_n 64 rfl rfl).symm k) = ix2 j k := funext fun a => Fin.ext (by
    match a with
    | ⟨0, _⟩ => exact p0_rhs_sq_0 _ _
    | ⟨1, _⟩ => exact (p0_rhs_sq_1 _ _).trans hk)
  rw [el, er]

end Dots

/-! ## The row softmax -/

section Softmax
variable {n : ℕ}

/-- A vector of 64 entries spread over the rows of a [64, n] matrix (cast to a column, then broadcast): entry (i, j) is
    the vector's entry i. -/
theorem p0_keepdims_apply {α : Type} (m : S64.Idx → α) (hc : S64.ShapeCasts S64x1)
    (hb : S64x1.Broadcasts ⟨2, ![64, n]⟩) (i : Fin 64) (j : Fin n) :
    broadcastTo ⟨2, ![64, n]⟩ (shapeCast S64x1 m hc) hb (ix2 i j) = m (ix1 i) :=
  (p0_bcast_a1_ab _ hb i j).trans (p0_cast_a_a1 m hc i 0)

/-- The row maximum as the kernel takes it: the fold of max from minus infinity over the row, then max with minus
    infinity once more. -/
theorem p0_rowmax_apply (L : FVec Ideal ⟨2, ![64, n]⟩ .f32) (hr : (⟨2, ![64, n]⟩ : Shape).Reduces [1] S64)
    (hφ : FKind.Formats .f32) (hmax : (0xFF800000#32 : BitVec 32) = FKind.maximumf.neutral .f32 hφ) (i : Fin 64) :
    maximumf (broadcast S64 (Scalar.ofBits .f32 0xFF800000#32 : Ideal .f32))
        (multiReduction .maximumf [1] S64 L 0xFF800000#32 hr hφ hmax) (ix1 i)
      = rmax (fun j' : Fin n => L (ix2 i j')) := by
  refine (maximumf_apply _ _ _).trans ?_
  unfold rmax
  refine congrArg₂ max rfl ?_
  refine (Ideal.multiReduction_maximumf_single L 0xFF800000#32 hr hφ hmax (ix1 i)).trans ?_
  refine congrArg (Finset.fold max wNegInf · Finset.univ) ?_
  funext j'
  refine congrArg L ?_
  funext c
  match c with
  | ⟨0, _⟩ => rfl
  | ⟨1, _⟩ => rfl

/-- A row sum of a [64, n] matrix. -/
theorem p0_rowsum_apply (E : FVec Ideal ⟨2, ![64, n]⟩ .f32) (hr : (⟨2, ![64, n]⟩ : Shape).Reduces [1] S64)
    (hφ : FKind.Formats .f32) (hadd : (0x00000000#32 : BitVec 32) = FKind.add.neutral .f32 hφ) (i : Fin 64) :
    multiReduction .add [1] S64 E 0x00000000#32 hr hφ hadd (ix1 i) = ∑ j' : Fin n, E (ix2 i j') := by
  refine (Ideal.multiReduction_add_single E 0x00000000#32 hr hφ hadd (ix1 i)).trans ?_
  refine Finset.sum_congr rfl fun j' _ => congrArg E ?_
  funext c
  match c with
  | ⟨0, _⟩ => rfl
  | ⟨1, _⟩ => rfl

/-- The shifted exponentials: entry (i, j) of exp (L − M). -/
theorem p0_expsub_apply (L M : FVec Ideal ⟨2, ![64, n]⟩ .f32) (i : Fin 64) (j : Fin n) :
    exp (subf L M) (ix2 i j) = Ideal.exp (L (ix2 i j) - M (ix2 i j)) := rfl

/-- THE ROW SOFTMAX as the kernel spells it, at entry (i, j), is the specification's softmax of row i. -/
theorem p0_softmax_row (L : FVec Ideal ⟨2, ![64, n]⟩ .f32) (hr : (⟨2, ![64, n]⟩ : Shape).Reduces [1] S64)
    (hc : S64.ShapeCasts S64x1) (hb : S64x1.Broadcasts ⟨2, ![64, n]⟩) (hφ : FKind.Formats .f32)
    (hmax : (0xFF800000#32 : BitVec 32) = FKind.maximumf.neutral .f32 hφ)
    (hadd : (0x00000000#32 : BitVec 32) = FKind.add.neutral .f32 hφ) (i : Fin 64) (j : Fin n) :
    divf
        (exp (subf L (broadcastTo ⟨2, ![64, n]⟩ (shapeCast S64x1
          (maximumf (broadcast S64 (Scalar.ofBits .f32 0xFF800000#32 : Ideal .f32))
            (multiReduction .maximumf [1] S64 L 0xFF800000#32 hr hφ hmax)) hc) hb)))
        (broadcastTo ⟨2, ![64, n]⟩ (shapeCast S64x1
          (multiReduction .add [1] S64
            (exp (subf L (broadcastTo ⟨2, ![64, n]⟩ (shapeCast S64x1
              (maximumf (broadcast S64 (Scalar.ofBits .f32 0xFF800000#32 : Ideal .f32))
                (multiReduction .maximumf [1] S64 L 0xFF800000#32 hr hφ hmax)) hc) hb)))
            0x00000000#32 hr hφ hadd) hc) hb)
        (ix2 i j)
      = smax (fun j' : Fin n => L (ix2 i j')) j := by
  have hM : ∀ j' : Fin n, broadcastTo ⟨2, ![64, n]⟩ (shapeCast S64x1
      (maximumf (broadcast S64 (Scalar.ofBits .f32 0xFF800000#32 : Ideal .f32))
        (multiReduction .maximumf [1] S64 L 0xFF800000#32 hr hφ hmax)) hc) hb (ix2 i j')
      = rmax (fun j'' : Fin n => L (ix2 i j'')) := fun j' =>
    (p0_keepdims_apply _ hc hb i j').trans (p0_rowmax_apply L hr hφ hmax i)
  refine (divf_apply _ _ _).trans ?_
  unfold smax
  refine congrArg₂ Ideal.div ?_ ?_
  · refine (p0_expsub_apply L _ i j).trans ?_
    exact congrArg (fun m => Ideal.exp (L (ix2 i j) - m)) (hM j)
  · refine (p0_keepdims_apply _ hc hb i j).trans ?_
    refine (p0_rowsum_apply _ hr hφ hadd i).trans ?_
    refine Finset.sum_congr rfl fun j' _ => ?_
    refine (p0_expsub_apply L _ i j').trans ?_
    exact congrArg (fun m => Ideal.exp (L (ix2 i j') - m)) (hM j')

end Softmax

section Dots2

/-- Square times tall-transposed: the left operand's row is the output row. -/
theorem p0_lhs_wide_0 (i : S64x4096.Idx) (q : dot_S64x64_S4096x64_S64x4096_1_1_0_0_n_n.contr.Idx) :
    (dot_S64x64_S4096x64_S64x4096_1_1_0_0_n_n.lhsIdx i q 0).val = (i 0).val := by
  unfold DotDims.lhsIdx
  rw [dif_neg (show ¬(0 : Fin S64x64.rank) ∈ dot_S64x64_S4096x64_S64x4096_1_1_0_0_n_n.lhsBatch by decide),
    dif_pos (show (0 : Fin S64x64.rank) ∈ dot_S64x64_S4096x64_S64x4096_1_1_0_0_n_n.lhsNonContracting by decide)]
  rfl
/-- … its column the contraction coordinate. -/
theorem p0_lhs_wide_1 (i : S64x4096.Idx) (q : dot_S64x64_S4096x64_S64x4096_1_1_0_0_n_n.contr.Idx) :
    (dot_S64x64_S4096x64_S64x4096_1_1_0_0_n_n.lhsIdx i q 1).val = (q ⟨0, by decide⟩).val :=
  dot_S64x64_S4096x64_S64x4096_1_1_0_0_n_n.lhsIdx_val_of_single rfl i q
/-- The right operand's row is the output column. -/
theorem p0_rhs_wide_0 (i : S64x4096.Idx) (q : dot_S64x64_S4096x64_S64x4096_1_1_0_0_n_n.contr.Idx) :
    (dot_S64x64_S4096x64_S64x4096_1_1_0_0_n_n.rhsIdx i q 0).val = (i 1).val := by
  unfold DotDims.rhsIdx
  rw [dif_neg (show ¬(0 : Fin S4096x64.rank) ∈ dot_S64x64_S4096x64_S64x4096_1_1_0_0_n_n.rhsBatch by decide),
    dif_pos (show (0 : Fin S4096x64.rank) ∈ dot_S64x64_S4096x64_S64x4096_1_1_0_0_n_n.rhsNonContracting by decide)]
  rfl
/-- … its column the contraction coordinate. -/
theorem p0_rhs_wide_1 (i : S64x4096.Idx) (q : dot_S64x64_S4096x64_S64x4096_1_1_0_0_n_n.contr.Idx) :
    (dot_S64x64_S4096x64_S64x4096_1_1_0_0_n_n.rhsIdx i q 1).val = (q ⟨0, by decide⟩).val :=
  dot_S64x64_S4096x64_S64x4096_1_1_0_0_n_n.rhsIdx_val_of_single rfl i q

/-- A · Bᵀ of a square and a tall matrix into the zero accumulator, entry (i, s): the sum over d of A(i,d) B(s,d). -/
theorem p0_mm_wide {φ₁ φ₂ : FTy} (prec : Option ContractPrecision) (A : FVec Ideal S64x64 φ₁) (B : FVec Ideal S4096x64 φ₂)
    (i : Fin 64) (s : Fin 4096) :
    matmul dot_S64x64_S4096x64_S64x4096_1_1_0_0_n_n prec A B (constant (F := Ideal) S64x4096 .f32 0x00000000#32) (ix2 i s)
      = ∑ d : Fin 64, A (ix2 i d) * B (ix2 s d) := by
  refine (Ideal.matmul_constant_zero_apply dot_S64x64_S4096x64_S64x4096_1_1_0_0_n_n prec A B (ix2 i s)).trans ?_
  rw [← Equiv.sum_comp (contrEquiv1 dot_S64x64_S4096x64_S64x4096_1_1_0_0_n_n 64 rfl rfl).symm]
  refine Finset.sum_congr rfl fun k _ => ?_
  have hk := contrEquiv1_symm_val dot_S64x64_S4096x64_S64x4096_1_1_0_0_n_n 64 rfl rfl k
  have el : dot_S64x64_S4096x64_S64x4096_1_1_0_0_n_n.lhsIdx (ix2 i s)
      ((contrEquiv1 dot_S64x64_S4096x64_S64x4096_1_1_0_0_n_n 64 rfl rfl).symm k) = ix2 i k := funext fun a => Fin.ext (by
    match a with
    | ⟨0, _⟩ => exact p0_lhs_wide_0 _ _
    | ⟨1, _⟩ => exact (p0_lhs_wide_1 _ _).trans hk)
  have er : dot_S64x64_S4096x64_S64x4096_1_1_0_0_n_n.rhsIdx (ix2 i s)
      ((contrEquiv1 dot_S64x64_S4096x64_S64x4096_1_1_0_0_n_n 64 rfl rfl).symm k) = ix2 s k := funext fun a => Fin.ext (by
    match a with
    | ⟨0, _⟩ => exact p0_rhs_wide_0 _ _
    | ⟨1, _⟩ => exact (p0_rhs_wide_1 _ _).trans hk)
  rw [el, er]

/-- Wide times tall: the left operand's row is the output row. -/
theorem p0_lhs_out_0 (i : S64x64.Idx) (q : dot_S64x4096_S4096x64_S64x64_1_0_0_1_n_n.contr.Idx) :
    (dot_S64x4096_S4096x64_S64x64_1_0_0_1_n_n.lhsIdx i q 0).val = (i 0).val := by
  unfold DotDims.lhsIdx
  rw [dif_neg (show ¬(0 : Fin S64x4096.rank) ∈ dot_S64x4096_S4096x64_S64x64_1_0_0_1_n_n.lhsBatch by decide),
    dif_pos (show (0 : Fin S64x4096.rank) ∈ dot_S64x4096_S4096x64_S64x64_1_0_0_1_n_n.lhsNonContracting by decide)]
  rfl
/-- … its column the contraction coordinate. -/
theorem p0_lhs_out_1 (i : S64x64.Idx) (q : dot_S64x4096_S4096x64_S64x64_1_0_0_1_n_n.contr.Idx) :
    (dot_S64x4096_S4096x64_S64x64_1_0_0_1_n_n.lhsIdx i q 1).val = (q ⟨0, by decide⟩).val :=
  dot_S64x4096_S4096x64_S64x64_1_0_0_1_n_n.lhsIdx_val_of_single rfl i q
/-- The right operand's row is the contraction coordinate. -/
theorem p0_rhs_out_0 (i : S64x64.Idx) (q : dot_S64x4096_S4096x64_S64x64_1_0_0_1_n_n.contr.Idx) :
    (dot_S64x4096_S4096x64_S64x64_1_0_0_1_n_n.rhsIdx i q 0).val = (q ⟨0, by decide⟩).val :=
  dot_S64x4096_S4096x64_S64x64_1_0_0_1_n_n.rhsIdx_val_of_single rfl i q
/-- … its column the output column. -/
theorem p0_rhs_out_1 (i : S64x64.Idx) (q : dot_S64x4096_S4096x64_S64x64_1_0_0_1_n_n.contr.Idx) :
    (dot_S64x4096_S4096x64_S64x64_1_0_0_1_n_n.rhsIdx i q 1).val = (i 1).val := by
  unfold DotDims.rhsIdx
  rw [dif_neg (show ¬(1 : Fin S4096x64.rank) ∈ dot_S64x4096_S4096x64_S64x64_1_0_0_1_n_n.rhsBatch by decide),
    dif_pos (show (1 : Fin S4096x64.rank) ∈ dot_S64x4096_S4096x64_S64x64_1_0_0_1_n_n.rhsNonContracting by decide)]
  rfl

/-- A · B of a wide and a tall matrix into the zero accumulator, entry (i, d): the sum over s of A(i,s) B(s,d). -/
theorem p0_mm_out {φ₁ φ₂ : FTy} (prec : Option ContractPrecision) (A : FVec Ideal S64x4096 φ₁) (B : FVec Ideal S4096x64 φ₂)
    (i d : Fin 64) :
    matmul dot_S64x4096_S4096x64_S64x64_1_0_0_1_n_n prec A B (constant (F := Ideal) S64x64 .f32 0x00000000#32) (ix2 i d)
      = ∑ s : Fin 4096, A (ix2 i s) * B (ix2 s d) := by
  refine (Ideal.matmul_constant_zero_apply dot_S64x4096_S4096x64_S64x64_1_0_0_1_n_n prec A B (ix2 i d)).trans ?_
  rw [← Equiv.sum_comp (contrEquiv1 dot_S64x4096_S4096x64_S64x64_1_0_0_1_n_n 4096 rfl rfl).symm]
  refine Finset.sum_congr rfl fun k _ => ?_
  have hk := contrEquiv1_symm_val dot_S64x4096_S4096x64_S64x64_1_0_0_1_n_n 4096 rfl rfl k
  have el : dot_S64x4096_S4096x64_S64x64_1_0_0_1_n_n.lhsIdx (ix2 i d)
      ((contrEquiv1 dot_S64x4096_S4096x64_S64x64_1_0_0_1_n_n 4096 rfl rfl).symm k) = ix2 i k := funext fun a => Fin.ext (by
    match a with
    | ⟨0, _⟩ => exact p0_lhs_out_0 _ _
    | ⟨1, _⟩ => exact (p0_lhs_out_1 _ _).trans hk)
  have er : dot_S64x4096_S4096x64_S64x64_1_0_0_1_n_n.rhsIdx (ix2 i d)
      ((contrEquiv1 dot_S64x4096_S4096x64_S64x64_1_0_0_1_n_n 4096 rfl rfl).symm k) = ix2 k d := funext fun a => Fin.ext (by
    match a with
    | ⟨0, _⟩ => exact (p0_rhs_out_0 _ _).trans hk
    | ⟨1, _⟩ => exact p0_rhs_out_1 _ _)
  rw [el, er]

end Dots2

/-! ## The stored blocks -/

theorem pay_k2 (v4 v9 : Vec Ideal S1x1x4096x64 .f32) (i j : Fin 64) :
    k0_pay2 (k0_pay9 (F := Ideal) v4 v9) (ix4 0 0 i j) = K2 (tallOf v4) (tallOf v9) i j := by
  unfold k0_pay2
  refine (p0_cast_ab_11ab _ _ 0 0 i j).trans ?_
  unfold k0_pay9
  refine (p0_softmax_row _ _ _ _ _ _ _ i j).trans ?_
  unfold K2
  refine congrArg (fun x => smax x j) ?_
  funext j'
  refine (p0_mm_sq (some .fp32) _ _ i j').trans ?_
  refine Finset.sum_congr rfl fun d _ => ?_
  exact congrArg₂ (· * ·) (p0_pooled7_apply v4 i d) (p0_pooled8_apply v9 j' d)

theorem pay_c (v4 v9 v14 : Vec Ideal S1x1x4096x64 .f32) (i d : Fin 64) :
    k0_pay3 (k0_pay5 (F := Ideal) v14) (k0_pay6 (F := Ideal) v9) (k0_pay10 (F := Ideal) v4) (ix4 0 0 i d)
      = Cm (tallOf v4) (tallOf v9) (tallOf v14) i d := by
  unfold k0_pay3
  refine (p0_cast_ab_11ab _ _ 0 0 i d).trans ?_
  refine (p0_mm_out none _ _ i d).trans ?_
  unfold Cm
  refine Finset.sum_congr rfl fun s _ => ?_
  refine congrArg₂ (· * ·) ?_ ?_
  · -- the wide softmax matrix, entry (i, s)
    refine (truncf_apply (ψ := .bf16) _ bitsLt_bf16_f32 _).trans ?_
    refine (p0_softmax_row _ _ _ _ _ _ _ i s).trans ?_
    unfold K3
    refine congrArg (fun x => smax x s) ?_
    funext s'
    refine (p0_mm_wide none _ _ i s').trans ?_
    refine Finset.sum_congr rfl fun d' _ => ?_
    refine congrArg₂ (· * ·) ?_ ?_
    · unfold k0_pay10
      exact (truncf_apply (ψ := .bf16) _ bitsLt_bf16_f32 _).trans (p0_pooled7_apply v4 i d')
    · unfold k0_pay6
      exact (truncf_apply (ψ := .bf16) _ bitsLt_bf16_f32 _).trans (p0_scaled_apply v9 s' d')
  · -- the loaded values, entry (s, d)
    unfold k0_pay5
    refine (truncf_apply (ψ := .bf16) _ bitsLt_bf16_f32 _).trans ?_
    exact p0_cast_11ab_ab v14 _ s d

end Cert.KernelIdeal.Pay

end
-- ==== Proof.KPay1.lean ====
/-
  Stage 2's stored value, on the extended reals, is the specification's product in the kernel's grouping:
  softmax(q' kland^T) . (ainv . C), of the loaded head's matrices.
-/
import proofs.«411036_j71038759076379_3_alg».proof.Proof.Gen.KernelIdeal.Skeleton
import proofs.«411036_j71038759076379_3_alg».proof.Proof.Spec
import proofs.«411036_j71038759076379_3_alg».proof.Proof.KPayDefs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pay

open Cert.KernelIdeal Cert.KernelIdeal.Gen Cert.Nys Idealize.ShloMosaic Idealize.ShloMosaic.ValueIdx

namespace Stage2

/-! ## Layout operations at coordinates -/

section Layout
variable {α : Type}

/-- A [1,1,a,b] block viewed [a,b] reads, at (i, j), the block at (0, 0, i, j): equal row-major positions. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a,b] matrix stored as a [1,1,a,b] block reads, at (u, w, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- A vector [a] viewed as a column [a,1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a,1] broadcast over b columns reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The three products at coordinates -/

section Products

/-- ainv . C: the left operand's row is the result's row ... -/
theorem lhs_sq_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
/-- ... its column the contracted coordinate ... -/
theorem lhs_sq_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
/-- ... the right operand's row the contracted coordinate ... -/
theorem rhs_sq_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
/-- ... and its column the result's column. -/
theorem rhs_sq_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- The [64 x 64] product into the zero splat, entry (p, q): the sum over the inner coordinate. -/
theorem mm_sq_apply (lhs rhs : FVec Ideal S64x64 .bf16) (p q : Fin 64) :
    matmul dot_S64x64_S64x64_S64x64_1_0_0_1_n_n none lhs rhs (constant (F := Ideal) S64x64 .f32 0x00000000#32) (ix2 p q)
      = ∑ k : Fin 64, lhs (ix2 p k) * rhs (ix2 k q) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 p q) ((contrEquiv1 dot_S64x64_S64x64_S64x64_1_0_0_1_n_n 64 rfl rfl).symm k) = ix2 p k :=
    funext fun a => Fin.ext (by
      match a with
      | ⟨0, _⟩ => exact lhs_sq_0 _ _
      | ⟨1, _⟩ => exact (lhs_sq_1 _ _).trans hk)
  have er : dot_S64x64_S64x64_S64x64_1_0_0_1_n_n.rhsIdx (ix2 p q) ((contrEquiv1 dot_S64x64_S64x64_S64x64_1_0_0_1_n_n 64 rfl rfl).symm k) = ix2 k q :=
    funext fun a => Fin.ext (by
      match a with
      | ⟨0, _⟩ => exact (rhs_sq_0 _ _).trans hk
      | ⟨1, _⟩ => exact rhs_sq_1 _ _)
  rw [el, er]

end Products

section ProductsTall

/-- q' . kland^T: the left operand's row is the result's row ... -/
theorem lhs_qk_0 (i : S4096x64.Idx) (q : dot_S4096x64_S64x64_S4096x64_1_1_0_0_n_n.contr.Idx) :
    (dot_S4096x64_S64x64_S4096x64_1_1_0_0_n_n.lhsIdx i q 0).val = (i 0).val := by
  unfold DotDims.lhsIdx
  rw [dif_neg (show ¬(0 : Fin S4096x64.rank) ∈ dot_S4096x64_S64x64_S4096x64_1_1_0_0_n_n.lhsBatch by decide), dif_pos (show (0 : Fin S4096x64.rank) ∈ dot_S4096x64_S64x64_S4096x64_1_1_0_0_n_n.lhsNonContracting by decide)]
  rfl
/-- ... its column the contracted coordinate ... -/
theorem lhs_qk_1 (i : S4096x64.Idx) (q : dot_S4096x64_S64x64_S4096x64_1_1_0_0_n_n.contr.Idx) :
    (dot_S4096x64_S64x64_S4096x64_1_1_0_0_n_n.lhsIdx i q 1).val = (q ⟨0, by decide⟩).val :=
  dot_S4096x64_S64x64_S4096x64_1_1_0_0_n_n.lhsIdx_val_of_single rfl i q
/-- ... the right operand's row the result's column (the right operand enters transposed) ... -/
theorem rhs_qk_0 (i : S4096x64.Idx) (q : dot_S4096x64_S64x64_S4096x64_1_1_0_0_n_n.contr.Idx) :
    (dot_S4096x64_S64x64_S4096x64_1_1_0_0_n_n.rhsIdx i q 0).val = (i 1).val := by
  unfold DotDims.rhsIdx
  rw [dif_neg (show ¬(0 : Fin S64x64.rank) ∈ dot_S4096x64_S64x64_S4096x64_1_1_0_0_n_n.rhsBatch by decide), dif_pos (show (0 : Fin S64x64.rank) ∈ dot_S4096x64_S64x64_S4096x64_1_1_0_0_n_n.rhsNonContracting by decide)]
  rfl
/-- ... and its column the contracted coordinate. -/
theorem rhs_qk_1 (i : S4096x64.Idx) (q : dot_S4096x64_S64x64_S4096x64_1_1_0_0_n_n.contr.Idx) :
    (dot_S4096x64_S64x64_S4096x64_1_1_0_0_n_n.rhsIdx i q 1).val = (q ⟨0, by decide⟩).val :=
  dot_S4096x64_S64x64_S4096x64_1_1_0_0_n_n.rhsIdx_val_of_single rfl i q

/-- The [4096 x 64] . [64 x 64]^T product into the zero splat, entry (s, m): the sum over the feature coordinate. -/
theorem mm_qk_apply (lhs : FVec Ideal S4096x64 .bf16) (rhs : FVec Ideal S64x64 .bf16) (s : Fin 4096) (m : Fin 64) :
    matmul dot_S4096x64_S64x64_S4096x64_1_1_0_0_n_n none lhs rhs (constant (F := Ideal) S4096x64 .f32 0x00000000#32) (ix2 s m)
      = ∑ k : Fin 64, lhs (ix2 s k) * rhs (ix2 m k) := by
  simp only [matmul]
  rw [Ideal.matmul_constant_zero_apply, ← Equiv.sum_comp (contrEquiv1 dot_S4096x64_S64x64_S4096x64_1_1_0_0_n_n 64 rfl rfl).symm]
  refine Finset.sum_congr rfl fun k _ => ?_
  have hk := contrEquiv1_symm_val dot_S4096x64_S64x64_S4096x64_1_1_0_0_n_n 64 rfl rfl k
  have el : dot_S4096x64_S64x64_S4096x64_1_1_0_0_n_n.lhsIdx (ix2 s m) ((contrEquiv1 dot_S4096x64_S64x64_S4096x64_1_1_0_0_n_n 64 rfl rfl).symm k) = ix2 s k :=
    funext fun a => Fin.ext (by
      match a with
      | ⟨0, _⟩ => exact lhs_qk_0 _ _
      | ⟨1, _⟩ => exact (lhs_qk_1 _ _).trans hk)
  have er : dot_S4096x64_S64x64_S4096x64_1_1_0_0_n_n.rhsIdx (ix2 s m) ((contrEquiv1 dot_S4096x64_S64x64_S4096x64_1_1_0_0_n_n 64 rfl rfl).symm k) = ix2 m k :=
    funext fun a => Fin.ext (by
      match a with
      | ⟨0, _⟩ => exact rhs_qk_0 _ _
      | ⟨1, _⟩ => exact (rhs_qk_1 _ _).trans hk)
  rw [el, er]

/-- K1 . (ainv . C): the left operand's row is the result's row ... -/
theorem lhs_kx_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
/-- ... its column the contracted coordinate ... -/
theorem lhs_kx_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
/-- ... the right operand's row the contracted coordinate ... -/
theorem rhs_kx_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
/-- ... and its column the result's column. -/
theorem rhs_kx_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The [4096 x 64] . [64 x 64] product into the zero splat, entry (s, d): the sum over the landmark coordinate. -/
theorem mm_kx_apply (lhs : FVec Ideal S4096x64 .bf16) (rhs : FVec Ideal S64x64 .bf16) (s : Fin 4096) (d : Fin 64) :
    matmul dot_S4096x64_S64x64_S4096x64_1_0_0_1_n_n none lhs rhs (constant (F := Ideal) S4096x64 .f32 0x00000000#32) (ix2 s d)
      = ∑ k : Fin 64, lhs (ix2 s k) * rhs (ix2 k d) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 s d) ((contrEquiv1 dot_S4096x64_S64x64_S4096x64_1_0_0_1_n_n 64 rfl rfl).symm k) = ix2 s k :=
    funext fun a => Fin.ext (by
      match a with
      | ⟨0, _⟩ => exact lhs_kx_0 _ _
      | ⟨1, _⟩ => exact (lhs_kx_1 _ _).trans hk)
  have er : dot_S4096x64_S64x64_S4096x64_1_0_0_1_n_n.rhsIdx (ix2 s d) ((contrEquiv1 dot_S4096x64_S64x64_S4096x64_1_0_0_1_n_n 64 rfl rfl).symm k) = ix2 k d :=
    funext fun a => Fin.ext (by
      match a with
      | ⟨0, _⟩ => exact (rhs_kx_0 _ _).trans hk
      | ⟨1, _⟩ => exact rhs_kx_1 _ _)
  rw [el, er]

end ProductsTall

/-! ## The row softmax at coordinates -/

section Softmax

/-- A vector indexed by rows, viewed as a column and broadcast back over each row: how the kernel carries a row's reduction result. -/
abbrev rowB (v : FVec Ideal S4096 .f32) : FVec Ideal S4096x64 .f32 :=
  broadcastTo S4096x64 (shapeCast S4096x1 v shapeCasts_S4096_S4096x1) broadcasts_S4096x1_S4096x64

/-- It reads, at (s, m), the vector at s. -/
theorem rowB_apply (v : FVec Ideal S4096 .f32) (s : Fin 4096) (m : Fin 64) : rowB v (ix2 s m) = v (ix1 s) :=
  (broadcastTo_a1_ab_apply _ _ s m).trans (shapeCast_a_a1_apply v _ s 0)

/-- The source index over row s at column k. -/
theorem lift_row (s : Fin 4096) (k : Fin 64) : reduces_S4096x64_S4096.lift (ix1 s) k = ix2 s k :=
  funext fun a => Fin.ext (by match a with | ⟨0, _⟩ => rfl | ⟨1, _⟩ => rfl)

/-- The lane maximum from the word of minus infinity, row s: the fold of max over the row. -/
theorem rowmax_apply (x : FVec Ideal S4096x64 .f32) (hφ : FKind.Formats .f32)
    (hacc : (0xFF800000#32 : BitVec 32) = FKind.maximumf.neutral .f32 hφ) (s : Fin 4096) :
    multiReduction (F := Ideal) .maximumf [1] S4096 x 0xFF800000#32 reduces_S4096x64_S4096 hφ hacc (ix1 s)
      = (Finset.univ : Finset (Fin 64)).fold max wNegInf (fun m => x (ix2 s m)) := by
  refine (Ideal.multiReduction_maximumf_single x 0xFF800000#32 reduces_S4096x64_S4096 hφ hacc (ix1 s)).trans ?_
  have e : (x ∘ reduces_S4096x64_S4096.lift (ix1 s)) = fun m : Fin 64 => x (ix2 s m) :=
    funext fun m => congrArg x (lift_row s m)
  rw [e]
  rfl

/-- The lane sum, row s: the sum over the row. -/
theorem rowsum_apply (y : FVec Ideal S4096x64 .f32) (hφ : FKind.Formats .f32)
    (hacc : (0x00000000#32 : BitVec 32) = FKind.add.neutral .f32 hφ) (s : Fin 4096) :
    multiReduction (F := Ideal) .add [1] S4096 y 0x00000000#32 reduces_S4096x64_S4096 hφ hacc (ix1 s)
      = ∑ m : Fin 64, y (ix2 s m) := by
  refine (Ideal.multiReduction_add_single y 0x00000000#32 reduces_S4096x64_S4096 hφ hacc (ix1 s)).trans ?_
  exact Finset.sum_congr rfl fun m _ => congrArg y (lift_row s m)

/-- The kernel's shifted row maximum, broadcast: at (s, m) it is the specification's row maximum of row s. -/
theorem rmaxB_apply (x : FVec Ideal S4096x64 .f32) (hφ : FKind.Formats .f32)
    (hacc : (0xFF800000#32 : BitVec 32) = FKind.maximumf.neutral .f32 hφ) (s : Fin 4096) (m : Fin 64) :
    rowB (maximumf (broadcast S4096 (Scalar.ofBits (F := Ideal) .f32 0xFF800000#32))
        (multiReduction (F := Ideal) .maximumf [1] S4096 x 0xFF800000#32 reduces_S4096x64_S4096 hφ hacc)) (ix2 s m)
      = rmax (fun m' => x (ix2 s m')) := by
  refine (rowB_apply _ s m).trans ?_
  refine (maximumf_apply _ _ _).trans ?_
  rw [rowmax_apply]
  rfl

/-- The row softmax as the kernel spells it, at (s, m): the specification's softmax of row s, entry m. -/
theorem softmax_apply (x : FVec Ideal S4096x64 .f32) (s : Fin 4096) (m : Fin 64) :
    divf
      (exp (subf x (rowB (maximumf (broadcast S4096 (Scalar.ofBits (F := Ideal) .f32 0xFF800000#32))
        (multiReduction (F := Ideal) .maximumf [1] S4096 x 0xFF800000#32 reduces_S4096x64_S4096 (.inl rfl) rfl)))))
      (rowB (multiReduction (F := Ideal) .add [1] S4096
        (exp (subf x (rowB (maximumf (broadcast S4096 (Scalar.ofBits (F := Ideal) .f32 0xFF800000#32))
          (multiReduction (F := Ideal) .maximumf [1] S4096 x 0xFF800000#32 reduces_S4096x64_S4096 (.inl rfl) rfl)))))
        0x00000000#32 reduces_S4096x64_S4096 (.inl rfl) rfl))
      (ix2 s m)
      = smax (fun m' => x (ix2 s m')) m := by
  refine (divf_apply _ _ _).trans ?_
  unfold smax
  refine congrArg₂ Ideal.div ?_ ?_
  · show Ideal.exp (x (ix2 s m) - _) = _
    exact congrArg (fun r => Ideal.exp (x (ix2 s m) - r)) (rmaxB_apply x _ _ s m)
  · refine (rowB_apply _ s m).trans ?_
    refine (rowsum_apply _ _ _ s).trans ?_
    refine Finset.sum_congr rfl fun m' _ => ?_
    show Ideal.exp (x (ix2 s m') - _) = _
    exact congrArg (fun r => Ideal.exp (x (ix2 s m') - r)) (rmaxB_apply x _ _ s m')

end Softmax

end Stage2

open Stage2

/-! ## The stored value -/

/-- Stage 2's stored block at (0, 0, s, d): softmax(q' kland^T) . (ainv . C) at (s, d), the products read as sums over
    their inner coordinates, the format changes the identity on the extended reals, the loaded blocks read as matrices. -/
theorem pay_x (v4 : Vec Ideal S1x1x4096x64 .f32) (v10 v14 v18 : Vec Ideal S1x1x64x64 .f32) (s : Fin 4096) (d : Fin 64) :
    k1_pay1 (k1_pay2 (F := Ideal) v4 v10 v14 v18) (ix4 0 0 s d) = XK (tallOf v4) (sqOf v10) (sqOf v14) (sqOf v18) s d := by
  unfold k1_pay1
  refine (shapeCast_ab_11ab_apply _ _ 0 0 s d).trans ?_
  unfold k1_pay2
  refine (mm_kx_apply _ _ s d).trans ?_
  unfold XK
  refine Finset.sum_congr rfl fun m _ => ?_
  refine congrArg₂ (· * ·) ?_ ?_
  · -- the softmax factor
    refine (truncf_apply (φ := .f32) (ψ := .bf16) _ _ _).trans ?_
    refine (softmax_apply _ s m).trans ?_
    unfold K1
    refine congrArg (fun f => smax f m) (funext fun m' => ?_)
    refine (mm_qk_apply _ _ s m').trans ?_
    refine Finset.sum_congr rfl fun k _ => ?_
    refine congrArg₂ (· * ·) ?_ ?_
    · refine (truncf_apply (φ := .f32) (ψ := .bf16) _ _ _).trans ?_
      refine (mulf_apply _ _ _).trans ?_
      exact congrArg₂ (· * ·) (shapeCast_11ab_ab_apply _ _ s k) rfl
    · refine (truncf_apply (φ := .f32) (ψ := .bf16) _ _ _).trans ?_
      exact shapeCast_11ab_ab_apply _ _ m' k
  · -- the factor ainv . C
    refine (truncf_apply (φ := .f32) (ψ := .bf16) _ _ _).trans ?_
    refine (mm_sq_apply _ _ m d).trans ?_
    refine Finset.sum_congr rfl fun n _ => ?_
    refine congrArg₂ (· * ·) ?_ ?_
    · refine (truncf_apply (φ := .f32) (ψ := .bf16) _ _ _).trans ?_
      exact shapeCast_11ab_ab_apply _ _ m n
    · refine (truncf_apply (φ := .f32) (ψ := .bf16) _ _ _).trans ?_
      exact shapeCast_11ab_ab_apply _ _ n d

end Cert.KernelIdeal.Pay

end
-- ==== Proof.KValue.lean ====
/-
  The kernel's result as a value. The result buffer ends at what stage 2 leaves, stage 2 read at the contents the
  host stretch leaves, the host stretch at what stage 1 leaves, stage 1 at the launch contents: so the result is
  stage 2's function of the queries, of stage 1's pooled keys and third output, and of the Newton-Schulz iteration
  run on stage 1's small softmax array -- and, on the extended reals, the specification's product in the kernel's
  grouping, head by head.
-/
import proofs.«411036_j71038759076379_3_alg».proof.Proof.Gen.KernelIdeal.Frame
import proofs.«411036_j71038759076379_3_alg».proof.Proof.KBlocks
import proofs.«411036_j71038759076379_3_alg».proof.Proof.KHost
import proofs.«411036_j71038759076379_3_alg».proof.Proof.KReg0
import proofs.«411036_j71038759076379_3_alg».proof.Proof.KReg1
import proofs.«411036_j71038759076379_3_alg».proof.Proof.KPay0
import proofs.«411036_j71038759076379_3_alg».proof.Proof.KPay1
import proofs.«411036_j71038759076379_3_alg».proof.Proof.NSDef
import proofs.«411036_j71038759076379_3_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Nys Cert.KernelIdeal.Pay

section Generic

variable {F : FTy → Type} [FloatOps F]
variable (m : (ℓ : Loc nD τ sig) → Buf (Elt F) ℓ) (ρ : Dev nD → PrngReg)

/-- The queries reach stage 2 as launched: neither stage 1 nor the host stretch writes them. -/
theorem V2_arg0 (c : Dev nD) : V2 m ρ c main_arg0 = m ((c : Thread nD τ).loc main_arg0) :=
  (after_hostOps1_arg0 (W1 m ρ c)).trans
    ((W1_arr m ρ c 0).trans (((dat0 (V0 m ρ) c).arrAt_in 0 rfl _).trans (A_eq0 (V0 m ρ) c 0)))

/-- The pooled keys reach stage 2 as stage 1 left them. -/
theorem V2_v0_0 (c : Dev nD) : V2 m ρ c main_v0_0 = G0kl (m ((c : Thread nD τ).loc main_arg1)) :=
  (after_hostOps1_v0_0 (W1 m ρ c)).trans ((W1_arr m ρ c 3).trans (arrAt0_3 (V0 m ρ) c))

/-- Stage 1's third output reaches stage 2 as stage 1 left it. -/
theorem V2_v0_2 (c : Dev nD) :
    V2 m ρ c main_v0_2 = G0c (m ((c : Thread nD τ).loc main_arg0)) (m ((c : Thread nD τ).loc main_arg1)) (m ((c : Thread nD τ).loc main_arg2)) :=
  (after_hostOps1_v0_2 (W1 m ρ c)).trans ((W1_arr m ρ c 5).trans (arrAt0_5 (V0 m ρ) c))

/-- The approximate inverse stage 2 reads is the iteration run on stage 1's small softmax array. -/
theorem V2_v143 (c : Dev nD) :
    V2 m ρ c main_v143 = NS (G0k2 (m ((c : Thread nD τ).loc main_arg0)) (m ((c : Thread nD τ).loc main_arg1))) :=
  (after_hostOps1_ainv (W1 m ρ c)).trans (congrArg NS ((W1_arr m ρ c 4).trans (arrAt0_4 (V0 m ρ) c)))

/-- The result buffer's final contents. -/
theorem W3_result (c : Dev nD) :
    W3 m ρ c (Proc.devRef .tc main_v144)
      = G1 (m ((c : Thread nD τ).loc main_arg0)) (G0kl (m ((c : Thread nD τ).loc main_arg1)))
          (NS (G0k2 (m ((c : Thread nD τ).loc main_arg0)) (m ((c : Thread nD τ).loc main_arg1))))
          (G0c (m ((c : Thread nD τ).loc main_arg0)) (m ((c : Thread nD τ).loc main_arg1)) (m ((c : Thread nD τ).loc main_arg2))) := by
  refine (W3_arr m ρ c 4).trans ?_
  rw [arrAt1_4 (V2 m ρ) c, V2_arg0 m ρ c, V2_v0_0 m ρ c, V2_v143 m ρ c, V2_v0_2 m ρ c]

end Generic

/-! ## On the extended reals: the specification's matrices -/

theorem G0kl_eq (K : Vec Ideal S4x12x4096x64 .f32) : G0kl K = KLarr K := by
  funext i
  exact pay_kl (blkT K (i 0) (i 1)) (i 2) (i 3)

theorem G0k2_eq (Q K : Vec Ideal S4x12x4096x64 .f32) : G0k2 Q K = K2arr Q K := by
  funext i
  exact pay_k2 (blkT Q (i 0) (i 1)) (blkT K (i 0) (i 1)) (i 2) (i 3)

theorem G0c_eq (Q K V : Vec Ideal S4x12x4096x64 .f32) : G0c Q K V = Carr Q K V := by
  funext i
  exact pay_c (blkT Q (i 0) (i 1)) (blkT K (i 0) (i 1)) (blkT V (i 0) (i 1)) (i 2) (i 3)

theorem G1_eq (Q : Vec Ideal S4x12x4096x64 .f32) (KL AI CM : Vec Ideal S4x12x64x64 .f32) :
    G1 Q KL AI CM = fun i => XK (hd Q (i 0) (i 1)) (hdL KL (i 0) (i 1)) (hdL AI (i 0) (i 1)) (hdL CM (i 0) (i 1)) (i 2) (i 3) := by
  funext i
  exact pay_x (blkT Q (i 0) (i 1)) (blkS KL (i 0) (i 1)) (blkS AI (i 0) (i 1)) (blkS CM (i 0) (i 1)) (i 2) (i 3)

/-- The kernel's result on the extended reals: the specification's product in the kernel's grouping. -/
theorem result_outK (Q K V : Vec Ideal S4x12x4096x64 .f32) :
    G1 Q (G0kl K) (NS (G0k2 Q K)) (G0c Q K V) = outK Q K V (NS (F := Ideal) (K2arr Q K)) := by
  rw [G0kl_eq, G0k2_eq, G0c_eq, G1_eq]
  rfl

end Cert.KernelIdeal.Val

end
-- ==== Proof.RefDefs.lean ====
/-
  The reference's result term cut at its four matrices: the tall softmax K1, the wide softmax K3, C = K3 . v, the
  approximate inverse (the last Newton-Schulz step written out over the step before), and the result
  (K1 . ainv) . C. Each is the printed term; together they are the term the reference's run ends at.
-/
import proofs.«411036_j71038759076379_3_alg».proof.Proof.Gen.ReferenceIdeal.Run
import proofs.«411036_j71038759076379_3_alg».proof.Proof.Spec

set_option maxRecDepth 16384

noncomputable section

namespace Cert.ReferenceIdeal.RefVal

open Cert.ReferenceIdeal Cert.ReferenceIdeal.Gen Cert.ReferenceIdeal.Value Cert.Nys
open Idealize.ShloMosaic Idealize.ShloMosaic.TcCoe Idealize.ShloMosaic.StableHlo Idealize.SL.Sem Idealize.ShloMosaic.ValueIdx

/-- The three inputs as the reference finds them, on the extended reals. -/
abbrev Qa (V0 : Valuation τ sig (Elt Ideal)) : A4.Idx → EReal := V0 (Proc.devRef .tc main_arg0)
abbrev Ka (V0 : Valuation τ sig (Elt Ideal)) : A4.Idx → EReal := V0 (Proc.devRef .tc main_arg1)
abbrev Va (V0 : Valuation τ sig (Elt Ideal)) : A4.Idx → EReal := V0 (Proc.devRef .tc main_arg2)

variable {F : FTy → Type} [FloatOps F]
variable (V0 : Valuation τ sig (Elt F))

/-- The reference's tall softmax matrices, all heads. -/
def refK1 : FVec F S4x12x4096x64 .f32 :=
  Host.divf (res_main_v19 V0) (broadcastInDim S4x12x4096x64 ![0, 1, 2, 3] bcast_S4x12x4096x1_S4x12x4096x64_0_1_2_3 (broadcastInDim S4x12x4096x1 ![0, 1, 2] bcast_S4x12x4096_S4x12x4096x1_0_1_2 (Host.reduceAdd (res_main_v19 V0) (constant S_ .f32 0x00000000#32) reducesTo_S4x12x4096x64_S4x12x4096_d3 h_S_)))

/-- The reference's wide softmax matrices, all heads. -/
def refK3 : FVec F S4x12x64x4096 .f32 :=
  Host.divf (res_main_v43 V0) (broadcastInDim S4x12x64x4096 ![0, 1, 2, 3] bcast_S4x12x64x1_S4x12x64x4096_0_1_2_3 (broadcastInDim S4x12x64x1 ![0, 1, 2] bcast_S4x12x64_S4x12x64x1_0_1_2 (Host.reduceAdd (res_main_v43 V0) (constant S_ .f32 0x00000000#32) reducesTo_S4x12x64x4096_S4x12x64_d3 h_S_)))

/-- C = K3 . v, all heads. -/
def refC : FVec F S4x12x64x64 .f32 :=
  Host.dotGeneral dot_S4x12x64x4096_S4x12x4096x64_S4x12x64x64_3_2_2_3_01_01 none (refK3 V0) (V0 (Proc.devRef .tc main_arg2))

/-- The approximate inverse: the sixth step over the fifth's result and its product with K2. -/
def refAinv : FVec F S4x12x64x64 .f32 :=
  Host.dotGeneral dot_S4x12x64x64_S4x12x64x64_S4x12x64x64_3_2_2_3_01_01 none (mulf (broadcastInDim S4x12x64x64 ![] bcast_S_S4x12x64x64 (constant S_ .f32 0x3E800000#32)) (res_main_v169 V0)) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x41500000#32)) (res_main_v53 V0)))) (Host.dotGeneral dot_S4x12x64x64_S4x12x64x64_S4x12x64x64_3_2_2_3_01_01 none (res_main_v170 V0) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x41700000#32)) (res_main_v53 V0)))) (Host.dotGeneral dot_S4x12x64x64_S4x12x64x64_S4x12x64x64_3_2_2_3_01_01 none (res_main_v170 V0) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x40E00000#32)) (res_main_v53 V0)))) (res_main_v170 V0))))))

/-- The reference's result: (K1 . ainv) . C. -/
def refOut : FVec F S4x12x4096x64 .f32 :=
  Host.dotGeneral dot_S4x12x4096x64_S4x12x64x64_S4x12x4096x64_3_2_2_3_01_01 none (Host.dotGeneral dot_S4x12x4096x64_S4x12x64x64_S4x12x4096x64_3_2_2_3_01_01 none (refK1 V0) (refAinv V0)) (refC V0)

/-- The cut pieces put together are the term the generated run states. -/
theorem refOut_eq :
    Host.dotGeneral dot_S4x12x4096x64_S4x12x64x64_S4x12x4096x64_3_2_2_3_01_01 none (Host.dotGeneral dot_S4x12x4096x64_S4x12x64x64_S4x12x4096x64_3_2_2_3_01_01 none (Host.divf (res_main_v19 V0) (broadcastInDim S4x12x4096x64 ![0, 1, 2, 3] bcast_S4x12x4096x1_S4x12x4096x64_0_1_2_3 (broadcastInDim S4x12x4096x1 ![0, 1, 2] bcast_S4x12x4096_S4x12x4096x1_0_1_2 (Host.reduceAdd (res_main_v19 V0) (constant S_ .f32 0x00000000#32) reducesTo_S4x12x4096x64_S4x12x4096_d3 h_S_)))) (Host.dotGeneral dot_S4x12x64x64_S4x12x64x64_S4x12x64x64_3_2_2_3_01_01 none (mulf (broadcastInDim S4x12x64x64 ![] bcast_S_S4x12x64x64 (constant S_ .f32 0x3E800000#32)) (res_main_v169 V0)) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x41500000#32)) (res_main_v53 V0)))) (Host.dotGeneral dot_S4x12x64x64_S4x12x64x64_S4x12x64x64_3_2_2_3_01_01 none (res_main_v170 V0) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x41700000#32)) (res_main_v53 V0)))) (Host.dotGeneral dot_S4x12x64x64_S4x12x64x64_S4x12x64x64_3_2_2_3_01_01 none (res_main_v170 V0) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x40E00000#32)) (res_main_v53 V0)))) (res_main_v170 V0)))))))) (Host.dotGeneral dot_S4x12x64x4096_S4x12x4096x64_S4x12x64x64_3_2_2_3_01_01 none (Host.divf (res_main_v43 V0) (broadcastInDim S4x12x64x4096 ![0, 1, 2, 3] bcast_S4x12x64x1_S4x12x64x4096_0_1_2_3 (broadcastInDim S4x12x64x1 ![0, 1, 2] bcast_S4x12x64_S4x12x64x1_0_1_2 (Host.reduceAdd (res_main_v43 V0) (constant S_ .f32 0x00000000#32) reducesTo_S4x12x64x4096_S4x12x64_d3 h_S_)))) (V0 (Proc.devRef .tc main_arg2)))
      = refOut V0 := rfl

end Cert.ReferenceIdeal.RefVal

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.RefLow.lean ====
/-
  The reference's first stages read at an index: the scaled inputs, and the pooled scaled inputs (a reshape of
  the 4096 rows into 64 segments of 64, a sum over the segment's rows from zero, a division by 64 -- the product
  with 2^(-6) on every extended real).
-/
import proofs.«411036_j71038759076379_3_alg».proof.Proof.RefDefs
import proofs.«411036_j71038759076379_3_alg».proof.Proof.LibTileSums
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

namespace Cert.ReferenceIdeal.RefVal

open Cert.ReferenceIdeal Cert.ReferenceIdeal.Gen Cert.ReferenceIdeal.Value Cert.Nys
open Idealize.ShloMosaic Idealize.ShloMosaic.TcCoe Idealize.ShloMosaic.StableHlo Idealize.SL.Sem Idealize.ShloMosaic.ValueIdx

variable (V0 : Valuation τ sig (Elt Ideal))

/-- The word 0x42800000 is the real number 64. -/
theorem ofBits_64 : Ideal.ofBits .f32 0x42800000#32 = ((64 : ℝ) : EReal) := by
  simp [Ideal.ofBits, Ideal.ieee]
  rw [← EReal.coe_mul]
  norm_num

/-- The word 0x3C800000 is the real number 1/64. -/
theorem w64_eq : w64 = ((1 / 64 : ℝ) : EReal) := by
  unfold w64
  simp [Ideal.ofBits, Ideal.ieee]
  rw [← EReal.coe_mul]
  norm_num

/-- Division by the word 64 is the product with the word 1/64, on every extended real (the infinities too:
    64 is a nonzero real, so dividing is multiplying by its reciprocal). -/
theorem div_64 (x : EReal) : Ideal.div x (Ideal.ofBits .f32 0x42800000#32) = x * w64 := by
  rw [ofBits_64, w64_eq]
  exact Ideal.div_coe (by norm_num) x

/-- The segment sum's shape fact, with the summed axis named. -/
theorem red5 : S4x12x64x64x64.Reduces [3] S4x12x64x64 := by decide

/-- The tall array seen as segments: position (b, h, j, t, d) of the five-axis view is row 64 j + t of head (b, h),
    because both have the same row-major position. -/
theorem cast_seg (x : S4x12x4096x64.Idx → EReal) (b : Fin 4) (h : Fin 12) (j t d : Fin 64) :
    shapeCast S4x12x64x64x64 x shapeCasts_S4x12x4096x64_S4x12x64x64x64 (red5.lift (ix4 b h j d) t)
      = x (ix4 b h (seg j t) d) := by
  refine shapeCast_apply x _ _ _ ?_
  rw [Shape.rowMajor_val_four, Shape.rowMajor_val_five]
  show ((b.val * 12 + h.val) * 4096 + (64 * j.val + t.val)) * 64 + d.val
    = ((((b.val * 12 + h.val) * 64 + j.val) * 64 + t.val) * 64 + d.val)
  ring

/-- Pooling read at an index: the sum from zero over the segment's 64 rows, divided by 64, is the segment's sum
    times 2^(-6). -/
theorem pool_apply (x : S4x12x4096x64.Idx → EReal) (b : Fin 4) (h : Fin 12) (j d : Fin 64) :
    Host.divf (F := Ideal) (Host.reduceAdd (F := Ideal) (φ := .f32) (shapeCast S4x12x64x64x64 x shapeCasts_S4x12x4096x64_S4x12x64x64x64)
        (constant (F := Ideal) S_ .f32 0x00000000#32) reducesTo_S4x12x64x64x64_S4x12x64x64_d3 h_S_)
      (broadcastInDim S4x12x64x64 ![] bcast_S_S4x12x64x64 (constant (F := Ideal) S_ .f32 0x42800000#32)) (ix4 b h j d)
      = (∑ t : Fin 64, x (ix4 b h (seg j t) d)) * w64 := by
  show Ideal.div (Ideal.hostReduceAdd reducesTo_S4x12x64x64x64_S4x12x64x64_d3
      (shapeCast S4x12x64x64x64 x shapeCasts_S4x12x4096x64_S4x12x64x64x64) (Ideal.ofBits .f32 0x00000000#32) (ix4 b h j d))
      (Ideal.ofBits .f32 0x42800000#32) = _
  rw [div_64, Ideal.hostReduceAdd_single _ red5, Ideal.ofBits_zero_f32, zero_add]
  exact congrArg (· * w64) (Finset.sum_congr rfl fun t _ => cast_seg x b h j t d)

/-- The scaled queries: the entry times the scaling word (the broadcast constant reads that word everywhere). -/
theorem v1_apply (b : Fin 4) (h : Fin 12) (s : Fin 4096) (d : Fin 64) :
    res_main_v1 V0 (ix4 b h s d) = scl (hd (Qa V0) b h) s d := rfl

/-- The scaled keys, likewise. -/
theorem v3_apply (b : Fin 4) (h : Fin 12) (s : Fin 4096) (d : Fin 64) :
    res_main_v3 V0 (ix4 b h s d) = scl (hd (Ka V0) b h) s d := rfl

/-- The pooled scaled queries: the pooling of the scaled queries, entry by entry. -/
theorem v7_apply (b : Fin 4) (h : Fin 12) (j d : Fin 64) :
    res_main_v7 V0 (ix4 b h j d) = land (scl (hd (Qa V0) b h)) j d := by
  unfold res_main_v7
  refine (pool_apply (res_main_v1 V0) b h j d).trans ?_
  unfold land
  exact congrArg (· * w64) (Finset.sum_congr rfl fun t _ => v1_apply V0 b h (seg j t) d)

/-- The pooled scaled keys, likewise. -/
theorem v11_apply (b : Fin 4) (h : Fin 12) (j d : Fin 64) :
    res_main_v11 V0 (ix4 b h j d) = land (scl (hd (Ka V0) b h)) j d := by
  unfold res_main_v11
  refine (pool_apply (res_main_v3 V0) b h j d).trans ?_
  unfold land
  exact congrArg (· * w64) (Finset.sum_congr rfl fun t _ => v3_apply V0 b h (seg j t) d)

end Cert.ReferenceIdeal.RefVal

end
-- ==== Proof.RefK1.lean ====
/-
  The reference's tall softmax matrices (every head's softmax of scaled queries times pooled keys) are the
  specification's.
-/
import proofs.«411036_j71038759076379_3_alg».proof.Proof.RefLow
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

namespace Cert.ReferenceIdeal.RefVal

open Cert.ReferenceIdeal Cert.ReferenceIdeal.Gen Cert.ReferenceIdeal.Value Cert.Nys
open Idealize.ShloMosaic Idealize.ShloMosaic.TcCoe Idealize.ShloMosaic.StableHlo Idealize.SL.Sem Idealize.ShloMosaic.ValueIdx

/-- The reference's division and exponential read at an index. -/
theorem hdiv_atT {s : Shape} {φ : FTy} (x y : FVec Ideal s φ) (i : s.Idx) : Host.divf x y i = Ideal.div (x i) (y i) := rfl
theorem hexp_atT {s : Shape} {φ : FTy} (x : FVec Ideal s φ) (i : s.Idx) : Host.exp x i = Ideal.exp (x i) := rfl

/-- A column [4,12,4096] spread along a new last axis and then along 64 columns reads, at (b, h, s, m), the column at
    (b, h, s). -/
theorem bcT (z : FVec Ideal S4x12x4096 .f32) (b : Fin 4) (h : Fin 12) (s : Fin 4096) (m : Fin 64) :
    broadcastInDim S4x12x4096x64 ![0, 1, 2, 3] bcast_S4x12x4096x1_S4x12x4096x64_0_1_2_3
      (broadcastInDim S4x12x4096x1 ![0, 1, 2] bcast_S4x12x4096_S4x12x4096x1_0_1_2 z) (ix4 b h s m) = z (ix3 b h s) := by
  refine (broadcastInDim_apply _ _ _ (ix4 b h s m) (ix4 b h s (0 : Fin 1)) ?_).trans ?_
  · intro a; match a with | ⟨0, _⟩ => rfl | ⟨1, _⟩ => rfl | ⟨2, _⟩ => rfl | ⟨3, _⟩ => rfl
  · refine broadcastInDim_apply _ _ _ (ix4 b h s (0 : Fin 1)) (ix3 b h s) ?_
    intro a; match a with | ⟨0, _⟩ => rfl | ⟨1, _⟩ => rfl | ⟨2, _⟩ => rfl

/-- The index over (b, h, s) with m inserted on the last axis is (b, h, s, m). -/
theorem liftT (hr : S4x12x4096x64.Reduces [3] S4x12x4096) (b : Fin 4) (h : Fin 12) (s : Fin 4096) (m : Fin 64) :
    hr.lift (ix3 b h s) m = ix4 b h s m :=
  funext fun a => Fin.ext (by match a with | ⟨0, _⟩ => rfl | ⟨1, _⟩ => rfl | ⟨2, _⟩ => rfl | ⟨3, _⟩ => rfl)

/-- The row maximum as the reference takes it, at (b, h, s): the maximum of the word of minus infinity and the fold of
    the row from that word. -/
theorem rowmaxT (L : FVec Ideal S4x12x4096x64 .f32) (b : Fin 4) (h : Fin 12) (s : Fin 4096) :
    maximumf (broadcastInDim S4x12x4096 ![] bcast_S_S4x12x4096 (constant (F := Ideal) S_ .f32 0xFF800000#32))
      (Host.reduce FloatOps.maximumf L (constant (F := Ideal) S_ .f32 0xFF800000#32) reducesTo_S4x12x4096x64_S4x12x4096_d3 h_S_) (ix3 b h s)
      = rmax (fun m' : Fin 64 => L (ix4 b h s m')) := by
  have hr : S4x12x4096x64.Reduces [3] S4x12x4096 := by decide
  refine (maximumf_apply _ _ _).trans ?_
  unfold rmax
  refine congrArg₂ max ?_ ?_
  · exact broadcastInDim_apply _ _ _ _ ix0 (fun a => a.elim0)
  · refine (Host.reduce_eq_fold_single FloatOps.maximumf L _ reducesTo_S4x12x4096x64_S4x12x4096_d3 hr h_S_ (ix3 b h s)).trans ?_
    have e : (L ∘ hr.lift (ix3 b h s)) = fun m' : Fin 64 => L (ix4 b h s m') :=
      funext fun m' => congrArg L (liftT hr b h s m')
    rw [e]
    rfl

/-- The row sum as the reference takes it, at (b, h, s): from the zero word, the sum over the 64 columns. -/
theorem rowsumT (E : FVec Ideal S4x12x4096x64 .f32) (b : Fin 4) (h : Fin 12) (s : Fin 4096) :
    Host.reduceAdd E (constant (F := Ideal) S_ .f32 0x00000000#32) reducesTo_S4x12x4096x64_S4x12x4096_d3 h_S_ (ix3 b h s)
      = ∑ m' : Fin 64, E (ix4 b h s m') := by
  have hr : S4x12x4096x64.Reduces [3] S4x12x4096 := by decide
  unfold Host.reduceAdd
  refine (Ideal.hostReduceAdd_single reducesTo_S4x12x4096x64_S4x12x4096_d3 hr E _ (ix3 b h s)).trans ?_
  have z : (constant (F := Ideal) S_ .f32 0x00000000#32) (Shape.Idx.first h_S_) = 0 := Ideal.ofBits_zero_f32
  rw [z, zero_add]
  exact Finset.sum_congr rfl fun m' _ => congrArg E (liftT hr b h s m')

/-- The reference's row softmax of a logits array [4,12,4096,64] along its last axis, at (b, h, s, m): the
    specification's softmax of the row. -/
theorem softT (L : FVec Ideal S4x12x4096x64 .f32) (b : Fin 4) (h : Fin 12) (s : Fin 4096) (m : Fin 64) :
    Host.divf
      (Host.exp (subf L (broadcastInDim S4x12x4096x64 ![0, 1, 2, 3] bcast_S4x12x4096x1_S4x12x4096x64_0_1_2_3 (broadcastInDim S4x12x4096x1 ![0, 1, 2] bcast_S4x12x4096_S4x12x4096x1_0_1_2 (maximumf (broadcastInDim S4x12x4096 ![] bcast_S_S4x12x4096 (constant (F := Ideal) S_ .f32 0xFF800000#32)) (Host.reduce FloatOps.maximumf L (constant (F := Ideal) S_ .f32 0xFF800000#32) reducesTo_S4x12x4096x64_S4x12x4096_d3 h_S_))))))
      (broadcastInDim S4x12x4096x64 ![0, 1, 2, 3] bcast_S4x12x4096x1_S4x12x4096x64_0_1_2_3 (broadcastInDim S4x12x4096x1 ![0, 1, 2] bcast_S4x12x4096_S4x12x4096x1_0_1_2 (Host.reduceAdd
        (Host.exp (subf L (broadcastInDim S4x12x4096x64 ![0, 1, 2, 3] bcast_S4x12x4096x1_S4x12x4096x64_0_1_2_3 (broadcastInDim S4x12x4096x1 ![0, 1, 2] bcast_S4x12x4096_S4x12x4096x1_0_1_2 (maximumf (broadcastInDim S4x12x4096 ![] bcast_S_S4x12x4096 (constant (F := Ideal) S_ .f32 0xFF800000#32)) (Host.reduce FloatOps.maximumf L (constant (F := Ideal) S_ .f32 0xFF800000#32) reducesTo_S4x12x4096x64_S4x12x4096_d3 h_S_))))))
        (constant (F := Ideal) S_ .f32 0x00000000#32) reducesTo_S4x12x4096x64_S4x12x4096_d3 h_S_)))
      (ix4 b h s m)
      = smax (fun m' : Fin 64 => L (ix4 b h s m')) m := by
  -- the shifted exponentials at every column of the row
  have hE : ∀ m' : Fin 64,
      Host.exp (subf L (broadcastInDim S4x12x4096x64 ![0, 1, 2, 3] bcast_S4x12x4096x1_S4x12x4096x64_0_1_2_3 (broadcastInDim S4x12x4096x1 ![0, 1, 2] bcast_S4x12x4096_S4x12x4096x1_0_1_2 (maximumf (broadcastInDim S4x12x4096 ![] bcast_S_S4x12x4096 (constant (F := Ideal) S_ .f32 0xFF800000#32)) (Host.reduce FloatOps.maximumf L (constant (F := Ideal) S_ .f32 0xFF800000#32) reducesTo_S4x12x4096x64_S4x12x4096_d3 h_S_))))) (ix4 b h s m')
        = Ideal.exp (L (ix4 b h s m') - rmax (fun m'' : Fin 64 => L (ix4 b h s m''))) := fun m' => by
    refine (hexp_atT _ _).trans (congrArg Ideal.exp ?_)
    refine (subf_apply _ _ _).trans (congrArg (L (ix4 b h s m') - ·) ?_)
    exact (bcT _ b h s m').trans (rowmaxT L b h s)
  refine (hdiv_atT _ _ _).trans ?_
  unfold smax
  refine congrArg₂ Ideal.div (hE m) ?_
  refine (bcT _ b h s m).trans ((rowsumT _ b h s).trans ?_)
  exact Finset.sum_congr rfl fun m' _ => hE m'

/-! The logits product: batch axes 0 and 1, both operands contracted along their last axis. At an output index
    (b, h, s, m) the left operand is read at (b, h, s, d) and the right at (b, h, m, d). -/
theorem dT_l0 (i : S4x12x4096x64.Idx) (q : dot_S4x12x4096x64_S4x12x64x64_S4x12x4096x64_3_3_2_2_01_01.contr.Idx) :
    (dot_S4x12x4096x64_S4x12x64x64_S4x12x4096x64_3_3_2_2_01_01.lhsIdx i q 0).val = (i 0).val := by
  unfold DotDims.lhsIdx
  rw [dif_pos (show (0 : Fin S4x12x4096x64.rank) ∈ dot_S4x12x4096x64_S4x12x64x64_S4x12x4096x64_3_3_2_2_01_01.lhsBatch by decide)]
  rfl
theorem dT_l1 (i : S4x12x4096x64.Idx) (q : dot_S4x12x4096x64_S4x12x64x64_S4x12x4096x64_3_3_2_2_01_01.contr.Idx) :
    (dot_S4x12x4096x64_S4x12x64x64_S4x12x4096x64_3_3_2_2_01_01.lhsIdx i q 1).val = (i 1).val := by
  unfold DotDims.lhsIdx
  rw [dif_pos (show (1 : Fin S4x12x4096x64.rank) ∈ dot_S4x12x4096x64_S4x12x64x64_S4x12x4096x64_3_3_2_2_01_01.lhsBatch by decide)]
  rfl
theorem dT_l2 (i : S4x12x4096x64.Idx) (q : dot_S4x12x4096x64_S4x12x64x64_S4x12x4096x64_3_3_2_2_01_01.contr.Idx) :
    (dot_S4x12x4096x64_S4x12x64x64_S4x12x4096x64_3_3_2_2_01_01.lhsIdx i q 2).val = (i 2).val := by
  unfold DotDims.lhsIdx
  rw [dif_neg (show ¬(2 : Fin S4x12x4096x64.rank) ∈ dot_S4x12x4096x64_S4x12x64x64_S4x12x4096x64_3_3_2_2_01_01.lhsBatch by decide),
    dif_pos (show (2 : Fin S4x12x4096x64.rank) ∈ dot_S4x12x4096x64_S4x12x64x64_S4x12x4096x64_3_3_2_2_01_01.lhsNonContracting by decide)]
  rfl
theorem dT_l3 (i : S4x12x4096x64.Idx) (q : dot_S4x12x4096x64_S4x12x64x64_S4x12x4096x64_3_3_2_2_01_01.contr.Idx) :
    (dot_S4x12x4096x64_S4x12x64x64_S4x12x4096x64_3_3_2_2_01_01.lhsIdx i q 3).val = (q ⟨0, by decide⟩).val :=
  dot_S4x12x4096x64_S4x12x64x64_S4x12x4096x64_3_3_2_2_01_01.lhsIdx_val_of_single rfl i q
theorem dT_r0 (i : S4x12x4096x64.Idx) (q : dot_S4x12x4096x64_S4x12x64x64_S4x12x4096x64_3_3_2_2_01_01.contr.Idx) :
    (dot_S4x12x4096x64_S4x12x64x64_S4x12x4096x64_3_3_2_2_01_01.rhsIdx i q 0).val = (i 0).val := by
  unfold DotDims.rhsIdx
  rw [dif_pos (show (0 : Fin S4x12x64x64.rank) ∈ dot_S4x12x4096x64_S4x12x64x64_S4x12x4096x64_3_3_2_2_01_01.rhsBatch by decide)]
  rfl
theorem dT_r1 (i : S4x12x4096x64.Idx) (q : dot_S4x12x4096x64_S4x12x64x64_S4x12x4096x64_3_3_2_2_01_01.contr.Idx) :
    (dot_S4x12x4096x64_S4x12x64x64_S4x12x4096x64_3_3_2_2_01_01.rhsIdx i q 1).val = (i 1).val := by
  unfold DotDims.rhsIdx
  rw [dif_pos (show (1 : Fin S4x12x64x64.rank) ∈ dot_S4x12x4096x64_S4x12x64x64_S4x12x4096x64_3_3_2_2_01_01.rhsBatch by decide)]
  rfl
theorem dT_r2 (i : S4x12x4096x64.Idx) (q : dot_S4x12x4096x64_S4x12x64x64_S4x12x4096x64_3_3_2_2_01_01.contr.Idx) :
    (dot_S4x12x4096x64_S4x12x64x64_S4x12x4096x64_3_3_2_2_01_01.rhsIdx i q 2).val = (i 3).val := by
  unfold DotDims.rhsIdx
  rw [dif_neg (show ¬(2 : Fin S4x12x64x64.rank) ∈ dot_S4x12x4096x64_S4x12x64x64_S4x12x4096x64_3_3_2_2_01_01.rhsBatch by decide),
    dif_pos (show (2 : Fin S4x12x64x64.rank) ∈ dot_S4x12x4096x64_S4x12x64x64_S4x12x4096x64_3_3_2_2_01_01.rhsNonContracting by decide)]
  rfl
theorem dT_r3 (i : S4x12x4096x64.Idx) (q : dot_S4x12x4096x64_S4x12x64x64_S4x12x4096x64_3_3_2_2_01_01.contr.Idx) :
    (dot_S4x12x4096x64_S4x12x64x64_S4x12x4096x64_3_3_2_2_01_01.rhsIdx i q 3).val = (q ⟨0, by decide⟩).val :=
  dot_S4x12x4096x64_S4x12x64x64_S4x12x4096x64_3_3_2_2_01_01.rhsIdx_val_of_single rfl i q

/-- The logits product at an index: the sum over the 64 features. -/
theorem dotT (x : FVec Ideal S4x12x4096x64 .f32) (y : FVec Ideal S4x12x64x64 .f32)
    (b : Fin 4) (h : Fin 12) (s : Fin 4096) (m : Fin 64) :
    Host.dotGeneral dot_S4x12x4096x64_S4x12x64x64_S4x12x4096x64_3_3_2_2_01_01 none x y (ix4 b h s m)
      = ∑ d : Fin 64, x (ix4 b h s d) * y (ix4 b h m d) := by
  refine (Ideal.dotGeneral_apply dot_S4x12x4096x64_S4x12x64x64_S4x12x4096x64_3_3_2_2_01_01 none .single x y (ix4 b h s m)).trans ?_
  rw [← Equiv.sum_comp (contrEquiv1 dot_S4x12x4096x64_S4x12x64x64_S4x12x4096x64_3_3_2_2_01_01 64 rfl rfl).symm]
  refine Finset.sum_congr rfl fun k _ => ?_
  have hk := contrEquiv1_symm_val dot_S4x12x4096x64_S4x12x64x64_S4x12x4096x64_3_3_2_2_01_01 64 rfl rfl k
  have el : dot_S4x12x4096x64_S4x12x64x64_S4x12x4096x64_3_3_2_2_01_01.lhsIdx (ix4 b h s m) ((contrEquiv1 dot_S4x12x4096x64_S4x12x64x64_S4x12x4096x64_3_3_2_2_01_01 64 rfl rfl).symm k) = ix4 b h s k :=
    funext fun a => Fin.ext (by
      match a with
      | ⟨0, _⟩ => exact dT_l0 _ _
      | ⟨1, _⟩ => exact dT_l1 _ _
      | ⟨2, _⟩ => exact dT_l2 _ _
      | ⟨3, _⟩ => exact (dT_l3 _ _).trans hk)
  have er : dot_S4x12x4096x64_S4x12x64x64_S4x12x4096x64_3_3_2_2_01_01.rhsIdx (ix4 b h s m) ((contrEquiv1 dot_S4x12x4096x64_S4x12x64x64_S4x12x4096x64_3_3_2_2_01_01 64 rfl rfl).symm k) = ix4 b h m k :=
    funext fun a => Fin.ext (by
      match a with
      | ⟨0, _⟩ => exact dT_r0 _ _
      | ⟨1, _⟩ => exact dT_r1 _ _
      | ⟨2, _⟩ => exact dT_r2 _ _
      | ⟨3, _⟩ => exact (dT_r3 _ _).trans hk)
  rw [el, er]

variable (V0 : Valuation τ sig (Elt Ideal))

theorem refK1_apply (b : Fin 4) (h : Fin 12) (s : Fin 4096) (mm : Fin 64) :
    refK1 V0 (ix4 b h s mm) = K1 (hd (Qa V0) b h) (hdL (KLarr (Ka V0)) b h) s mm := by
  unfold refK1 res_main_v19
  -- the softmax of the logits' row
  refine (softT (res_main_v12 V0) b h s mm).trans ?_
  unfold K1
  refine congrArg (fun x : Fin 64 → EReal => smax x mm) (funext fun m' => ?_)
  -- a logit is the sum over the features of scaled query times pooled scaled key
  unfold res_main_v12
  refine (dotT _ _ b h s m').trans ?_
  exact Finset.sum_congr rfl fun d _ =>
    congrArg₂ (· * ·) (v1_apply V0 b h s d) (v11_apply V0 b h m' d)

end Cert.ReferenceIdeal.RefVal

end
-- ==== Proof.RefK2.lean ====
/-
  The reference's small softmax matrices (every head's softmax of pooled queries times pooled keys) are the
  specification's.
-/
import proofs.«411036_j71038759076379_3_alg».proof.Proof.RefLow
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

namespace Cert.ReferenceIdeal.RefVal

open Cert.ReferenceIdeal Cert.ReferenceIdeal.Gen Cert.ReferenceIdeal.Value Cert.Nys
open Idealize.ShloMosaic Idealize.ShloMosaic.TcCoe Idealize.ShloMosaic.StableHlo Idealize.SL.Sem Idealize.ShloMosaic.ValueIdx

variable (V0 : Valuation τ sig (Elt Ideal))

/-! ### Indices -/

/-- A row index of a [4,12,64,64] array with a column inserted is the full index. -/
theorem refK2_lift (hR : S4x12x64x64.Reduces [3] S4x12x64) (b : Fin 4) (h : Fin 12) (i k : Fin 64) :
    hR.lift (ix3 b h i) k = ix4 b h i k := by
  funext a
  match a with
  | ⟨0, _⟩ => rfl
  | ⟨1, _⟩ => rfl
  | ⟨2, _⟩ => rfl
  | ⟨3, _⟩ => rfl

/-- A per-row array repeated along the columns (through a unit last axis) reads the row's entry. -/
theorem refK2_bc (y : FVec Ideal S4x12x64 .f32) (b : Fin 4) (h : Fin 12) (i j : Fin 64) :
    broadcastInDim S4x12x64x64 ![0, 1, 2, 3] bcast_S4x12x64x1_S4x12x64x64_0_1_2_3
        (broadcastInDim S4x12x64x1 ![0, 1, 2] bcast_S4x12x64_S4x12x64x1_0_1_2 y) (ix4 b h i j)
      = y (ix3 b h i) := by
  refine (broadcastInDim_apply _ _ _ (ix4 b h i j) (ix4 b h i (0 : Fin 1)) ?_).trans
    (broadcastInDim_apply _ _ y (ix4 b h i (0 : Fin 1)) (ix3 b h i) ?_)
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl
    | ⟨2, _⟩ => rfl

/-! ### The row softmax of a [4,12,64,64] array, as the reference writes it -/

/-- The row maxima: the fold of the maximum from the word of minus infinity, then once more against it. -/
def refK2_M (x : FVec Ideal S4x12x64x64 .f32) : FVec Ideal S4x12x64 .f32 :=
  maximumf (broadcastInDim S4x12x64 ![] bcast_S_S4x12x64 (constant S_ .f32 0xFF800000#32))
    (Host.reduce FloatOps.maximumf x (constant S_ .f32 0xFF800000#32) reducesTo_S4x12x64x64_S4x12x64_d3 h_S_)

/-- The exponentials of the entries shifted by their row's maximum. -/
def refK2_E (x : FVec Ideal S4x12x64x64 .f32) : FVec Ideal S4x12x64x64 .f32 :=
  Host.exp (subf x (broadcastInDim S4x12x64x64 ![0, 1, 2, 3] bcast_S4x12x64x1_S4x12x64x64_0_1_2_3
    (broadcastInDim S4x12x64x1 ![0, 1, 2] bcast_S4x12x64_S4x12x64x1_0_1_2 (refK2_M x))))

/-- The exponentials divided by their row sums. -/
def refK2_soft (x : FVec Ideal S4x12x64x64 .f32) : FVec Ideal S4x12x64x64 .f32 :=
  Host.divf (refK2_E x) (broadcastInDim S4x12x64x64 ![0, 1, 2, 3] bcast_S4x12x64x1_S4x12x64x64_0_1_2_3
    (broadcastInDim S4x12x64x1 ![0, 1, 2] bcast_S4x12x64_S4x12x64x1_0_1_2
      (Host.reduceAdd (refK2_E x) (constant S_ .f32 0x00000000#32) reducesTo_S4x12x64x64_S4x12x64_d3 h_S_)))

/-- The row maximum at a row is the specification's. -/
theorem refK2_M_apply (x : FVec Ideal S4x12x64x64 .f32) (b : Fin 4) (h : Fin 12) (i : Fin 64) :
    refK2_M x (ix3 b h i) = rmax fun j' => x (ix4 b h i j') := by
  have hR : S4x12x64x64.Reduces [3] S4x12x64 := by decide
  have e : x ∘ hR.lift (ix3 b h i) = fun j' : Fin 64 => x (ix4 b h i j') :=
    funext fun k => congrArg x (refK2_lift hR b h i k)
  refine congrArg (max wNegInf) ?_
  refine (Host.reduce_eq_fold_single FloatOps.maximumf x _ reducesTo_S4x12x64x64_S4x12x64_d3 hR h_S_
    (ix3 b h i)).trans ?_
  rw [e]; rfl

/-- A shifted exponential at an index. -/
theorem refK2_E_apply (x : FVec Ideal S4x12x64x64 .f32) (b : Fin 4) (h : Fin 12) (i j : Fin 64) :
    refK2_E x (ix4 b h i j) = Ideal.exp (x (ix4 b h i j) - rmax fun j' => x (ix4 b h i j')) :=
  congrArg (fun t => Ideal.exp (x (ix4 b h i j) - t)) ((refK2_bc _ b h i j).trans (refK2_M_apply x b h i))

/-- The row softmax at an index is the specification's. -/
theorem refK2_soft_apply (x : FVec Ideal S4x12x64x64 .f32) (b : Fin 4) (h : Fin 12) (i j : Fin 64) :
    refK2_soft x (ix4 b h i j) = smax (fun j' => x (ix4 b h i j')) j := by
  have hR : S4x12x64x64.Reduces [3] S4x12x64 := by decide
  have hs : Host.reduceAdd (refK2_E x) (constant (F := Ideal) S_ .f32 0x00000000#32) reducesTo_S4x12x64x64_S4x12x64_d3 h_S_ (ix3 b h i)
      = ∑ j' : Fin 64, Ideal.exp (x (ix4 b h i j') - rmax fun j' => x (ix4 b h i j')) := by
    refine (Ideal.hostReduceAdd_single reducesTo_S4x12x64x64_S4x12x64_d3 hR (refK2_E x)
      (Ideal.ofBits .f32 0x00000000#32) (ix3 b h i)).trans ?_
    rw [Ideal.ofBits_zero_f32, zero_add]
    refine Finset.sum_congr rfl fun k _ => ?_
    rw [refK2_lift hR b h i k]; exact refK2_E_apply x b h i k
  show Ideal.div (refK2_E x (ix4 b h i j)) _ = _
  rw [refK2_bc, hs, refK2_E_apply]; rfl

/-! ### The batched product of pooled queries and pooled keys -/

/-- The product contracting both last axes, batched over the two leading axes, at an index. -/
theorem refK2_dot (l r : FVec Ideal S4x12x64x64 .f32) (b : Fin 4) (h : Fin 12) (i j : Fin 64) :
    Host.dotGeneral dot_S4x12x64x64_S4x12x64x64_S4x12x64x64_3_3_2_2_01_01 none l r (ix4 b h i j)
      = ∑ d : Fin 64, l (ix4 b h i d) * r (ix4 b h j d) := by
  show FloatOps.dotGeneral _ none _ l r (ix4 b h i j) = _
  rw [Ideal.dotGeneral_apply,
    ← Equiv.sum_comp (contrEquiv1 dot_S4x12x64x64_S4x12x64x64_S4x12x64x64_3_3_2_2_01_01 64 rfl rfl).symm]
  refine Finset.sum_congr rfl fun c _ => ?_
  have c3 := contrEquiv1_symm_val dot_S4x12x64x64_S4x12x64x64_S4x12x64x64_3_3_2_2_01_01 64 rfl rfl c
  have l3 : dot_S4x12x64x64_S4x12x64x64_S4x12x64x64_3_3_2_2_01_01.lhsIdx (ix4 b h i j)
      ((contrEquiv1 _ 64 rfl rfl).symm c) = ix4 b h i c := by
    funext ax; apply Fin.ext
    match ax with
    | ⟨0, _⟩ => simp [DotDims.lhsIdx, dot_S4x12x64x64_S4x12x64x64_S4x12x64x64_3_3_2_2_01_01]; rfl
    | ⟨1, _⟩ => simp [DotDims.lhsIdx, dot_S4x12x64x64_S4x12x64x64_S4x12x64x64_3_3_2_2_01_01]; rfl
    | ⟨2, _⟩ => simp [DotDims.lhsIdx, dot_S4x12x64x64_S4x12x64x64_S4x12x64x64_3_3_2_2_01_01]; rfl
    | ⟨3, _⟩ => simp [DotDims.lhsIdx, dot_S4x12x64x64_S4x12x64x64_S4x12x64x64_3_3_2_2_01_01]; exact c3
  have r3 : dot_S4x12x64x64_S4x12x64x64_S4x12x64x64_3_3_2_2_01_01.rhsIdx (ix4 b h i j)
      ((contrEquiv1 _ 64 rfl rfl).symm c) = ix4 b h j c := by
    funext ax; apply Fin.ext
    match ax with
    | ⟨0, _⟩ => simp [DotDims.rhsIdx, dot_S4x12x64x64_S4x12x64x64_S4x12x64x64_3_3_2_2_01_01]; rfl
    | ⟨1, _⟩ => simp [DotDims.rhsIdx, dot_S4x12x64x64_S4x12x64x64_S4x12x64x64_3_3_2_2_01_01]; rfl
    | ⟨2, _⟩ => simp [DotDims.rhsIdx, dot_S4x12x64x64_S4x12x64x64_S4x12x64x64_3_3_2_2_01_01]; rfl
    | ⟨3, _⟩ => simp [DotDims.rhsIdx, dot_S4x12x64x64_S4x12x64x64_S4x12x64x64_3_3_2_2_01_01]; exact c3
  rw [l3, r3]

/-- The product of pooled scaled queries and pooled scaled keys, at an index. -/
theorem refK2_v24_apply (b : Fin 4) (h : Fin 12) (i j : Fin 64) :
    res_main_v24 V0 (ix4 b h i j)
      = ∑ d : Fin 64, land (scl (hd (Qa V0) b h)) i d * land (scl (hd (Ka V0) b h)) j d := by
  refine (refK2_dot (res_main_v7 V0) (res_main_v11 V0) b h i j).trans ?_
  refine Finset.sum_congr rfl fun d _ => ?_
  rw [v7_apply, v11_apply]

/-- The reference's term is the row softmax of that product. -/
theorem refK2_v35_eq : res_main_v35 V0 = refK2_soft (res_main_v24 V0) := rfl

theorem ref_k2 : res_main_v35 V0 = K2arr (Qa V0) (Ka V0) := by
  funext idx
  obtain ⟨b, h, i, j, rfl⟩ : ∃ (b : Fin 4) (h : Fin 12) (i j : Fin 64), idx = ix4 b h i j :=
    ⟨idx 0, idx 1, idx 2, idx 3, eq_ix4 idx⟩
  rw [refK2_v35_eq, refK2_soft_apply]
  have e : (fun j' : Fin 64 => res_main_v24 V0 (ix4 b h i j'))
      = fun j' => ∑ d : Fin 64, land (scl (hd (Qa V0) b h)) i d * land (scl (hd (Ka V0) b h)) j' d :=
    funext fun j' => refK2_v24_apply V0 b h i j'
  rw [e]; rfl

end Cert.ReferenceIdeal.RefVal

end
-- ==== Proof.RefC.lean ====
/-
  The reference's wide softmax matrices times the values are the specification's C, for every head.
-/
import proofs.«411036_j71038759076379_3_alg».proof.Proof.RefLow
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

namespace Cert.ReferenceIdeal.RefVal

open Cert.ReferenceIdeal Cert.ReferenceIdeal.Gen Cert.ReferenceIdeal.Value Cert.Nys
open Idealize.ShloMosaic Idealize.ShloMosaic.TcCoe Idealize.ShloMosaic.StableHlo Idealize.SL.Sem Idealize.ShloMosaic.ValueIdx

variable (V0 : Valuation τ sig (Elt Ideal))

/-! ### The wide row softmax over a generic logits array -/

/-- The two keepdims broadcasts [4,12,64] -> [4,12,64,1] -> [4,12,64,4096]. -/
def refC_bc (X : FVec Ideal S4x12x64 .f32) : FVec Ideal S4x12x64x4096 .f32 :=
  broadcastInDim S4x12x64x4096 ![0, 1, 2, 3] bcast_S4x12x64x1_S4x12x64x4096_0_1_2_3
    (broadcastInDim S4x12x64x1 ![0, 1, 2] bcast_S4x12x64_S4x12x64x1_0_1_2 X)

/-- Read at (b, h, i, s) the broadcast row statistic is the statistic of row (b, h, i). -/
theorem refC_bc_apply (X : FVec Ideal S4x12x64 .f32) (b : Fin 4) (h : Fin 12) (i : Fin 64) (s : Fin 4096) :
    refC_bc X (ix4 b h i s) = X (ix3 b h i) := by
  unfold refC_bc
  refine (broadcastInDim_apply _ _ _ (ix4 b h i s) (ix4 b h i (0 : Fin 1)) (fun a => ?_)).trans ?_
  · match a with
    | ⟨0, _⟩ => rfl
    | ⟨1, _⟩ => rfl
    | ⟨2, _⟩ => rfl
    | ⟨3, _⟩ => rfl
  · exact broadcastInDim_apply _ _ _ (ix4 b h i (0 : Fin 1)) (ix3 b h i) (fun a => by
      match a with
      | ⟨0, _⟩ => rfl
      | ⟨1, _⟩ => rfl
      | ⟨2, _⟩ => rfl)

/-- Row (b, h, i) with the coordinate s put back on the reduced axis is the index (b, h, i, s). -/
theorem refC_lift (hR : S4x12x64x4096.Reduces [3] S4x12x64) (b : Fin 4) (h : Fin 12) (i : Fin 64) (s : Fin 4096) :
    hR.lift (ix3 b h i) s = ix4 b h i s := by
  funext a
  apply Fin.ext
  match a with
  | ⟨0, _⟩ => rfl
  | ⟨1, _⟩ => rfl
  | ⟨2, _⟩ => rfl
  | ⟨3, _⟩ => rfl

/-- The row maximum array as the reference spells it: the maximum, against the word of minus infinity, of
    the reduction by maximum from that word. -/
def refC_rowmax (L : FVec Ideal S4x12x64x4096 .f32) : FVec Ideal S4x12x64 .f32 :=
  maximumf (broadcastInDim S4x12x64 ![] bcast_S_S4x12x64 (constant (F := Ideal) S_ .f32 0xFF800000#32))
    (Host.reduce (FloatOps.maximumf (F := Ideal) (φ := .f32)) L (constant (F := Ideal) S_ .f32 0xFF800000#32)
      reducesTo_S4x12x64x4096_S4x12x64_d3 h_S_)

/-- At row (b, h, i) it is the specification's row maximum of that row. -/
theorem refC_rowmax_apply (L : FVec Ideal S4x12x64x4096 .f32) (b : Fin 4) (h : Fin 12) (i : Fin 64) :
    refC_rowmax L (ix3 b h i) = rmax (fun s' : Fin 4096 => L (ix4 b h i s')) := by
  have hR : S4x12x64x4096.Reduces [3] S4x12x64 := by decide
  unfold refC_rowmax rmax
  refine (maximumf_apply _ _ _).trans (congrArg₂ max ?_ ?_)
  · exact (broadcastInDim_apply _ _ _ (ix3 b h i) ix0 (fun a => a.elim0)).trans rfl
  · refine (Host.reduce_eq_fold_single _ L _ reducesTo_S4x12x64x4096_S4x12x64_d3 hR h_S_ (ix3 b h i)).trans ?_
    have e : (L ∘ hR.lift (ix3 b h i)) = fun s' : Fin 4096 => L (ix4 b h i s') :=
      funext fun s' => congrArg L (refC_lift hR b h i s')
    rw [e]
    rfl

/-- The exponentials of the logits shifted by their row maximum. -/
def refC_E (L : FVec Ideal S4x12x64x4096 .f32) : FVec Ideal S4x12x64x4096 .f32 :=
  Host.exp (subf L (refC_bc (refC_rowmax L)))

theorem refC_E_apply (L : FVec Ideal S4x12x64x4096 .f32) (b : Fin 4) (h : Fin 12) (i : Fin 64) (s : Fin 4096) :
    refC_E L (ix4 b h i s) = Ideal.exp (L (ix4 b h i s) - rmax (fun s' : Fin 4096 => L (ix4 b h i s'))) := by
  show Ideal.exp (L (ix4 b h i s) - refC_bc (refC_rowmax L) (ix4 b h i s)) = _
  rw [refC_bc_apply, refC_rowmax_apply]

/-- The row sums from the zero word: at row (b, h, i) the sum over the row (0 + x = x on every extended real). -/
theorem refC_rowsum_apply (E : FVec Ideal S4x12x64x4096 .f32) (b : Fin 4) (h : Fin 12) (i : Fin 64) :
    Host.reduceAdd E (constant (F := Ideal) S_ .f32 0x00000000#32) reducesTo_S4x12x64x4096_S4x12x64_d3 h_S_ (ix3 b h i)
      = ∑ s' : Fin 4096, E (ix4 b h i s') := by
  have hR : S4x12x64x4096.Reduces [3] S4x12x64 := by decide
  refine (Ideal.hostReduceAdd_single reducesTo_S4x12x64x4096_S4x12x64_d3 hR E _ (ix3 b h i)).trans ?_
  have e0 : constant (F := Ideal) S_ .f32 0x00000000#32 (Shape.Idx.first h_S_) = 0 := Ideal.ofBits_zero_f32
  rw [e0, zero_add]
  exact Finset.sum_congr rfl fun s' _ => congrArg E (refC_lift hR b h i s')

/-- The softmax array as the reference spells it. -/
def refC_soft (L : FVec Ideal S4x12x64x4096 .f32) : FVec Ideal S4x12x64x4096 .f32 :=
  Host.divf (refC_E L) (refC_bc (Host.reduceAdd (refC_E L) (constant (F := Ideal) S_ .f32 0x00000000#32)
    reducesTo_S4x12x64x4096_S4x12x64_d3 h_S_))

/-- Read at (b, h, i, s) it is the specification's softmax of row (b, h, i), entry s. -/
theorem refC_soft_apply (L : FVec Ideal S4x12x64x4096 .f32) (b : Fin 4) (h : Fin 12) (i : Fin 64) (s : Fin 4096) :
    refC_soft L (ix4 b h i s) = smax (fun s' : Fin 4096 => L (ix4 b h i s')) s := by
  show Ideal.div (refC_E L (ix4 b h i s)) (refC_bc (Host.reduceAdd (refC_E L) (constant (F := Ideal) S_ .f32 0x00000000#32)
    reducesTo_S4x12x64x4096_S4x12x64_d3 h_S_) (ix4 b h i s)) = _
  rw [refC_bc_apply, refC_rowsum_apply, refC_E_apply]
  unfold smax
  exact congrArg (Ideal.div _) (Finset.sum_congr rfl fun s' _ => refC_E_apply L b h i s')

/-- The reference's wide softmax is that softmax of its logits array. -/
theorem refC_K3_eq : refK3 V0 = refC_soft (res_main_v36 V0) := rfl

/-! ### The logits product: (b, h, i, s) ↦ ∑ d, qland (b, h, i, d) * k' (b, h, s, d) -/

/-- Its left operand index: batch axes and the row from the result index, the last axis from the contraction. -/
theorem refC_lg_l0 (j : S4x12x64x4096.Idx) (k : dot_S4x12x64x64_S4x12x4096x64_S4x12x64x4096_3_3_2_2_01_01.contr.Idx) :
    (dot_S4x12x64x64_S4x12x4096x64_S4x12x64x4096_3_3_2_2_01_01.lhsIdx j k 0).val = (j 0).val := rfl
theorem refC_lg_l1 (j : S4x12x64x4096.Idx) (k : dot_S4x12x64x64_S4x12x4096x64_S4x12x64x4096_3_3_2_2_01_01.contr.Idx) :
    (dot_S4x12x64x64_S4x12x4096x64_S4x12x64x4096_3_3_2_2_01_01.lhsIdx j k 1).val = (j 1).val := rfl
theorem refC_lg_l2 (j : S4x12x64x4096.Idx) (k : dot_S4x12x64x64_S4x12x4096x64_S4x12x64x4096_3_3_2_2_01_01.contr.Idx) :
    (dot_S4x12x64x64_S4x12x4096x64_S4x12x64x4096_3_3_2_2_01_01.lhsIdx j k 2).val = (j 2).val := rfl
theorem refC_lg_l3 (j : S4x12x64x4096.Idx) (k : dot_S4x12x64x64_S4x12x4096x64_S4x12x64x4096_3_3_2_2_01_01.contr.Idx) :
    (dot_S4x12x64x64_S4x12x4096x64_S4x12x64x4096_3_3_2_2_01_01.lhsIdx j k 3).val = (k ⟨0, by decide⟩).val :=
  dot_S4x12x64x64_S4x12x4096x64_S4x12x64x4096_3_3_2_2_01_01.lhsIdx_val_of_single rfl j k
/-- Its right operand index: batch axes from the result index, the row from the result's last axis, the last
    axis from the contraction. -/
theorem refC_lg_r0 (j : S4x12x64x4096.Idx) (k : dot_S4x12x64x64_S4x12x4096x64_S4x12x64x4096_3_3_2_2_01_01.contr.Idx) :
    (dot_S4x12x64x64_S4x12x4096x64_S4x12x64x4096_3_3_2_2_01_01.rhsIdx j k 0).val = (j 0).val := rfl
theorem refC_lg_r1 (j : S4x12x64x4096.Idx) (k : dot_S4x12x64x64_S4x12x4096x64_S4x12x64x4096_3_3_2_2_01_01.contr.Idx) :
    (dot_S4x12x64x64_S4x12x4096x64_S4x12x64x4096_3_3_2_2_01_01.rhsIdx j k 1).val = (j 1).val := rfl
theorem refC_lg_r2 (j : S4x12x64x4096.Idx) (k : dot_S4x12x64x64_S4x12x4096x64_S4x12x64x4096_3_3_2_2_01_01.contr.Idx) :
    (dot_S4x12x64x64_S4x12x4096x64_S4x12x64x4096_3_3_2_2_01_01.rhsIdx j k 2).val = (j 3).val := rfl
theorem refC_lg_r3 (j : S4x12x64x4096.Idx) (k : dot_S4x12x64x64_S4x12x4096x64_S4x12x64x4096_3_3_2_2_01_01.contr.Idx) :
    (dot_S4x12x64x64_S4x12x4096x64_S4x12x64x4096_3_3_2_2_01_01.rhsIdx j k 3).val = (k ⟨0, by decide⟩).val :=
  dot_S4x12x64x64_S4x12x4096x64_S4x12x64x4096_3_3_2_2_01_01.rhsIdx_val_of_single rfl j k

theorem refC_lg_lhs (b : Fin 4) (h : Fin 12) (i : Fin 64) (s : Fin 4096) (c : Fin 64) :
    dot_S4x12x64x64_S4x12x4096x64_S4x12x64x4096_3_3_2_2_01_01.lhsIdx (ix4 b h i s) ((contrEquiv1 dot_S4x12x64x64_S4x12x4096x64_S4x12x64x4096_3_3_2_2_01_01 64 rfl rfl).symm c) = ix4 b h i c := by
  funext a
  apply Fin.ext
  match a with
  | ⟨0, _⟩ => exact refC_lg_l0 _ _
  | ⟨1, _⟩ => exact refC_lg_l1 _ _
  | ⟨2, _⟩ => exact refC_lg_l2 _ _
  | ⟨3, _⟩ => exact (refC_lg_l3 _ _).trans (contrEquiv1_symm_val dot_S4x12x64x64_S4x12x4096x64_S4x12x64x4096_3_3_2_2_01_01 64 rfl rfl c)

theorem refC_lg_rhs (b : Fin 4) (h : Fin 12) (i : Fin 64) (s : Fin 4096) (c : Fin 64) :
    dot_S4x12x64x64_S4x12x4096x64_S4x12x64x4096_3_3_2_2_01_01.rhsIdx (ix4 b h i s) ((contrEquiv1 dot_S4x12x64x64_S4x12x4096x64_S4x12x64x4096_3_3_2_2_01_01 64 rfl rfl).symm c) = ix4 b h s c := by
  funext a
  apply Fin.ext
  match a with
  | ⟨0, _⟩ => exact refC_lg_r0 _ _
  | ⟨1, _⟩ => exact refC_lg_r1 _ _
  | ⟨2, _⟩ => exact refC_lg_r2 _ _
  | ⟨3, _⟩ => exact (refC_lg_r3 _ _).trans (contrEquiv1_symm_val dot_S4x12x64x64_S4x12x4096x64_S4x12x64x4096_3_3_2_2_01_01 64 rfl rfl c)

/-- The logits at (b, h, i, s): the pooled scaled queries' row i against the scaled keys' row s. -/
theorem refC_logits_apply (b : Fin 4) (h : Fin 12) (i : Fin 64) (s : Fin 4096) :
    res_main_v36 V0 (ix4 b h i s)
      = ∑ d : Fin 64, land (scl (hd (Qa V0) b h)) i d * scl (hd (Ka V0) b h) s d := by
  unfold res_main_v36
  refine (Ideal.dotGeneral_apply dot_S4x12x64x64_S4x12x4096x64_S4x12x64x4096_3_3_2_2_01_01 none .single (res_main_v7 V0) (res_main_v3 V0) (ix4 b h i s)).trans ?_
  rw [← Equiv.sum_comp (contrEquiv1 dot_S4x12x64x64_S4x12x4096x64_S4x12x64x4096_3_3_2_2_01_01 64 rfl rfl).symm]
  refine Finset.sum_congr rfl fun c _ => ?_
  rw [refC_lg_lhs, refC_lg_rhs, v7_apply, v3_apply]

/-! ### The product with the values: (b, h, i, d) ↦ ∑ s, K3 (b, h, i, s) * v (b, h, s, d) -/

theorem refC_pv_l0 (j : S4x12x64x64.Idx) (k : dot_S4x12x64x4096_S4x12x4096x64_S4x12x64x64_3_2_2_3_01_01.contr.Idx) :
    (dot_S4x12x64x4096_S4x12x4096x64_S4x12x64x64_3_2_2_3_01_01.lhsIdx j k 0).val = (j 0).val := rfl
theorem refC_pv_l1 (j : S4x12x64x64.Idx) (k : dot_S4x12x64x4096_S4x12x4096x64_S4x12x64x64_3_2_2_3_01_01.contr.Idx) :
    (dot_S4x12x64x4096_S4x12x4096x64_S4x12x64x64_3_2_2_3_01_01.lhsIdx j k 1).val = (j 1).val := rfl
theorem refC_pv_l2 (j : S4x12x64x64.Idx) (k : dot_S4x12x64x4096_S4x12x4096x64_S4x12x64x64_3_2_2_3_01_01.contr.Idx) :
    (dot_S4x12x64x4096_S4x12x4096x64_S4x12x64x64_3_2_2_3_01_01.lhsIdx j k 2).val = (j 2).val := rfl
theorem refC_pv_l3 (j : S4x12x64x64.Idx) (k : dot_S4x12x64x4096_S4x12x4096x64_S4x12x64x64_3_2_2_3_01_01.contr.Idx) :
    (dot_S4x12x64x4096_S4x12x4096x64_S4x12x64x64_3_2_2_3_01_01.lhsIdx j k 3).val = (k ⟨0, by decide⟩).val :=
  dot_S4x12x64x4096_S4x12x4096x64_S4x12x64x64_3_2_2_3_01_01.lhsIdx_val_of_single rfl j k
theorem refC_pv_r0 (j : S4x12x64x64.Idx) (k : dot_S4x12x64x4096_S4x12x4096x64_S4x12x64x64_3_2_2_3_01_01.contr.Idx) :
    (dot_S4x12x64x4096_S4x12x4096x64_S4x12x64x64_3_2_2_3_01_01.rhsIdx j k 0).val = (j 0).val := rfl
theorem refC_pv_r1 (j : S4x12x64x64.Idx) (k : dot_S4x12x64x4096_S4x12x4096x64_S4x12x64x64_3_2_2_3_01_01.contr.Idx) :
    (dot_S4x12x64x4096_S4x12x4096x64_S4x12x64x64_3_2_2_3_01_01.rhsIdx j k 1).val = (j 1).val := rfl
theorem refC_pv_r2 (j : S4x12x64x64.Idx) (k : dot_S4x12x64x4096_S4x12x4096x64_S4x12x64x64_3_2_2_3_01_01.contr.Idx) :
    (dot_S4x12x64x4096_S4x12x4096x64_S4x12x64x64_3_2_2_3_01_01.rhsIdx j k 2).val = (k ⟨0, by decide⟩).val :=
  dot_S4x12x64x4096_S4x12x4096x64_S4x12x64x64_3_2_2_3_01_01.rhsIdx_val_of_single rfl j k
theorem refC_pv_r3 (j : S4x12x64x64.Idx) (k : dot_S4x12x64x4096_S4x12x4096x64_S4x12x64x64_3_2_2_3_01_01.contr.Idx) :
    (dot_S4x12x64x4096_S4x12x4096x64_S4x12x64x64_3_2_2_3_01_01.rhsIdx j k 3).val = (j 3).val := rfl

theorem refC_pv_lhs (b : Fin 4) (h : Fin 12) (i d : Fin 64) (s : Fin 4096) :
    dot_S4x12x64x4096_S4x12x4096x64_S4x12x64x64_3_2_2_3_01_01.lhsIdx (ix4 b h i d) ((contrEquiv1 dot_S4x12x64x4096_S4x12x4096x64_S4x12x64x64_3_2_2_3_01_01 4096 rfl rfl).symm s) = ix4 b h i s := by
  funext a
  apply Fin.ext
  match a with
  | ⟨0, _⟩ => exact refC_pv_l0 _ _
  | ⟨1, _⟩ => exact refC_pv_l1 _ _
  | ⟨2, _⟩ => exact refC_pv_l2 _ _
  | ⟨3, _⟩ => exact (refC_pv_l3 _ _).trans (contrEquiv1_symm_val dot_S4x12x64x4096_S4x12x4096x64_S4x12x64x64_3_2_2_3_01_01 4096 rfl rfl s)

theorem refC_pv_rhs (b : Fin 4) (h : Fin 12) (i d : Fin 64) (s : Fin 4096) :
    dot_S4x12x64x4096_S4x12x4096x64_S4x12x64x64_3_2_2_3_01_01.rhsIdx (ix4 b h i d) ((contrEquiv1 dot_S4x12x64x4096_S4x12x4096x64_S4x12x64x64_3_2_2_3_01_01 4096 rfl rfl).symm s) = ix4 b h s d := by
  funext a
  apply Fin.ext
  match a with
  | ⟨0, _⟩ => exact refC_pv_r0 _ _
  | ⟨1, _⟩ => exact refC_pv_r1 _ _
  | ⟨2, _⟩ => exact (refC_pv_r2 _ _).trans (contrEquiv1_symm_val dot_S4x12x64x4096_S4x12x4096x64_S4x12x64x64_3_2_2_3_01_01 4096 rfl rfl s)
  | ⟨3, _⟩ => exact refC_pv_r3 _ _

theorem refC_eq : refC V0 = Carr (Qa V0) (Ka V0) (Va V0) := by
  funext j
  obtain ⟨b, h, i, d, rfl⟩ : ∃ (b : Fin 4) (h : Fin 12) (i d : Fin 64), j = ix4 b h i d :=
    ⟨j 0, j 1, j 2, j 3, eq_ix4 j⟩
  -- the reference's side: the contraction over the 4096 rows, re-indexed by its one coordinate
  unfold refC
  refine (Ideal.dotGeneral_apply dot_S4x12x64x4096_S4x12x4096x64_S4x12x64x64_3_2_2_3_01_01 none .single (refK3 V0) (V0 (Proc.devRef .tc main_arg2)) (ix4 b h i d)).trans ?_
  rw [← Equiv.sum_comp (contrEquiv1 dot_S4x12x64x4096_S4x12x4096x64_S4x12x64x64_3_2_2_3_01_01 4096 rfl rfl).symm]
  -- the specification's side: C of head (b, h) at (i, d)
  show _ = ∑ s : Fin 4096, K3 (hd (Qa V0) b h) (hd (Ka V0) b h) i s * hd (Va V0) b h s d
  refine Finset.sum_congr rfl fun s _ => ?_
  rw [refC_pv_lhs, refC_pv_rhs, refC_K3_eq, refC_soft_apply]
  -- the softmax rows agree because the logits do
  have eL : (fun s' : Fin 4096 => res_main_v36 V0 (ix4 b h i s'))
      = fun s' : Fin 4096 => ∑ d : Fin 64, land (scl (hd (Qa V0) b h)) i d * scl (hd (Ka V0) b h) s' d :=
    funext fun s' => refC_logits_apply V0 b h i s'
  rw [eL]
  rfl

end Cert.ReferenceIdeal.RefVal

end
-- ==== Proof.RefNS.lean ====
/-
  The reference's approximate inverse is the Newton-Schulz iteration on its small softmax array: its named
  intermediate results are the start, the products with K2 and the six steps, one after the other.
-/
import proofs.«411036_j71038759076379_3_alg».proof.Proof.RefDefs
import proofs.«411036_j71038759076379_3_alg».proof.Proof.NSDef
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

namespace Cert.ReferenceIdeal.RefVal

open Cert.ReferenceIdeal Cert.ReferenceIdeal.Gen Cert.ReferenceIdeal.Value Cert.Nys
open Idealize.ShloMosaic Idealize.ShloMosaic.TcCoe Idealize.ShloMosaic.StableHlo Idealize.SL.Sem Idealize.ShloMosaic.ValueIdx

variable (V0 : Valuation τ sig (Elt Ideal))

/-- The reference's identity matrix is the iteration's. -/
theorem v53_eq : res_main_v53 V0 = eye (F := Ideal) := rfl

/-- The start: the global scale times the transposed array. -/
theorem v64_eq : res_main_v64 V0 = nsInit (F := Ideal) (res_main_v35 V0) := rfl

/-- One printed step is the step's polynomial of the identity, the product with K2 and the previous iterate. -/
theorem v85_poly : res_main_v85 V0
    = nsPoly (F := Ideal) (res_main_v53 V0) (res_main_v65 V0) (res_main_v64 V0) := rfl
theorem v106_poly : res_main_v106 V0
    = nsPoly (F := Ideal) (res_main_v53 V0) (res_main_v86 V0) (res_main_v85 V0) := rfl
theorem v127_poly : res_main_v127 V0
    = nsPoly (F := Ideal) (res_main_v53 V0) (res_main_v107 V0) (res_main_v106 V0) := rfl
theorem v148_poly : res_main_v148 V0
    = nsPoly (F := Ideal) (res_main_v53 V0) (res_main_v128 V0) (res_main_v127 V0) := rfl
theorem v169_poly : res_main_v169 V0
    = nsPoly (F := Ideal) (res_main_v53 V0) (res_main_v149 V0) (res_main_v148 V0) := rfl
theorem ainv_poly : refAinv V0
    = nsPoly (F := Ideal) (res_main_v53 V0) (res_main_v170 V0) (res_main_v169 V0) := rfl

/-- The products of K2 with the iterates. -/
theorem v65_eq : res_main_v65 V0 = bmm (F := Ideal) (res_main_v35 V0) (res_main_v64 V0) := rfl
theorem v86_eq : res_main_v86 V0 = bmm (F := Ideal) (res_main_v35 V0) (res_main_v85 V0) := rfl
theorem v107_eq : res_main_v107 V0 = bmm (F := Ideal) (res_main_v35 V0) (res_main_v106 V0) := rfl
theorem v128_eq : res_main_v128 V0 = bmm (F := Ideal) (res_main_v35 V0) (res_main_v127 V0) := rfl
theorem v149_eq : res_main_v149 V0 = bmm (F := Ideal) (res_main_v35 V0) (res_main_v148 V0) := rfl
theorem v170_eq : res_main_v170 V0 = bmm (F := Ideal) (res_main_v35 V0) (res_main_v169 V0) := rfl

/-- The six steps, each over the one before. -/
theorem v85_eq : res_main_v85 V0 = nsStep (F := Ideal) (res_main_v35 V0) eye (res_main_v64 V0) := by
  rw [v85_poly, v65_eq, v53_eq]; rfl
theorem v106_eq : res_main_v106 V0 = nsStep (F := Ideal) (res_main_v35 V0) eye (res_main_v85 V0) := by
  rw [v106_poly, v86_eq, v53_eq]; rfl
theorem v127_eq : res_main_v127 V0 = nsStep (F := Ideal) (res_main_v35 V0) eye (res_main_v106 V0) := by
  rw [v127_poly, v107_eq, v53_eq]; rfl
theorem v148_eq : res_main_v148 V0 = nsStep (F := Ideal) (res_main_v35 V0) eye (res_main_v127 V0) := by
  rw [v148_poly, v128_eq, v53_eq]; rfl
theorem v169_eq : res_main_v169 V0 = nsStep (F := Ideal) (res_main_v35 V0) eye (res_main_v148 V0) := by
  rw [v169_poly, v149_eq, v53_eq]; rfl
theorem ainv_step : refAinv V0 = nsStep (F := Ideal) (res_main_v35 V0) eye (res_main_v169 V0) := by
  rw [ainv_poly, v170_eq, v53_eq]; rfl

theorem refAinv_eq : refAinv V0 = NS (F := Ideal) (res_main_v35 V0) := by
  unfold NS
  rw [← v64_eq, ← v85_eq, ← v106_eq, ← v127_eq, ← v148_eq, ← v169_eq]
  exact ainv_step V0

end Cert.ReferenceIdeal.RefVal

end
-- ==== Proof.RefOut.lean ====
/-
  The reference's result, entry by entry: two batched products, so at (b, h, s, d) the sum over n of (the sum
  over m of K1 times ainv) times C -- the specification's reference grouping.
-/
import proofs.«411036_j71038759076379_3_alg».proof.Proof.RefK1
import proofs.«411036_j71038759076379_3_alg».proof.Proof.RefK2
import proofs.«411036_j71038759076379_3_alg».proof.Proof.RefC
import proofs.«411036_j71038759076379_3_alg».proof.Proof.RefNS
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

namespace Cert.ReferenceIdeal.RefVal

open Cert.ReferenceIdeal Cert.ReferenceIdeal.Gen Cert.ReferenceIdeal.Value Cert.Nys
open Idealize.ShloMosaic Idealize.ShloMosaic.TcCoe Idealize.ShloMosaic.StableHlo Idealize.SL.Sem Idealize.ShloMosaic.ValueIdx

variable (V0 : Valuation τ sig (Elt Ideal))

/-- The dimension record of the two batched products of the result: batch axes 0 and 1, the left operand's
    axis 3 contracted with the right operand's axis 2. -/
abbrev DO := dot_S4x12x4096x64_S4x12x64x64_S4x12x4096x64_3_2_2_3_01_01

/-! The operand indices of that product, coordinate by coordinate. -/

theorem lhsO_0 (j : S4x12x4096x64.Idx) (k : DO.contr.Idx) : (DO.lhsIdx j k 0 : ℕ) = j 0 := by
  simp [DotDims.lhsIdx, DO, dot_S4x12x4096x64_S4x12x64x64_S4x12x4096x64_3_2_2_3_01_01]; rfl
theorem lhsO_1 (j : S4x12x4096x64.Idx) (k : DO.contr.Idx) : (DO.lhsIdx j k 1 : ℕ) = j 1 := by
  simp [DotDims.lhsIdx, DO, dot_S4x12x4096x64_S4x12x64x64_S4x12x4096x64_3_2_2_3_01_01]; rfl
theorem lhsO_2 (j : S4x12x4096x64.Idx) (k : DO.contr.Idx) : (DO.lhsIdx j k 2 : ℕ) = j 2 := by
  simp [DotDims.lhsIdx, DO, dot_S4x12x4096x64_S4x12x64x64_S4x12x4096x64_3_2_2_3_01_01]; rfl
theorem lhsO_3 (j : S4x12x4096x64.Idx) (k : DO.contr.Idx) : (DO.lhsIdx j k 3 : ℕ) = k ⟨0, by decide⟩ := by
  simp [DotDims.lhsIdx, DO, dot_S4x12x4096x64_S4x12x64x64_S4x12x4096x64_3_2_2_3_01_01]; rfl
theorem rhsO_0 (j : S4x12x4096x64.Idx) (k : DO.contr.Idx) : (DO.rhsIdx j k 0 : ℕ) = j 0 := by
  simp [DotDims.rhsIdx, DO, dot_S4x12x4096x64_S4x12x64x64_S4x12x4096x64_3_2_2_3_01_01]; rfl
theorem rhsO_1 (j : S4x12x4096x64.Idx) (k : DO.contr.Idx) : (DO.rhsIdx j k 1 : ℕ) = j 1 := by
  simp [DotDims.rhsIdx, DO, dot_S4x12x4096x64_S4x12x64x64_S4x12x4096x64_3_2_2_3_01_01]; rfl
theorem rhsO_2 (j : S4x12x4096x64.Idx) (k : DO.contr.Idx) : (DO.rhsIdx j k 2 : ℕ) = k ⟨0, by decide⟩ := by
  simp [DotDims.rhsIdx, DO, dot_S4x12x4096x64_S4x12x64x64_S4x12x4096x64_3_2_2_3_01_01]; rfl
theorem rhsO_3 (j : S4x12x4096x64.Idx) (k : DO.contr.Idx) : (DO.rhsIdx j k 3 : ℕ) = j 3 := by
  simp [DotDims.rhsIdx, DO, dot_S4x12x4096x64_S4x12x64x64_S4x12x4096x64_3_2_2_3_01_01]; rfl

/-- The batched product read at an index: the sum over the contracted coordinate of the products of the entries of
    the same batch and head. -/
theorem dotO_apply (A : FVec Ideal S4x12x4096x64 .f32) (B : FVec Ideal S4x12x64x64 .f32)
    (b : Fin 4) (h : Fin 12) (s : Fin 4096) (d : Fin 64) :
    Host.dotGeneral (F := Ideal) DO none A B (ix4 b h s d) = ∑ c : Fin 64, A (ix4 b h s c) * B (ix4 b h c d) := by
  show FloatOps.dotGeneral DO none _ A B (ix4 b h s d) = _
  rw [Ideal.dotGeneral_apply, ← Equiv.sum_comp (contrEquiv1 DO 64 rfl rfl).symm]
  refine Finset.sum_congr rfl fun c _ => ?_
  have c3 := contrEquiv1_symm_val DO 64 rfl rfl c
  have l : DO.lhsIdx (ix4 b h s d) ((contrEquiv1 DO 64 rfl rfl).symm c) = ix4 b h s c := by
    funext ax; apply Fin.ext
    match ax with
    | ⟨0, _⟩ => exact lhsO_0 _ _
    | ⟨1, _⟩ => exact lhsO_1 _ _
    | ⟨2, _⟩ => exact lhsO_2 _ _
    | ⟨3, _⟩ => exact (lhsO_3 _ _).trans c3
  have r : DO.rhsIdx (ix4 b h s d) ((contrEquiv1 DO 64 rfl rfl).symm c) = ix4 b h c d := by
    funext ax; apply Fin.ext
    match ax with
    | ⟨0, _⟩ => exact rhsO_0 _ _
    | ⟨1, _⟩ => exact rhsO_1 _ _
    | ⟨2, _⟩ => exact (rhsO_2 _ _).trans c3
    | ⟨3, _⟩ => exact rhsO_3 _ _
  rw [l, r]

theorem refOut_eq_outR : refOut V0 = outR (Qa V0) (Ka V0) (Va V0) (NS (F := Ideal) (K2arr (Qa V0) (Ka V0))) := by
  funext i
  obtain ⟨b, h, s, d, rfl⟩ : ∃ (b : Fin 4) (h : Fin 12) (s : Fin 4096) (d : Fin 64), i = ix4 b h s d :=
    ⟨i 0, i 1, i 2, i 3, eq_ix4 i⟩
  -- the specification's reference grouping at (b, h, s, d), its heads read at their indices
  show Host.dotGeneral (F := Ideal) DO none (Host.dotGeneral (F := Ideal) DO none (refK1 V0) (refAinv V0)) (refC V0) (ix4 b h s d)
    = ∑ n : Fin 64, (∑ m : Fin 64, K1 (hd (Qa V0) b h) (hdL (KLarr (Ka V0)) b h) s m
          * NS (F := Ideal) (K2arr (Qa V0) (Ka V0)) (ix4 b h m n)) * Carr (Qa V0) (Ka V0) (Va V0) (ix4 b h n d)
  rw [dotO_apply]
  refine Finset.sum_congr rfl fun n _ => ?_
  rw [dotO_apply, refC_eq]
  refine congrArg (· * Carr (Qa V0) (Ka V0) (Va V0) (ix4 b h n d)) ?_
  refine Finset.sum_congr rfl fun m _ => ?_
  rw [refK1_apply, refAinv_eq, ref_k2]

end Cert.ReferenceIdeal.RefVal

end
-- ==== Proof.LibMoments.lean ====
/-
  General lemmas on Mathlib's extended reals: coercion of finite sums, the two forms of a
  variance (mean of squares minus squared mean, against mean of squared deviations) over REAL
  data, the closure of "is a real number" under the arithmetic used downstream, the collapse
  of a tile-by-tile accumulation into one sum, and one-hot weighted sums as filtered sums.
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Analysis.SpecialFunctions.Pow.Real
import Mathlib.Tactic.Ring
import Mathlib.Tactic.FieldSimp

namespace Cert.LibMoments

open scoped BigOperators
open Idealize.ShloMosaic

/-! ### 1. Coercion of a finite sum -/

/-- The coercion of the reals into the extended reals carries a finite sum (over a finset) to
    the sum of the coercions. -/
theorem coe_finset_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

/-- The coercion carries a sum over a finite type to the sum of the coercions. -/
theorem coe_sum {ι : Type*} [Fintype ι] (r : ι → ℝ) :
    ((∑ i, r i : ℝ) : EReal) = ∑ i, ((r i : ℝ) : EReal) :=
  coe_finset_sum Finset.univ r

/-- The same with an initial summand 0: 0 plus the sum of the coercions is the coercion of
    the real sum. -/
theorem coe_sum_zero_add {ι : Type*} [Fintype ι] (r : ι → ℝ) :
    (0 : EReal) + ∑ i, ((r i : ℝ) : EReal) = ((∑ i, r i : ℝ) : EReal) := by
  rw [zero_add, coe_sum]

/-! ### 4. Being a real number -/

/-- An extended real IS REAL when it is the coercion of a real number. -/
def IsReal (x : EReal) : Prop := ∃ r : ℝ, x = (r : EReal)

/-- Being real is being neither the top nor the bottom element. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

namespace IsReal

/-- A coercion is real. -/
theorem coe (r : ℝ) : IsReal (r : EReal) := ⟨r, rfl⟩
/-- Zero is real. -/
theorem zero : IsReal 0 := ⟨0, EReal.coe_zero.symm⟩
/-- One is real. -/
theorem one : IsReal 1 := ⟨1, EReal.coe_one.symm⟩
/-- A natural number is real. -/
theorem natCast (n : ℕ) : IsReal (n : EReal) := ⟨(n : ℝ), (EReal.coe_coe_eq_natCast n).symm⟩

variable {x y : EReal}

/-- A real is not the top element. -/
theorem ne_top (hx : IsReal x) : x ≠ ⊤ := (isReal_iff.1 hx).1
/-- A real is not the bottom element. -/
theorem ne_bot (hx : IsReal x) : x ≠ ⊥ := (isReal_iff.1 hx).2

/-- The sum of two reals is real. -/
theorem add (hx : IsReal x) (hy : IsReal y) : IsReal (x + y) := by
  obtain ⟨a, rfl⟩ := hx; obtain ⟨b, rfl⟩ := hy; exact ⟨a + b, (EReal.coe_add a b).symm⟩
/-- The difference of two reals is real. -/
theorem sub (hx : IsReal x) (hy : IsReal y) : IsReal (x - y) := by
  obtain ⟨a, rfl⟩ := hx; obtain ⟨b, rfl⟩ := hy; exact ⟨a - b, (EReal.coe_sub a b).symm⟩
/-- The product of two reals is real. -/
theorem mul (hx : IsReal x) (hy : IsReal y) : IsReal (x * y) := by
  obtain ⟨a, rfl⟩ := hx; obtain ⟨b, rfl⟩ := hy; exact ⟨a * b, (EReal.coe_mul a b).symm⟩
/-- The opposite of a real is real. -/
theorem neg (hx : IsReal x) : IsReal (-x) := by
  obtain ⟨a, rfl⟩ := hx; exact ⟨-a, (EReal.coe_neg a).symm⟩
/-- The larger of two reals is real. -/
theorem max (hx : IsReal x) (hy : IsReal y) : IsReal (max x y) := by
  rcases le_total x y with h | h
  · rwa [max_eq_right h]
  · rwa [max_eq_left h]
/-- The smaller of two reals is real. -/
theorem min (hx : IsReal x) (hy : IsReal y) : IsReal (min x y) := by
  rcases le_total x y with h | h
  · rwa [min_eq_left h]
  · rwa [min_eq_right h]
/-- The extended reals' inverse of a real is real (the inverse of 0 is 0 there). -/
theorem inv (hx : IsReal x) : IsReal x⁻¹ := by
  obtain ⟨a, rfl⟩ := hx; exact ⟨a⁻¹, (EReal.coe_inv a).symm⟩
/-- A real times the inverse of a real is real. -/
theorem mul_inv_coe (hx : IsReal x) (c : ℝ) : IsReal (x * ((c : ℝ) : EReal)⁻¹) :=
  hx.mul (IsReal.coe c).inv

/-- A finite sum of reals is real. -/
theorem finset_sum {ι : Type*} (s : Finset ι) (f : ι → EReal) (h : ∀ i ∈ s, IsReal (f i)) :
    IsReal (∑ i ∈ s, f i) :=
  Finset.sum_induction f IsReal (fun _ _ => IsReal.add) IsReal.zero h
/-- A sum of reals over a finite type is real. -/
theorem sum {ι : Type*} [Fintype ι] (f : ι → EReal) (h : ∀ i, IsReal (f i)) :
    IsReal (∑ i, f i) :=
  finset_sum _ f fun i _ => h i
/-- An initial 0 plus a sum of reals over a finite type is real. -/
theorem zero_add_sum {ι : Type*} [Fintype ι] (f : ι → EReal) (h : ∀ i, IsReal (f i)) :
    IsReal (0 + ∑ i, f i) :=
  IsReal.zero.add (sum f h)
/-- A real initial value plus a sum of reals over a finite type is real. -/
theorem add_sum {ι : Type*} [Fintype ι] {z : EReal} (hz : IsReal z) (f : ι → EReal)
    (h : ∀ i, IsReal (f i)) : IsReal (z + ∑ i, f i) :=
  hz.add (sum f h)

end IsReal

/-- The ideal quotient by a nonzero real is the product with the extended reals' inverse. -/
theorem div_coe_eq_mul_inv {c : ℝ} (hc : c ≠ 0) (x : EReal) :
    Ideal.div x ((c : ℝ) : EReal) = x * ((c : ℝ) : EReal)⁻¹ := by
  rw [Ideal.div, if_neg (by exact_mod_cast hc)]

/-- The ideal quotient of a real by a nonzero real is real. -/
theorem IsReal.div_coe {x : EReal} (hx : IsReal x) {c : ℝ} (hc : c ≠ 0) :
    IsReal (Ideal.div x ((c : ℝ) : EReal)) := by
  rw [div_coe_eq_mul_inv hc]; exact hx.mul_inv_coe c

/-- The ideal quotient of two coerced reals, the divisor nonzero, is the coerced real quotient. -/
theorem div_coe_coe (a : ℝ) {c : ℝ} (hc : c ≠ 0) :
    Ideal.div ((a : ℝ) : EReal) ((c : ℝ) : EReal) = ((a / c : ℝ) : EReal) := by
  rw [div_coe_eq_mul_inv hc, ← EReal.coe_inv, ← EReal.coe_mul, div_eq_mul_inv]

/-- The ideal reciprocal square root of a positive real v is the coercion of (√v)⁻¹. -/
theorem rsqrt_coe_pos {v : ℝ} (hv : 0 < v) :
    Ideal.rsqrt ((v : ℝ) : EReal) = (((Real.sqrt v)⁻¹ : ℝ) : EReal) := by
  rw [Ideal.rsqrt_coe, if_neg (not_lt.2 hv.le), if_neg hv.ne']

/-- The ideal reciprocal square root of a positive real is real. -/
theorem IsReal.rsqrt_coe_pos {v : ℝ} (hv : 0 < v) : IsReal (Ideal.rsqrt ((v : ℝ) : EReal)) :=
  ⟨_, Cert.LibMoments.rsqrt_coe_pos hv⟩

/-- The ideal reciprocal square root of a positive real is a positive real. -/
theorem rsqrt_coe_pos' {v : ℝ} (hv : 0 < v) :
    ∃ w : ℝ, 0 < w ∧ Ideal.rsqrt ((v : ℝ) : EReal) = (w : EReal) :=
  ⟨(Real.sqrt v)⁻¹, inv_pos.2 (Real.sqrt_pos.2 hv), rsqrt_coe_pos hv⟩

/-! ### 2. The two forms of a variance -/

section Variance
variable {ι : Type*} [Fintype ι]

/-- Over the reals: the mean of the squares minus the square of the mean is the mean of the
    squared deviations from the mean (N the number of data, nonzero). -/
theorem real_variance_two_forms (r : ι → ℝ) (N : ℝ) (hN : N ≠ 0)
    (hcard : (Fintype.card ι : ℝ) = N) :
    (∑ i, r i * r i) * N⁻¹ - (∑ i, r i) * N⁻¹ * ((∑ i, r i) * N⁻¹)
      = (∑ i, (r i - (∑ i, r i) * N⁻¹) * (r i - (∑ i, r i) * N⁻¹)) * N⁻¹ := by
  set S := ∑ i, r i with hS
  set μ := S * N⁻¹ with hμ
  have h1 : ∑ i, (r i - μ) * (r i - μ) = (∑ i, r i * r i) - 2 * μ * S + N * (μ * μ) := by
    have h2 : ∀ i, (r i - μ) * (r i - μ) = r i * r i - 2 * μ * r i + μ * μ := fun i => by ring
    simp only [h2]
    rw [Finset.sum_add_distrib, Finset.sum_sub_distrib, ← Finset.mul_sum, Finset.sum_const,
      Finset.card_univ, nsmul_eq_mul, hcard]
  have h3 : S = μ * N := by rw [hμ]; field_simp
  rw [h1, h3]
  field_simp
  ring

/-- Over the extended reals, for REAL data r: with S the sum of the data, Q the sum of their
    squares and μ = S · N⁻¹, one has Q · N⁻¹ − μ · μ = (∑ (r − μ) · (r − μ)) · N⁻¹
    (N the number of data, nonzero). -/
theorem variance_two_forms (r : ι → ℝ) (N : ℝ) (hN : N ≠ 0) (hcard : (Fintype.card ι : ℝ) = N) :
    (∑ i, ((r i : ℝ) : EReal) * ((r i : ℝ) : EReal)) * ((N : ℝ) : EReal)⁻¹
        - (∑ i, ((r i : ℝ) : EReal)) * ((N : ℝ) : EReal)⁻¹
          * ((∑ i, ((r i : ℝ) : EReal)) * ((N : ℝ) : EReal)⁻¹)
      = (∑ i, (((r i : ℝ) : EReal) - (∑ i, ((r i : ℝ) : EReal)) * ((N : ℝ) : EReal)⁻¹)
            * (((r i : ℝ) : EReal) - (∑ i, ((r i : ℝ) : EReal)) * ((N : ℝ) : EReal)⁻¹))
          * ((N : ℝ) : EReal)⁻¹ := by
  simp only [← EReal.coe_mul, ← coe_sum, ← EReal.coe_inv, ← EReal.coe_sub]
  rw [real_variance_two_forms r N hN hcard]

/-- The same law with each sum preceded by the initial value 0 and each division written as the
    ideal quotient by the real N. -/
theorem variance_two_forms_div (r : ι → ℝ) (N : ℝ) (hN : N ≠ 0)
    (hcard : (Fintype.card ι : ℝ) = N) :
    Ideal.div (0 + ∑ i, ((r i : ℝ) : EReal) * ((r i : ℝ) : EReal)) ((N : ℝ) : EReal)
        - Ideal.div (0 + ∑ i, ((r i : ℝ) : EReal)) ((N : ℝ) : EReal)
          * Ideal.div (0 + ∑ i, ((r i : ℝ) : EReal)) ((N : ℝ) : EReal)
      = Ideal.div
          (0 + ∑ i, (((r i : ℝ) : EReal) - Ideal.div (0 + ∑ i, ((r i : ℝ) : EReal)) ((N : ℝ) : EReal))
            * (((r i : ℝ) : EReal) - Ideal.div (0 + ∑ i, ((r i : ℝ) : EReal)) ((N : ℝ) : EReal)))
          ((N : ℝ) : EReal) := by
  simp only [zero_add, div_coe_eq_mul_inv hN]
  exact variance_two_forms r N hN hcard

/-- The law for extended-real data every entry of which is real, with the sum S, the sum of
    squares Q and the mean μ named by equations (so that a caller may present them in any
    syntactic form, for instance with an initial 0). -/
theorem variance_two_forms_of_isReal (x : ι → EReal) (hx : ∀ i, IsReal (x i)) (N : ℝ) (hN : N ≠ 0)
    (hcard : (Fintype.card ι : ℝ) = N) (S Q μ : EReal) (hS : S = ∑ i, x i)
    (hQ : Q = ∑ i, x i * x i) (hμ : μ = S * ((N : ℝ) : EReal)⁻¹) :
    Q * ((N : ℝ) : EReal)⁻¹ - μ * μ = (∑ i, (x i - μ) * (x i - μ)) * ((N : ℝ) : EReal)⁻¹ := by
  choose r hr using hx
  obtain rfl : x = fun i => ((r i : ℝ) : EReal) := funext hr
  subst hμ; subst hS; subst hQ
  exact variance_two_forms r N hN hcard

/-- The law for extended-real data every entry of which is real, in the shape "initial 0 plus
    the sum, ideal quotient by N". -/
theorem variance_two_forms_div_of_isReal (x : ι → EReal) (hx : ∀ i, IsReal (x i)) (N : ℝ)
    (hN : N ≠ 0) (hcard : (Fintype.card ι : ℝ) = N) :
    Ideal.div (0 + ∑ i, x i * x i) ((N : ℝ) : EReal)
        - Ideal.div (0 + ∑ i, x i) ((N : ℝ) : EReal) * Ideal.div (0 + ∑ i, x i) ((N : ℝ) : EReal)
      = Ideal.div
          (0 + ∑ i, (x i - Ideal.div (0 + ∑ i, x i) ((N : ℝ) : EReal))
            * (x i - Ideal.div (0 + ∑ i, x i) ((N : ℝ) : EReal)))
          ((N : ℝ) : EReal) := by
  choose r hr using hx
  obtain rfl : x = fun i => ((r i : ℝ) : EReal) := funext hr
  exact variance_two_forms_div r N hN hcard

/-! ### 3. The variance is a nonnegative real -/

/-- The mean of the squared deviations of real data from a real centre m, over a positive count
    N, is the coercion of a nonnegative real. -/
theorem centered_mean_sq_coe (r : ι → ℝ) (m : ℝ) (N : ℝ) (hN : 0 < N) :
    ∃ v : ℝ, 0 ≤ v ∧
      (∑ i, (((r i : ℝ) : EReal) - ((m : ℝ) : EReal)) * (((r i : ℝ) : EReal) - ((m : ℝ) : EReal)))
        * ((N : ℝ) : EReal)⁻¹ = ((v : ℝ) : EReal) := by
  refine ⟨(∑ i, (r i - m) * (r i - m)) * N⁻¹, ?_, ?_⟩
  · exact mul_nonneg (Finset.sum_nonneg fun i _ => mul_self_nonneg _) (inv_nonneg.2 hN.le)
  · simp only [← EReal.coe_sub, ← EReal.coe_mul, ← coe_sum, ← EReal.coe_inv]

/-- The same for extended-real data and centre, all real. -/
theorem variance_nonneg (x : ι → EReal) (hx : ∀ i, IsReal (x i)) (μ : EReal) (hμ : IsReal μ)
    (N : ℝ) (hN : 0 < N) :
    ∃ v : ℝ, 0 ≤ v ∧ (∑ i, (x i - μ) * (x i - μ)) * ((N : ℝ) : EReal)⁻¹ = ((v : ℝ) : EReal) := by
  choose r hr using hx
  obtain rfl : x = fun i => ((r i : ℝ) : EReal) := funext hr
  obtain ⟨m, rfl⟩ := hμ
  exact centered_mean_sq_coe r m N hN

/-- The same in the shape "initial 0 plus the sum, ideal quotient by N". -/
theorem variance_div_nonneg (x : ι → EReal) (hx : ∀ i, IsReal (x i)) (μ : EReal) (hμ : IsReal μ)
    (N : ℝ) (hN : 0 < N) :
    ∃ v : ℝ, 0 ≤ v ∧
      Ideal.div (0 + ∑ i, (x i - μ) * (x i - μ)) ((N : ℝ) : EReal) = ((v : ℝ) : EReal) := by
  rw [zero_add, div_coe_eq_mul_inv hN.ne']
  exact variance_nonneg x hx μ hμ N hN

/-- Mean of squares minus squared mean, for real data, is the coercion of a nonnegative real. -/
theorem raw_variance_nonneg (x : ι → EReal) (hx : ∀ i, IsReal (x i)) (N : ℝ) (hN : 0 < N)
    (hcard : (Fintype.card ι : ℝ) = N) :
    ∃ v : ℝ, 0 ≤ v ∧
      (∑ i, x i * x i) * ((N : ℝ) : EReal)⁻¹
        - (∑ i, x i) * ((N : ℝ) : EReal)⁻¹ * ((∑ i, x i) * ((N : ℝ) : EReal)⁻¹)
        = ((v : ℝ) : EReal) := by
  rw [variance_two_forms_of_isReal x hx N hN.ne' hcard _ _ _ rfl rfl rfl]
  exact variance_nonneg x hx _ ((IsReal.sum x hx).mul_inv_coe N) N hN

/-- The same in the shape "initial 0 plus the sum, ideal quotient by N". -/
theorem raw_variance_div_nonneg (x : ι → EReal) (hx : ∀ i, IsReal (x i)) (N : ℝ) (hN : 0 < N)
    (hcard : (Fintype.card ι : ℝ) = N) :
    ∃ v : ℝ, 0 ≤ v ∧
      Ideal.div (0 + ∑ i, x i * x i) ((N : ℝ) : EReal)
        - Ideal.div (0 + ∑ i, x i) ((N : ℝ) : EReal) * Ideal.div (0 + ∑ i, x i) ((N : ℝ) : EReal)
        = ((v : ℝ) : EReal) := by
  simp only [zero_add, div_coe_eq_mul_inv hN.ne']
  exact raw_variance_nonneg x hx N hN hcard

/-- A nonnegative real plus a positive real ε is the coercion of a positive real. -/
theorem add_eps_pos {y : EReal} (hy : ∃ v : ℝ, 0 ≤ v ∧ y = ((v : ℝ) : EReal)) {ε : ℝ}
    (hε : 0 < ε) : ∃ w : ℝ, 0 < w ∧ y + ((ε : ℝ) : EReal) = ((w : ℝ) : EReal) := by
  obtain ⟨v, hv, rfl⟩ := hy
  exact ⟨v + ε, add_pos_of_nonneg_of_pos hv hε, (EReal.coe_add v ε).symm⟩

/-- The ideal reciprocal square root of a nonnegative real plus a positive real ε is a positive
    real. -/
theorem rsqrt_add_eps_pos {y : EReal} (hy : ∃ v : ℝ, 0 ≤ v ∧ y = ((v : ℝ) : EReal)) {ε : ℝ}
    (hε : 0 < ε) :
    ∃ w : ℝ, 0 < w ∧ Ideal.rsqrt (y + ((ε : ℝ) : EReal)) = ((w : ℝ) : EReal) := by
  obtain ⟨u, hu, e⟩ := add_eps_pos hy hε
  rw [e]; exact rsqrt_coe_pos' hu

/-- Hence it is real. -/
theorem IsReal.rsqrt_add_eps {y : EReal} (hy : ∃ v : ℝ, 0 ≤ v ∧ y = ((v : ℝ) : EReal)) {ε : ℝ}
    (hε : 0 < ε) : IsReal (Ideal.rsqrt (y + ((ε : ℝ) : EReal))) := by
  obtain ⟨w, _, e⟩ := rsqrt_add_eps_pos hy hε
  exact ⟨w, e⟩

end Variance

/-! ### 5. Tile-by-tile accumulation -/

section Tiles
variable {M : Type*} [AddCommMonoid M]

/-- Left-nested accumulation of a sequence s onto an initial value z: after t steps it is
    ((z + s 0) + s 1) + … + s (t-1). -/
def acc (z : M) (s : ℕ → M) : ℕ → M
  | 0 => z
  | t + 1 => acc z s t + s t

/-- Before any step the accumulation is the initial value. -/
@[simp] theorem acc_zero (z : M) (s : ℕ → M) : acc z s 0 = z := rfl
/-- One more step adds the next term on the right. -/
@[simp] theorem acc_succ (z : M) (s : ℕ → M) (t : ℕ) : acc z s (t + 1) = acc z s t + s t := rfl

/-- After A steps the accumulation is the initial value plus the sum of the first A terms. -/
theorem acc_eq_add_sum_range (z : M) (s : ℕ → M) (A : ℕ) :
    acc z s A = z + ∑ t ∈ Finset.range A, s t := by
  induction A with
  | zero => simp
  | succ n ih => rw [acc_succ, ih, Finset.sum_range_succ, add_assoc]

/-- The same with the sum taken over the finite type of the first A naturals. -/
theorem acc_eq_add_sum_fin (z : M) (s : ℕ → M) (A : ℕ) :
    acc z s A = z + ∑ t : Fin A, s t := by
  rw [acc_eq_add_sum_range, Finset.sum_range]

/-- From the initial value 0 the accumulation is 0 plus the sum of the first A terms. -/
theorem acc_zero_eq (s : ℕ → M) (A : ℕ) : acc 0 s A = 0 + ∑ t : Fin A, s t :=
  acc_eq_add_sum_fin 0 s A

/-- Tiles: if the t-th term is 0 plus the sum of the entries of the t-th tile, and the tiles
    (t, j) enumerate an index type ι through a bijection e, then accumulating the A tile sums
    onto z gives z plus the sum of ALL entries. No finiteness of the values is needed. -/
theorem acc_tiles_equiv {ι κ : Type*} [Fintype ι] [Fintype κ] (A : ℕ) (e : Fin A × κ ≃ ι)
    (a : ι → M) (s : ℕ → M) (hs : ∀ t : Fin A, s t = 0 + ∑ j : κ, a (e (t, j))) (z : M) :
    acc z s A = z + ∑ i : ι, a i := by
  rw [acc_eq_add_sum_fin]
  congr 1
  rw [← Equiv.sum_comp e a, Fintype.sum_prod_type]
  exact Finset.sum_congr rfl fun t _ => by rw [hs t, zero_add]

/-- Tiles indexed by a pair (tile, position in tile). -/
theorem acc_tiles_prod (A B : ℕ) (a : Fin A × Fin B → M) (s : ℕ → M)
    (hs : ∀ t : Fin A, s t = 0 + ∑ j : Fin B, a (t, j)) (z : M) :
    acc z s A = z + ∑ p : Fin A × Fin B, a p :=
  acc_tiles_equiv A (Equiv.refl _) a s hs z

/-- Tiles of a flat index: entry number j + B * t is position j of tile t. -/
theorem acc_tiles_flat (A B : ℕ) (a : Fin (A * B) → M) (s : ℕ → M)
    (hs : ∀ t : Fin A, s t = 0 + ∑ j : Fin B, a (finProdFinEquiv (t, j))) (z : M) :
    acc z s A = z + ∑ k : Fin (A * B), a k :=
  acc_tiles_equiv A finProdFinEquiv a s hs z

/-- From the initial value 0: the accumulated tile sums are 0 plus the sum of all entries. -/
theorem acc_zero_tiles_flat (A B : ℕ) (a : Fin (A * B) → M) (s : ℕ → M)
    (hs : ∀ t : Fin A, s t = 0 + ∑ j : Fin B, a (finProdFinEquiv (t, j))) :
    acc 0 s A = 0 + ∑ k : Fin (A * B), a k :=
  acc_tiles_flat A B a s hs 0

end Tiles

/-! ### 6. One-hot weighted sums -/

section OneHot
variable {ι : Type*}

/-- A sum weighted by the indicator (1 where p holds, 0 elsewhere) of a predicate is the sum over
    the indices where p holds: it uses only 1 · x = x and 0 · x = 0, which hold for every
    extended real, the infinities included. -/
theorem finset_sum_onehot_mul (s : Finset ι) (p : ι → Prop) [DecidablePred p] (f : ι → EReal) :
    ∑ i ∈ s, (if p i then (1 : EReal) else 0) * f i = ∑ i ∈ s.filter p, f i := by
  rw [Finset.sum_filter]
  refine Finset.sum_congr rfl fun i _ => ?_
  by_cases h : p i
  · rw [if_pos h, if_pos h, one_mul]
  · rw [if_neg h, if_neg h, zero_mul]

/-- The same over a finite type. -/
theorem sum_onehot_mul [Fintype ι] (p : ι → Prop) [DecidablePred p] (f : ι → EReal) :
    ∑ i, (if p i then (1 : EReal) else 0) * f i = ∑ i ∈ Finset.univ.filter p, f i :=
  finset_sum_onehot_mul Finset.univ p f

/-- With the weight on the right. -/
theorem sum_mul_onehot [Fintype ι] (p : ι → Prop) [DecidablePred p] (f : ι → EReal) :
    ∑ i, f i * (if p i then (1 : EReal) else 0) = ∑ i ∈ Finset.univ.filter p, f i := by
  rw [Finset.sum_filter]
  refine Finset.sum_congr rfl fun i _ => ?_
  by_cases h : p i
  · rw [if_pos h, if_pos h, mul_one]
  · rw [if_neg h, if_neg h, mul_zero]

end OneHot

/-- The one-hot weights themselves sum to the number of indices where the predicate holds, an
    extended real that is a natural number. -/
theorem sum_onehot_one {ι : Type*} [Fintype ι] (p : ι → Prop) [DecidablePred p] :
    ∑ i, (if p i then (1 : EReal) else 0) * 1 = (((Finset.univ.filter p).card : ℕ) : EReal) := by
  rw [sum_onehot_mul, Finset.sum_const, nsmul_one]

/-- The count above, as an extended real, is real and nonnegative; its maximum with 1 is a
    real at least 1. -/
theorem max_natCast_one (n : ℕ) :
    ∃ c : ℝ, 1 ≤ c ∧ max ((n : ℕ) : EReal) 1 = ((c : ℝ) : EReal) := by
  refine ⟨max (n : ℝ) 1, le_max_right _ _, ?_⟩
  rw [← EReal.coe_coe_eq_natCast, ← EReal.coe_one]
  rcases le_total (n : ℝ) 1 with h | h
  · rw [max_eq_right h, max_eq_right (EReal.coe_le_coe_iff.2 h)]
  · rw [max_eq_left h, max_eq_left (EReal.coe_le_coe_iff.2 h)]

/-! ### Further closure facts -/

/-- The ideal quotient of a real by a nonzero real (both given as extended reals) is real. -/
theorem IsReal.div {x y : EReal} (hx : IsReal x) (hy : IsReal y) (hy0 : y ≠ 0) :
    IsReal (Ideal.div x y) := by
  obtain ⟨c, rfl⟩ := hy
  exact hx.div_coe (by rintro rfl; exact hy0 EReal.coe_zero)

/-- A choice between two reals is real. -/
theorem IsReal.ite {x y : EReal} (c : Prop) [Decidable c] (hx : IsReal x) (hy : IsReal y) :
    IsReal (if c then x else y) := by
  by_cases h : c
  · rwa [if_pos h]
  · rwa [if_neg h]

/-- The positive part of a real is real. -/
theorem IsReal.max_zero {x : EReal} (hx : IsReal x) : IsReal (Max.max x 0) := hx.max IsReal.zero

/-- An accumulated contraction, an initial real plus a finite sum of products of reals, is
    real. -/
theorem IsReal.add_sum_mul {κ : Type*} [Fintype κ] {z : EReal} (hz : IsReal z) (a b : κ → EReal)
    (ha : ∀ k, IsReal (a k)) (hb : ∀ k, IsReal (b k)) : IsReal (z + ∑ k, a k * b k) :=
  hz.add_sum _ fun k => (ha k).mul (hb k)

/-- A left-nested accumulation of reals onto a real is real at every step. -/
theorem IsReal.acc {z : EReal} (hz : IsReal z) (s : ℕ → EReal) (A : ℕ)
    (hs : ∀ t, t < A → IsReal (s t)) : IsReal (acc z s A) := by
  induction A with
  | zero => simpa using hz
  | succ n ih =>
    rw [acc_succ]
    exact (ih fun t ht => hs t (Nat.lt_succ_of_lt ht)).add (hs n (Nat.lt_succ_self n))

/-- Tiles whose t-th term is the bare sum of the t-th tile (no initial 0): accumulating the A
    tile sums onto z gives z plus the sum of all entries. -/
theorem acc_tiles_equiv' {M : Type*} [AddCommMonoid M] {ι κ : Type*} [Fintype ι] [Fintype κ]
    (A : ℕ) (e : Fin A × κ ≃ ι) (a : ι → M) (s : ℕ → M)
    (hs : ∀ t : Fin A, s t = ∑ j : κ, a (e (t, j))) (z : M) :
    acc z s A = z + ∑ i : ι, a i :=
  acc_tiles_equiv A e a s (fun t => by rw [hs t, zero_add]) z

/-- A sum of ones over the indices where a predicate holds is their number. -/
theorem sum_filter_one {ι : Type*} [Fintype ι] (p : ι → Prop) [DecidablePred p] :
    ∑ _i ∈ Finset.univ.filter p, (1 : EReal) = (((Finset.univ.filter p).card : ℕ) : EReal) := by
  rw [Finset.sum_const, nsmul_one]

end Cert.LibMoments
-- ==== Proof.Real.lean ====
/-
  Realness, positivity and the one algebraic law.

  On the extended reals a product of three matrices may be regrouped only when no infinity meets an opposite one;
  with every entry a real number (K1 . ainv) . C = K1 . (ainv . C) is the reals' associativity. Here: the
  specification's matrices of real inputs are real, the softmax entries positive, and the two groupings agree.
-/
import proofs.«411036_j71038759076379_3_alg».proof.Proof.Spec
import proofs.«411036_j71038759076379_3_alg».proof.Proof.LibMoments

noncomputable section

namespace Cert.Nys

open Idealize.ShloMosaic Cert.LibMoments

/-- The scaling word is the dyadic real 11863283 · 2⁻²⁵ (sign 0, exponent field 125, fraction 3474675). -/
theorem sW_eq : sW = (((11863283 : ℝ) * (2 : ℝ) ^ (-25 : ℤ) : ℝ) : EReal) := by
  simp [sW, Ideal.ofBits, Ideal.ieee, -EReal.coe_mul] <;> norm_num

/-- The three float words the specification mentions, as extended reals. -/
theorem sW_real : IsReal sW := ⟨_, sW_eq⟩
theorem w64_eq : w64 = ((1 / 64 : ℝ) : EReal) := by
  simp [w64, Ideal.ofBits, Ideal.ieee, -EReal.coe_mul] <;> norm_num
theorem wNegInf_eq : wNegInf = ⊥ := by
  simp [wNegInf, Ideal.ofBits, Ideal.ieee]

/-- The running maximum, started at the bottom element, of a nonempty finite family of reals is real:
    over one index it is that entry, and one more index takes the larger of two reals. -/
theorem fold_max_real {n : ℕ} (x : Fin n → EReal) (hx : ∀ j, IsReal (x j)) (s : Finset (Fin n)) :
    s.Nonempty → IsReal (s.fold max ⊥ x) := by
  induction s using Finset.induction_on with
  | empty => intro h; exact absurd h Finset.not_nonempty_empty
  | insert a s ha ih =>
    intro _
    rw [Finset.fold_insert ha]
    rcases s.eq_empty_or_nonempty with hs | hs
    · subst hs
      rw [Finset.fold_empty, max_eq_left bot_le]
      exact hx a
    · exact (hx a).max (ih hs)

/-- The row maximum of a nonempty row of reals is real. -/
theorem rmax_real {n : ℕ} (hn : 0 < n) (x : Fin n → EReal) (hx : ∀ j, IsReal (x j)) : IsReal (rmax x) := by
  rw [rmax, wNegInf_eq, max_eq_right bot_le]
  exact fold_max_real x hx Finset.univ ⟨⟨0, hn⟩, Finset.mem_univ _⟩

/-- The exponential of a real is a positive real. -/
theorem exp_pos_real {y : EReal} (hy : IsReal y) : ∃ r : ℝ, 0 < r ∧ Ideal.exp y = (r : EReal) := by
  obtain ⟨a, rfl⟩ := hy
  exact ⟨Real.exp a, Real.exp_pos a, rfl⟩

/-- A sum of at least one positive real is a positive real. -/
theorem sum_pos_real {n : ℕ} (hn : 0 < n) (f : Fin n → EReal) (hf : ∀ j, ∃ r : ℝ, 0 < r ∧ f j = (r : EReal)) :
    ∃ r : ℝ, 0 < r ∧ ∑ j, f j = (r : EReal) := by
  choose r hr0 hr using hf
  refine ⟨∑ j, r j, Finset.sum_pos (fun j _ => hr0 j) ⟨⟨0, hn⟩, Finset.mem_univ _⟩, ?_⟩
  rw [coe_sum]
  exact Finset.sum_congr rfl fun j _ => hr j

/-- A softmax row of real logits (at least one) is a row of positive reals. -/
theorem smax_pos {n : ℕ} (hn : 0 < n) (x : Fin n → EReal) (hx : ∀ j, IsReal (x j)) (j : Fin n) :
    ∃ r : ℝ, 0 < r ∧ smax x j = (r : EReal) := by
  have hm : IsReal (rmax x) := rmax_real hn x hx
  obtain ⟨e, he0, he⟩ := exp_pos_real ((hx j).sub hm)
  obtain ⟨S, hS0, hS⟩ := sum_pos_real hn (fun j' => Ideal.exp (x j' - rmax x)) fun j' => exp_pos_real ((hx j').sub hm)
  refine ⟨e / S, div_pos he0 hS0, ?_⟩
  rw [smax, he, hS, div_coe_coe e hS0.ne']

theorem scl_real (x : Tall) (hx : ∀ s d, IsReal (x s d)) : ∀ s d, IsReal (scl x s d) :=
  fun s d => (hx s d).mul sW_real
theorem land_real (x : Tall) (hx : ∀ s d, IsReal (x s d)) : ∀ j d, IsReal (land x j d) := by
  intro j d
  rw [land, w64_eq]
  exact (IsReal.sum _ fun t => hx (seg j t) d).mul (IsReal.coe _)

theorem K1_real (q : Tall) (kl : Sq) (hq : ∀ s d, IsReal (q s d)) (hkl : ∀ i d, IsReal (kl i d)) :
    ∀ s m, IsReal (K1 q kl s m) := by
  intro s m
  obtain ⟨r, _, h⟩ := smax_pos (n := 64) (by norm_num)
    (fun m' => ∑ d : Fin 64, scl q s d * kl m' d)
    (fun m' => IsReal.sum _ fun d => (scl_real q hq s d).mul (hkl m' d)) m
  exact ⟨r, h⟩

theorem K2_pos (q k : Tall) (hq : ∀ s d, IsReal (q s d)) (hk : ∀ s d, IsReal (k s d)) :
    ∀ i j, ∃ r : ℝ, 0 < r ∧ K2 q k i j = (r : EReal) := by
  intro i j
  exact smax_pos (n := 64) (by norm_num)
    (fun j' => ∑ d : Fin 64, land (scl q) i d * land (scl k) j' d)
    (fun j' => IsReal.sum _ fun d =>
      (land_real _ (scl_real q hq) i d).mul (land_real _ (scl_real k hk) j' d)) j

theorem Cm_real (q k v : Tall) (hq : ∀ s d, IsReal (q s d)) (hk : ∀ s d, IsReal (k s d)) (hv : ∀ s d, IsReal (v s d)) :
    ∀ i d, IsReal (Cm q k v i d) := by
  intro i d
  refine IsReal.sum _ fun s => IsReal.mul ?_ (hv s d)
  obtain ⟨r, _, h⟩ := smax_pos (n := 4096) (by norm_num)
    (fun s' => ∑ d : Fin 64, land (scl q) i d * scl k s' d)
    (fun s' => IsReal.sum _ fun d => (land_real _ (scl_real q hq) i d).mul (scl_real k hk s' d)) s
  exact ⟨r, h⟩

/-- The two groupings of the triple product agree on real matrices. -/
theorem XK_eq_XR (q : Tall) (kl ai cm : Sq) (hq : ∀ s d, IsReal (q s d)) (hkl : ∀ i d, IsReal (kl i d))
    (hai : ∀ m n, IsReal (ai m n)) (hcm : ∀ n d, IsReal (cm n d)) : XK q kl ai cm = XR q kl ai cm := by
  have hK := K1_real q kl hq hkl
  choose a ha using hK
  choose b hb using hai
  choose c hc using hcm
  funext s d
  -- both sides are coercions of real double sums; over the reals they agree by distributing,
  -- reassociating each triple product and exchanging the two summations
  simp only [XK, XR, ha, hb, hc, ← EReal.coe_mul, ← coe_sum]
  congr 1
  simp only [Finset.mul_sum, Finset.sum_mul, mul_assoc]
  exact Finset.sum_comm

end Cert.Nys

end
-- ==== Proof.LibRealArr.lean ====
/-
  General lemmas on arrays of extended reals all of whose entries are REAL numbers (neither
  the top nor the bottom element): such an array stays so under the pointwise arithmetic, the
  re-indexing operations (broadcast, reshape, slice, concatenation, selection) and the host
  operations that sum finitely many entries or products of entries (contraction, reduction,
  accumulating scatter), read entries (gather), divide by a nonzero real, or take the reciprocal
  square root of positive reals.
-/
import proofs.«411036_j71038759076379_3_alg».proof.Proof.LibMoments
import Idealize.ShloMosaic.PureOps.Ideal
import Idealize.ShloMosaic.PureOps.Ideal.Laws
import Idealize.ShloMosaic.Lib.ValueIdx
import Idealize.ShloMosaic.Lib.StableHlo

noncomputable section

namespace Cert.LibRealArr

open scoped BigOperators
open Idealize.ShloMosaic
open Cert.LibMoments

/-! ### 1. Arrays of reals -/

/-- An array of extended reals IS REAL when every entry is the coercion of a real number. -/
def RealArr {S : Shape} (f : S.Idx → EReal) : Prop := ∀ i, IsReal (f i)

/-- The definition, entry by entry. -/
theorem realArr_iff {S : Shape} (f : S.Idx → EReal) : RealArr f ↔ ∀ i, IsReal (f i) := Iff.rfl

/-- An entry of a real array is real. -/
theorem RealArr.apply {S : Shape} {f : S.Idx → EReal} (h : RealArr f) (i : S.Idx) : IsReal (f i) := h i

/-- A real array is entrywise the coercion of an array of real numbers. -/
theorem RealArr.exists_real {S : Shape} {f : S.Idx → EReal} (h : RealArr f) :
    ∃ r : S.Idx → ℝ, f = fun i => ((r i : ℝ) : EReal) := by
  choose r hr using h
  exact ⟨r, funext hr⟩

/-- The entrywise coercion of an array of real numbers is a real array. -/
theorem realArr_coe {S : Shape} (r : S.Idx → ℝ) : RealArr (S := S) fun i => ((r i : ℝ) : EReal) :=
  fun i => IsReal.coe (r i)

/-- An array equal to a real array is real. -/
theorem RealArr.of_eq {S : Shape} {f g : S.Idx → EReal} (h : RealArr g) (e : f = g) : RealArr f := e ▸ h

/-- The array constantly equal to a real is real. -/
theorem realArr_const {S : Shape} {c : EReal} (hc : IsReal c) : RealArr (S := S) fun _ => c := fun _ => hc

-- The predicate applies as it stands to a vector of floats, to a float vector and to the
-- contents of a float buffer at the ideal instance: all three are functions from the indices of
-- the shape to the extended reals.
example {S : Shape} (v : Vec Ideal S .f32) : Prop := RealArr v
example {S : Shape} (v : FVec Ideal S .f32) : Prop := RealArr v
example {S : Shape} (v : (⟨S, .f32⟩ : BufTy).Contents (Elt Ideal)) : Prop := RealArr v

/-! ### 2. Pointwise arithmetic -/

section Pointwise
variable {S : Shape} {φ : FTy} {x y : FVec Ideal S φ}

/-- The entrywise sum of two real arrays is real. -/
theorem RealArr.addf (hx : RealArr x) (hy : RealArr y) : RealArr (addf x y) :=
  fun i => (hx i).add (hy i)
/-- The entrywise difference of two real arrays is real. -/
theorem RealArr.subf (hx : RealArr x) (hy : RealArr y) : RealArr (subf x y) :=
  fun i => (hx i).sub (hy i)
/-- The entrywise product of two real arrays is real. -/
theorem RealArr.mulf (hx : RealArr x) (hy : RealArr y) : RealArr (mulf x y) :=
  fun i => (hx i).mul (hy i)
/-- The entrywise maximum of two real arrays is real. -/
theorem RealArr.maximumf (hx : RealArr x) (hy : RealArr y) : RealArr (maximumf x y) :=
  fun i => (hx i).max (hy i)

end Pointwise

/-! ### 3. Constants -/

/-- The single-precision word of all zero bits denotes the real 0. -/
theorem ofBits_zero : Ideal.ofBits .f32 0x00000000#32 = ((0 : ℝ) : EReal) := by
  rw [Ideal.ofBits_zero_f32, EReal.coe_zero]

/-- The single-precision word 3F800000 denotes the real 1. -/
theorem ofBits_one : Ideal.ofBits .f32 0x3F800000#32 = ((1 : ℝ) : EReal) := by
  simp [Ideal.ofBits, Ideal.ieee, -EReal.coe_mul] <;> norm_num

/-- The single-precision word 47435000 denotes the real 50000. -/
theorem ofBits_50000 : Ideal.ofBits .f32 0x47435000#32 = ((50000 : ℝ) : EReal) := by
  simp [Ideal.ofBits, Ideal.ieee, -EReal.coe_mul] <;> norm_num

/-- The single-precision word 3727C5AC denotes the real 10995116 · 2⁻⁴⁰ (about one hundred
    thousandth). -/
theorem ofBits_eps :
    Ideal.ofBits .f32 0x3727C5AC#32 = (((10995116 : ℝ) * (2 : ℝ) ^ (-40 : ℤ) : ℝ) : EReal) := by
  simp [Ideal.ofBits, Ideal.ieee, -EReal.coe_mul] <;> norm_num

/-- That real is positive. -/
theorem eps_pos : (0 : ℝ) < (10995116 : ℝ) * (2 : ℝ) ^ (-40 : ℤ) := by positivity

/-- The word 3727C5AC denotes a positive real. -/
theorem ofBits_eps_pos : ∃ ε : ℝ, 0 < ε ∧ Ideal.ofBits .f32 0x3727C5AC#32 = ((ε : ℝ) : EReal) :=
  ⟨_, eps_pos, ofBits_eps⟩

/-- The constant array of a word whose value is real is a real array. -/
theorem realArr_constant {S : Shape} {φ : FTy} {w : BitVec φ.bits} (hw : IsReal (Ideal.ofBits φ w)) :
    RealArr (constant (F := Ideal) S φ w) := fun _ => hw

/-- The constant array of the zero word is real. -/
theorem realArr_constant_zero (S : Shape) : RealArr (constant (F := Ideal) S .f32 0x00000000#32) :=
  realArr_constant ⟨0, ofBits_zero⟩
/-- The constant array of the word of 1 is real. -/
theorem realArr_constant_one (S : Shape) : RealArr (constant (F := Ideal) S .f32 0x3F800000#32) :=
  realArr_constant ⟨1, ofBits_one⟩
/-- The constant array of the word of 50000 is real. -/
theorem realArr_constant_50000 (S : Shape) : RealArr (constant (F := Ideal) S .f32 0x47435000#32) :=
  realArr_constant ⟨50000, ofBits_50000⟩
/-- The constant array of the word 3727C5AC is real. -/
theorem realArr_constant_eps (S : Shape) : RealArr (constant (F := Ideal) S .f32 0x3727C5AC#32) :=
  realArr_constant ⟨_, ofBits_eps⟩

/-- Every entry of the constant array of a word is the value of the word. -/
theorem constant_apply {S : Shape} {φ : FTy} (w : BitVec φ.bits) (i : S.Idx) :
    constant (F := Ideal) S φ w i = Ideal.ofBits φ w := rfl

/-! ### 4. Re-indexings -/

section Layout
variable {s t : Shape}

/-- A broadcast reads, at every index, some entry of its operand: of a real array it is real. -/
theorem RealArr.broadcastInDim {x : s.Idx → EReal} (hx : RealArr x) (dims : Fin s.rank → Fin t.rank)
    (h : s.BroadcastsInDim t dims) : RealArr (broadcastInDim t dims h x) :=
  fun _ => hx _

/-- A reshape holds the same entries in the same row-major order: of a real array it is real. -/
theorem RealArr.shapeCast {x : s.Idx → EReal} (hx : RealArr x) (h : s.ShapeCasts t) :
    RealArr (shapeCast t x h) :=
  fun _ => hx _

/-- A slice reads, at every index, some entry of its operand: of a real array it is real. -/
theorem RealArr.extractStridedSlice {x : s.Idx → EReal} (hx : RealArr x) (off : Fin s.rank → Nat)
    (h : s.Slices off t) : RealArr (extractStridedSlice t off x h) :=
  fun _ => hx _

/-- A concatenation reads, at every index, some entry of one of its pieces: when every piece is a
    real array, so is the concatenation. -/
theorem realArr_concatenate (a : Fin t.rank) (xs : List ((s : Shape) × (s.Idx → EReal)))
    (h : Shape.Concatenates (xs.map (·.1)) t a) (hx : ∀ p ∈ xs, RealArr p.2) :
    RealArr (concatenate t a xs h) := by
  intro j
  unfold concatenate
  exact hx _ (List.getElem_mem _) _

/-- The concatenation of two real arrays is real. -/
theorem RealArr.concatenate₂ {s₁ s₂ : Shape} {x₁ : s₁.Idx → EReal} {x₂ : s₂.Idx → EReal}
    (h₁ : RealArr x₁) (h₂ : RealArr x₂) (a : Fin t.rank)
    (h : Shape.Concatenates (([⟨s₁, x₁⟩, ⟨s₂, x₂⟩] : List ((s : Shape) × (s.Idx → EReal))).map (·.1)) t a) :
    RealArr (concatenate t a [⟨s₁, x₁⟩, ⟨s₂, x₂⟩] h) := by
  refine realArr_concatenate a _ h fun p hp => ?_
  rcases List.mem_cons.1 hp with rfl | hp
  · exact h₁
  · rcases List.mem_cons.1 hp with rfl | hp
    · exact h₂
    · exact absurd hp (List.not_mem_nil)

/-- A lane-by-lane selection whose chosen entry is real at every index (the first branch where
    the condition is 1, the second elsewhere) is a real array. -/
theorem realArr_select_of {c : IVec s 1} {a b : s.Idx → EReal}
    (h : ∀ i, (c i = 1 → IsReal (a i)) ∧ (c i ≠ 1 → IsReal (b i))) : RealArr (select c a b) := by
  intro i
  show IsReal (if c i = 1 then a i else b i)
  by_cases hc : c i = 1
  · rw [if_pos hc]; exact (h i).1 hc
  · rw [if_neg hc]; exact (h i).2 hc

/-- A lane-by-lane selection between two real arrays is real. -/
theorem RealArr.select {a b : s.Idx → EReal} (ha : RealArr a) (hb : RealArr b) (c : IVec s 1) :
    RealArr (select c a b) :=
  realArr_select_of fun i => ⟨fun _ => ha i, fun _ => hb i⟩

/-- Where the condition is 1 everywhere, the selection is its first branch. -/
theorem realArr_select_left {c : IVec s 1} {a : s.Idx → EReal} (ha : RealArr a) (b : s.Idx → EReal)
    (hc : ∀ i, c i = 1) : RealArr (select c a b) :=
  realArr_select_of fun i => ⟨fun _ => ha i, fun h => absurd (hc i) h⟩

/-- Where the condition is 1 nowhere, the selection is its second branch. -/
theorem realArr_select_right {c : IVec s 1} (a : s.Idx → EReal) {b : s.Idx → EReal} (hb : RealArr b)
    (hc : ∀ i, c i ≠ 1) : RealArr (select c a b) :=
  realArr_select_of fun i => ⟨fun h => absurd h (hc i), fun _ => hb i⟩

end Layout

/-! ### 5. Conversions and comparisons -/

/-- The conversion of a signed integer array to floats is, entry by entry, the integer itself:
    a real array. -/
theorem realArr_sitofp {S : Shape} {w : Nat} (φ : FTy) (x : IVec S w) : RealArr (sitofp (F := Ideal) φ x) :=
  fun i => ⟨((x i).toInt : ℝ), rfl⟩

/-- Its entries, as coercions of reals. -/
theorem sitofp_apply {S : Shape} {w : Nat} (φ : FTy) (x : IVec S w) (i : S.Idx) :
    sitofp (F := Ideal) φ x i = (((x i).toInt : ℝ) : EReal) := rfl

/-- The ordered "greater than" comparison answers 1 exactly when the second operand is below the
    first. -/
theorem cmp_ogt_eq_one {x y : EReal} : Ideal.cmp .ogt x y = 1 ↔ y < x := by
  unfold Ideal.cmp
  by_cases h : y < x <;> simp [h]

/-- The array comparison, entry by entry. -/
theorem cmpf_ogt_apply {S : Shape} {φ : FTy} (x y : FVec Ideal S φ) (i : S.Idx) :
    cmpf .ogt x y i = 1 ↔ y i < x i := cmp_ogt_eq_one

/-- A real above 0 is the coercion of a positive real. -/
theorem isReal_pos_of_zero_lt {x : EReal} (hx : IsReal x) (h : 0 < x) : ∃ v : ℝ, 0 < v ∧ x = (v : EReal) := by
  obtain ⟨v, rfl⟩ := hx
  exact ⟨v, by exact_mod_cast h, rfl⟩

/-! ### 6. Sums: contraction, reduction, accumulating scatter -/

section Sums

/-- A contraction onto an accumulator is, at every index, the accumulator's entry plus a finite sum
    of products of an entry of each operand: real when the three arrays are. -/
theorem realArr_ideal_matmul {sl sr so : Shape} (d : DotDims sl sr so) {l : sl.Idx → EReal}
    {r : sr.Idx → EReal} {acc : so.Idx → EReal} (hl : RealArr l) (hr : RealArr r) (hacc : RealArr acc) :
    RealArr (Ideal.matmul d l r acc) := by
  intro j
  unfold Ideal.matmul
  exact (hacc j).add (IsReal.sum _ fun k => (hl _).mul (hr _))

/-- The matrix product instruction onto an accumulator, at the ideal instance: real when its three
    operands are. -/
theorem realArr_matmul {sl sr so : Shape} {φ₁ φ₂ : FTy} (d : DotDims sl sr so)
    (prec : Option ContractPrecision) {l : FVec Ideal sl φ₁} {r : FVec Ideal sr φ₂}
    {acc : FVec Ideal so .f32} (hl : RealArr l) (hr : RealArr r) (hacc : RealArr acc) :
    RealArr (FloatOps.matmul d prec l r acc) :=
  realArr_ideal_matmul d hl hr hacc

/-- The host's general product is the contraction onto a zero accumulator — at every index a
    finite sum of products of an entry of each operand: real when both operands are. -/
theorem RealArr.dotGeneral {sl sr so : Shape} {φ₁ φ₂ : FTy} {l : FVec Ideal sl φ₁}
    {r : FVec Ideal sr φ₂} (hl : RealArr l) (hr : RealArr r) (d : DotDims sl sr so)
    (prec : Option ContractPrecision) : RealArr (Host.dotGeneral d prec l r) :=
  realArr_ideal_matmul d hl hr fun _ => IsReal.zero

/-- The host's sum along axes is, at every result index, the initial value plus the finite sum of
    the operand's entries that reduce to that index: real when the operand and the initial value
    are. -/
theorem realArr_ideal_hostReduceAdd {s t : Shape} {axes : List (Fin s.rank)} (h : s.ReducesTo axes t)
    {x : s.Idx → EReal} {init : EReal} (hx : RealArr x) (hi : IsReal init) :
    RealArr (Ideal.hostReduceAdd h x init) := by
  intro j
  unfold Ideal.hostReduceAdd
  exact hi.add (IsReal.finset_sum _ _ fun i _ => hx i)

/-- The same for the host operation, whose initial value is the first entry of a (one-entry)
    array. -/
theorem RealArr.reduceAdd {s t u : Shape} {φ : FTy} {axes : List (Fin s.rank)} {x : FVec Ideal s φ}
    {init : u.Idx → Ideal φ} (hx : RealArr x) (hi : RealArr init) (h : s.ReducesTo axes t)
    (hu : 0 < u.numel) : RealArr (Host.reduceAdd x init h hu) :=
  realArr_ideal_hostReduceAdd h hx (hi _)

/-- The sum along axes without initial value (the vector reduction) is a finite sum of the
    operand's entries: real when the operand is. -/
theorem realArr_ideal_reduceAdd {s t : Shape} {axes : List (Fin s.rank)} (h : s.Reduces axes t)
    {x : s.Idx → EReal} (hx : RealArr x) : RealArr (Ideal.reduceAdd h x) := by
  intro j
  unfold Ideal.reduceAdd
  exact IsReal.finset_sum _ _ fun i _ => hx i

/-- The accumulating scatter is, at every index, the operand's entry plus the finite sum of the
    updates landing there: real when the operand and the updates are. -/
theorem realArr_ideal_hostScatterAdd {s si su : Shape} (d : ScatterDims s si su) {w : Nat}
    {x : s.Idx → EReal} (idx : IVec si w) {upd : su.Idx → EReal} (hx : RealArr x) (hu : RealArr upd) :
    RealArr (Ideal.hostScatterAdd d x idx upd) := by
  intro i
  unfold Ideal.hostScatterAdd
  exact (hx i).add (IsReal.finset_sum _ _ fun j _ => hu j)

/-- The same for the host operation. -/
theorem RealArr.scatterAdd {s si su : Shape} {φ : FTy} {w : Nat} {x : FVec Ideal s φ}
    {upd : FVec Ideal su φ} (hx : RealArr x) (hu : RealArr upd) (d : ScatterDims s si su)
    (idx : IVec si w) : RealArr (Host.scatterAdd d x idx upd) :=
  realArr_ideal_hostScatterAdd d idx hx hu

/-- The entry of an accumulating scatter, spelled out. -/
theorem scatterAdd_apply {s si su : Shape} {φ : FTy} {w : Nat} (d : ScatterDims s si su)
    (x : FVec Ideal s φ) (idx : IVec si w) (upd : FVec Ideal su φ) (i : s.Idx) :
    Host.scatterAdd d x idx upd i
      = x i + ∑ j ∈ Finset.univ.filter (fun j => d.resultIdx? j idx = some i), upd j := rfl

end Sums

/-! ### 7. Gather -/

/-- A gather reads, at every index, the entry of its operand at an index computed from the start
    indices (clamped into range): of a real array it is real, whatever the start indices. -/
theorem RealArr.gather {s si t : Shape} {w : Nat} {x : s.Idx → EReal} (hx : RealArr x)
    (d : GatherDims s si t) (idx : IVec si w) : RealArr (Host.gather d x idx) :=
  fun _ => hx _

/-- Every entry of a gather is an entry of its operand. -/
theorem gather_mem {s si t : Shape} {w : Nat} {α : Type} (d : GatherDims s si t) (x : s.Idx → α)
    (idx : IVec si w) (j : t.Idx) : ∃ i, Host.gather d x idx j = x i :=
  ⟨_, rfl⟩

/-! ### 8. Quotients and reciprocal square roots -/

section Quotients
variable {S : Shape} {φ : FTy} {x y : FVec Ideal S φ}

/-- The host's entrywise quotient of a real array by an array of nonzero reals is real. -/
theorem RealArr.hostDivf (hx : RealArr x) (hy : ∀ i, ∃ c : ℝ, c ≠ 0 ∧ y i = ((c : ℝ) : EReal)) :
    RealArr (Host.divf x y) := by
  intro i
  obtain ⟨c, hc, e⟩ := hy i
  show IsReal (Ideal.div (x i) (y i))
  rw [e]; exact (hx i).div_coe hc

/-- The host's entrywise quotient of a real array by the constant array of a nonzero real is
    real. -/
theorem RealArr.hostDivf_const (hx : RealArr x) {c : ℝ} (hc : c ≠ 0) (hy : ∀ i, y i = ((c : ℝ) : EReal)) :
    RealArr (Host.divf x y) :=
  hx.hostDivf fun i => ⟨c, hc, hy i⟩

/-- The entrywise quotient (the vector operation) of a real array by an array of nonzero reals is
    real. -/
theorem RealArr.divf (hx : RealArr x) (hy : ∀ i, ∃ c : ℝ, c ≠ 0 ∧ y i = ((c : ℝ) : EReal)) :
    RealArr (Idealize.ShloMosaic.divf x y) := by
  intro i
  obtain ⟨c, hc, e⟩ := hy i
  show IsReal (Ideal.div (x i) (y i))
  rw [e]; exact (hx i).div_coe hc

/-- An array of reals at least 1 is an array of nonzero reals. -/
theorem ne_zero_of_one_le (hy : ∀ i, ∃ c : ℝ, 1 ≤ c ∧ y i = ((c : ℝ) : EReal)) :
    ∀ i, ∃ c : ℝ, c ≠ 0 ∧ y i = ((c : ℝ) : EReal) := fun i => by
  obtain ⟨c, hc, e⟩ := hy i
  exact ⟨c, (lt_of_lt_of_le one_pos hc).ne', e⟩

/-- An array of positive reals is an array of nonzero reals. -/
theorem ne_zero_of_pos (hy : ∀ i, ∃ c : ℝ, 0 < c ∧ y i = ((c : ℝ) : EReal)) :
    ∀ i, ∃ c : ℝ, c ≠ 0 ∧ y i = ((c : ℝ) : EReal) := fun i => by
  obtain ⟨c, hc, e⟩ := hy i
  exact ⟨c, hc.ne', e⟩

/-- An array of positive reals is a real array. -/
theorem realArr_of_pos (hx : ∀ i, ∃ v : ℝ, 0 < v ∧ x i = ((v : ℝ) : EReal)) : RealArr x := fun i => by
  obtain ⟨v, _, e⟩ := hx i
  exact ⟨v, e⟩

/-- The host's entrywise reciprocal square root of an array of positive reals is an array of
    positive reals. -/
theorem hostRsqrt_pos (hx : ∀ i, ∃ v : ℝ, 0 < v ∧ x i = ((v : ℝ) : EReal)) :
    ∀ i, ∃ w : ℝ, 0 < w ∧ Host.rsqrt x i = ((w : ℝ) : EReal) := fun i => by
  obtain ⟨v, hv, e⟩ := hx i
  show ∃ w : ℝ, 0 < w ∧ Ideal.rsqrt (x i) = ((w : ℝ) : EReal)
  rw [e]; exact rsqrt_coe_pos' hv

/-- Hence it is a real array. -/
theorem realArr_hostRsqrt (hx : ∀ i, ∃ v : ℝ, 0 < v ∧ x i = ((v : ℝ) : EReal)) :
    RealArr (Host.rsqrt x) :=
  realArr_of_pos (hostRsqrt_pos hx)

/-- The entrywise reciprocal square root (the vector operation) of an array of positive reals is
    an array of positive reals. -/
theorem rsqrt_pos (hx : ∀ i, ∃ v : ℝ, 0 < v ∧ x i = ((v : ℝ) : EReal)) :
    ∀ i, ∃ w : ℝ, 0 < w ∧ rsqrt x i = ((w : ℝ) : EReal) := fun i => by
  obtain ⟨v, hv, e⟩ := hx i
  show ∃ w : ℝ, 0 < w ∧ Ideal.rsqrt (x i) = ((w : ℝ) : EReal)
  rw [e]; exact rsqrt_coe_pos' hv

/-- Hence it is a real array. -/
theorem realArr_rsqrt (hx : ∀ i, ∃ v : ℝ, 0 < v ∧ x i = ((v : ℝ) : EReal)) : RealArr (rsqrt x) :=
  realArr_of_pos (rsqrt_pos hx)

/-- Guarded reciprocal square root: where an entry of a real array x is above the matching entry
    of an all-zero array take the host's reciprocal square root of it, elsewhere the entry of a
    real array z. The result is real: the root is only read at positive reals. -/
theorem realArr_select_ogt_hostRsqrt {z : FVec Ideal S φ} (hx : RealArr x) (hy : ∀ i, y i = 0)
    (hz : RealArr z) : RealArr (select (cmpf .ogt x y) (Host.rsqrt x) z) :=
  realArr_select_of fun i =>
    ⟨fun hc => by
      have h0 : (0 : EReal) < x i := by rw [← hy i]; exact (cmpf_ogt_apply x y i).1 hc
      obtain ⟨v, hv, e⟩ := isReal_pos_of_zero_lt (hx i) h0
      show IsReal (Ideal.rsqrt (x i))
      rw [e]; exact IsReal.rsqrt_coe_pos hv,
     fun _ => hz i⟩

/-- The same with the vector operation's reciprocal square root. -/
theorem realArr_select_ogt_rsqrt {z : FVec Ideal S φ} (hx : RealArr x) (hy : ∀ i, y i = 0)
    (hz : RealArr z) : RealArr (select (cmpf .ogt x y) (rsqrt x) z) :=
  realArr_select_of fun i =>
    ⟨fun hc => by
      have h0 : (0 : EReal) < x i := by rw [← hy i]; exact (cmpf_ogt_apply x y i).1 hc
      obtain ⟨v, hv, e⟩ := isReal_pos_of_zero_lt (hx i) h0
      show IsReal (Ideal.rsqrt (x i))
      rw [e]; exact IsReal.rsqrt_coe_pos hv,
     fun _ => hz i⟩

end Quotients

/-! ### 9. Any property of the entries, through the re-indexings -/

section Entries
variable {s t : Shape} {α : Type} {P : α → Prop}

/-- A property of every entry of an array holds of every entry of a broadcast of it. -/
theorem forall_broadcastInDim {x : s.Idx → α} (hx : ∀ i, P (x i)) (dims : Fin s.rank → Fin t.rank)
    (h : s.BroadcastsInDim t dims) : ∀ j, P (broadcastInDim t dims h x j) :=
  fun _ => hx _

/-- A property of every entry of an array holds of every entry of a reshape of it. -/
theorem forall_shapeCast {x : s.Idx → α} (hx : ∀ i, P (x i)) (h : s.ShapeCasts t) :
    ∀ j, P (shapeCast t x h j) :=
  fun _ => hx _

/-- A property of every entry of an array holds of every entry of a slice of it. -/
theorem forall_extractStridedSlice {x : s.Idx → α} (hx : ∀ i, P (x i)) (off : Fin s.rank → Nat)
    (h : s.Slices off t) : ∀ j, P (extractStridedSlice t off x h j) :=
  fun _ => hx _

/-- A property of every entry of an array holds of every entry of a gather from it. -/
theorem forall_gather {si : Shape} {w : Nat} {x : s.Idx → α} (hx : ∀ i, P (x i))
    (d : GatherDims s si t) (idx : IVec si w) : ∀ j, P (Host.gather d x idx j) :=
  fun _ => hx _

/-- A broadcast of a constant array is constant: every entry is the value of the word. -/
theorem broadcastInDim_constant_apply {φ : FTy} (w : BitVec φ.bits) (dims : Fin s.rank → Fin t.rank)
    (h : s.BroadcastsInDim t dims) (j : t.Idx) :
    broadcastInDim t dims h (constant (F := Ideal) s φ w) j = Ideal.ofBits φ w := rfl

end Entries

/-! ### 10. Bounds carried by the arithmetic -/

section Bounds
variable {S : Shape} {φ : FTy} {x y : FVec Ideal S φ}

/-- The entrywise opposite of a real array is real. -/
theorem RealArr.negf (hx : RealArr x) : RealArr (negf x) := fun i => (hx i).neg

/-- The entrywise minimum of two real arrays is real. -/
theorem RealArr.minimumf (hx : RealArr x) (hy : RealArr y) : RealArr (minimumf x y) :=
  fun i => (hx i).min (hy i)

/-- The entrywise maximum of a real array with the constant 1 is an array of reals at least 1. -/
theorem one_le_maximumf_one (hx : RealArr x) (hy : ∀ i, y i = ((1 : ℝ) : EReal)) :
    ∀ i, ∃ c : ℝ, 1 ≤ c ∧ maximumf x y i = ((c : ℝ) : EReal) := fun i => by
  obtain ⟨a, ha⟩ := hx i
  refine ⟨max a 1, le_max_right _ _, ?_⟩
  show max (x i) (y i) = _
  rw [ha, hy i]
  rcases le_total a 1 with h | h
  · rw [max_eq_right h, max_eq_right (EReal.coe_le_coe_iff.2 h)]
  · rw [max_eq_left h, max_eq_left (EReal.coe_le_coe_iff.2 h)]

/-- The entrywise maximum of a real array with the constant 0 is an array of nonnegative reals. -/
theorem nonneg_maximumf_zero (hx : RealArr x) (hy : ∀ i, y i = 0) :
    ∀ i, ∃ c : ℝ, 0 ≤ c ∧ maximumf x y i = ((c : ℝ) : EReal) := fun i => by
  obtain ⟨a, ha⟩ := hx i
  refine ⟨max a 0, le_max_right _ _, ?_⟩
  show max (x i) (y i) = _
  rw [ha, hy i, ← EReal.coe_zero]
  rcases le_total a 0 with h | h
  · rw [max_eq_right h, max_eq_right (EReal.coe_le_coe_iff.2 h)]
  · rw [max_eq_left h, max_eq_left (EReal.coe_le_coe_iff.2 h)]

/-- An array of nonnegative reals plus the constant array of a positive real is an array of
    positive reals. -/
theorem pos_addf_const (hx : ∀ i, ∃ v : ℝ, 0 ≤ v ∧ x i = ((v : ℝ) : EReal)) {ε : ℝ} (hε : 0 < ε)
    (hy : ∀ i, y i = ((ε : ℝ) : EReal)) :
    ∀ i, ∃ w : ℝ, 0 < w ∧ addf x y i = ((w : ℝ) : EReal) := fun i => by
  show ∃ w : ℝ, 0 < w ∧ x i + y i = ((w : ℝ) : EReal)
  rw [hy i]; exact add_eps_pos (hx i) hε

/-- An array of nonnegative reals is a real array. -/
theorem realArr_of_nonneg (hx : ∀ i, ∃ v : ℝ, 0 ≤ v ∧ x i = ((v : ℝ) : EReal)) : RealArr x := fun i => by
  obtain ⟨v, _, e⟩ := hx i
  exact ⟨v, e⟩

/-- An accumulating scatter of nonnegative reals onto nonnegative reals is an array of nonnegative
    reals. -/
theorem nonneg_scatterAdd {s si su : Shape} {w : Nat} (d : ScatterDims s si su) {a : FVec Ideal s φ}
    (idx : IVec si w) {upd : FVec Ideal su φ}
    (ha : ∀ i, ∃ v : ℝ, 0 ≤ v ∧ a i = ((v : ℝ) : EReal))
    (hu : ∀ j, ∃ v : ℝ, 0 ≤ v ∧ upd j = ((v : ℝ) : EReal)) :
    ∀ i, ∃ v : ℝ, 0 ≤ v ∧ Host.scatterAdd d a idx upd i = ((v : ℝ) : EReal) := fun i => by
  choose r hr0 hr using hu
  obtain ⟨v, hv, e⟩ := ha i
  refine ⟨v + ∑ j ∈ Finset.univ.filter (fun j => d.resultIdx? j idx = some i), r j,
    add_nonneg hv (Finset.sum_nonneg fun j _ => hr0 j), ?_⟩
  rw [scatterAdd_apply, e, EReal.coe_add, coe_finset_sum]
  exact congrArg _ (Finset.sum_congr rfl fun j _ => hr j)

end Bounds

/-! ### 11. The vector unit's re-indexings, conversions and reduction -/

section VectorUnit
variable {s t : Shape}

/-- The broadcast of one real to a whole array is a real array. -/
theorem realArr_broadcast (t : Shape) {c : EReal} (hc : IsReal c) : RealArr (broadcast t c) :=
  fun _ => hc

/-- A broadcast along leading and unit axes reads, at every index, some entry of its operand: of
    a real array it is real. -/
theorem RealArr.broadcastTo {x : s.Idx → EReal} (hx : RealArr x) (h : s.Broadcasts t) :
    RealArr (broadcastTo t x h) :=
  fun _ => hx _

/-- A property of every entry of an array holds of every entry of such a broadcast of it. -/
theorem forall_broadcastTo {α : Type} {P : α → Prop} {x : s.Idx → α} (hx : ∀ i, P (x i))
    (h : s.Broadcasts t) : ∀ j, P (broadcastTo t x h j) :=
  fun _ => hx _

/-- A transposition reads, at every index, some entry of its operand: of a real array it is
    real. -/
theorem RealArr.transpose {x : s.Idx → EReal} (hx : RealArr x) (perm : List (Fin s.rank))
    (h : s.Transposes perm t) : RealArr (transpose t perm x h) :=
  fun _ => hx _

/-- Narrowing the float format changes no entry at the ideal instance: of a real array it is
    real. -/
theorem RealArr.truncf {φ : FTy} {x : FVec Ideal s φ} (hx : RealArr x) (ψ : FTy)
    (h : ψ.bits < φ.bits) : RealArr (truncf ψ x h) :=
  fun i => hx i

/-- Narrowing the format, entry by entry: the same extended real. -/
theorem truncf_apply {φ : FTy} (x : FVec Ideal s φ) (ψ : FTy) (h : ψ.bits < φ.bits) (i : s.Idx) :
    truncf ψ x h i = x i := rfl

/-- Widening the float format changes no entry at the ideal instance: of a real array it is
    real. -/
theorem RealArr.extf {φ : FTy} {x : FVec Ideal s φ} (hx : RealArr x) (ψ : FTy)
    (h : φ.bits < ψ.bits) : RealArr (extf ψ x h) :=
  fun i => hx i

/-- The vector unit's sum along axes is, at every result index, a finite sum of entries of its
    operand: real when the operand is. -/
theorem RealArr.multiReduction_add {φ : FTy} {x : FVec Ideal s φ} (hx : RealArr x)
    (axes : List (Fin s.rank)) (acc : BitVec φ.bits) (h : s.Reduces axes t) (hφ : FKind.Formats φ)
    (hacc : acc = FKind.neutral .add φ hφ) : RealArr (multiReduction .add axes t x acc h hφ hacc) :=
  realArr_ideal_reduceAdd h hx

end VectorUnit

end Cert.LibRealArr

end
-- ==== Proof.NSReal.lean ====
/-
  The Newton-Schulz iteration keeps real arrays real. Its one division is by the product of the largest column
  sum and the largest row sum of |x|; for an array of positive reals both are positive reals, so the scale is
  real, and everything after it is sums and products of reals.
-/
import proofs.«411036_j71038759076379_3_alg».proof.Proof.NSDef
import proofs.«411036_j71038759076379_3_alg».proof.Proof.LibRealArr
import Idealize.ShloMosaic.PureOps.Reduce

noncomputable section

namespace Cert.Nys

open Idealize.ShloMosaic Cert.KernelIdeal Cert.KernelIdeal.Gen Cert.LibMoments Cert.LibRealArr

/-! ### The constant words of the step -/

/-- The word 41500000 denotes the real 13. -/
theorem ofBits_13 : Ideal.ofBits .f32 0x41500000#32 = ((13 : ℝ) : EReal) := by
  simp [Ideal.ofBits, Ideal.ieee, -EReal.coe_mul] <;> norm_num

/-- The word 41700000 denotes the real 15. -/
theorem ofBits_15 : Ideal.ofBits .f32 0x41700000#32 = ((15 : ℝ) : EReal) := by
  simp [Ideal.ofBits, Ideal.ieee, -EReal.coe_mul] <;> norm_num

/-- The word 40E00000 denotes the real 7. -/
theorem ofBits_7 : Ideal.ofBits .f32 0x40E00000#32 = ((7 : ℝ) : EReal) := by
  simp [Ideal.ofBits, Ideal.ieee, -EReal.coe_mul] <;> norm_num

/-- The word 3E800000 denotes the real 1/4. -/
theorem ofBits_quarter : Ideal.ofBits .f32 0x3E800000#32 = (((1 : ℝ) / 4 : ℝ) : EReal) := by
  simp [Ideal.ofBits, Ideal.ieee, -EReal.coe_mul] <;> norm_num

/-- The word FF800000 denotes the bottom element. -/
theorem ofBits_negInf : Ideal.ofBits .f32 0xFF800000#32 = (⊥ : EReal) := by
  simp [Ideal.ofBits, Ideal.ieee]

/-! ### The pieces of one step -/

/-- The identity matrix is real: each entry is a natural number (0 or 1) read as a real. -/
theorem realArr_eye : RealArr (eye (F := Ideal)) := fun i => ⟨_, rfl⟩

/-- A real constant times a real matrix, repeated over the batches and heads, is real. -/
theorem realArr_cI {w : BitVec 32} (hw : IsReal (Ideal.ofBits .f32 w)) {I : FVec Ideal S64x64 .f32}
    (hI : RealArr I) : RealArr (cI (F := Ideal) w I) :=
  RealArr.broadcastInDim
    (RealArr.broadcastInDim
      (RealArr.mulf (RealArr.broadcastInDim (realArr_constant (S := S_) hw) _ bcast_S_S64x64) hI) _ _) _ _

/-- The batched product of two real arrays is real: each entry is a finite sum of products. -/
theorem realArr_bmm {l r : FVec Ideal S4x12x64x64 .f32} (hl : RealArr l) (hr : RealArr r) :
    RealArr (bmm (F := Ideal) l r) :=
  RealArr.dotGeneral hl hr _ _

/-- The step's polynomial of real arrays is real. -/
theorem realArr_nsPoly {I : FVec Ideal S64x64 .f32} {p v : FVec Ideal S4x12x64x64 .f32} (hI : RealArr I)
    (hp : RealArr p) (hv : RealArr v) : RealArr (nsPoly (F := Ideal) I p v) := by
  unfold nsPoly
  refine realArr_bmm (RealArr.mulf (RealArr.broadcastInDim (realArr_constant (S := S_) ⟨_, ofBits_quarter⟩) _ _) hv) ?_
  refine RealArr.subf (realArr_cI ⟨_, ofBits_13⟩ hI) (realArr_bmm hp ?_)
  refine RealArr.subf (realArr_cI ⟨_, ofBits_15⟩ hI) (realArr_bmm hp ?_)
  exact RealArr.subf (realArr_cI ⟨_, ofBits_7⟩ hI) hp

/-- One step keeps a real array real. -/
theorem realArr_nsStep {x : FVec Ideal S4x12x64x64 .f32} {I : FVec Ideal S64x64 .f32}
    {v : FVec Ideal S4x12x64x64 .f32} (hx : RealArr x) (hI : RealArr I) (hv : RealArr v) :
    RealArr (nsStep (F := Ideal) x I v) :=
  realArr_nsPoly hI (realArr_bmm hx hv) hv

/-! ### The global scale -/

/-- A positive real is the larger of itself and its opposite. -/
theorem max_neg_of_pos {r : ℝ} (hr : 0 < r) : max ((r : ℝ) : EReal) (-((r : ℝ) : EReal)) = ((r : ℝ) : EReal) := by
  rw [← EReal.coe_neg]
  exact max_eq_left (EReal.coe_le_coe_iff.2 (by linarith))

/-- The maximum, taken from the bottom element, over a nonempty finite set of positive reals is a positive
    real: it is one of them. -/
theorem fold_max_pos {ι : Type*} (f : ι → EReal) (b : EReal) (hb : b = ⊥) :
    ∀ s : Finset ι, s.Nonempty → (∀ i ∈ s, ∃ r : ℝ, 0 < r ∧ f i = ((r : ℝ) : EReal)) →
      ∃ r : ℝ, 0 < r ∧ s.fold (FloatOps.maximumf (F := Ideal) (φ := .f32)) b f = ((r : ℝ) : EReal) := by
  intro s hs
  induction hs using Finset.Nonempty.cons_induction with
  | singleton a =>
    intro hf
    obtain ⟨r, hr, e⟩ := hf a (Finset.mem_singleton_self a)
    refine ⟨r, hr, ?_⟩
    rw [Finset.fold_singleton, hb, e]
    exact max_bot_right _
  | cons a s ha hs ih =>
    intro hf
    obtain ⟨r, hr, e⟩ := hf a (Finset.mem_cons_self a s)
    obtain ⟨r', hr', e'⟩ := ih fun i hi => hf i (Finset.mem_cons_of_mem hi)
    rw [Finset.fold_cons, e, e']
    rcases le_total r r' with h | h
    · exact ⟨r', hr', max_eq_right (EReal.coe_le_coe_iff.2 h)⟩
    · exact ⟨r, hr, max_eq_left (EReal.coe_le_coe_iff.2 h)⟩

/-- The sum of |x| along one axis of nonzero extent, from the initial value 0, of an array of positive reals is
    an array of positive reals: |r| = r, and a nonempty sum of positive reals is positive. -/
theorem reduceAdd_abs_pos {s t : Shape} {a : Fin s.rank} (h' : s.ReducesTo [a] t) (h : s.Reduces [a] t)
    (ha : 0 < s.size a) (x : FVec Ideal s .f32) (hx : ∀ i, ∃ r : ℝ, 0 < r ∧ x i = ((r : ℝ) : EReal)) (j : t.Idx) :
    ∃ r : ℝ, 0 < r ∧
      Host.reduceAdd (Host.absf x) (constant (F := Ideal) S_ .f32 0x00000000#32) h' h_S_ j = ((r : ℝ) : EReal) := by
  choose r hr0 hr using hx
  haveI : Nonempty (Fin (s.size a)) := ⟨⟨0, ha⟩⟩
  refine ⟨∑ k : Fin (s.size a), r (h.lift j k), Finset.sum_pos (fun k _ => hr0 _) Finset.univ_nonempty, ?_⟩
  refine (Ideal.hostReduceAdd_single h' h (Host.absf x) (Ideal.ofBits .f32 0x00000000#32) j).trans ?_
  rw [Ideal.ofBits_zero_f32, zero_add, coe_sum]
  refine Finset.sum_congr rfl fun k _ => ?_
  show max (x (h.lift j k)) (-(x (h.lift j k))) = _
  rw [hr]; exact max_neg_of_pos (hr0 _)

/-- The largest entry, taken from the word of minus infinity, of a [4,12,64] array of positive reals is a
    positive real. -/
theorem reduceMax_pos (y : FVec Ideal S4x12x64 .f32) (hy : ∀ i, ∃ r : ℝ, 0 < r ∧ y i = ((r : ℝ) : EReal))
    (j : S_.Idx) :
    ∃ r : ℝ, 0 < r ∧
      Host.reduce FloatOps.maximumf y (constant (F := Ideal) S_ .f32 0xFF800000#32) reducesTo_S4x12x64_S_d0_1_2 h_S_ j
        = ((r : ℝ) : EReal) := by
  rw [Host.reduce_eq_fold]
  refine fold_max_pos y _ ofBits_negInf _ ?_ fun i _ => hy i
  refine ⟨Shape.Idx.first (s := S4x12x64) (by decide), Finset.mem_filter.2 ⟨Finset.mem_univ _, ?_⟩⟩
  exact funext fun k => k.elim0

/-- The start of the iteration is real: the scale is 1 over a product of two positive reals. -/
theorem realArr_nsInit (x : FVec Ideal S4x12x64x64 .f32) (hx : ∀ i, ∃ r : ℝ, 0 < r ∧ x i = ((r : ℝ) : EReal)) :
    RealArr (nsInit (F := Ideal) x) := by
  unfold nsInit
  refine RealArr.mulf (RealArr.broadcastInDim (RealArr.hostDivf (realArr_constant_one S_) fun i => ?_) _ _)
    (RealArr.transpose (realArr_of_pos hx) _ _)
  obtain ⟨ra, ha, ea⟩ := reduceMax_pos _
    (reduceAdd_abs_pos reducesTo_S4x12x64x64_S4x12x64_d2 (by decide) (by decide) x hx) i
  obtain ⟨rb, hb, eb⟩ := reduceMax_pos _
    (reduceAdd_abs_pos reducesTo_S4x12x64x64_S4x12x64_d3 (by decide) (by decide) x hx) i
  refine ⟨ra * rb, (mul_pos ha hb).ne', ?_⟩
  show _ * _ = _
  rw [ea, eb, EReal.coe_mul]

/-! ### Six steps -/

theorem NS_real (x : FVec Ideal S4x12x64x64 .f32) (hx : ∀ i, ∃ r : ℝ, 0 < r ∧ x i = (r : EReal)) :
    ∀ i, IsReal (NS (F := Ideal) x i) := by
  have hX : RealArr x := realArr_of_pos hx
  have hI : RealArr (eye (F := Ideal)) := realArr_eye
  have h0 : RealArr (nsInit (F := Ideal) x) := realArr_nsInit x hx
  unfold NS
  exact realArr_nsStep hX hI (realArr_nsStep hX hI (realArr_nsStep hX hI
    (realArr_nsStep hX hI (realArr_nsStep hX hI (realArr_nsStep hX hI h0)))))

end Cert.Nys

end
-- ==== Proof.Bridge.lean ====
/-
  The two groupings agree on real inputs. With every entry of the three inputs a real number, each head's scaled
  and pooled matrices are real, its softmax matrices positive reals, C real, and the Newton-Schulz iteration run on
  the array of small softmax matrices (positive reals) is real; so K1 . (ainv . C) = (K1 . ainv) . C head by head.
-/
import proofs.«411036_j71038759076379_3_alg».proof.Proof.Spec
import proofs.«411036_j71038759076379_3_alg».proof.Proof.Real
import proofs.«411036_j71038759076379_3_alg».proof.Proof.NSDef
import proofs.«411036_j71038759076379_3_alg».proof.Proof.NSReal

noncomputable section

namespace Cert.Nys

open Idealize.ShloMosaic Cert.LibMoments

theorem outK_eq_outR (Q K V : A4.Idx → EReal) (hQ : ∀ i, IsReal (Q i)) (hK : ∀ i, IsReal (K i)) (hV : ∀ i, IsReal (V i)) :
    outK Q K V (NS (F := Ideal) (K2arr Q K)) = outR Q K V (NS (F := Ideal) (K2arr Q K)) := by
  funext i
  have hq : ∀ (b : Fin 4) (h : Fin 12) (s : Fin 4096) (d : Fin 64), IsReal (hd Q b h s d) := fun b h s d => hQ _
  have hk : ∀ (b : Fin 4) (h : Fin 12) (s : Fin 4096) (d : Fin 64), IsReal (hd K b h s d) := fun b h s d => hK _
  have hv : ∀ (b : Fin 4) (h : Fin 12) (s : Fin 4096) (d : Fin 64), IsReal (hd V b h s d) := fun b h s d => hV _
  have hkl : ∀ (b : Fin 4) (h : Fin 12) (j d : Fin 64), IsReal (hdL (KLarr K) b h j d) :=
    fun b h j d => land_real (scl (hd K b h)) (scl_real (hd K b h) (hk b h)) j d
  have hcm : ∀ (b : Fin 4) (h : Fin 12) (n d : Fin 64), IsReal (hdL (Carr Q K V) b h n d) :=
    fun b h n d => Cm_real (hd Q b h) (hd K b h) (hd V b h) (hq b h) (hk b h) (hv b h) n d
  have hai : ∀ (b : Fin 4) (h : Fin 12) (mm n : Fin 64), IsReal (hdL (NS (F := Ideal) (K2arr Q K)) b h mm n) :=
    fun b h mm n => NS_real (K2arr Q K) (fun j => K2_pos (hd Q (j 0) (j 1)) (hd K (j 0) (j 1)) (hq _ _) (hk _ _) (j 2) (j 3)) _
  exact congrFun (congrFun (XK_eq_XR (hd Q (i 0) (i 1)) (hdL (KLarr K) (i 0) (i 1)) (hdL (NS (F := Ideal) (K2arr Q K)) (i 0) (i 1))
    (hdL (Carr Q K V) (i 0) (i 1)) (hq _ _) (hkl _ _) (hai _ _) (hcm _ _)) (i 2)) (i 3)

end Cert.Nys

end
-- ==== Proof.Finite.lean ====
/-
  The precondition read: where the printed predicate is all ones, every entry of the three inputs is a real number
  (its absolute value is below the float word of plus infinity).
-/
import proofs.«411036_j71038759076379_3_alg».proof.Pre_finite_inputs
import proofs.«411036_j71038759076379_3_alg».proof.Proof.LibMoments
import Idealize.ShloMosaic.PureOps.Ideal
import Idealize.ShloMosaic.Lib.ReduceAll

noncomputable section

namespace Cert.Fin

open Idealize.ShloMosaic Cert.LibMoments

/-- The rank-0 shape has exactly one index. -/
local instance : Subsingleton Cert.Pre_finite_inputs.S_.Idx := ⟨fun a b => funext fun d => d.elim0⟩

/-- The float word 0x7F800000 denotes the top element. -/
theorem inf_word : Ideal.ofBits .f32 0x7F800000#32 = (⊤ : EReal) := by
  simp [Ideal.ofBits, Ideal.ieee]

/-- An extended real whose absolute value (the larger of it and its negation) lies strictly below
    the top element is a real number. -/
theorem isReal_of_abs_lt_top (x : EReal) (hx : Ideal.cmp .olt (max x (-x)) (⊤ : EReal) = 1#1) : IsReal x := by
  induction x using EReal.rec with
  | bot => exact absurd hx (by simp [Ideal.cmp])
  | top => exact absurd hx (by simp [Ideal.cmp])
  | coe r => exact ⟨r, rfl⟩

theorem real_of_pre [Cert.Pre_finite_inputs.Facts]
    (a0 a1 a2 : FVec Ideal Cert.Pre_finite_inputs.S4x12x4096x64 .f32)
    (h : Cert.Pre_finite_inputs.fn (F := Ideal) a0 a1 a2 = fun _ => 1#1) :
    (∀ i, IsReal (a0 i)) ∧ (∀ i, IsReal (a1 i)) ∧ (∀ i, IsReal (a2 i)) := by
  -- the predicate at the one index of the rank-0 result
  have h0 := congrFun h (fun d => d.elim0)
  unfold Cert.Pre_finite_inputs.fn at h0
  dsimp only at h0
  -- the conjunction of the three "all" words is 1: each of them is 1
  obtain ⟨h01, hc⟩ := IntOp.andi_eq_one.1 h0
  obtain ⟨ha, hb⟩ := IntOp.andi_eq_one.1 h01
  -- an "all" word that is 1 had a 1 at every entry, and an entry's 1 says |x| < +inf
  refine ⟨fun i => ?_, fun i => ?_, fun i => ?_⟩
  · have e := Host.reduce_andi_all _ _ _ _ _ ha i
    exact isReal_of_abs_lt_top (a0 i) (inf_word ▸ e)
  · have e := Host.reduce_andi_all _ _ _ _ _ hb i
    exact isReal_of_abs_lt_top (a1 i) (inf_word ▸ e)
  · have e := Host.reduce_andi_all _ _ _ _ _ hc i
    exact isReal_of_abs_lt_top (a2 i) (inf_word ▸ e)

end Cert.Fin

end
-- ==== Proof.lean ====
/-
  Landmark (Nystrom) attention: the two-stage kernel against its jnp reference, equal over the extended reals.

  Both programs scale the queries and keys by one float word, pool 64 consecutive rows into a landmark row, form the
  three row-softmax matrices K1 [4096 x 64], K2 [64 x 64], K3 [64 x 4096] of each head, run six Newton-Schulz steps on
  the whole array of K2's (one global scale) for an approximate inverse, and return K1 . ainv . (K3 . v). The kernel
  does the pooling, K2, K3 and C = K3 . v in a first pass over the heads, the iteration on the host, and
  K1 . (ainv . C) in a second pass; the reference computes (K1 . ainv) . C. At the ideal instance a change of float
  format is the identity, a matrix-unit product into a zero accumulator is the host's product, the pooling's factor
  2^(-6) is the division by 64, and the two programs differ only in the grouping of the last triple product: the
  reals' associativity, available because the precondition makes every input entry real, which keeps every softmax
  entry a positive real and the iteration's one division a division by a positive real.

  The kernel's frames are the generated ones; its value is read off the generated frame run region by region
  (Proof/KRun, KReg0, KReg1, KHost, KValue), its stored values on the extended reals in Proof/KPay0, KPay1; the
  reference's run is the generated one, read in Proof/RefLow ... RefOut; the algebra is Proof/Real, NSReal, Bridge.
-/
import proofs.«411036_j71038759076379_3_alg».proof.Defs
import proofs.«411036_j71038759076379_3_alg».proof.Proof.Gen.Kernel
import proofs.«411036_j71038759076379_3_alg».proof.Proof.Gen.Kernel.Frame
import proofs.«411036_j71038759076379_3_alg».proof.Proof.Gen.KernelIdeal
import proofs.«411036_j71038759076379_3_alg».proof.Proof.Gen.KernelIdeal.Frame
import proofs.«411036_j71038759076379_3_alg».proof.Proof.Gen.ReferenceIdeal
import proofs.«411036_j71038759076379_3_alg».proof.Proof.Gen.ReferenceIdeal.Run
import proofs.«411036_j71038759076379_3_alg».proof.Proof.Gen.Pre_finite_inputs
import proofs.«411036_j71038759076379_3_alg».proof.Proof.KRun
import proofs.«411036_j71038759076379_3_alg».proof.Proof.KValue
import proofs.«411036_j71038759076379_3_alg».proof.Proof.RefOut
import proofs.«411036_j71038759076379_3_alg».proof.Proof.Bridge
import proofs.«411036_j71038759076379_3_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem Cert.Nys

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end, from memories agreeing on the three inputs, with the result at the specification's product: the
    kernel's in its own grouping, the reference's in the other, equal because the inputs are real. -/
theorem algebraic : Cert.algebraic_KernelIdeal_ReferenceIdeal := by
  intro m ρ m' ρ' hpre hagree
  refine ⟨fun c => outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (NS (F := Ideal) (K2arr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))), ?_, ?_⟩
  · refine (θ_run Cert.KernelIdeal.defs _ _).mono (fun r h c => ⟨(h c).1.trans ?_, (h c).2⟩)
      (Cert.KernelIdeal.Named.run_named (F := Ideal) m ρ)
    exact (Cert.KernelIdeal.Val.W3_result m ρ c).trans (Cert.KernelIdeal.Val.result_outK _ _ _)
  · refine (θ_run Cert.ReferenceIdeal.defs _ _).mono (fun r h c => ⟨(h c).1.trans ?_, (h c).2⟩)
      (Cert.ReferenceIdeal.Value.run (F := Ideal) m' ρ')
    obtain ⟨hQ, hK, hV⟩ := Cert.Fin.real_of_pre _ _ _ (hpre c)
    refine (Cert.ReferenceIdeal.RefVal.refOut_eq (launchContents m' c)).trans ?_
    refine (Cert.ReferenceIdeal.RefVal.refOut_eq_outR (launchContents m' c)).trans ?_
    show outR (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (NS (F := Ideal) (K2arr (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)))) = _
    rw [(hagree c).1, (hagree c).2.1, (hagree c).2.2]
    exact (outK_eq_outR _ _ _ hQ hK hV).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
